-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v429)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v429) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v466) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x300x80 : Shape := ⟨3, ![4, 300, 80]⟩
abbrev S4x300x256x256 : Shape := ⟨4, ![4, 300, 256, 256]⟩
abbrev S4x100 : Shape := ⟨2, ![4, 100]⟩
abbrev S4x100x256x256 : Shape := ⟨4, ![4, 100, 256, 256]⟩
abbrev S4x12544x2 : Shape := ⟨3, ![4, 12544, 2]⟩
abbrev S_ : Shape := ⟨0, ![]⟩

class Facts : Prop where
  bcast_S_S4x300x80 : S_.BroadcastsInDim S4x300x80 (![] : Fin 0 → Fin S4x300x80.rank)
  reducesTo_S4x300x80_S_d0_1_2 : S4x300x80.ReducesTo [0, 1, 2] S_
  h_S_ : 0 < S_.numel
  bcast_S_S4x300x256x256 : S_.BroadcastsInDim S4x300x256x256 (![] : Fin 0 → Fin S4x300x256x256.rank)
  reducesTo_S4x300x256x256_S_d0_1_2_3 : S4x300x256x256.ReducesTo [0, 1, 2, 3] S_
  bcast_S_S4x100x256x256 : S_.BroadcastsInDim S4x100x256x256 (![] : Fin 0 → Fin S4x100x256x256.rank)
  reducesTo_S4x100x256x256_S_d0_1_2_3 : S4x100x256x256.ReducesTo [0, 1, 2, 3] S_
  bcast_S_S4x12544x2 : S_.BroadcastsInDim S4x12544x2 (![] : Fin 0 → Fin S4x12544x2.rank)
  reducesTo_S4x12544x2_S_d0_1_2 : S4x12544x2.ReducesTo [0, 1, 2] S_

variable [Facts]

def fn_part1 {F : FTy → Type} [FloatOps F] (main_v13 : IVec S_ 1) (main_v16 : IVec S4x12544x2 1) : IVec S_ 1 :=
  let main_c_5 : IVec S_ 1 := constantI S_ 1 1#1
  let main_v17 : IVec S_ 1 := (fun x v => Host.reduce IntOp.andi x v reducesTo_S4x12544x2_S_d0_1_2 h_S_) main_v16 main_c_5
  let main_v18 : IVec S_ 1 := andi main_v13 main_v17
  main_v18

def fn {F : FTy → Type} [FloatOps F] (main_arg0 : FVec F S4x300x80 .f32) (main_arg1 : FVec F S4x300x256x256 .f32) (main_arg2 : IVec S4x100 32) (main_arg3 : FVec F S4x100x256x256 .f32) (main_arg4 : FVec F S4x12544x2 .f32) : IVec S_ 1 :=
  let main_v0 : FVec F S4x300x80 .f32 := Host.absf main_arg0
  let main_cst : FVec F S_ .f32 := constant S_ .f32 0x7F800000#32
  let main_v1 : FVec F S4x300x80 .f32 := broadcastInDim S4x300x80 ![] bcast_S_S4x300x80 main_cst
  let main_v2 : IVec S4x300x80 1 := cmpf .olt main_v0 main_v1
  let main_c : IVec S_ 1 := constantI S_ 1 1#1
  let main_v3 : IVec S_ 1 := (fun x v => Host.reduce IntOp.andi x v reducesTo_S4x300x80_S_d0_1_2 h_S_) main_v2 main_c
  let main_v4 : FVec F S4x300x256x256 .f32 := Host.absf main_arg1
  let main_cst_0 : FVec F S_ .f32 := constant S_ .f32 0x7F800000#32
  let main_v5 : FVec F S4x300x256x256 .f32 := broadcastInDim S4x300x256x256 ![] bcast_S_S4x300x256x256 main_cst_0
  let main_v6 : IVec S4x300x256x256 1 := cmpf .olt main_v4 main_v5
  let main_c_1 : IVec S_ 1 := constantI S_ 1 1#1
  let main_v7 : IVec S_ 1 := (fun x v => Host.reduce IntOp.andi x v reducesTo_S4x300x256x256_S_d0_1_2_3 h_S_) main_v6 main_c_1
  let main_v8 : IVec S_ 1 := andi main_v3 main_v7
  let main_v9 : FVec F S4x100x256x256 .f32 := Host.absf main_arg3
  let main_cst_2 : FVec F S_ .f32 := constant S_ .f32 0x7F800000#32
  let main_v10 : FVec F S4x100x256x256 .f32 := broadcastInDim S4x100x256x256 ![] bcast_S_S4x100x256x256 main_cst_2
  let main_v11 : IVec S4x100x256x256 1 := cmpf .olt main_v9 main_v10
  let main_c_3 : IVec S_ 1 := constantI S_ 1 1#1
  let main_v12 : IVec S_ 1 := (fun x v => Host.reduce IntOp.andi x v reducesTo_S4x100x256x256_S_d0_1_2_3 h_S_) main_v11 main_c_3
  let main_v13 : IVec S_ 1 := andi main_v8 main_v12
  let main_v14 : FVec F S4x12544x2 .f32 := Host.absf main_arg4
  let main_cst_4 : FVec F S_ .f32 := constant S_ .f32 0x7F800000#32
  let main_v15 : FVec F S4x12544x2 .f32 := broadcastInDim S4x12544x2 ![] bcast_S_S4x12544x2 main_cst_4
  let main_v16 : IVec S4x12544x2 1 := cmpf .olt main_v14 main_v15
  fn_part1 (F := F) main_v13 main_v16
-- ==== Kernel.lean ====
abbrev S4x300x80 : Shape := ⟨3, ![4, 300, 80]⟩
abbrev S4x300x256x256 : Shape := ⟨4, ![4, 300, 256, 256]⟩
abbrev S4x100 : Shape := ⟨2, ![4, 100]⟩
abbrev S4x100x256x256 : Shape := ⟨4, ![4, 100, 256, 256]⟩
abbrev S4x12544x2 : Shape := ⟨3, ![4, 12544, 2]⟩
abbrev S4x12544x1 : Shape := ⟨3, ![4, 12544, 1]⟩
abbrev S4x12544 : Shape := ⟨2, ![4, 12544]⟩
abbrev S_ : Shape := ⟨0, ![]⟩
abbrev S4x300x12544 : Shape := ⟨3, ![4, 300, 12544]⟩
abbrev S4x1x12544 : Shape := ⟨3, ![4, 1, 12544]⟩
abbrev S4x100x12544 : Shape := ⟨3, ![4, 100, 12544]⟩
abbrev S4x300x100 : Shape := ⟨3, ![4, 300, 100]⟩
abbrev S1x300x1792 : Shape := ⟨3, ![1, 300, 1792]⟩
abbrev S1x100x1792 : Shape := ⟨3, ![1, 100, 1792]⟩
abbrev S1x300x100 : Shape := ⟨3, ![1, 300, 100]⟩
abbrev S300x100 : Shape := ⟨2, ![300, 100]⟩
abbrev S300x1 : Shape := ⟨2, ![300, 1]⟩
abbrev S1x100 : Shape := ⟨2, ![1, 100]⟩
abbrev S300x1792 : Shape := ⟨2, ![300, 1792]⟩
abbrev S100x1792 : Shape := ⟨2, ![100, 1792]⟩
abbrev S300 : Shape := ⟨1, ![300]⟩
abbrev S1x1792 : Shape := ⟨2, ![1, 1792]⟩
abbrev S4x100x1 : Shape := ⟨3, ![4, 100, 1]⟩

abbrev nBuf : Space → Nat
  | .hbm => 650
  | .vmem => 12
  | .smem => 0
  | _ => 0

abbrev hbmTy0_0 (i : Nat) : BufTy := match i % 128 with
  | 0 => ⟨S4x300x80, .f32⟩
  | 1 => ⟨S4x300x256x256, .f32⟩
  | 2 => ⟨S4x100, .i32⟩
  | 3 => ⟨S4x100x256x256, .f32⟩
  | 4 => ⟨S4x12544x2, .f32⟩
  | 5 => ⟨S4x12544x1, .f32⟩
  | 6 => ⟨S4x12544, .f32⟩
  | 7 => ⟨S_, .f32⟩
  | 8 => ⟨S4x12544, .f32⟩
  | 9 => ⟨S4x12544, .f32⟩
  | 10 => ⟨S_, .f32⟩
  | 11 => ⟨S4x12544, .f32⟩
  | 12 => ⟨S4x12544, .f32⟩
  | 13 => ⟨S4x12544x1, .f32⟩
  | 14 => ⟨S4x12544, .f32⟩
  | 15 => ⟨S_, .f32⟩
  | 16 => ⟨S4x12544, .f32⟩
  | 17 => ⟨S4x12544, .f32⟩
  | 18 => ⟨S_, .f32⟩
  | 19 => ⟨S4x12544, .f32⟩
  | 20 => ⟨S4x12544, .f32⟩
  | 21 => ⟨S4x12544, .f32⟩
  | 22 => ⟨S4x12544, .f32⟩
  | 23 => ⟨S4x12544, .f32⟩
  | 24 => ⟨S4x12544, .f32⟩
  | 25 => ⟨S_, .i32⟩
  | 26 => ⟨S_, .i32⟩
  | 27 => ⟨S_, .f32⟩
  | 28 => ⟨S4x12544, .f32⟩
  | 29 => ⟨S4x12544, .f32⟩
  | 30 => ⟨S_, .f32⟩
  | 31 => ⟨S4x12544, .f32⟩
  | 32 => ⟨S4x12544, .f32⟩
  | 33 => ⟨S4x12544, .i32⟩
  | 34 => ⟨S_, .i32⟩
  | 35 => ⟨S_, .i32⟩
  | 36 => ⟨S_, .f32⟩
  | 37 => ⟨S4x12544, .f32⟩
  | 38 => ⟨S4x12544, .f32⟩
  | 39 => ⟨S_, .f32⟩
  | 40 => ⟨S4x12544, .f32⟩
  | 41 => ⟨S4x12544, .f32⟩
  | 42 => ⟨S4x12544, .i32⟩
  | 43 => ⟨S_, .f32⟩
  | 44 => ⟨S4x12544, .f32⟩
  | 45 => ⟨S4x12544, .i1⟩
  | 46 => ⟨S_, .f32⟩
  | 47 => ⟨S4x12544, .f32⟩
  | 48 => ⟨S4x12544, .i1⟩
  | 49 => ⟨S4x12544, .i1⟩
  | 50 => ⟨S_, .f32⟩
  | 51 => ⟨S4x12544, .f32⟩
  | 52 => ⟨S4x12544, .i1⟩
  | 53 => ⟨S4x12544, .i1⟩
  | 54 => ⟨S_, .f32⟩
  | 55 => ⟨S4x12544, .f32⟩
  | 56 => ⟨S4x12544, .i1⟩
  | 57 => ⟨S4x12544, .i1⟩
  | 58 => ⟨S4x12544, .f32⟩
  | 59 => ⟨S_, .i32⟩
  | 60 => ⟨S4x12544, .i32⟩
  | 61 => ⟨S4x12544, .i1⟩
  | 62 => ⟨S_, .i32⟩
  | 63 => ⟨S4x12544, .i32⟩
  | 64 => ⟨S4x12544, .i32⟩
  | 65 => ⟨S4x12544, .i32⟩
  | 66 => ⟨S_, .i32⟩
  | 67 => ⟨S4x12544, .i32⟩
  | 68 => ⟨S4x12544, .i1⟩
  | 69 => ⟨S_, .i32⟩
  | 70 => ⟨S4x12544, .i32⟩
  | 71 => ⟨S4x12544, .i32⟩
  | 72 => ⟨S4x12544, .i32⟩
  | 73 => ⟨S4x12544x1, .i32⟩
  | 74 => ⟨S4x12544x1, .i32⟩
  | 75 => ⟨S4x12544x2, .i32⟩
  | 76 => ⟨S4x300x12544, .f32⟩
  | 77 => ⟨S4x1x12544, .f32⟩
  | 78 => ⟨S4x300x12544, .f32⟩
  | 79 => ⟨S4x300x12544, .f32⟩
  | 80 => ⟨S_, .f32⟩
  | 81 => ⟨S4x12544, .f32⟩
  | 82 => ⟨S4x12544, .f32⟩
  | 83 => ⟨S_, .i32⟩
  | 84 => ⟨S_, .i32⟩
  | 85 => ⟨S_, .f32⟩
  | 86 => ⟨S4x12544, .f32⟩
  | 87 => ⟨S4x12544, .f32⟩
  | 88 => ⟨S_, .f32⟩
  | 89 => ⟨S4x12544, .f32⟩
  | 90 => ⟨S4x12544, .f32⟩
  | 91 => ⟨S4x12544, .i32⟩
  | 92 => ⟨S_, .i32⟩
  | 93 => ⟨S_, .i32⟩
  | 94 => ⟨S_, .f32⟩
  | 95 => ⟨S4x12544, .f32⟩
  | 96 => ⟨S4x12544, .f32⟩
  | 97 => ⟨S_, .f32⟩
  | 98 => ⟨S4x12544, .f32⟩
  | 99 => ⟨S4x12544, .f32⟩
  | 100 => ⟨S4x12544, .i32⟩
  | 101 => ⟨S_, .f32⟩
  | 102 => ⟨S4x12544, .f32⟩
  | 103 => ⟨S4x12544, .i1⟩
  | 104 => ⟨S_, .f32⟩
  | 105 => ⟨S4x12544, .f32⟩
  | 106 => ⟨S4x12544, .i1⟩
  | 107 => ⟨S4x12544, .i1⟩
  | 108 => ⟨S_, .f32⟩
  | 109 => ⟨S4x12544, .f32⟩
  | 110 => ⟨S4x12544, .i1⟩
  | 111 => ⟨S4x12544, .i1⟩
  | 112 => ⟨S_, .f32⟩
  | 113 => ⟨S4x12544, .f32⟩
  | 114 => ⟨S4x12544, .i1⟩
  | 115 => ⟨S4x12544, .i1⟩
  | 116 => ⟨S4x12544, .f32⟩
  | 117 => ⟨S_, .i32⟩
  | 118 => ⟨S4x12544, .i32⟩
  | 119 => ⟨S4x12544, .i1⟩
  | 120 => ⟨S_, .i32⟩
  | 121 => ⟨S4x12544, .i32⟩
  | 122 => ⟨S4x12544, .i32⟩
  | 123 => ⟨S4x12544, .i32⟩
  | 124 => ⟨S_, .i32⟩
  | 125 => ⟨S4x12544, .i32⟩
  | 126 => ⟨S4x12544, .i1⟩
  | 127 => ⟨S_, .i32⟩
  | _ => ⟨S4x300x80, .f32⟩

abbrev hbmTy0_1 (i : Nat) : BufTy := match i % 128 with
  | 0 => ⟨S4x12544, .i32⟩
  | 1 => ⟨S4x12544, .i32⟩
  | 2 => ⟨S4x12544, .i32⟩
  | 3 => ⟨S4x12544x1, .i32⟩
  | 4 => ⟨S4x12544x1, .i32⟩
  | 5 => ⟨S4x12544x2, .i32⟩
  | 6 => ⟨S4x300x12544, .f32⟩
  | 7 => ⟨S4x1x12544, .f32⟩
  | 8 => ⟨S4x300x12544, .f32⟩
  | 9 => ⟨S4x300x12544, .f32⟩
  | 10 => ⟨S_, .f32⟩
  | 11 => ⟨S4x12544, .f32⟩
  | 12 => ⟨S4x12544, .f32⟩
  | 13 => ⟨S_, .i32⟩
  | 14 => ⟨S_, .i32⟩
  | 15 => ⟨S_, .f32⟩
  | 16 => ⟨S4x12544, .f32⟩
  | 17 => ⟨S4x12544, .f32⟩
  | 18 => ⟨S_, .f32⟩
  | 19 => ⟨S4x12544, .f32⟩
  | 20 => ⟨S4x12544, .f32⟩
  | 21 => ⟨S4x12544, .i32⟩
  | 22 => ⟨S_, .i32⟩
  | 23 => ⟨S_, .i32⟩
  | 24 => ⟨S_, .f32⟩
  | 25 => ⟨S4x12544, .f32⟩
  | 26 => ⟨S4x12544, .f32⟩
  | 27 => ⟨S_, .f32⟩
  | 28 => ⟨S4x12544, .f32⟩
  | 29 => ⟨S4x12544, .f32⟩
  | 30 => ⟨S4x12544, .i32⟩
  | 31 => ⟨S_, .f32⟩
  | 32 => ⟨S4x12544, .f32⟩
  | 33 => ⟨S4x12544, .i1⟩
  | 34 => ⟨S_, .f32⟩
  | 35 => ⟨S4x12544, .f32⟩
  | 36 => ⟨S4x12544, .i1⟩
  | 37 => ⟨S4x12544, .i1⟩
  | 38 => ⟨S_, .f32⟩
  | 39 => ⟨S4x12544, .f32⟩
  | 40 => ⟨S4x12544, .i1⟩
  | 41 => ⟨S4x12544, .i1⟩
  | 42 => ⟨S_, .f32⟩
  | 43 => ⟨S4x12544, .f32⟩
  | 44 => ⟨S4x12544, .i1⟩
  | 45 => ⟨S4x12544, .i1⟩
  | 46 => ⟨S4x12544, .f32⟩
  | 47 => ⟨S_, .i32⟩
  | 48 => ⟨S4x12544, .i32⟩
  | 49 => ⟨S4x12544, .i1⟩
  | 50 => ⟨S_, .i32⟩
  | 51 => ⟨S4x12544, .i32⟩
  | 52 => ⟨S4x12544, .i32⟩
  | 53 => ⟨S4x12544, .i32⟩
  | 54 => ⟨S_, .i32⟩
  | 55 => ⟨S4x12544, .i32⟩
  | 56 => ⟨S4x12544, .i1⟩
  | 57 => ⟨S_, .i32⟩
  | 58 => ⟨S4x12544, .i32⟩
  | 59 => ⟨S4x12544, .i32⟩
  | 60 => ⟨S4x12544, .i32⟩
  | 61 => ⟨S4x12544x1, .i32⟩
  | 62 => ⟨S4x12544x1, .i32⟩
  | 63 => ⟨S4x12544x2, .i32⟩
  | 64 => ⟨S4x300x12544, .f32⟩
  | 65 => ⟨S4x1x12544, .f32⟩
  | 66 => ⟨S4x300x12544, .f32⟩
  | 67 => ⟨S4x300x12544, .f32⟩
  | 68 => ⟨S_, .f32⟩
  | 69 => ⟨S4x12544, .f32⟩
  | 70 => ⟨S4x12544, .f32⟩
  | 71 => ⟨S_, .f32⟩
  | 72 => ⟨S4x12544, .f32⟩
  | 73 => ⟨S4x12544, .f32⟩
  | 74 => ⟨S_, .i32⟩
  | 75 => ⟨S_, .i32⟩
  | 76 => ⟨S_, .f32⟩
  | 77 => ⟨S4x12544, .f32⟩
  | 78 => ⟨S4x12544, .f32⟩
  | 79 => ⟨S_, .f32⟩
  | 80 => ⟨S4x12544, .f32⟩
  | 81 => ⟨S4x12544, .f32⟩
  | 82 => ⟨S4x12544, .i32⟩
  | 83 => ⟨S_, .i32⟩
  | 84 => ⟨S_, .i32⟩
  | 85 => ⟨S_, .f32⟩
  | 86 => ⟨S4x12544, .f32⟩
  | 87 => ⟨S4x12544, .f32⟩
  | 88 => ⟨S_, .f32⟩
  | 89 => ⟨S4x12544, .f32⟩
  | 90 => ⟨S4x12544, .f32⟩
  | 91 => ⟨S4x12544, .i32⟩
  | 92 => ⟨S_, .f32⟩
  | 93 => ⟨S4x12544, .f32⟩
  | 94 => ⟨S4x12544, .i1⟩
  | 95 => ⟨S_, .f32⟩
  | 96 => ⟨S4x12544, .f32⟩
  | 97 => ⟨S4x12544, .i1⟩
  | 98 => ⟨S4x12544, .i1⟩
  | 99 => ⟨S_, .f32⟩
  | 100 => ⟨S4x12544, .f32⟩
  | 101 => ⟨S4x12544, .i1⟩
  | 102 => ⟨S4x12544, .i1⟩
  | 103 => ⟨S_, .f32⟩
  | 104 => ⟨S4x12544, .f32⟩
  | 105 => ⟨S4x12544, .i1⟩
  | 106 => ⟨S4x12544, .i1⟩
  | 107 => ⟨S4x12544, .f32⟩
  | 108 => ⟨S_, .i32⟩
  | 109 => ⟨S4x12544, .i32⟩
  | 110 => ⟨S4x12544, .i1⟩
  | 111 => ⟨S_, .i32⟩
  | 112 => ⟨S4x12544, .i32⟩
  | 113 => ⟨S4x12544, .i32⟩
  | 114 => ⟨S4x12544, .i32⟩
  | 115 => ⟨S_, .i32⟩
  | 116 => ⟨S4x12544, .i32⟩
  | 117 => ⟨S4x12544, .i1⟩
  | 118 => ⟨S_, .i32⟩
  | 119 => ⟨S4x12544, .i32⟩
  | 120 => ⟨S4x12544, .i32⟩
  | 121 => ⟨S4x12544, .i32⟩
  | 122 => ⟨S4x12544x1, .i32⟩
  | 123 => ⟨S4x12544x1, .i32⟩
  | 124 => ⟨S4x12544x2, .i32⟩
  | 125 => ⟨S4x300x12544, .f32⟩
  | 126 => ⟨S4x1x12544, .f32⟩
  | 127 => ⟨S4x300x12544, .f32⟩
  | _ => ⟨S4x300x80, .f32⟩

abbrev hbmTy0_2 (i : Nat) : BufTy := match i % 128 with
  | 0 => ⟨S4x300x12544, .f32⟩
  | 1 => ⟨S_, .f32⟩
  | 2 => ⟨S4x12544, .f32⟩
  | 3 => ⟨S4x12544, .f32⟩
  | 4 => ⟨S4x1x12544, .f32⟩
  | 5 => ⟨S4x300x12544, .f32⟩
  | 6 => ⟨S4x300x12544, .f32⟩
  | 7 => ⟨S_, .f32⟩
  | 8 => ⟨S4x12544, .f32⟩
  | 9 => ⟨S4x12544, .f32⟩
  | 10 => ⟨S4x1x12544, .f32⟩
  | 11 => ⟨S4x300x12544, .f32⟩
  | 12 => ⟨S4x300x12544, .f32⟩
  | 13 => ⟨S4x1x12544, .f32⟩
  | 14 => ⟨S4x300x12544, .f32⟩
  | 15 => ⟨S4x300x12544, .f32⟩
  | 16 => ⟨S_, .f32⟩
  | 17 => ⟨S4x12544, .f32⟩
  | 18 => ⟨S4x12544, .f32⟩
  | 19 => ⟨S4x1x12544, .f32⟩
  | 20 => ⟨S4x300x12544, .f32⟩
  | 21 => ⟨S4x300x12544, .f32⟩
  | 22 => ⟨S4x300x12544, .f32⟩
  | 23 => ⟨S_, .f32⟩
  | 24 => ⟨S4x12544, .f32⟩
  | 25 => ⟨S4x12544, .f32⟩
  | 26 => ⟨S4x1x12544, .f32⟩
  | 27 => ⟨S4x300x12544, .f32⟩
  | 28 => ⟨S4x300x12544, .f32⟩
  | 29 => ⟨S4x1x12544, .f32⟩
  | 30 => ⟨S4x300x12544, .f32⟩
  | 31 => ⟨S4x300x12544, .f32⟩
  | 32 => ⟨S4x300x12544, .f32⟩
  | 33 => ⟨S4x1x12544, .f32⟩
  | 34 => ⟨S4x300x12544, .f32⟩
  | 35 => ⟨S4x300x12544, .f32⟩
  | 36 => ⟨S4x1x12544, .f32⟩
  | 37 => ⟨S4x300x12544, .f32⟩
  | 38 => ⟨S4x300x12544, .f32⟩
  | 39 => ⟨S4x300x12544, .f32⟩
  | 40 => ⟨S4x12544x1, .f32⟩
  | 41 => ⟨S4x12544, .f32⟩
  | 42 => ⟨S_, .f32⟩
  | 43 => ⟨S4x12544, .f32⟩
  | 44 => ⟨S4x12544, .f32⟩
  | 45 => ⟨S_, .f32⟩
  | 46 => ⟨S4x12544, .f32⟩
  | 47 => ⟨S4x12544, .f32⟩
  | 48 => ⟨S4x12544x1, .f32⟩
  | 49 => ⟨S4x12544, .f32⟩
  | 50 => ⟨S_, .f32⟩
  | 51 => ⟨S4x12544, .f32⟩
  | 52 => ⟨S4x12544, .f32⟩
  | 53 => ⟨S_, .f32⟩
  | 54 => ⟨S4x12544, .f32⟩
  | 55 => ⟨S4x12544, .f32⟩
  | 56 => ⟨S4x12544, .f32⟩
  | 57 => ⟨S4x12544, .f32⟩
  | 58 => ⟨S4x12544, .f32⟩
  | 59 => ⟨S4x12544, .f32⟩
  | 60 => ⟨S_, .i32⟩
  | 61 => ⟨S_, .i32⟩
  | 62 => ⟨S_, .f32⟩
  | 63 => ⟨S4x12544, .f32⟩
  | 64 => ⟨S4x12544, .f32⟩
  | 65 => ⟨S_, .f32⟩
  | 66 => ⟨S4x12544, .f32⟩
  | 67 => ⟨S4x12544, .f32⟩
  | 68 => ⟨S4x12544, .i32⟩
  | 69 => ⟨S_, .i32⟩
  | 70 => ⟨S_, .i32⟩
  | 71 => ⟨S_, .f32⟩
  | 72 => ⟨S4x12544, .f32⟩
  | 73 => ⟨S4x12544, .f32⟩
  | 74 => ⟨S_, .f32⟩
  | 75 => ⟨S4x12544, .f32⟩
  | 76 => ⟨S4x12544, .f32⟩
  | 77 => ⟨S4x12544, .i32⟩
  | 78 => ⟨S_, .f32⟩
  | 79 => ⟨S4x12544, .f32⟩
  | 80 => ⟨S4x12544, .i1⟩
  | 81 => ⟨S_, .f32⟩
  | 82 => ⟨S4x12544, .f32⟩
  | 83 => ⟨S4x12544, .i1⟩
  | 84 => ⟨S4x12544, .i1⟩
  | 85 => ⟨S_, .f32⟩
  | 86 => ⟨S4x12544, .f32⟩
  | 87 => ⟨S4x12544, .i1⟩
  | 88 => ⟨S4x12544, .i1⟩
  | 89 => ⟨S_, .f32⟩
  | 90 => ⟨S4x12544, .f32⟩
  | 91 => ⟨S4x12544, .i1⟩
  | 92 => ⟨S4x12544, .i1⟩
  | 93 => ⟨S4x12544, .f32⟩
  | 94 => ⟨S_, .i32⟩
  | 95 => ⟨S4x12544, .i32⟩
  | 96 => ⟨S4x12544, .i1⟩
  | 97 => ⟨S_, .i32⟩
  | 98 => ⟨S4x12544, .i32⟩
  | 99 => ⟨S4x12544, .i32⟩
  | 100 => ⟨S4x12544, .i32⟩
  | 101 => ⟨S_, .i32⟩
  | 102 => ⟨S4x12544, .i32⟩
  | 103 => ⟨S4x12544, .i1⟩
  | 104 => ⟨S_, .i32⟩
  | 105 => ⟨S4x12544, .i32⟩
  | 106 => ⟨S4x12544, .i32⟩
  | 107 => ⟨S4x12544, .i32⟩
  | 108 => ⟨S4x12544x1, .i32⟩
  | 109 => ⟨S4x12544x1, .i32⟩
  | 110 => ⟨S4x12544x2, .i32⟩
  | 111 => ⟨S4x100x12544, .f32⟩
  | 112 => ⟨S4x1x12544, .f32⟩
  | 113 => ⟨S4x100x12544, .f32⟩
  | 114 => ⟨S4x100x12544, .f32⟩
  | 115 => ⟨S_, .f32⟩
  | 116 => ⟨S4x12544, .f32⟩
  | 117 => ⟨S4x12544, .f32⟩
  | 118 => ⟨S_, .i32⟩
  | 119 => ⟨S_, .i32⟩
  | 120 => ⟨S_, .f32⟩
  | 121 => ⟨S4x12544, .f32⟩
  | 122 => ⟨S4x12544, .f32⟩
  | 123 => ⟨S_, .f32⟩
  | 124 => ⟨S4x12544, .f32⟩
  | 125 => ⟨S4x12544, .f32⟩
  | 126 => ⟨S4x12544, .i32⟩
  | 127 => ⟨S_, .i32⟩
  | _ => ⟨S4x300x80, .f32⟩

abbrev hbmTy0_3 (i : Nat) : BufTy := match i % 128 with
  | 0 => ⟨S_, .i32⟩
  | 1 => ⟨S_, .f32⟩
  | 2 => ⟨S4x12544, .f32⟩
  | 3 => ⟨S4x12544, .f32⟩
  | 4 => ⟨S_, .f32⟩
  | 5 => ⟨S4x12544, .f32⟩
  | 6 => ⟨S4x12544, .f32⟩
  | 7 => ⟨S4x12544, .i32⟩
  | 8 => ⟨S_, .f32⟩
  | 9 => ⟨S4x12544, .f32⟩
  | 10 => ⟨S4x12544, .i1⟩
  | 11 => ⟨S_, .f32⟩
  | 12 => ⟨S4x12544, .f32⟩
  | 13 => ⟨S4x12544, .i1⟩
  | 14 => ⟨S4x12544, .i1⟩
  | 15 => ⟨S_, .f32⟩
  | 16 => ⟨S4x12544, .f32⟩
  | 17 => ⟨S4x12544, .i1⟩
  | 18 => ⟨S4x12544, .i1⟩
  | 19 => ⟨S_, .f32⟩
  | 20 => ⟨S4x12544, .f32⟩
  | 21 => ⟨S4x12544, .i1⟩
  | 22 => ⟨S4x12544, .i1⟩
  | 23 => ⟨S4x12544, .f32⟩
  | 24 => ⟨S_, .i32⟩
  | 25 => ⟨S4x12544, .i32⟩
  | 26 => ⟨S4x12544, .i1⟩
  | 27 => ⟨S_, .i32⟩
  | 28 => ⟨S4x12544, .i32⟩
  | 29 => ⟨S4x12544, .i32⟩
  | 30 => ⟨S4x12544, .i32⟩
  | 31 => ⟨S_, .i32⟩
  | 32 => ⟨S4x12544, .i32⟩
  | 33 => ⟨S4x12544, .i1⟩
  | 34 => ⟨S_, .i32⟩
  | 35 => ⟨S4x12544, .i32⟩
  | 36 => ⟨S4x12544, .i32⟩
  | 37 => ⟨S4x12544, .i32⟩
  | 38 => ⟨S4x12544x1, .i32⟩
  | 39 => ⟨S4x12544x1, .i32⟩
  | 40 => ⟨S4x12544x2, .i32⟩
  | 41 => ⟨S4x100x12544, .f32⟩
  | 42 => ⟨S4x1x12544, .f32⟩
  | 43 => ⟨S4x100x12544, .f32⟩
  | 44 => ⟨S4x100x12544, .f32⟩
  | 45 => ⟨S_, .f32⟩
  | 46 => ⟨S4x12544, .f32⟩
  | 47 => ⟨S4x12544, .f32⟩
  | 48 => ⟨S_, .i32⟩
  | 49 => ⟨S_, .i32⟩
  | 50 => ⟨S_, .f32⟩
  | 51 => ⟨S4x12544, .f32⟩
  | 52 => ⟨S4x12544, .f32⟩
  | 53 => ⟨S_, .f32⟩
  | 54 => ⟨S4x12544, .f32⟩
  | 55 => ⟨S4x12544, .f32⟩
  | 56 => ⟨S4x12544, .i32⟩
  | 57 => ⟨S_, .i32⟩
  | 58 => ⟨S_, .i32⟩
  | 59 => ⟨S_, .f32⟩
  | 60 => ⟨S4x12544, .f32⟩
  | 61 => ⟨S4x12544, .f32⟩
  | 62 => ⟨S_, .f32⟩
  | 63 => ⟨S4x12544, .f32⟩
  | 64 => ⟨S4x12544, .f32⟩
  | 65 => ⟨S4x12544, .i32⟩
  | 66 => ⟨S_, .f32⟩
  | 67 => ⟨S4x12544, .f32⟩
  | 68 => ⟨S4x12544, .i1⟩
  | 69 => ⟨S_, .f32⟩
  | 70 => ⟨S4x12544, .f32⟩
  | 71 => ⟨S4x12544, .i1⟩
  | 72 => ⟨S4x12544, .i1⟩
  | 73 => ⟨S_, .f32⟩
  | 74 => ⟨S4x12544, .f32⟩
  | 75 => ⟨S4x12544, .i1⟩
  | 76 => ⟨S4x12544, .i1⟩
  | 77 => ⟨S_, .f32⟩
  | 78 => ⟨S4x12544, .f32⟩
  | 79 => ⟨S4x12544, .i1⟩
  | 80 => ⟨S4x12544, .i1⟩
  | 81 => ⟨S4x12544, .f32⟩
  | 82 => ⟨S_, .i32⟩
  | 83 => ⟨S4x12544, .i32⟩
  | 84 => ⟨S4x12544, .i1⟩
  | 85 => ⟨S_, .i32⟩
  | 86 => ⟨S4x12544, .i32⟩
  | 87 => ⟨S4x12544, .i32⟩
  | 88 => ⟨S4x12544, .i32⟩
  | 89 => ⟨S_, .i32⟩
  | 90 => ⟨S4x12544, .i32⟩
  | 91 => ⟨S4x12544, .i1⟩
  | 92 => ⟨S_, .i32⟩
  | 93 => ⟨S4x12544, .i32⟩
  | 94 => ⟨S4x12544, .i32⟩
  | 95 => ⟨S4x12544, .i32⟩
  | 96 => ⟨S4x12544x1, .i32⟩
  | 97 => ⟨S4x12544x1, .i32⟩
  | 98 => ⟨S4x12544x2, .i32⟩
  | 99 => ⟨S4x100x12544, .f32⟩
  | 100 => ⟨S4x1x12544, .f32⟩
  | 101 => ⟨S4x100x12544, .f32⟩
  | 102 => ⟨S4x100x12544, .f32⟩
  | 103 => ⟨S_, .f32⟩
  | 104 => ⟨S4x12544, .f32⟩
  | 105 => ⟨S4x12544, .f32⟩
  | 106 => ⟨S_, .f32⟩
  | 107 => ⟨S4x12544, .f32⟩
  | 108 => ⟨S4x12544, .f32⟩
  | 109 => ⟨S_, .i32⟩
  | 110 => ⟨S_, .i32⟩
  | 111 => ⟨S_, .f32⟩
  | 112 => ⟨S4x12544, .f32⟩
  | 113 => ⟨S4x12544, .f32⟩
  | 114 => ⟨S_, .f32⟩
  | 115 => ⟨S4x12544, .f32⟩
  | 116 => ⟨S4x12544, .f32⟩
  | 117 => ⟨S4x12544, .i32⟩
  | 118 => ⟨S_, .i32⟩
  | 119 => ⟨S_, .i32⟩
  | 120 => ⟨S_, .f32⟩
  | 121 => ⟨S4x12544, .f32⟩
  | 122 => ⟨S4x12544, .f32⟩
  | 123 => ⟨S_, .f32⟩
  | 124 => ⟨S4x12544, .f32⟩
  | 125 => ⟨S4x12544, .f32⟩
  | 126 => ⟨S4x12544, .i32⟩
  | 127 => ⟨S_, .f32⟩
  | _ => ⟨S4x300x80, .f32⟩

abbrev hbmTy0_4 (i : Nat) : BufTy := match i % 128 with
  | 0 => ⟨S4x12544, .f32⟩
  | 1 => ⟨S4x12544, .i1⟩
  | 2 => ⟨S_, .f32⟩
  | 3 => ⟨S4x12544, .f32⟩
  | 4 => ⟨S4x12544, .i1⟩
  | 5 => ⟨S4x12544, .i1⟩
  | 6 => ⟨S_, .f32⟩
  | 7 => ⟨S4x12544, .f32⟩
  | 8 => ⟨S4x12544, .i1⟩
  | 9 => ⟨S4x12544, .i1⟩
  | 10 => ⟨S_, .f32⟩
  | 11 => ⟨S4x12544, .f32⟩
  | 12 => ⟨S4x12544, .i1⟩
  | 13 => ⟨S4x12544, .i1⟩
  | 14 => ⟨S4x12544, .f32⟩
  | 15 => ⟨S_, .i32⟩
  | 16 => ⟨S4x12544, .i32⟩
  | 17 => ⟨S4x12544, .i1⟩
  | 18 => ⟨S_, .i32⟩
  | 19 => ⟨S4x12544, .i32⟩
  | 20 => ⟨S4x12544, .i32⟩
  | 21 => ⟨S4x12544, .i32⟩
  | 22 => ⟨S_, .i32⟩
  | 23 => ⟨S4x12544, .i32⟩
  | 24 => ⟨S4x12544, .i1⟩
  | 25 => ⟨S_, .i32⟩
  | 26 => ⟨S4x12544, .i32⟩
  | 27 => ⟨S4x12544, .i32⟩
  | 28 => ⟨S4x12544, .i32⟩
  | 29 => ⟨S4x12544x1, .i32⟩
  | 30 => ⟨S4x12544x1, .i32⟩
  | 31 => ⟨S4x12544x2, .i32⟩
  | 32 => ⟨S4x100x12544, .f32⟩
  | 33 => ⟨S4x1x12544, .f32⟩
  | 34 => ⟨S4x100x12544, .f32⟩
  | 35 => ⟨S4x100x12544, .f32⟩
  | 36 => ⟨S_, .f32⟩
  | 37 => ⟨S4x12544, .f32⟩
  | 38 => ⟨S4x12544, .f32⟩
  | 39 => ⟨S4x1x12544, .f32⟩
  | 40 => ⟨S4x100x12544, .f32⟩
  | 41 => ⟨S4x100x12544, .f32⟩
  | 42 => ⟨S_, .f32⟩
  | 43 => ⟨S4x12544, .f32⟩
  | 44 => ⟨S4x12544, .f32⟩
  | 45 => ⟨S4x1x12544, .f32⟩
  | 46 => ⟨S4x100x12544, .f32⟩
  | 47 => ⟨S4x100x12544, .f32⟩
  | 48 => ⟨S4x1x12544, .f32⟩
  | 49 => ⟨S4x100x12544, .f32⟩
  | 50 => ⟨S4x100x12544, .f32⟩
  | 51 => ⟨S_, .f32⟩
  | 52 => ⟨S4x12544, .f32⟩
  | 53 => ⟨S4x12544, .f32⟩
  | 54 => ⟨S4x1x12544, .f32⟩
  | 55 => ⟨S4x100x12544, .f32⟩
  | 56 => ⟨S4x100x12544, .f32⟩
  | 57 => ⟨S4x100x12544, .f32⟩
  | 58 => ⟨S_, .f32⟩
  | 59 => ⟨S4x12544, .f32⟩
  | 60 => ⟨S4x12544, .f32⟩
  | 61 => ⟨S4x1x12544, .f32⟩
  | 62 => ⟨S4x100x12544, .f32⟩
  | 63 => ⟨S4x100x12544, .f32⟩
  | 64 => ⟨S4x1x12544, .f32⟩
  | 65 => ⟨S4x100x12544, .f32⟩
  | 66 => ⟨S4x100x12544, .f32⟩
  | 67 => ⟨S4x100x12544, .f32⟩
  | 68 => ⟨S4x1x12544, .f32⟩
  | 69 => ⟨S4x100x12544, .f32⟩
  | 70 => ⟨S4x100x12544, .f32⟩
  | 71 => ⟨S4x1x12544, .f32⟩
  | 72 => ⟨S4x100x12544, .f32⟩
  | 73 => ⟨S4x100x12544, .f32⟩
  | 74 => ⟨S4x100x12544, .f32⟩
  | 75 => ⟨S4x300x100, .f32⟩
  | 76 => ⟨S4x300x80, .f32⟩
  | 77 => ⟨S4x300x80, .f32⟩
  | 78 => ⟨S_, .f32⟩
  | 79 => ⟨S4x300x80, .f32⟩
  | 80 => ⟨S4x300x80, .f32⟩
  | 81 => ⟨S_, .f32⟩
  | 82 => ⟨S4x300x80, .f32⟩
  | 83 => ⟨S4x300x80, .f32⟩
  | 84 => ⟨S_, .f32⟩
  | 85 => ⟨S4x300x80, .f32⟩
  | 86 => ⟨S4x300x80, .f32⟩
  | 87 => ⟨S_, .f32⟩
  | 88 => ⟨S4x300x80, .f32⟩
  | 89 => ⟨S4x300x80, .f32⟩
  | 90 => ⟨S_, .f32⟩
  | 91 => ⟨S4x300x80, .f32⟩
  | 92 => ⟨S4x300x80, .f32⟩
  | 93 => ⟨S_, .f32⟩
  | 94 => ⟨S4x300x80, .f32⟩
  | 95 => ⟨S4x300x80, .f32⟩
  | 96 => ⟨S4x300x80, .f32⟩
  | 97 => ⟨S4x300x80, .f32⟩
  | 98 => ⟨S4x300x80, .f32⟩
  | 99 => ⟨S_, .f32⟩
  | 100 => ⟨S4x300x80, .f32⟩
  | 101 => ⟨S4x300x80, .f32⟩
  | 102 => ⟨S_, .f32⟩
  | 103 => ⟨S4x300x80, .f32⟩
  | 104 => ⟨S4x300x80, .f32⟩
  | 105 => ⟨S_, .f32⟩
  | 106 => ⟨S4x300x80, .f32⟩
  | 107 => ⟨S4x300x80, .f32⟩
  | 108 => ⟨S_, .f32⟩
  | 109 => ⟨S4x300x80, .f32⟩
  | 110 => ⟨S4x300x80, .f32⟩
  | 111 => ⟨S4x300x80, .f32⟩
  | 112 => ⟨S4x300x80, .f32⟩
  | 113 => ⟨S4x300x80, .f32⟩
  | 114 => ⟨S_, .i32⟩
  | 115 => ⟨S4x100, .i32⟩
  | 116 => ⟨S4x100, .i1⟩
  | 117 => ⟨S_, .i32⟩
  | 118 => ⟨S4x100, .i32⟩
  | 119 => ⟨S4x100, .i32⟩
  | 120 => ⟨S4x100, .i32⟩
  | 121 => ⟨S4x100x1, .i32⟩
  | 122 => ⟨S4x300x100, .f32⟩
  | 123 => ⟨S_, .i32⟩
  | 124 => ⟨S4x100, .i32⟩
  | 125 => ⟨S4x100, .i1⟩
  | 126 => ⟨S_, .i32⟩
  | 127 => ⟨S4x100, .i32⟩
  | _ => ⟨S4x300x80, .f32⟩

abbrev hbmTy0_5 (i : Nat) : BufTy := match i % 128 with
  | 0 => ⟨S4x100, .i32⟩
  | 1 => ⟨S4x100, .i32⟩
  | 2 => ⟨S4x100x1, .i32⟩
  | 3 => ⟨S4x300x100, .f32⟩
  | 4 => ⟨S4x300x100, .f32⟩
  | 5 => ⟨S_, .f32⟩
  | 6 => ⟨S4x300x100, .f32⟩
  | 7 => ⟨S4x300x100, .f32⟩
  | 8 => ⟨S4x300x100, .f32⟩
  | 9 => ⟨S4x300x100, .f32⟩
  | _ => ⟨S4x300x80, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x300x80, .f32⟩

abbrev bufTy : (tb : Table) → Fin (tcTables nBuf tb) → BufTy
  | .hbm, ⟨i, _⟩ => hbmTy i
  | .local _ .vmem, ⟨0, _⟩ => ⟨S1x300x1792, .f32⟩
  | .local _ .vmem, ⟨1, _⟩ => ⟨S1x300x1792, .f32⟩
  | .local _ .vmem, ⟨2, _⟩ => ⟨S1x100x1792, .f32⟩
  | .local _ .vmem, ⟨3, _⟩ => ⟨S1x100x1792, .f32⟩
  | .local _ .vmem, ⟨4, _⟩ => ⟨S1x300x100, .f32⟩
  | .local _ .vmem, ⟨5, _⟩ => ⟨S1x300x100, .f32⟩
  | .local _ .vmem, ⟨6, _⟩ => ⟨S300x100, .f32⟩
  | .local _ .vmem, ⟨7, _⟩ => ⟨S300x100, .f32⟩
  | .local _ .vmem, ⟨8, _⟩ => ⟨S300x100, .f32⟩
  | .local _ .vmem, ⟨9, _⟩ => ⟨S300x1, .f32⟩
  | .local _ .vmem, ⟨10, _⟩ => ⟨S300x1, .f32⟩
  | .local _ .vmem, ⟨11, _⟩ => ⟨S1x100, .f32⟩
  | _, _ => ⟨S4x300x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_c_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v18 : Ref sig .tc := ⟨.hbm, 41, rfl⟩
abbrev main_v19 : Ref sig .tc := ⟨.hbm, 42, rfl⟩
abbrev main_cst_6 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_8 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_9 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_10 : Ref sig .tc := ⟨.hbm, 59, rfl⟩
abbrev main_v32 : Ref sig .tc := ⟨.hbm, 60, rfl⟩
abbrev main_v33 : Ref sig .tc := ⟨.hbm, 61, rfl⟩
abbrev main_c_11 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_12 : Ref sig .tc := ⟨.hbm, 66, rfl⟩
abbrev main_v37 : Ref sig .tc := ⟨.hbm, 67, rfl⟩
abbrev main_v38 : Ref sig .tc := ⟨.hbm, 68, rfl⟩
abbrev main_c_13 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_14 : Ref sig .tc := ⟨.hbm, 80, rfl⟩
abbrev main_v49 : Ref sig .tc := ⟨.hbm, 81, rfl⟩
abbrev main_v50 : Ref sig .tc := ⟨.hbm, 82, rfl⟩
abbrev main_c_15 : Ref sig .tc := ⟨.hbm, 83, rfl⟩
abbrev main_c_16 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v51 : Ref sig .tc := ⟨.hbm, 90, rfl⟩
abbrev main_v52 : Ref sig .tc := ⟨.hbm, 91, rfl⟩
abbrev main_c_17 : Ref sig .tc := ⟨.hbm, 92, rfl⟩
abbrev main_c_18 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v53 : Ref sig .tc := ⟨.hbm, 99, rfl⟩
abbrev main_v54 : Ref sig .tc := ⟨.hbm, 100, rfl⟩
abbrev main_cst_19 : Ref sig .tc := ⟨.hbm, 101, rfl⟩
abbrev main_v55 : Ref sig .tc := ⟨.hbm, 102, rfl⟩
abbrev main_v56 : Ref sig .tc := ⟨.hbm, 103, rfl⟩
abbrev main_cst_20 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_21 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_22 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_c_23 : Ref sig .tc := ⟨.hbm, 117, rfl⟩
abbrev main_v67 : Ref sig .tc := ⟨.hbm, 118, rfl⟩
abbrev main_v68 : Ref sig .tc := ⟨.hbm, 119, rfl⟩
abbrev main_c_24 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_c_25 : Ref sig .tc := ⟨.hbm, 124, rfl⟩
abbrev main_v72 : Ref sig .tc := ⟨.hbm, 125, rfl⟩
abbrev main_v73 : Ref sig .tc := ⟨.hbm, 126, rfl⟩
abbrev main_c_26 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_27 : Ref sig .tc := ⟨.hbm, 138, rfl⟩
abbrev main_v84 : Ref sig .tc := ⟨.hbm, 139, rfl⟩
abbrev main_v85 : Ref sig .tc := ⟨.hbm, 140, rfl⟩
abbrev main_c_28 : Ref sig .tc := ⟨.hbm, 141, rfl⟩
abbrev main_c_29 : Ref sig .tc := ⟨.hbm, 142, rfl⟩
abbrev main_call4_v0 : Ref sig .tc := ⟨.hbm, 143, rfl⟩
abbrev main_call4_v1 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_v86 : Ref sig .tc := ⟨.hbm, 148, rfl⟩
abbrev main_v87 : Ref sig .tc := ⟨.hbm, 149, rfl⟩
abbrev main_c_30 : Ref sig .tc := ⟨.hbm, 150, rfl⟩
abbrev main_c_31 : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_call5_v3 : Ref sig .tc := ⟨.hbm, 155, rfl⟩
abbrev main_call5_v4 : Ref sig .tc := ⟨.hbm, 156, rfl⟩
abbrev main_v88 : Ref sig .tc := ⟨.hbm, 157, rfl⟩
abbrev main_v89 : Ref sig .tc := ⟨.hbm, 158, rfl⟩
abbrev main_cst_32 : Ref sig .tc := ⟨.hbm, 159, rfl⟩
abbrev main_v90 : Ref sig .tc := ⟨.hbm, 160, rfl⟩
abbrev main_v91 : Ref sig .tc := ⟨.hbm, 161, rfl⟩
abbrev main_cst_33 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_cst_34 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_cst_35 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_c_36 : Ref sig .tc := ⟨.hbm, 175, rfl⟩
abbrev main_v102 : Ref sig .tc := ⟨.hbm, 176, rfl⟩
abbrev main_v103 : Ref sig .tc := ⟨.hbm, 177, rfl⟩
abbrev main_c_37 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_c_38 : Ref sig .tc := ⟨.hbm, 182, rfl⟩
abbrev main_v107 : Ref sig .tc := ⟨.hbm, 183, rfl⟩
abbrev main_v108 : Ref sig .tc := ⟨.hbm, 184, rfl⟩
abbrev main_c_39 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_cst_40 : Ref sig .tc := ⟨.hbm, 196, rfl⟩
abbrev main_v119 : Ref sig .tc := ⟨.hbm, 197, rfl⟩
abbrev main_v120 : Ref sig .tc := ⟨.hbm, 198, rfl⟩
abbrev main_cst_41 : Ref sig .tc := ⟨.hbm, 199, rfl⟩
abbrev main_v121 : Ref sig .tc := ⟨.hbm, 200, rfl⟩
abbrev main_v122 : Ref sig .tc := ⟨.hbm, 201, rfl⟩
abbrev main_c_42 : Ref sig .tc := ⟨.hbm, 202, rfl⟩
abbrev main_c_43 : Ref sig .tc := ⟨.hbm, 203, rfl⟩
abbrev main_call6_v0 : Ref sig .tc := ⟨.hbm, 204, rfl⟩
abbrev main_call6_v1 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_v123 : Ref sig .tc := ⟨.hbm, 209, rfl⟩
abbrev main_v124 : Ref sig .tc := ⟨.hbm, 210, rfl⟩
abbrev main_c_44 : Ref sig .tc := ⟨.hbm, 211, rfl⟩
abbrev main_c_45 : Ref sig .tc := ⟨.hbm, 212, rfl⟩
abbrev main_call7_v0 : Ref sig .tc := ⟨.hbm, 213, rfl⟩
abbrev main_call7_v1 : Ref sig .tc := ⟨.hbm, 214, rfl⟩
abbrev main_call7_v2 : Ref sig .tc := ⟨.hbm, 215, rfl⟩
abbrev main_call7_v3 : Ref sig .tc := ⟨.hbm, 216, rfl⟩
abbrev main_call7_v4 : Ref sig .tc := ⟨.hbm, 217, rfl⟩
abbrev main_v125 : Ref sig .tc := ⟨.hbm, 218, rfl⟩
abbrev main_v126 : Ref sig .tc := ⟨.hbm, 219, rfl⟩
abbrev main_cst_46 : Ref sig .tc := ⟨.hbm, 220, rfl⟩
abbrev main_v127 : Ref sig .tc := ⟨.hbm, 221, rfl⟩
abbrev main_v128 : Ref sig .tc := ⟨.hbm, 222, rfl⟩
abbrev main_cst_47 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_cst_48 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_cst_49 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_c_50 : Ref sig .tc := ⟨.hbm, 236, rfl⟩
abbrev main_v139 : Ref sig .tc := ⟨.hbm, 237, rfl⟩
abbrev main_v140 : Ref sig .tc := ⟨.hbm, 238, rfl⟩
abbrev main_c_51 : Ref sig .tc := ⟨.hbm, 239, rfl⟩
abbrev main_v141 : Ref sig .tc := ⟨.hbm, 240, rfl⟩
abbrev main_v142 : Ref sig .tc := ⟨.hbm, 241, rfl⟩
abbrev main_v143 : Ref sig .tc := ⟨.hbm, 242, rfl⟩
abbrev main_c_52 : Ref sig .tc := ⟨.hbm, 243, rfl⟩
abbrev main_v144 : Ref sig .tc := ⟨.hbm, 244, rfl⟩
abbrev main_v145 : Ref sig .tc := ⟨.hbm, 245, rfl⟩
abbrev main_c_53 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_cst_54 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_cst_55 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_cst_56 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_cst_57 : Ref sig .tc := ⟨.hbm, 279, rfl⟩
abbrev main_v175 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_v189 : Ref sig .tc := ⟨.hbm, 294, rfl⟩
abbrev main_v190 : Ref sig .tc := ⟨.hbm, 295, rfl⟩
abbrev main_v191 : Ref sig .tc := ⟨.hbm, 296, rfl⟩
abbrev main_v192 : Ref sig .tc := ⟨.hbm, 297, rfl⟩
abbrev main_cst_58 : Ref sig .tc := ⟨.hbm, 298, rfl⟩
abbrev main_v193 : Ref sig .tc := ⟨.hbm, 299, rfl⟩
abbrev main_v194 : Ref sig .tc := ⟨.hbm, 300, rfl⟩
abbrev main_cst_59 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_cst_60 : Ref sig .tc := ⟨.hbm, 306, rfl⟩
abbrev main_v199 : Ref sig .tc := ⟨.hbm, 307, rfl⟩
abbrev main_v200 : Ref sig .tc := ⟨.hbm, 308, rfl⟩
abbrev main_cst_61 : Ref sig .tc := ⟨.hbm, 309, rfl⟩
abbrev main_v201 : Ref sig .tc := ⟨.hbm, 310, rfl⟩
abbrev main_v202 : Ref sig .tc := ⟨.hbm, 311, rfl⟩
abbrev main_v203 : Ref sig .tc := ⟨.hbm, 312, rfl⟩
abbrev main_v204 : Ref sig .tc := ⟨.hbm, 313, rfl⟩
abbrev main_v205 : Ref sig .tc := ⟨.hbm, 314, rfl⟩
abbrev main_v206 : Ref sig .tc := ⟨.hbm, 315, rfl⟩
abbrev main_c_62 : Ref sig .tc := ⟨.hbm, 316, rfl⟩
abbrev main_c_63 : Ref sig .tc := ⟨.hbm, 317, rfl⟩
abbrev main_call8_v0 : Ref sig .tc := ⟨.hbm, 318, rfl⟩
abbrev main_call8_v1 : Ref sig .tc := ⟨.hbm, 319, rfl⟩
abbrev main_call8_v2 : Ref sig .tc := ⟨.hbm, 320, rfl⟩
abbrev main_call8_v3 : Ref sig .tc := ⟨.hbm, 321, rfl⟩
abbrev main_call8_v4 : Ref sig .tc := ⟨.hbm, 322, rfl⟩
abbrev main_v207 : Ref sig .tc := ⟨.hbm, 323, rfl⟩
abbrev main_v208 : Ref sig .tc := ⟨.hbm, 324, rfl⟩
abbrev main_c_64 : Ref sig .tc := ⟨.hbm, 325, rfl⟩
abbrev main_c_65 : Ref sig .tc := ⟨.hbm, 326, rfl⟩
abbrev main_call9_v0 : Ref sig .tc := ⟨.hbm, 327, rfl⟩
abbrev main_call9_v1 : Ref sig .tc := ⟨.hbm, 328, rfl⟩
abbrev main_call9_v2 : Ref sig .tc := ⟨.hbm, 329, rfl⟩
abbrev main_call9_v3 : Ref sig .tc := ⟨.hbm, 330, rfl⟩
abbrev main_call9_v4 : Ref sig .tc := ⟨.hbm, 331, rfl⟩
abbrev main_v209 : Ref sig .tc := ⟨.hbm, 332, rfl⟩
abbrev main_v210 : Ref sig .tc := ⟨.hbm, 333, rfl⟩
abbrev main_cst_66 : Ref sig .tc := ⟨.hbm, 334, rfl⟩
abbrev main_v211 : Ref sig .tc := ⟨.hbm, 335, rfl⟩
abbrev main_v212 : Ref sig .tc := ⟨.hbm, 336, rfl⟩
abbrev main_cst_67 : Ref sig .tc := ⟨.hbm, 337, rfl⟩
abbrev main_v213 : Ref sig .tc := ⟨.hbm, 338, rfl⟩
abbrev main_v214 : Ref sig .tc := ⟨.hbm, 339, rfl⟩
abbrev main_v215 : Ref sig .tc := ⟨.hbm, 340, rfl⟩
abbrev main_cst_68 : Ref sig .tc := ⟨.hbm, 341, rfl⟩
abbrev main_v216 : Ref sig .tc := ⟨.hbm, 342, rfl⟩
abbrev main_v217 : Ref sig .tc := ⟨.hbm, 343, rfl⟩
abbrev main_v218 : Ref sig .tc := ⟨.hbm, 344, rfl⟩
abbrev main_cst_69 : Ref sig .tc := ⟨.hbm, 345, rfl⟩
abbrev main_v219 : Ref sig .tc := ⟨.hbm, 346, rfl⟩
abbrev main_v220 : Ref sig .tc := ⟨.hbm, 347, rfl⟩
abbrev main_v221 : Ref sig .tc := ⟨.hbm, 348, rfl⟩
abbrev main_v222 : Ref sig .tc := ⟨.hbm, 349, rfl⟩
abbrev main_c_70 : Ref sig .tc := ⟨.hbm, 350, rfl⟩
abbrev main_v223 : Ref sig .tc := ⟨.hbm, 351, rfl⟩
abbrev main_v224 : Ref sig .tc := ⟨.hbm, 352, rfl⟩
abbrev main_c_71 : Ref sig .tc := ⟨.hbm, 353, rfl⟩
abbrev main_v225 : Ref sig .tc := ⟨.hbm, 354, rfl⟩
abbrev main_v226 : Ref sig .tc := ⟨.hbm, 355, rfl⟩
abbrev main_v227 : Ref sig .tc := ⟨.hbm, 356, rfl⟩
abbrev main_c_72 : Ref sig .tc := ⟨.hbm, 357, rfl⟩
abbrev main_v228 : Ref sig .tc := ⟨.hbm, 358, rfl⟩
abbrev main_v229 : Ref sig .tc := ⟨.hbm, 359, rfl⟩
abbrev main_c_73 : Ref sig .tc := ⟨.hbm, 360, rfl⟩
abbrev main_v230 : Ref sig .tc := ⟨.hbm, 361, rfl⟩
abbrev main_v231 : Ref sig .tc := ⟨.hbm, 362, rfl⟩
abbrev main_v232 : Ref sig .tc := ⟨.hbm, 363, rfl⟩
abbrev main_v233 : Ref sig .tc := ⟨.hbm, 364, rfl⟩
abbrev main_v234 : Ref sig .tc := ⟨.hbm, 365, rfl⟩
abbrev main_v235 : Ref sig .tc := ⟨.hbm, 366, rfl⟩
abbrev main_v236 : Ref sig .tc := ⟨.hbm, 367, rfl⟩
abbrev main_v237 : Ref sig .tc := ⟨.hbm, 368, rfl⟩
abbrev main_v238 : Ref sig .tc := ⟨.hbm, 369, rfl⟩
abbrev main_v239 : Ref sig .tc := ⟨.hbm, 370, rfl⟩
abbrev main_cst_74 : Ref sig .tc := ⟨.hbm, 371, rfl⟩
abbrev main_v240 : Ref sig .tc := ⟨.hbm, 372, rfl⟩
abbrev main_v241 : Ref sig .tc := ⟨.hbm, 373, rfl⟩
abbrev main_c_75 : Ref sig .tc := ⟨.hbm, 374, rfl⟩
abbrev main_c_76 : Ref sig .tc := ⟨.hbm, 375, rfl⟩
abbrev main_call10_v0 : Ref sig .tc := ⟨.hbm, 376, rfl⟩
abbrev main_call10_v1 : Ref sig .tc := ⟨.hbm, 377, rfl⟩
abbrev main_call10_v2 : Ref sig .tc := ⟨.hbm, 378, rfl⟩
abbrev main_call10_v3 : Ref sig .tc := ⟨.hbm, 379, rfl⟩
abbrev main_call10_v4 : Ref sig .tc := ⟨.hbm, 380, rfl⟩
abbrev main_v242 : Ref sig .tc := ⟨.hbm, 381, rfl⟩
abbrev main_v243 : Ref sig .tc := ⟨.hbm, 382, rfl⟩
abbrev main_c_77 : Ref sig .tc := ⟨.hbm, 383, rfl⟩
abbrev main_c_78 : Ref sig .tc := ⟨.hbm, 384, rfl⟩
abbrev main_call11_v0 : Ref sig .tc := ⟨.hbm, 385, rfl⟩
abbrev main_call11_v1 : Ref sig .tc := ⟨.hbm, 386, rfl⟩
abbrev main_call11_v2 : Ref sig .tc := ⟨.hbm, 387, rfl⟩
abbrev main_call11_v3 : Ref sig .tc := ⟨.hbm, 388, rfl⟩
abbrev main_call11_v4 : Ref sig .tc := ⟨.hbm, 389, rfl⟩
abbrev main_v244 : Ref sig .tc := ⟨.hbm, 390, rfl⟩
abbrev main_v245 : Ref sig .tc := ⟨.hbm, 391, rfl⟩
abbrev main_cst_79 : Ref sig .tc := ⟨.hbm, 392, rfl⟩
abbrev main_v246 : Ref sig .tc := ⟨.hbm, 393, rfl⟩
abbrev main_v247 : Ref sig .tc := ⟨.hbm, 394, rfl⟩
abbrev main_cst_80 : Ref sig .tc := ⟨.hbm, 395, rfl⟩
abbrev main_v248 : Ref sig .tc := ⟨.hbm, 396, rfl⟩
abbrev main_v249 : Ref sig .tc := ⟨.hbm, 397, rfl⟩
abbrev main_v250 : Ref sig .tc := ⟨.hbm, 398, rfl⟩
abbrev main_cst_81 : Ref sig .tc := ⟨.hbm, 399, rfl⟩
abbrev main_v251 : Ref sig .tc := ⟨.hbm, 400, rfl⟩
abbrev main_v252 : Ref sig .tc := ⟨.hbm, 401, rfl⟩
abbrev main_v253 : Ref sig .tc := ⟨.hbm, 402, rfl⟩
abbrev main_cst_82 : Ref sig .tc := ⟨.hbm, 403, rfl⟩
abbrev main_v254 : Ref sig .tc := ⟨.hbm, 404, rfl⟩
abbrev main_v255 : Ref sig .tc := ⟨.hbm, 405, rfl⟩
abbrev main_v256 : Ref sig .tc := ⟨.hbm, 406, rfl⟩
abbrev main_v257 : Ref sig .tc := ⟨.hbm, 407, rfl⟩
abbrev main_c_83 : Ref sig .tc := ⟨.hbm, 408, rfl⟩
abbrev main_v258 : Ref sig .tc := ⟨.hbm, 409, rfl⟩
abbrev main_v259 : Ref sig .tc := ⟨.hbm, 410, rfl⟩
abbrev main_c_84 : Ref sig .tc := ⟨.hbm, 411, rfl⟩
abbrev main_v260 : Ref sig .tc := ⟨.hbm, 412, rfl⟩
abbrev main_v261 : Ref sig .tc := ⟨.hbm, 413, rfl⟩
abbrev main_v262 : Ref sig .tc := ⟨.hbm, 414, rfl⟩
abbrev main_c_85 : Ref sig .tc := ⟨.hbm, 415, rfl⟩
abbrev main_v263 : Ref sig .tc := ⟨.hbm, 416, rfl⟩
abbrev main_v264 : Ref sig .tc := ⟨.hbm, 417, rfl⟩
abbrev main_c_86 : Ref sig .tc := ⟨.hbm, 418, rfl⟩
abbrev main_v265 : Ref sig .tc := ⟨.hbm, 419, rfl⟩
abbrev main_v266 : Ref sig .tc := ⟨.hbm, 420, rfl⟩
abbrev main_v267 : Ref sig .tc := ⟨.hbm, 421, rfl⟩
abbrev main_v268 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_v272 : Ref sig .tc := ⟨.hbm, 426, rfl⟩
abbrev main_v273 : Ref sig .tc := ⟨.hbm, 427, rfl⟩
abbrev main_v274 : Ref sig .tc := ⟨.hbm, 428, rfl⟩
abbrev main_cst_87 : Ref sig .tc := ⟨.hbm, 429, rfl⟩
abbrev main_v275 : Ref sig .tc := ⟨.hbm, 430, rfl⟩
abbrev main_v276 : Ref sig .tc := ⟨.hbm, 431, rfl⟩
abbrev main_c_88 : Ref sig .tc := ⟨.hbm, 432, rfl⟩
abbrev main_c_89 : Ref sig .tc := ⟨.hbm, 433, rfl⟩
abbrev main_call12_v0 : Ref sig .tc := ⟨.hbm, 434, rfl⟩
abbrev main_call12_v1 : Ref sig .tc := ⟨.hbm, 435, rfl⟩
abbrev main_call12_v2 : Ref sig .tc := ⟨.hbm, 436, rfl⟩
abbrev main_call12_v3 : Ref sig .tc := ⟨.hbm, 437, rfl⟩
abbrev main_call12_v4 : Ref sig .tc := ⟨.hbm, 438, rfl⟩
abbrev main_v277 : Ref sig .tc := ⟨.hbm, 439, rfl⟩
abbrev main_v278 : Ref sig .tc := ⟨.hbm, 440, rfl⟩
abbrev main_c_90 : Ref sig .tc := ⟨.hbm, 441, rfl⟩
abbrev main_c_91 : Ref sig .tc := ⟨.hbm, 442, rfl⟩
abbrev main_call13_v0 : Ref sig .tc := ⟨.hbm, 443, rfl⟩
abbrev main_call13_v1 : Ref sig .tc := ⟨.hbm, 444, rfl⟩
abbrev main_call13_v2 : Ref sig .tc := ⟨.hbm, 445, rfl⟩
abbrev main_call13_v3 : Ref sig .tc := ⟨.hbm, 446, rfl⟩
abbrev main_call13_v4 : Ref sig .tc := ⟨.hbm, 447, rfl⟩
abbrev main_v279 : Ref sig .tc := ⟨.hbm, 448, rfl⟩
abbrev main_v280 : Ref sig .tc := ⟨.hbm, 449, rfl⟩
abbrev main_cst_92 : Ref sig .tc := ⟨.hbm, 450, rfl⟩
abbrev main_v281 : Ref sig .tc := ⟨.hbm, 451, rfl⟩
abbrev main_v282 : Ref sig .tc := ⟨.hbm, 452, rfl⟩
abbrev main_cst_93 : Ref sig .tc := ⟨.hbm, 453, rfl⟩
abbrev main_v283 : Ref sig .tc := ⟨.hbm, 454, rfl⟩
abbrev main_v284 : Ref sig .tc := ⟨.hbm, 455, rfl⟩
abbrev main_v285 : Ref sig .tc := ⟨.hbm, 456, rfl⟩
abbrev main_cst_94 : Ref sig .tc := ⟨.hbm, 457, rfl⟩
abbrev main_v286 : Ref sig .tc := ⟨.hbm, 458, rfl⟩
abbrev main_v287 : Ref sig .tc := ⟨.hbm, 459, rfl⟩
abbrev main_v288 : Ref sig .tc := ⟨.hbm, 460, rfl⟩
abbrev main_cst_95 : Ref sig .tc := ⟨.hbm, 461, rfl⟩
abbrev main_v289 : Ref sig .tc := ⟨.hbm, 462, rfl⟩
abbrev main_v290 : Ref sig .tc := ⟨.hbm, 463, rfl⟩
abbrev main_v291 : Ref sig .tc := ⟨.hbm, 464, rfl⟩
abbrev main_v292 : Ref sig .tc := ⟨.hbm, 465, rfl⟩
abbrev main_c_96 : Ref sig .tc := ⟨.hbm, 466, rfl⟩
abbrev main_v293 : Ref sig .tc := ⟨.hbm, 467, rfl⟩
abbrev main_v294 : Ref sig .tc := ⟨.hbm, 468, rfl⟩
abbrev main_c_97 : Ref sig .tc := ⟨.hbm, 469, rfl⟩
abbrev main_v295 : Ref sig .tc := ⟨.hbm, 470, rfl⟩
abbrev main_v296 : Ref sig .tc := ⟨.hbm, 471, rfl⟩
abbrev main_v297 : Ref sig .tc := ⟨.hbm, 472, rfl⟩
abbrev main_c_98 : Ref sig .tc := ⟨.hbm, 473, rfl⟩
abbrev main_v298 : Ref sig .tc := ⟨.hbm, 474, rfl⟩
abbrev main_v299 : Ref sig .tc := ⟨.hbm, 475, rfl⟩
abbrev main_c_99 : Ref sig .tc := ⟨.hbm, 476, rfl⟩
abbrev main_v300 : Ref sig .tc := ⟨.hbm, 477, rfl⟩
abbrev main_v301 : Ref sig .tc := ⟨.hbm, 478, rfl⟩
abbrev main_v302 : Ref sig .tc := ⟨.hbm, 479, rfl⟩
abbrev main_v303 : Ref sig .tc := ⟨.hbm, 480, rfl⟩
abbrev main_v304 : Ref sig .tc := ⟨.hbm, 481, rfl⟩
abbrev main_v305 : Ref sig .tc := ⟨.hbm, 482, rfl⟩
abbrev main_v306 : Ref sig .tc := ⟨.hbm, 483, rfl⟩
abbrev main_v307 : Ref sig .tc := ⟨.hbm, 484, rfl⟩
abbrev main_v308 : Ref sig .tc := ⟨.hbm, 485, rfl⟩
abbrev main_v309 : Ref sig .tc := ⟨.hbm, 486, rfl⟩
abbrev main_cst_100 : Ref sig .tc := ⟨.hbm, 487, rfl⟩
abbrev main_v310 : Ref sig .tc := ⟨.hbm, 488, rfl⟩
abbrev main_v311 : Ref sig .tc := ⟨.hbm, 489, rfl⟩
abbrev main_cst_101 : Ref sig .tc := ⟨.hbm, 490, rfl⟩
abbrev main_v312 : Ref sig .tc := ⟨.hbm, 491, rfl⟩
abbrev main_v313 : Ref sig .tc := ⟨.hbm, 492, rfl⟩
abbrev main_c_102 : Ref sig .tc := ⟨.hbm, 493, rfl⟩
abbrev main_c_103 : Ref sig .tc := ⟨.hbm, 494, rfl⟩
abbrev main_call14_v0 : Ref sig .tc := ⟨.hbm, 495, rfl⟩
abbrev main_call14_v1 : Ref sig .tc := ⟨.hbm, 496, rfl⟩
abbrev main_call14_v2 : Ref sig .tc := ⟨.hbm, 497, rfl⟩
abbrev main_call14_v3 : Ref sig .tc := ⟨.hbm, 498, rfl⟩
abbrev main_call14_v4 : Ref sig .tc := ⟨.hbm, 499, rfl⟩
abbrev main_v314 : Ref sig .tc := ⟨.hbm, 500, rfl⟩
abbrev main_v315 : Ref sig .tc := ⟨.hbm, 501, rfl⟩
abbrev main_c_104 : Ref sig .tc := ⟨.hbm, 502, rfl⟩
abbrev main_c_105 : Ref sig .tc := ⟨.hbm, 503, rfl⟩
abbrev main_call15_v0 : Ref sig .tc := ⟨.hbm, 504, rfl⟩
abbrev main_call15_v1 : Ref sig .tc := ⟨.hbm, 505, rfl⟩
abbrev main_call15_v2 : Ref sig .tc := ⟨.hbm, 506, rfl⟩
abbrev main_call15_v3 : Ref sig .tc := ⟨.hbm, 507, rfl⟩
abbrev main_call15_v4 : Ref sig .tc := ⟨.hbm, 508, rfl⟩
abbrev main_v316 : Ref sig .tc := ⟨.hbm, 509, rfl⟩
abbrev main_v317 : Ref sig .tc := ⟨.hbm, 510, rfl⟩
abbrev main_cst_106 : Ref sig .tc := ⟨.hbm, 511, rfl⟩
abbrev main_v318 : Ref sig .tc := ⟨.hbm, 512, rfl⟩
abbrev main_v319 : Ref sig .tc := ⟨.hbm, 513, rfl⟩
abbrev main_cst_107 : Ref sig .tc := ⟨.hbm, 514, rfl⟩
abbrev main_v320 : Ref sig .tc := ⟨.hbm, 515, rfl⟩
abbrev main_v321 : Ref sig .tc := ⟨.hbm, 516, rfl⟩
abbrev main_v322 : Ref sig .tc := ⟨.hbm, 517, rfl⟩
abbrev main_cst_108 : Ref sig .tc := ⟨.hbm, 518, rfl⟩
abbrev main_v323 : Ref sig .tc := ⟨.hbm, 519, rfl⟩
abbrev main_v324 : Ref sig .tc := ⟨.hbm, 520, rfl⟩
abbrev main_v325 : Ref sig .tc := ⟨.hbm, 521, rfl⟩
abbrev main_cst_109 : Ref sig .tc := ⟨.hbm, 522, rfl⟩
abbrev main_v326 : Ref sig .tc := ⟨.hbm, 523, rfl⟩
abbrev main_v327 : Ref sig .tc := ⟨.hbm, 524, rfl⟩
abbrev main_v328 : Ref sig .tc := ⟨.hbm, 525, rfl⟩
abbrev main_v329 : Ref sig .tc := ⟨.hbm, 526, rfl⟩
abbrev main_c_110 : Ref sig .tc := ⟨.hbm, 527, rfl⟩
abbrev main_v330 : Ref sig .tc := ⟨.hbm, 528, rfl⟩
abbrev main_v331 : Ref sig .tc := ⟨.hbm, 529, rfl⟩
abbrev main_c_111 : Ref sig .tc := ⟨.hbm, 530, rfl⟩
abbrev main_v332 : Ref sig .tc := ⟨.hbm, 531, rfl⟩
abbrev main_v333 : Ref sig .tc := ⟨.hbm, 532, rfl⟩
abbrev main_v334 : Ref sig .tc := ⟨.hbm, 533, rfl⟩
abbrev main_c_112 : Ref sig .tc := ⟨.hbm, 534, rfl⟩
abbrev main_v335 : Ref sig .tc := ⟨.hbm, 535, rfl⟩
abbrev main_v336 : Ref sig .tc := ⟨.hbm, 536, rfl⟩
abbrev main_c_113 : Ref sig .tc := ⟨.hbm, 537, rfl⟩
abbrev main_v337 : Ref sig .tc := ⟨.hbm, 538, rfl⟩
abbrev main_v338 : Ref sig .tc := ⟨.hbm, 539, rfl⟩
abbrev main_v339 : Ref sig .tc := ⟨.hbm, 540, rfl⟩
abbrev main_v340 : Ref sig .tc := ⟨.hbm, 541, rfl⟩
abbrev main_v341 : Ref sig .tc := ⟨.hbm, 542, rfl⟩
abbrev main_v342 : Ref sig .tc := ⟨.hbm, 543, rfl⟩
abbrev main_v343 : Ref sig .tc := ⟨.hbm, 544, rfl⟩
abbrev main_v344 : Ref sig .tc := ⟨.hbm, 545, rfl⟩
abbrev main_v345 : Ref sig .tc := ⟨.hbm, 546, rfl⟩
abbrev main_v346 : Ref sig .tc := ⟨.hbm, 547, rfl⟩
abbrev main_cst_114 : Ref sig .tc := ⟨.hbm, 548, rfl⟩
abbrev main_v347 : Ref sig .tc := ⟨.hbm, 549, rfl⟩
abbrev main_v348 : Ref sig .tc := ⟨.hbm, 550, rfl⟩
abbrev main_v349 : Ref sig .tc := ⟨.hbm, 551, rfl⟩
abbrev main_v350 : Ref sig .tc := ⟨.hbm, 552, rfl⟩
abbrev main_v351 : Ref sig .tc := ⟨.hbm, 553, rfl⟩
abbrev main_cst_115 : Ref sig .tc := ⟨.hbm, 554, rfl⟩
abbrev main_v352 : Ref sig .tc := ⟨.hbm, 555, rfl⟩
abbrev main_v353 : Ref sig .tc := ⟨.hbm, 556, rfl⟩
abbrev main_v354 : Ref sig .tc := ⟨.hbm, 557, rfl⟩
abbrev main_v355 : Ref sig .tc := ⟨.hbm, 558, rfl⟩
abbrev main_v356 : Ref sig .tc := ⟨.hbm, 559, rfl⟩
abbrev main_v357 : Ref sig .tc := ⟨.hbm, 560, rfl⟩
abbrev main_v358 : Ref sig .tc := ⟨.hbm, 561, rfl⟩
abbrev main_v359 : Ref sig .tc := ⟨.hbm, 562, rfl⟩
abbrev main_cst_116 : Ref sig .tc := ⟨.hbm, 563, rfl⟩
abbrev main_v360 : Ref sig .tc := ⟨.hbm, 564, rfl⟩
abbrev main_v361 : Ref sig .tc := ⟨.hbm, 565, rfl⟩
abbrev main_v362 : Ref sig .tc := ⟨.hbm, 566, rfl⟩
abbrev main_v363 : Ref sig .tc := ⟨.hbm, 567, rfl⟩
abbrev main_v364 : Ref sig .tc := ⟨.hbm, 568, rfl⟩
abbrev main_v365 : Ref sig .tc := ⟨.hbm, 569, rfl⟩
abbrev main_cst_117 : Ref sig .tc := ⟨.hbm, 570, rfl⟩
abbrev main_v366 : Ref sig .tc := ⟨.hbm, 571, rfl⟩
abbrev main_v367 : Ref sig .tc := ⟨.hbm, 572, rfl⟩
abbrev main_v368 : Ref sig .tc := ⟨.hbm, 573, rfl⟩
abbrev main_v369 : Ref sig .tc := ⟨.hbm, 574, rfl⟩
abbrev main_v370 : Ref sig .tc := ⟨.hbm, 575, rfl⟩
abbrev main_v371 : Ref sig .tc := ⟨.hbm, 576, rfl⟩
abbrev main_v372 : Ref sig .tc := ⟨.hbm, 577, rfl⟩
abbrev main_v373 : Ref sig .tc := ⟨.hbm, 578, rfl⟩
abbrev main_v374 : Ref sig .tc := ⟨.hbm, 579, rfl⟩
abbrev main_v375 : Ref sig .tc := ⟨.hbm, 580, rfl⟩
abbrev main_v376 : Ref sig .tc := ⟨.hbm, 581, rfl⟩
abbrev main_v377 : Ref sig .tc := ⟨.hbm, 582, rfl⟩
abbrev main_v378 : Ref sig .tc := ⟨.hbm, 583, rfl⟩
abbrev main_v379 : Ref sig .tc := ⟨.hbm, 584, rfl⟩
abbrev main_v380 : Ref sig .tc := ⟨.hbm, 585, rfl⟩
abbrev main_v381 : Ref sig .tc := ⟨.hbm, 586, rfl⟩
abbrev main_v382 : Ref sig .tc := ⟨.hbm, 587, rfl⟩
abbrev main_v383 : Ref sig .tc := ⟨.hbm, 588, rfl⟩
abbrev main_v384 : Ref sig .tc := ⟨.hbm, 589, rfl⟩
abbrev main_cst_118 : Ref sig .tc := ⟨.hbm, 590, rfl⟩
abbrev main_v385 : Ref sig .tc := ⟨.hbm, 591, rfl⟩
abbrev main_v386 : Ref sig .tc := ⟨.hbm, 592, rfl⟩
abbrev main_cst_119 : Ref sig .tc := ⟨.hbm, 593, rfl⟩
abbrev main_v387 : Ref sig .tc := ⟨.hbm, 594, rfl⟩
abbrev main_v388 : Ref sig .tc := ⟨.hbm, 595, rfl⟩
abbrev main_cst_120 : Ref sig .tc := ⟨.hbm, 596, rfl⟩
abbrev main_v389 : Ref sig .tc := ⟨.hbm, 597, rfl⟩
abbrev main_v390 : Ref sig .tc := ⟨.hbm, 598, rfl⟩
abbrev main_cst_121 : Ref sig .tc := ⟨.hbm, 599, rfl⟩
abbrev main_v391 : Ref sig .tc := ⟨.hbm, 600, rfl⟩
abbrev main_v392 : Ref sig .tc := ⟨.hbm, 601, rfl⟩
abbrev main_cst_122 : Ref sig .tc := ⟨.hbm, 602, rfl⟩
abbrev main_v393 : Ref sig .tc := ⟨.hbm, 603, rfl⟩
abbrev main_v394 : Ref sig .tc := ⟨.hbm, 604, rfl⟩
abbrev main_cst_123 : Ref sig .tc := ⟨.hbm, 605, rfl⟩
abbrev main_v395 : Ref sig .tc := ⟨.hbm, 606, rfl⟩
abbrev main_v396 : Ref sig .tc := ⟨.hbm, 607, rfl⟩
abbrev main_v397 : Ref sig .tc := ⟨.hbm, 608, rfl⟩
abbrev main_v398 : Ref sig .tc := ⟨.hbm, 609, rfl⟩
abbrev main_v399 : Ref sig .tc := ⟨.hbm, 610, rfl⟩
abbrev main_cst_124 : Ref sig .tc := ⟨.hbm, 611, rfl⟩
abbrev main_v400 : Ref sig .tc := ⟨.hbm, 612, rfl⟩
abbrev main_v401 : Ref sig .tc := ⟨.hbm, 613, rfl⟩
abbrev main_cst_125 : Ref sig .tc := ⟨.hbm, 614, rfl⟩
abbrev main_v402 : Ref sig .tc := ⟨.hbm, 615, rfl⟩
abbrev main_v403 : Ref sig .tc := ⟨.hbm, 616, rfl⟩
abbrev main_cst_126 : Ref sig .tc := ⟨.hbm, 617, rfl⟩
abbrev main_v404 : Ref sig .tc := ⟨.hbm, 618, rfl⟩
abbrev main_v405 : Ref sig .tc := ⟨.hbm, 619, rfl⟩
abbrev main_cst_127 : Ref sig .tc := ⟨.hbm, 620, rfl⟩
abbrev main_v406 : Ref sig .tc := ⟨.hbm, 621, rfl⟩
abbrev main_v407 : Ref sig .tc := ⟨.hbm, 622, rfl⟩
abbrev main_v408 : Ref sig .tc := ⟨.hbm, 623, rfl⟩
abbrev main_v409 : Ref sig .tc := ⟨.hbm, 624, rfl⟩
abbrev main_v410 : Ref sig .tc := ⟨.hbm, 625, rfl⟩
abbrev main_c_128 : Ref sig .tc := ⟨.hbm, 626, rfl⟩
abbrev main_v411 : Ref sig .tc := ⟨.hbm, 627, rfl⟩
abbrev main_v412 : Ref sig .tc := ⟨.hbm, 628, rfl⟩
abbrev main_c_129 : Ref sig .tc := ⟨.hbm, 629, rfl⟩
abbrev main_v413 : Ref sig .tc := ⟨.hbm, 630, rfl⟩
abbrev main_v414 : Ref sig .tc := ⟨.hbm, 631, rfl⟩
abbrev main_v415 : Ref sig .tc := ⟨.hbm, 632, rfl⟩
abbrev main_v416 : Ref sig .tc := ⟨.hbm, 633, rfl⟩
abbrev main_v417 : Ref sig .tc := ⟨.hbm, 634, rfl⟩
abbrev main_c_130 : Ref sig .tc := ⟨.hbm, 635, rfl⟩
abbrev main_v418 : Ref sig .tc := ⟨.hbm, 636, rfl⟩
abbrev main_v419 : Ref sig .tc := ⟨.hbm, 637, rfl⟩
abbrev main_c_131 : Ref sig .tc := ⟨.hbm, 638, rfl⟩
abbrev main_v420 : Ref sig .tc := ⟨.hbm, 639, rfl⟩
abbrev main_v421 : Ref sig .tc := ⟨.hbm, 640, rfl⟩
abbrev main_v422 : Ref sig .tc := ⟨.hbm, 641, rfl⟩
abbrev main_v423 : Ref sig .tc := ⟨.hbm, 642, rfl⟩
abbrev main_v424 : Ref sig .tc := ⟨.hbm, 643, rfl⟩
abbrev main_v425 : Ref sig .tc := ⟨.hbm, 644, rfl⟩
abbrev main_cst_132 : Ref sig .tc := ⟨.hbm, 645, rfl⟩
abbrev main_v426 : Ref sig .tc := ⟨.hbm, 646, rfl⟩
abbrev main_v427 : Ref sig .tc := ⟨.hbm, 647, rfl⟩
abbrev main_v428 : Ref sig .tc := ⟨.hbm, 648, rfl⟩
abbrev main_v429 : Ref sig .tc := ⟨.hbm, 649, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 7], ![false, false]⟩

def k0_cond2 (i : grid0.Coords) : BitVec 1 :=
  let arg1 : BitVec 32 := BitVec.ofNat 32 (i 1).val
  let c6_i32 : BitVec 32 := 6#32
  let v81 : BitVec 1 := Scalar.cmpi .eq arg1 c6_i32
  let v82 : BitVec 32 := Scalar.extui v81
  let c0_i32_41 : BitVec 32 := 0#32
  let v83 : BitVec 1 := Scalar.cmpi .ne v82 c0_i32_41
  v83

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x300x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x100x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x300x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S4x12544x2_S4x12544x1_0_0_0 : S4x12544x2.Slices ![0, 0, 0] S4x12544x1
  shapeCasts_S4x12544x1_S4x12544 : S4x12544x1.ShapeCasts S4x12544
  bcast_S_S4x12544 : S_.BroadcastsInDim S4x12544 (![] : Fin 0 → Fin S4x12544.rank)
  slices_S4x12544x2_S4x12544x1_0_0_1 : S4x12544x2.Slices ![0, 0, 1] S4x12544x1
  bcast_S4x12544_S4x12544x1_0_1 : S4x12544.BroadcastsInDim S4x12544x1 (![0, 1] : Fin 2 → Fin S4x12544x1.rank)
  concatenates_S4x12544x1_S4x12544x1_S4x12544x2_d2 : Shape.Concatenates [S4x12544x1, S4x12544x1] S4x12544x2 2
  bcast_S4x12544_S4x1x12544_0_2 : S4x12544.BroadcastsInDim S4x1x12544 (![0, 2] : Fin 2 → Fin S4x1x12544.rank)
  bcast_S4x1x12544_S4x300x12544_0_1_2 : S4x1x12544.BroadcastsInDim S4x300x12544 (![0, 1, 2] : Fin 3 → Fin S4x300x12544.rank)
  bcast_S4x1x12544_S4x100x12544_0_1_2 : S4x1x12544.BroadcastsInDim S4x100x12544 (![0, 1, 2] : Fin 3 → Fin S4x100x12544.rank)
  inb_S300x100_S300x100_0_0 : ∀ a, (![0, 0] : Fin 2 → Nat) a + S300x100.size a ≤ S300x100.size a
  h_S300x100 : 0 < S300x100.numel
  shapeCasts_S300x100_S300x100 : S300x100.ShapeCasts S300x100
  inb_S300x1_S300x1_0_0 : ∀ a, (![0, 0] : Fin 2 → Nat) a + S300x1.size a ≤ S300x1.size a
  h_S300x1 : 0 < S300x1.numel
  shapeCasts_S300x1_S300x1 : S300x1.ShapeCasts S300x1
  inb_S1x100_S1x100_0_0 : ∀ a, (![0, 0] : Fin 2 → Nat) a + S1x100.size a ≤ S1x100.size a
  h_S1x100 : 0 < S1x100.numel
  shapeCasts_S1x100_S1x100 : S1x100.ShapeCasts S1x100
  inb_S1x300x1792_S1x300x1792_0_0_0 : ∀ a, (![0, 0, 0] : Fin 3 → Nat) a + S1x300x1792.size a ≤ S1x300x1792.size a
  h_S1x300x1792 : 0 < S1x300x1792.numel
  shapeCasts_S1x300x1792_S300x1792 : S1x300x1792.ShapeCasts S300x1792
  inb_S1x100x1792_S1x100x1792_0_0_0 : ∀ a, (![0, 0, 0] : Fin 3 → Nat) a + S1x100x1792.size a ≤ S1x100x1792.size a
  h_S1x100x1792 : 0 < S1x100x1792.numel
  shapeCasts_S1x100x1792_S100x1792 : S1x100x1792.ShapeCasts S100x1792
  bitsLt_bf16_f32 : FTy.bits .bf16 < FTy.bits .f32
  reduces_S300x1792_S300 : S300x1792.Reduces [1] S300
  shapeCasts_S300_S300x1 : S300.ShapeCasts S300x1
  broadcasts_S300x1_S300x100 : S300x1.Broadcasts S300x100
  broadcasts_S1x100_S300x100 : S1x100.Broadcasts S300x100
  inb_S1x300x100_S1x300x100_0_0_0 : ∀ a, (![0, 0, 0] : Fin 3 → Nat) a + S1x300x100.size a ≤ S1x300x100.size a
  h_S1x300x100 : 0 < S1x300x100.numel
  shapeCasts_S1x300x100_S300x100 : S1x300x100.ShapeCasts S300x100
  shapeCasts_S300x100_S1x300x100 : S300x100.ShapeCasts S1x300x100
  bcast_S_S4x300x80 : S_.BroadcastsInDim S4x300x80 (![] : Fin 0 → Fin S4x300x80.rank)
  bcast_S_S4x100 : S_.BroadcastsInDim S4x100 (![] : Fin 0 → Fin S4x100.rank)
  bcast_S4x100_S4x100x1_0_1 : S4x100.BroadcastsInDim S4x100x1 (![0, 1] : Fin 2 → Fin S4x100x1.rank)
  bcast_S_S4x300x100 : S_.BroadcastsInDim S4x300x100 (![] : Fin 0 → Fin S4x300x100.rank)
  gather_S4x300x256x256_S4x12544x2_S4x300x12544_1_23_0_0_23_2_130011_wf : GatherDims.WF S4x300x256x256 S4x12544x2 S4x300x12544 [1] [2, 3] [0] [2, 3] [0] 2 ![1, 300, 1, 1]
  gather_S4x100x256x256_S4x12544x2_S4x100x12544_1_23_0_0_23_2_110011_wf : GatherDims.WF S4x100x256x256 S4x12544x2 S4x100x12544 [1] [2, 3] [0] [2, 3] [0] 2 ![1, 100, 1, 1]
  dot_S300x1792_S100x1792_S300x100_1_1_0_0_n_n_wf : DotDims.WF S300x1792 S100x1792 S300x100 [1] [1] [0] [0] [] []
  dot_S1x1792_S100x1792_S1x100_1_1_0_0_n_n_wf : DotDims.WF S1x1792 S100x1792 S1x100 [1] [1] [0] [0] [] []
  gather_S4x300x80_S4x100x1_S4x300x100_1_2_0_0_2_2_13001_wf : GatherDims.WF S4x300x80 S4x100x1 S4x300x100 [1] [2] [0] [2] [0] 2 ![1, 300, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x300x1792.size a ≤ S4x300x12544.size a
  hwx0_0 : ∀ i : grid0.Coords, EltTy.bits .f32 = 32 ∨ (Rect.block (s := S4x300x12544) S1x300x1792.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x100x1792.size a ≤ S4x100x12544.size a
  hwx0_1 : ∀ i : grid0.Coords, EltTy.bits .f32 = 32 ∨ (Rect.block (s := S4x100x12544) S1x100x1792.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x300x100.size a ≤ S4x300x100.size a
  hwx0_2 : ∀ i : grid0.Coords, EltTy.bits .f32 = 32 ∨ (Rect.block (s := S4x300x100) S1x300x100.size (cc0_transform_2 i) (hinb0_2 i)).WholeWords (EltTy.packing .f32)

variable [Facts₀]

def gather_S4x300x256x256_S4x12544x2_S4x300x12544_1_23_0_0_23_2_130011 : GatherDims S4x300x256x256 S4x12544x2 S4x300x12544 where
  offsetDims := [1]
  collapsedSliceDims := [2, 3]
  operandBatchingDims := [0]
  startIndicesBatchingDims := [0]
  startIndexMap := [2, 3]
  indexVectorDim := 2
  sliceSizes := ![1, 300, 1, 1]
  wf := gather_S4x300x256x256_S4x12544x2_S4x300x12544_1_23_0_0_23_2_130011_wf
def gather_S4x100x256x256_S4x12544x2_S4x100x12544_1_23_0_0_23_2_110011 : GatherDims S4x100x256x256 S4x12544x2 S4x100x12544 where
  offsetDims := [1]
  collapsedSliceDims := [2, 3]
  operandBatchingDims := [0]
  startIndicesBatchingDims := [0]
  startIndexMap := [2, 3]
  indexVectorDim := 2
  sliceSizes := ![1, 100, 1, 1]
  wf := gather_S4x100x256x256_S4x12544x2_S4x100x12544_1_23_0_0_23_2_110011_wf
def dot_S300x1792_S100x1792_S300x100_1_1_0_0_n_n : DotDims S300x1792 S100x1792 S300x100 where
  lhsContracting := [1]
  rhsContracting := [1]
  lhsNonContracting := [0]
  rhsNonContracting := [0]
  lhsBatch := []
  rhsBatch := []
  wf := dot_S300x1792_S100x1792_S300x100_1_1_0_0_n_n_wf
def dot_S1x1792_S100x1792_S1x100_1_1_0_0_n_n : DotDims S1x1792 S100x1792 S1x100 where
  lhsContracting := [1]
  rhsContracting := [1]
  lhsNonContracting := [0]
  rhsNonContracting := [0]
  lhsBatch := []
  rhsBatch := []
  wf := dot_S1x1792_S100x1792_S1x100_1_1_0_0_n_n_wf
def gather_S4x300x80_S4x100x1_S4x300x100_1_2_0_0_2_2_13001 : GatherDims S4x300x80 S4x100x1 S4x300x100 where
  offsetDims := [1]
  collapsedSliceDims := [2]
  operandBatchingDims := [0]
  startIndicesBatchingDims := [0]
  startIndexMap := [2]
  indexVectorDim := 2
  sliceSizes := ![1, 300, 1]
  wf := gather_S4x300x80_S4x100x1_S4x300x100_1_2_0_0_2_2_13001_wf

abbrev win0_0 : Pipeline.Window sig grid0 :=
  Pipeline.Window.ofSpec (Memref.whole main_v190) S1x300x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v381) S1x100x1792.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v382) S1x300x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x300x80 : Shape := ⟨3, ![4, 300, 80]⟩
abbrev S4x300x256x256 : Shape := ⟨4, ![4, 300, 256, 256]⟩
abbrev S4x100 : Shape := ⟨2, ![4, 100]⟩
abbrev S4x100x256x256 : Shape := ⟨4, ![4, 100, 256, 256]⟩
abbrev S4x12544x2 : Shape := ⟨3, ![4, 12544, 2]⟩
abbrev S4x12544x1 : Shape := ⟨3, ![4, 12544, 1]⟩
abbrev S4x12544 : Shape := ⟨2, ![4, 12544]⟩
abbrev S_ : Shape := ⟨0, ![]⟩
abbrev S4x300x12544 : Shape := ⟨3, ![4, 300, 12544]⟩
abbrev S4x1x12544 : Shape := ⟨3, ![4, 1, 12544]⟩
abbrev S4x100x12544 : Shape := ⟨3, ![4, 100, 12544]⟩
abbrev S4x100x1 : Shape := ⟨3, ![4, 100, 1]⟩
abbrev S4x300x100 : Shape := ⟨3, ![4, 300, 100]⟩
abbrev S4x300 : Shape := ⟨2, ![4, 300]⟩
abbrev S4x300x1 : Shape := ⟨3, ![4, 300, 1]⟩
abbrev S4x1x100 : Shape := ⟨3, ![4, 1, 100]⟩

abbrev nBuf : Space → Nat
  | .hbm => 725
  | .vmem => 0
  | .smem => 0
  | _ => 0

abbrev hbmTy0_0 (i : Nat) : BufTy := match i % 128 with
  | 0 => ⟨S4x300x80, .f32⟩
  | 1 => ⟨S4x300x256x256, .f32⟩
  | 2 => ⟨S4x100, .i32⟩
  | 3 => ⟨S4x100x256x256, .f32⟩
  | 4 => ⟨S4x12544x2, .f32⟩
  | 5 => ⟨S4x12544x1, .f32⟩
  | 6 => ⟨S4x12544, .f32⟩
  | 7 => ⟨S_, .f32⟩
  | 8 => ⟨S4x12544, .f32⟩
  | 9 => ⟨S4x12544, .f32⟩
  | 10 => ⟨S_, .f32⟩
  | 11 => ⟨S4x12544, .f32⟩
  | 12 => ⟨S4x12544, .f32⟩
  | 13 => ⟨S4x12544x1, .f32⟩
  | 14 => ⟨S4x12544, .f32⟩
  | 15 => ⟨S_, .f32⟩
  | 16 => ⟨S4x12544, .f32⟩
  | 17 => ⟨S4x12544, .f32⟩
  | 18 => ⟨S_, .f32⟩
  | 19 => ⟨S4x12544, .f32⟩
  | 20 => ⟨S4x12544, .f32⟩
  | 21 => ⟨S4x12544, .f32⟩
  | 22 => ⟨S4x12544, .f32⟩
  | 23 => ⟨S4x12544, .f32⟩
  | 24 => ⟨S4x12544, .f32⟩
  | 25 => ⟨S_, .i32⟩
  | 26 => ⟨S_, .i32⟩
  | 27 => ⟨S_, .f32⟩
  | 28 => ⟨S4x12544, .f32⟩
  | 29 => ⟨S4x12544, .f32⟩
  | 30 => ⟨S_, .f32⟩
  | 31 => ⟨S4x12544, .f32⟩
  | 32 => ⟨S4x12544, .f32⟩
  | 33 => ⟨S4x12544, .i32⟩
  | 34 => ⟨S_, .i32⟩
  | 35 => ⟨S_, .i32⟩
  | 36 => ⟨S_, .f32⟩
  | 37 => ⟨S4x12544, .f32⟩
  | 38 => ⟨S4x12544, .f32⟩
  | 39 => ⟨S_, .f32⟩
  | 40 => ⟨S4x12544, .f32⟩
  | 41 => ⟨S4x12544, .f32⟩
  | 42 => ⟨S4x12544, .i32⟩
  | 43 => ⟨S_, .f32⟩
  | 44 => ⟨S4x12544, .f32⟩
  | 45 => ⟨S4x12544, .i1⟩
  | 46 => ⟨S_, .f32⟩
  | 47 => ⟨S4x12544, .f32⟩
  | 48 => ⟨S4x12544, .i1⟩
  | 49 => ⟨S4x12544, .i1⟩
  | 50 => ⟨S_, .f32⟩
  | 51 => ⟨S4x12544, .f32⟩
  | 52 => ⟨S4x12544, .i1⟩
  | 53 => ⟨S4x12544, .i1⟩
  | 54 => ⟨S_, .f32⟩
  | 55 => ⟨S4x12544, .f32⟩
  | 56 => ⟨S4x12544, .i1⟩
  | 57 => ⟨S4x12544, .i1⟩
  | 58 => ⟨S4x12544, .f32⟩
  | 59 => ⟨S_, .i32⟩
  | 60 => ⟨S4x12544, .i32⟩
  | 61 => ⟨S4x12544, .i1⟩
  | 62 => ⟨S_, .i32⟩
  | 63 => ⟨S4x12544, .i32⟩
  | 64 => ⟨S4x12544, .i32⟩
  | 65 => ⟨S4x12544, .i32⟩
  | 66 => ⟨S_, .i32⟩
  | 67 => ⟨S4x12544, .i32⟩
  | 68 => ⟨S4x12544, .i1⟩
  | 69 => ⟨S_, .i32⟩
  | 70 => ⟨S4x12544, .i32⟩
  | 71 => ⟨S4x12544, .i32⟩
  | 72 => ⟨S4x12544, .i32⟩
  | 73 => ⟨S4x12544x1, .i32⟩
  | 74 => ⟨S4x12544x1, .i32⟩
  | 75 => ⟨S4x12544x2, .i32⟩
  | 76 => ⟨S4x300x12544, .f32⟩
  | 77 => ⟨S4x1x12544, .f32⟩
  | 78 => ⟨S4x300x12544, .f32⟩
  | 79 => ⟨S4x300x12544, .f32⟩
  | 80 => ⟨S_, .f32⟩
  | 81 => ⟨S4x12544, .f32⟩
  | 82 => ⟨S4x12544, .f32⟩
  | 83 => ⟨S_, .i32⟩
  | 84 => ⟨S_, .i32⟩
  | 85 => ⟨S_, .f32⟩
  | 86 => ⟨S4x12544, .f32⟩
  | 87 => ⟨S4x12544, .f32⟩
  | 88 => ⟨S_, .f32⟩
  | 89 => ⟨S4x12544, .f32⟩
  | 90 => ⟨S4x12544, .f32⟩
  | 91 => ⟨S4x12544, .i32⟩
  | 92 => ⟨S_, .i32⟩
  | 93 => ⟨S_, .i32⟩
  | 94 => ⟨S_, .f32⟩
  | 95 => ⟨S4x12544, .f32⟩
  | 96 => ⟨S4x12544, .f32⟩
  | 97 => ⟨S_, .f32⟩
  | 98 => ⟨S4x12544, .f32⟩
  | 99 => ⟨S4x12544, .f32⟩
  | 100 => ⟨S4x12544, .i32⟩
  | 101 => ⟨S_, .f32⟩
  | 102 => ⟨S4x12544, .f32⟩
  | 103 => ⟨S4x12544, .i1⟩
  | 104 => ⟨S_, .f32⟩
  | 105 => ⟨S4x12544, .f32⟩
  | 106 => ⟨S4x12544, .i1⟩
  | 107 => ⟨S4x12544, .i1⟩
  | 108 => ⟨S_, .f32⟩
  | 109 => ⟨S4x12544, .f32⟩
  | 110 => ⟨S4x12544, .i1⟩
  | 111 => ⟨S4x12544, .i1⟩
  | 112 => ⟨S_, .f32⟩
  | 113 => ⟨S4x12544, .f32⟩
  | 114 => ⟨S4x12544, .i1⟩
  | 115 => ⟨S4x12544, .i1⟩
  | 116 => ⟨S4x12544, .f32⟩
  | 117 => ⟨S_, .i32⟩
  | 118 => ⟨S4x12544, .i32⟩
  | 119 => ⟨S4x12544, .i1⟩
  | 120 => ⟨S_, .i32⟩
  | 121 => ⟨S4x12544, .i32⟩
  | 122 => ⟨S4x12544, .i32⟩
  | 123 => ⟨S4x12544, .i32⟩
  | 124 => ⟨S_, .i32⟩
  | 125 => ⟨S4x12544, .i32⟩
  | 126 => ⟨S4x12544, .i1⟩
  | 127 => ⟨S_, .i32⟩
  | _ => ⟨S4x300x80, .f32⟩

abbrev hbmTy0_1 (i : Nat) : BufTy := match i % 128 with
  | 0 => ⟨S4x12544, .i32⟩
  | 1 => ⟨S4x12544, .i32⟩
  | 2 => ⟨S4x12544, .i32⟩
  | 3 => ⟨S4x12544x1, .i32⟩
  | 4 => ⟨S4x12544x1, .i32⟩
  | 5 => ⟨S4x12544x2, .i32⟩
  | 6 => ⟨S4x300x12544, .f32⟩
  | 7 => ⟨S4x1x12544, .f32⟩
  | 8 => ⟨S4x300x12544, .f32⟩
  | 9 => ⟨S4x300x12544, .f32⟩
  | 10 => ⟨S_, .f32⟩
  | 11 => ⟨S4x12544, .f32⟩
  | 12 => ⟨S4x12544, .f32⟩
  | 13 => ⟨S_, .i32⟩
  | 14 => ⟨S_, .i32⟩
  | 15 => ⟨S_, .f32⟩
  | 16 => ⟨S4x12544, .f32⟩
  | 17 => ⟨S4x12544, .f32⟩
  | 18 => ⟨S_, .f32⟩
  | 19 => ⟨S4x12544, .f32⟩
  | 20 => ⟨S4x12544, .f32⟩
  | 21 => ⟨S4x12544, .i32⟩
  | 22 => ⟨S_, .i32⟩
  | 23 => ⟨S_, .i32⟩
  | 24 => ⟨S_, .f32⟩
  | 25 => ⟨S4x12544, .f32⟩
  | 26 => ⟨S4x12544, .f32⟩
  | 27 => ⟨S_, .f32⟩
  | 28 => ⟨S4x12544, .f32⟩
  | 29 => ⟨S4x12544, .f32⟩
  | 30 => ⟨S4x12544, .i32⟩
  | 31 => ⟨S_, .f32⟩
  | 32 => ⟨S4x12544, .f32⟩
  | 33 => ⟨S4x12544, .i1⟩
  | 34 => ⟨S_, .f32⟩
  | 35 => ⟨S4x12544, .f32⟩
  | 36 => ⟨S4x12544, .i1⟩
  | 37 => ⟨S4x12544, .i1⟩
  | 38 => ⟨S_, .f32⟩
  | 39 => ⟨S4x12544, .f32⟩
  | 40 => ⟨S4x12544, .i1⟩
  | 41 => ⟨S4x12544, .i1⟩
  | 42 => ⟨S_, .f32⟩
  | 43 => ⟨S4x12544, .f32⟩
  | 44 => ⟨S4x12544, .i1⟩
  | 45 => ⟨S4x12544, .i1⟩
  | 46 => ⟨S4x12544, .f32⟩
  | 47 => ⟨S_, .i32⟩
  | 48 => ⟨S4x12544, .i32⟩
  | 49 => ⟨S4x12544, .i1⟩
  | 50 => ⟨S_, .i32⟩
  | 51 => ⟨S4x12544, .i32⟩
  | 52 => ⟨S4x12544, .i32⟩
  | 53 => ⟨S4x12544, .i32⟩
  | 54 => ⟨S_, .i32⟩
  | 55 => ⟨S4x12544, .i32⟩
  | 56 => ⟨S4x12544, .i1⟩
  | 57 => ⟨S_, .i32⟩
  | 58 => ⟨S4x12544, .i32⟩
  | 59 => ⟨S4x12544, .i32⟩
  | 60 => ⟨S4x12544, .i32⟩
  | 61 => ⟨S4x12544x1, .i32⟩
  | 62 => ⟨S4x12544x1, .i32⟩
  | 63 => ⟨S4x12544x2, .i32⟩
  | 64 => ⟨S4x300x12544, .f32⟩
  | 65 => ⟨S4x1x12544, .f32⟩
  | 66 => ⟨S4x300x12544, .f32⟩
  | 67 => ⟨S4x300x12544, .f32⟩
  | 68 => ⟨S_, .f32⟩
  | 69 => ⟨S4x12544, .f32⟩
  | 70 => ⟨S4x12544, .f32⟩
  | 71 => ⟨S_, .f32⟩
  | 72 => ⟨S4x12544, .f32⟩
  | 73 => ⟨S4x12544, .f32⟩
  | 74 => ⟨S_, .i32⟩
  | 75 => ⟨S_, .i32⟩
  | 76 => ⟨S_, .f32⟩
  | 77 => ⟨S4x12544, .f32⟩
  | 78 => ⟨S4x12544, .f32⟩
  | 79 => ⟨S_, .f32⟩
  | 80 => ⟨S4x12544, .f32⟩
  | 81 => ⟨S4x12544, .f32⟩
  | 82 => ⟨S4x12544, .i32⟩
  | 83 => ⟨S_, .i32⟩
  | 84 => ⟨S_, .i32⟩
  | 85 => ⟨S_, .f32⟩
  | 86 => ⟨S4x12544, .f32⟩
  | 87 => ⟨S4x12544, .f32⟩
  | 88 => ⟨S_, .f32⟩
  | 89 => ⟨S4x12544, .f32⟩
  | 90 => ⟨S4x12544, .f32⟩
  | 91 => ⟨S4x12544, .i32⟩
  | 92 => ⟨S_, .f32⟩
  | 93 => ⟨S4x12544, .f32⟩
  | 94 => ⟨S4x12544, .i1⟩
  | 95 => ⟨S_, .f32⟩
  | 96 => ⟨S4x12544, .f32⟩
  | 97 => ⟨S4x12544, .i1⟩
  | 98 => ⟨S4x12544, .i1⟩
  | 99 => ⟨S_, .f32⟩
  | 100 => ⟨S4x12544, .f32⟩
  | 101 => ⟨S4x12544, .i1⟩
  | 102 => ⟨S4x12544, .i1⟩
  | 103 => ⟨S_, .f32⟩
  | 104 => ⟨S4x12544, .f32⟩
  | 105 => ⟨S4x12544, .i1⟩
  | 106 => ⟨S4x12544, .i1⟩
  | 107 => ⟨S4x12544, .f32⟩
  | 108 => ⟨S_, .i32⟩
  | 109 => ⟨S4x12544, .i32⟩
  | 110 => ⟨S4x12544, .i1⟩
  | 111 => ⟨S_, .i32⟩
  | 112 => ⟨S4x12544, .i32⟩
  | 113 => ⟨S4x12544, .i32⟩
  | 114 => ⟨S4x12544, .i32⟩
  | 115 => ⟨S_, .i32⟩
  | 116 => ⟨S4x12544, .i32⟩
  | 117 => ⟨S4x12544, .i1⟩
  | 118 => ⟨S_, .i32⟩
  | 119 => ⟨S4x12544, .i32⟩
  | 120 => ⟨S4x12544, .i32⟩
  | 121 => ⟨S4x12544, .i32⟩
  | 122 => ⟨S4x12544x1, .i32⟩
  | 123 => ⟨S4x12544x1, .i32⟩
  | 124 => ⟨S4x12544x2, .i32⟩
  | 125 => ⟨S4x300x12544, .f32⟩
  | 126 => ⟨S4x1x12544, .f32⟩
  | 127 => ⟨S4x300x12544, .f32⟩
  | _ => ⟨S4x300x80, .f32⟩

abbrev hbmTy0_2 (i : Nat) : BufTy := match i % 128 with
  | 0 => ⟨S4x300x12544, .f32⟩
  | 1 => ⟨S_, .f32⟩
  | 2 => ⟨S4x12544, .f32⟩
  | 3 => ⟨S4x12544, .f32⟩
  | 4 => ⟨S4x1x12544, .f32⟩
  | 5 => ⟨S4x300x12544, .f32⟩
  | 6 => ⟨S4x300x12544, .f32⟩
  | 7 => ⟨S_, .f32⟩
  | 8 => ⟨S4x12544, .f32⟩
  | 9 => ⟨S4x12544, .f32⟩
  | 10 => ⟨S4x1x12544, .f32⟩
  | 11 => ⟨S4x300x12544, .f32⟩
  | 12 => ⟨S4x300x12544, .f32⟩
  | 13 => ⟨S4x1x12544, .f32⟩
  | 14 => ⟨S4x300x12544, .f32⟩
  | 15 => ⟨S4x300x12544, .f32⟩
  | 16 => ⟨S_, .f32⟩
  | 17 => ⟨S4x12544, .f32⟩
  | 18 => ⟨S4x12544, .f32⟩
  | 19 => ⟨S4x1x12544, .f32⟩
  | 20 => ⟨S4x300x12544, .f32⟩
  | 21 => ⟨S4x300x12544, .f32⟩
  | 22 => ⟨S4x300x12544, .f32⟩
  | 23 => ⟨S_, .f32⟩
  | 24 => ⟨S4x12544, .f32⟩
  | 25 => ⟨S4x12544, .f32⟩
  | 26 => ⟨S4x1x12544, .f32⟩
  | 27 => ⟨S4x300x12544, .f32⟩
  | 28 => ⟨S4x300x12544, .f32⟩
  | 29 => ⟨S4x1x12544, .f32⟩
  | 30 => ⟨S4x300x12544, .f32⟩
  | 31 => ⟨S4x300x12544, .f32⟩
  | 32 => ⟨S4x300x12544, .f32⟩
  | 33 => ⟨S4x1x12544, .f32⟩
  | 34 => ⟨S4x300x12544, .f32⟩
  | 35 => ⟨S4x300x12544, .f32⟩
  | 36 => ⟨S4x1x12544, .f32⟩
  | 37 => ⟨S4x300x12544, .f32⟩
  | 38 => ⟨S4x300x12544, .f32⟩
  | 39 => ⟨S4x300x12544, .f32⟩
  | 40 => ⟨S4x12544x1, .f32⟩
  | 41 => ⟨S4x12544, .f32⟩
  | 42 => ⟨S_, .f32⟩
  | 43 => ⟨S4x12544, .f32⟩
  | 44 => ⟨S4x12544, .f32⟩
  | 45 => ⟨S_, .f32⟩
  | 46 => ⟨S4x12544, .f32⟩
  | 47 => ⟨S4x12544, .f32⟩
  | 48 => ⟨S4x12544x1, .f32⟩
  | 49 => ⟨S4x12544, .f32⟩
  | 50 => ⟨S_, .f32⟩
  | 51 => ⟨S4x12544, .f32⟩
  | 52 => ⟨S4x12544, .f32⟩
  | 53 => ⟨S_, .f32⟩
  | 54 => ⟨S4x12544, .f32⟩
  | 55 => ⟨S4x12544, .f32⟩
  | 56 => ⟨S4x12544, .f32⟩
  | 57 => ⟨S4x12544, .f32⟩
  | 58 => ⟨S4x12544, .f32⟩
  | 59 => ⟨S4x12544, .f32⟩
  | 60 => ⟨S_, .i32⟩
  | 61 => ⟨S_, .i32⟩
  | 62 => ⟨S_, .f32⟩
  | 63 => ⟨S4x12544, .f32⟩
  | 64 => ⟨S4x12544, .f32⟩
  | 65 => ⟨S_, .f32⟩
  | 66 => ⟨S4x12544, .f32⟩
  | 67 => ⟨S4x12544, .f32⟩
  | 68 => ⟨S4x12544, .i32⟩
  | 69 => ⟨S_, .i32⟩
  | 70 => ⟨S_, .i32⟩
  | 71 => ⟨S_, .f32⟩
  | 72 => ⟨S4x12544, .f32⟩
  | 73 => ⟨S4x12544, .f32⟩
  | 74 => ⟨S_, .f32⟩
  | 75 => ⟨S4x12544, .f32⟩
  | 76 => ⟨S4x12544, .f32⟩
  | 77 => ⟨S4x12544, .i32⟩
  | 78 => ⟨S_, .f32⟩
  | 79 => ⟨S4x12544, .f32⟩
  | 80 => ⟨S4x12544, .i1⟩
  | 81 => ⟨S_, .f32⟩
  | 82 => ⟨S4x12544, .f32⟩
  | 83 => ⟨S4x12544, .i1⟩
  | 84 => ⟨S4x12544, .i1⟩
  | 85 => ⟨S_, .f32⟩
  | 86 => ⟨S4x12544, .f32⟩
  | 87 => ⟨S4x12544, .i1⟩
  | 88 => ⟨S4x12544, .i1⟩
  | 89 => ⟨S_, .f32⟩
  | 90 => ⟨S4x12544, .f32⟩
  | 91 => ⟨S4x12544, .i1⟩
  | 92 => ⟨S4x12544, .i1⟩
  | 93 => ⟨S4x12544, .f32⟩
  | 94 => ⟨S_, .i32⟩
  | 95 => ⟨S4x12544, .i32⟩
  | 96 => ⟨S4x12544, .i1⟩
  | 97 => ⟨S_, .i32⟩
  | 98 => ⟨S4x12544, .i32⟩
  | 99 => ⟨S4x12544, .i32⟩
  | 100 => ⟨S4x12544, .i32⟩
  | 101 => ⟨S_, .i32⟩
  | 102 => ⟨S4x12544, .i32⟩
  | 103 => ⟨S4x12544, .i1⟩
  | 104 => ⟨S_, .i32⟩
  | 105 => ⟨S4x12544, .i32⟩
  | 106 => ⟨S4x12544, .i32⟩
  | 107 => ⟨S4x12544, .i32⟩
  | 108 => ⟨S4x12544x1, .i32⟩
  | 109 => ⟨S4x12544x1, .i32⟩
  | 110 => ⟨S4x12544x2, .i32⟩
  | 111 => ⟨S4x100x12544, .f32⟩
  | 112 => ⟨S4x1x12544, .f32⟩
  | 113 => ⟨S4x100x12544, .f32⟩
  | 114 => ⟨S4x100x12544, .f32⟩
  | 115 => ⟨S_, .f32⟩
  | 116 => ⟨S4x12544, .f32⟩
  | 117 => ⟨S4x12544, .f32⟩
  | 118 => ⟨S_, .i32⟩
  | 119 => ⟨S_, .i32⟩
  | 120 => ⟨S_, .f32⟩
  | 121 => ⟨S4x12544, .f32⟩
  | 122 => ⟨S4x12544, .f32⟩
  | 123 => ⟨S_, .f32⟩
  | 124 => ⟨S4x12544, .f32⟩
  | 125 => ⟨S4x12544, .f32⟩
  | 126 => ⟨S4x12544, .i32⟩
  | 127 => ⟨S_, .i32⟩
  | _ => ⟨S4x300x80, .f32⟩

abbrev hbmTy0_3 (i : Nat) : BufTy := match i % 128 with
  | 0 => ⟨S_, .i32⟩
  | 1 => ⟨S_, .f32⟩
  | 2 => ⟨S4x12544, .f32⟩
  | 3 => ⟨S4x12544, .f32⟩
  | 4 => ⟨S_, .f32⟩
  | 5 => ⟨S4x12544, .f32⟩
  | 6 => ⟨S4x12544, .f32⟩
  | 7 => ⟨S4x12544, .i32⟩
  | 8 => ⟨S_, .f32⟩
  | 9 => ⟨S4x12544, .f32⟩
  | 10 => ⟨S4x12544, .i1⟩
  | 11 => ⟨S_, .f32⟩
  | 12 => ⟨S4x12544, .f32⟩
  | 13 => ⟨S4x12544, .i1⟩
  | 14 => ⟨S4x12544, .i1⟩
  | 15 => ⟨S_, .f32⟩
  | 16 => ⟨S4x12544, .f32⟩
  | 17 => ⟨S4x12544, .i1⟩
  | 18 => ⟨S4x12544, .i1⟩
  | 19 => ⟨S_, .f32⟩
  | 20 => ⟨S4x12544, .f32⟩
  | 21 => ⟨S4x12544, .i1⟩
  | 22 => ⟨S4x12544, .i1⟩
  | 23 => ⟨S4x12544, .f32⟩
  | 24 => ⟨S_, .i32⟩
  | 25 => ⟨S4x12544, .i32⟩
  | 26 => ⟨S4x12544, .i1⟩
  | 27 => ⟨S_, .i32⟩
  | 28 => ⟨S4x12544, .i32⟩
  | 29 => ⟨S4x12544, .i32⟩
  | 30 => ⟨S4x12544, .i32⟩
  | 31 => ⟨S_, .i32⟩
  | 32 => ⟨S4x12544, .i32⟩
  | 33 => ⟨S4x12544, .i1⟩
  | 34 => ⟨S_, .i32⟩
  | 35 => ⟨S4x12544, .i32⟩
  | 36 => ⟨S4x12544, .i32⟩
  | 37 => ⟨S4x12544, .i32⟩
  | 38 => ⟨S4x12544x1, .i32⟩
  | 39 => ⟨S4x12544x1, .i32⟩
  | 40 => ⟨S4x12544x2, .i32⟩
  | 41 => ⟨S4x100x12544, .f32⟩
  | 42 => ⟨S4x1x12544, .f32⟩
  | 43 => ⟨S4x100x12544, .f32⟩
  | 44 => ⟨S4x100x12544, .f32⟩
  | 45 => ⟨S_, .f32⟩
  | 46 => ⟨S4x12544, .f32⟩
  | 47 => ⟨S4x12544, .f32⟩
  | 48 => ⟨S_, .i32⟩
  | 49 => ⟨S_, .i32⟩
  | 50 => ⟨S_, .f32⟩
  | 51 => ⟨S4x12544, .f32⟩
  | 52 => ⟨S4x12544, .f32⟩
  | 53 => ⟨S_, .f32⟩
  | 54 => ⟨S4x12544, .f32⟩
  | 55 => ⟨S4x12544, .f32⟩
  | 56 => ⟨S4x12544, .i32⟩
  | 57 => ⟨S_, .i32⟩
  | 58 => ⟨S_, .i32⟩
  | 59 => ⟨S_, .f32⟩
  | 60 => ⟨S4x12544, .f32⟩
  | 61 => ⟨S4x12544, .f32⟩
  | 62 => ⟨S_, .f32⟩
  | 63 => ⟨S4x12544, .f32⟩
  | 64 => ⟨S4x12544, .f32⟩
  | 65 => ⟨S4x12544, .i32⟩
  | 66 => ⟨S_, .f32⟩
  | 67 => ⟨S4x12544, .f32⟩
  | 68 => ⟨S4x12544, .i1⟩
  | 69 => ⟨S_, .f32⟩
  | 70 => ⟨S4x12544, .f32⟩
  | 71 => ⟨S4x12544, .i1⟩
  | 72 => ⟨S4x12544, .i1⟩
  | 73 => ⟨S_, .f32⟩
  | 74 => ⟨S4x12544, .f32⟩
  | 75 => ⟨S4x12544, .i1⟩
  | 76 => ⟨S4x12544, .i1⟩
  | 77 => ⟨S_, .f32⟩
  | 78 => ⟨S4x12544, .f32⟩
  | 79 => ⟨S4x12544, .i1⟩
  | 80 => ⟨S4x12544, .i1⟩
  | 81 => ⟨S4x12544, .f32⟩
  | 82 => ⟨S_, .i32⟩
  | 83 => ⟨S4x12544, .i32⟩
  | 84 => ⟨S4x12544, .i1⟩
  | 85 => ⟨S_, .i32⟩
  | 86 => ⟨S4x12544, .i32⟩
  | 87 => ⟨S4x12544, .i32⟩
  | 88 => ⟨S4x12544, .i32⟩
  | 89 => ⟨S_, .i32⟩
  | 90 => ⟨S4x12544, .i32⟩
  | 91 => ⟨S4x12544, .i1⟩
  | 92 => ⟨S_, .i32⟩
  | 93 => ⟨S4x12544, .i32⟩
  | 94 => ⟨S4x12544, .i32⟩
  | 95 => ⟨S4x12544, .i32⟩
  | 96 => ⟨S4x12544x1, .i32⟩
  | 97 => ⟨S4x12544x1, .i32⟩
  | 98 => ⟨S4x12544x2, .i32⟩
  | 99 => ⟨S4x100x12544, .f32⟩
  | 100 => ⟨S4x1x12544, .f32⟩
  | 101 => ⟨S4x100x12544, .f32⟩
  | 102 => ⟨S4x100x12544, .f32⟩
  | 103 => ⟨S_, .f32⟩
  | 104 => ⟨S4x12544, .f32⟩
  | 105 => ⟨S4x12544, .f32⟩
  | 106 => ⟨S_, .f32⟩
  | 107 => ⟨S4x12544, .f32⟩
  | 108 => ⟨S4x12544, .f32⟩
  | 109 => ⟨S_, .i32⟩
  | 110 => ⟨S_, .i32⟩
  | 111 => ⟨S_, .f32⟩
  | 112 => ⟨S4x12544, .f32⟩
  | 113 => ⟨S4x12544, .f32⟩
  | 114 => ⟨S_, .f32⟩
  | 115 => ⟨S4x12544, .f32⟩
  | 116 => ⟨S4x12544, .f32⟩
  | 117 => ⟨S4x12544, .i32⟩
  | 118 => ⟨S_, .i32⟩
  | 119 => ⟨S_, .i32⟩
  | 120 => ⟨S_, .f32⟩
  | 121 => ⟨S4x12544, .f32⟩
  | 122 => ⟨S4x12544, .f32⟩
  | 123 => ⟨S_, .f32⟩
  | 124 => ⟨S4x12544, .f32⟩
  | 125 => ⟨S4x12544, .f32⟩
  | 126 => ⟨S4x12544, .i32⟩
  | 127 => ⟨S_, .f32⟩
  | _ => ⟨S4x300x80, .f32⟩

abbrev hbmTy0_4 (i : Nat) : BufTy := match i % 128 with
  | 0 => ⟨S4x12544, .f32⟩
  | 1 => ⟨S4x12544, .i1⟩
  | 2 => ⟨S_, .f32⟩
  | 3 => ⟨S4x12544, .f32⟩
  | 4 => ⟨S4x12544, .i1⟩
  | 5 => ⟨S4x12544, .i1⟩
  | 6 => ⟨S_, .f32⟩
  | 7 => ⟨S4x12544, .f32⟩
  | 8 => ⟨S4x12544, .i1⟩
  | 9 => ⟨S4x12544, .i1⟩
  | 10 => ⟨S_, .f32⟩
  | 11 => ⟨S4x12544, .f32⟩
  | 12 => ⟨S4x12544, .i1⟩
  | 13 => ⟨S4x12544, .i1⟩
  | 14 => ⟨S4x12544, .f32⟩
  | 15 => ⟨S_, .i32⟩
  | 16 => ⟨S4x12544, .i32⟩
  | 17 => ⟨S4x12544, .i1⟩
  | 18 => ⟨S_, .i32⟩
  | 19 => ⟨S4x12544, .i32⟩
  | 20 => ⟨S4x12544, .i32⟩
  | 21 => ⟨S4x12544, .i32⟩
  | 22 => ⟨S_, .i32⟩
  | 23 => ⟨S4x12544, .i32⟩
  | 24 => ⟨S4x12544, .i1⟩
  | 25 => ⟨S_, .i32⟩
  | 26 => ⟨S4x12544, .i32⟩
  | 27 => ⟨S4x12544, .i32⟩
  | 28 => ⟨S4x12544, .i32⟩
  | 29 => ⟨S4x12544x1, .i32⟩
  | 30 => ⟨S4x12544x1, .i32⟩
  | 31 => ⟨S4x12544x2, .i32⟩
  | 32 => ⟨S4x100x12544, .f32⟩
  | 33 => ⟨S4x1x12544, .f32⟩
  | 34 => ⟨S4x100x12544, .f32⟩
  | 35 => ⟨S4x100x12544, .f32⟩
  | 36 => ⟨S_, .f32⟩
  | 37 => ⟨S4x12544, .f32⟩
  | 38 => ⟨S4x12544, .f32⟩
  | 39 => ⟨S4x1x12544, .f32⟩
  | 40 => ⟨S4x100x12544, .f32⟩
  | 41 => ⟨S4x100x12544, .f32⟩
  | 42 => ⟨S_, .f32⟩
  | 43 => ⟨S4x12544, .f32⟩
  | 44 => ⟨S4x12544, .f32⟩
  | 45 => ⟨S4x1x12544, .f32⟩
  | 46 => ⟨S4x100x12544, .f32⟩
  | 47 => ⟨S4x100x12544, .f32⟩
  | 48 => ⟨S4x1x12544, .f32⟩
  | 49 => ⟨S4x100x12544, .f32⟩
  | 50 => ⟨S4x100x12544, .f32⟩
  | 51 => ⟨S_, .f32⟩
  | 52 => ⟨S4x12544, .f32⟩
  | 53 => ⟨S4x12544, .f32⟩
  | 54 => ⟨S4x1x12544, .f32⟩
  | 55 => ⟨S4x100x12544, .f32⟩
  | 56 => ⟨S4x100x12544, .f32⟩
  | 57 => ⟨S4x100x12544, .f32⟩
  | 58 => ⟨S_, .f32⟩
  | 59 => ⟨S4x12544, .f32⟩
  | 60 => ⟨S4x12544, .f32⟩
  | 61 => ⟨S4x1x12544, .f32⟩
  | 62 => ⟨S4x100x12544, .f32⟩
  | 63 => ⟨S4x100x12544, .f32⟩
  | 64 => ⟨S4x1x12544, .f32⟩
  | 65 => ⟨S4x100x12544, .f32⟩
  | 66 => ⟨S4x100x12544, .f32⟩
  | 67 => ⟨S4x100x12544, .f32⟩
  | 68 => ⟨S4x1x12544, .f32⟩
  | 69 => ⟨S4x100x12544, .f32⟩
  | 70 => ⟨S4x100x12544, .f32⟩
  | 71 => ⟨S4x1x12544, .f32⟩
  | 72 => ⟨S4x100x12544, .f32⟩
  | 73 => ⟨S4x100x12544, .f32⟩
  | 74 => ⟨S4x100x12544, .f32⟩
  | 75 => ⟨S4x300x80, .f32⟩
  | 76 => ⟨S4x300x80, .f32⟩
  | 77 => ⟨S_, .f32⟩
  | 78 => ⟨S4x300x80, .f32⟩
  | 79 => ⟨S4x300x80, .f32⟩
  | 80 => ⟨S_, .f32⟩
  | 81 => ⟨S4x300x80, .f32⟩
  | 82 => ⟨S4x300x80, .f32⟩
  | 83 => ⟨S_, .f32⟩
  | 84 => ⟨S4x300x80, .f32⟩
  | 85 => ⟨S4x300x80, .f32⟩
  | 86 => ⟨S_, .f32⟩
  | 87 => ⟨S4x300x80, .f32⟩
  | 88 => ⟨S4x300x80, .f32⟩
  | 89 => ⟨S_, .f32⟩
  | 90 => ⟨S4x300x80, .f32⟩
  | 91 => ⟨S4x300x80, .f32⟩
  | 92 => ⟨S_, .f32⟩
  | 93 => ⟨S4x300x80, .f32⟩
  | 94 => ⟨S4x300x80, .f32⟩
  | 95 => ⟨S4x300x80, .f32⟩
  | 96 => ⟨S4x300x80, .f32⟩
  | 97 => ⟨S4x300x80, .f32⟩
  | 98 => ⟨S_, .f32⟩
  | 99 => ⟨S4x300x80, .f32⟩
  | 100 => ⟨S4x300x80, .f32⟩
  | 101 => ⟨S_, .f32⟩
  | 102 => ⟨S4x300x80, .f32⟩
  | 103 => ⟨S4x300x80, .f32⟩
  | 104 => ⟨S_, .f32⟩
  | 105 => ⟨S4x300x80, .f32⟩
  | 106 => ⟨S4x300x80, .f32⟩
  | 107 => ⟨S_, .f32⟩
  | 108 => ⟨S4x300x80, .f32⟩
  | 109 => ⟨S4x300x80, .f32⟩
  | 110 => ⟨S4x300x80, .f32⟩
  | 111 => ⟨S4x300x80, .f32⟩
  | 112 => ⟨S4x300x80, .f32⟩
  | 113 => ⟨S_, .i32⟩
  | 114 => ⟨S4x100, .i32⟩
  | 115 => ⟨S4x100, .i1⟩
  | 116 => ⟨S_, .i32⟩
  | 117 => ⟨S4x100, .i32⟩
  | 118 => ⟨S4x100, .i32⟩
  | 119 => ⟨S4x100, .i32⟩
  | 120 => ⟨S4x100x1, .i32⟩
  | 121 => ⟨S4x300x100, .f32⟩
  | 122 => ⟨S_, .i32⟩
  | 123 => ⟨S4x100, .i32⟩
  | 124 => ⟨S4x100, .i1⟩
  | 125 => ⟨S_, .i32⟩
  | 126 => ⟨S4x100, .i32⟩
  | 127 => ⟨S4x100, .i32⟩
  | _ => ⟨S4x300x80, .f32⟩

abbrev hbmTy0_5 (i : Nat) : BufTy := match i % 128 with
  | 0 => ⟨S4x100, .i32⟩
  | 1 => ⟨S4x100x1, .i32⟩
  | 2 => ⟨S4x300x100, .f32⟩
  | 3 => ⟨S4x300x100, .f32⟩
  | 4 => ⟨S4x300x12544, .f32⟩
  | 5 => ⟨S_, .f32⟩
  | 6 => ⟨S4x300x12544, .f32⟩
  | 7 => ⟨S4x300x12544, .f32⟩
  | 8 => ⟨S4x300x12544, .f32⟩
  | 9 => ⟨S4x300x12544, .f32⟩
  | 10 => ⟨S4x300x12544, .i1⟩
  | 11 => ⟨S4x300x12544, .f32⟩
  | 12 => ⟨S4x300x12544, .f32⟩
  | 13 => ⟨S4x300x12544, .f32⟩
  | 14 => ⟨S4x300x12544, .f32⟩
  | 15 => ⟨S4x300x12544, .f32⟩
  | 16 => ⟨S4x300x12544, .f32⟩
  | 17 => ⟨S4x300x12544, .f32⟩
  | 18 => ⟨S4x300x12544, .f32⟩
  | 19 => ⟨S_, .f32⟩
  | 20 => ⟨S4x300x12544, .f32⟩
  | 21 => ⟨S4x300x12544, .f32⟩
  | 22 => ⟨S4x300x12544, .f32⟩
  | 23 => ⟨S4x300x12544, .f32⟩
  | 24 => ⟨S4x300x12544, .i1⟩
  | 25 => ⟨S4x300x12544, .f32⟩
  | 26 => ⟨S4x300x12544, .f32⟩
  | 27 => ⟨S4x300x12544, .f32⟩
  | 28 => ⟨S4x300x12544, .f32⟩
  | 29 => ⟨S4x300x12544, .f32⟩
  | 30 => ⟨S4x300x12544, .f32⟩
  | 31 => ⟨S4x300x12544, .f32⟩
  | 32 => ⟨S4x300x12544, .f32⟩
  | 33 => ⟨S4x300x100, .f32⟩
  | 34 => ⟨S_, .f32⟩
  | 35 => ⟨S4x100x12544, .f32⟩
  | 36 => ⟨S4x100x12544, .f32⟩
  | 37 => ⟨S4x300x100, .f32⟩
  | 38 => ⟨S4x300x100, .f32⟩
  | 39 => ⟨S_, .f32⟩
  | 40 => ⟨S4x300x100, .f32⟩
  | 41 => ⟨S4x300x100, .f32⟩
  | 42 => ⟨S4x300x12544, .f32⟩
  | 43 => ⟨S4x300x12544, .f32⟩
  | 44 => ⟨S_, .f32⟩
  | 45 => ⟨S4x300x12544, .f32⟩
  | 46 => ⟨S4x300x12544, .f32⟩
  | 47 => ⟨S_, .f32⟩
  | 48 => ⟨S4x300x12544, .f32⟩
  | 49 => ⟨S4x300x12544, .f32⟩
  | 50 => ⟨S4x300x100, .f32⟩
  | 51 => ⟨S_, .f32⟩
  | 52 => ⟨S4x300x100, .f32⟩
  | 53 => ⟨S4x300x100, .f32⟩
  | 54 => ⟨S_, .f32⟩
  | 55 => ⟨S4x300, .f32⟩
  | 56 => ⟨S4x300x1, .f32⟩
  | 57 => ⟨S_, .f32⟩
  | 58 => ⟨S4x100, .f32⟩
  | 59 => ⟨S4x1x100, .f32⟩
  | 60 => ⟨S4x300x100, .f32⟩
  | 61 => ⟨S4x300x100, .f32⟩
  | 62 => ⟨S4x300x100, .f32⟩
  | 63 => ⟨S_, .f32⟩
  | 64 => ⟨S4x300x100, .f32⟩
  | 65 => ⟨S4x300x100, .f32⟩
  | 66 => ⟨S_, .f32⟩
  | 67 => ⟨S4x300x100, .f32⟩
  | 68 => ⟨S4x300x100, .f32⟩
  | 69 => ⟨S4x300x100, .f32⟩
  | 70 => ⟨S_, .f32⟩
  | 71 => ⟨S4x300x100, .f32⟩
  | 72 => ⟨S4x300x100, .f32⟩
  | 73 => ⟨S_, .f32⟩
  | 74 => ⟨S4x300x100, .f32⟩
  | 75 => ⟨S4x300x100, .f32⟩
  | 76 => ⟨S_, .f32⟩
  | 77 => ⟨S4x300x100, .f32⟩
  | 78 => ⟨S4x300x100, .f32⟩
  | 79 => ⟨S4x300x100, .f32⟩
  | 80 => ⟨S_, .f32⟩
  | 81 => ⟨S4x300x100, .f32⟩
  | 82 => ⟨S4x300x100, .f32⟩
  | 83 => ⟨S4x300x100, .f32⟩
  | 84 => ⟨S4x300x100, .f32⟩
  | _ => ⟨S4x300x80, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x300x80, .f32⟩

abbrev bufTy : (tb : Table) → Fin (tcTables nBuf tb) → BufTy
  | .hbm, ⟨i, _⟩ => hbmTy i
  | _, _ => ⟨S4x300x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_c_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v18 : Ref sig .tc := ⟨.hbm, 41, rfl⟩
abbrev main_v19 : Ref sig .tc := ⟨.hbm, 42, rfl⟩
abbrev main_cst_6 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_8 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_9 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_10 : Ref sig .tc := ⟨.hbm, 59, rfl⟩
abbrev main_v32 : Ref sig .tc := ⟨.hbm, 60, rfl⟩
abbrev main_v33 : Ref sig .tc := ⟨.hbm, 61, rfl⟩
abbrev main_c_11 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_12 : Ref sig .tc := ⟨.hbm, 66, rfl⟩
abbrev main_v37 : Ref sig .tc := ⟨.hbm, 67, rfl⟩
abbrev main_v38 : Ref sig .tc := ⟨.hbm, 68, rfl⟩
abbrev main_c_13 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_14 : Ref sig .tc := ⟨.hbm, 80, rfl⟩
abbrev main_v49 : Ref sig .tc := ⟨.hbm, 81, rfl⟩
abbrev main_v50 : Ref sig .tc := ⟨.hbm, 82, rfl⟩
abbrev main_c_15 : Ref sig .tc := ⟨.hbm, 83, rfl⟩
abbrev main_c_16 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v51 : Ref sig .tc := ⟨.hbm, 90, rfl⟩
abbrev main_v52 : Ref sig .tc := ⟨.hbm, 91, rfl⟩
abbrev main_c_17 : Ref sig .tc := ⟨.hbm, 92, rfl⟩
abbrev main_c_18 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v53 : Ref sig .tc := ⟨.hbm, 99, rfl⟩
abbrev main_v54 : Ref sig .tc := ⟨.hbm, 100, rfl⟩
abbrev main_cst_19 : Ref sig .tc := ⟨.hbm, 101, rfl⟩
abbrev main_v55 : Ref sig .tc := ⟨.hbm, 102, rfl⟩
abbrev main_v56 : Ref sig .tc := ⟨.hbm, 103, rfl⟩
abbrev main_cst_20 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_21 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_22 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_c_23 : Ref sig .tc := ⟨.hbm, 117, rfl⟩
abbrev main_v67 : Ref sig .tc := ⟨.hbm, 118, rfl⟩
abbrev main_v68 : Ref sig .tc := ⟨.hbm, 119, rfl⟩
abbrev main_c_24 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_c_25 : Ref sig .tc := ⟨.hbm, 124, rfl⟩
abbrev main_v72 : Ref sig .tc := ⟨.hbm, 125, rfl⟩
abbrev main_v73 : Ref sig .tc := ⟨.hbm, 126, rfl⟩
abbrev main_c_26 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_27 : Ref sig .tc := ⟨.hbm, 138, rfl⟩
abbrev main_v84 : Ref sig .tc := ⟨.hbm, 139, rfl⟩
abbrev main_v85 : Ref sig .tc := ⟨.hbm, 140, rfl⟩
abbrev main_c_28 : Ref sig .tc := ⟨.hbm, 141, rfl⟩
abbrev main_c_29 : Ref sig .tc := ⟨.hbm, 142, rfl⟩
abbrev main_call4_v0 : Ref sig .tc := ⟨.hbm, 143, rfl⟩
abbrev main_call4_v1 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_v86 : Ref sig .tc := ⟨.hbm, 148, rfl⟩
abbrev main_v87 : Ref sig .tc := ⟨.hbm, 149, rfl⟩
abbrev main_c_30 : Ref sig .tc := ⟨.hbm, 150, rfl⟩
abbrev main_c_31 : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_call5_v3 : Ref sig .tc := ⟨.hbm, 155, rfl⟩
abbrev main_call5_v4 : Ref sig .tc := ⟨.hbm, 156, rfl⟩
abbrev main_v88 : Ref sig .tc := ⟨.hbm, 157, rfl⟩
abbrev main_v89 : Ref sig .tc := ⟨.hbm, 158, rfl⟩
abbrev main_cst_32 : Ref sig .tc := ⟨.hbm, 159, rfl⟩
abbrev main_v90 : Ref sig .tc := ⟨.hbm, 160, rfl⟩
abbrev main_v91 : Ref sig .tc := ⟨.hbm, 161, rfl⟩
abbrev main_cst_33 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_cst_34 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_cst_35 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_c_36 : Ref sig .tc := ⟨.hbm, 175, rfl⟩
abbrev main_v102 : Ref sig .tc := ⟨.hbm, 176, rfl⟩
abbrev main_v103 : Ref sig .tc := ⟨.hbm, 177, rfl⟩
abbrev main_c_37 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_c_38 : Ref sig .tc := ⟨.hbm, 182, rfl⟩
abbrev main_v107 : Ref sig .tc := ⟨.hbm, 183, rfl⟩
abbrev main_v108 : Ref sig .tc := ⟨.hbm, 184, rfl⟩
abbrev main_c_39 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_cst_40 : Ref sig .tc := ⟨.hbm, 196, rfl⟩
abbrev main_v119 : Ref sig .tc := ⟨.hbm, 197, rfl⟩
abbrev main_v120 : Ref sig .tc := ⟨.hbm, 198, rfl⟩
abbrev main_cst_41 : Ref sig .tc := ⟨.hbm, 199, rfl⟩
abbrev main_v121 : Ref sig .tc := ⟨.hbm, 200, rfl⟩
abbrev main_v122 : Ref sig .tc := ⟨.hbm, 201, rfl⟩
abbrev main_c_42 : Ref sig .tc := ⟨.hbm, 202, rfl⟩
abbrev main_c_43 : Ref sig .tc := ⟨.hbm, 203, rfl⟩
abbrev main_call6_v0 : Ref sig .tc := ⟨.hbm, 204, rfl⟩
abbrev main_call6_v1 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_v123 : Ref sig .tc := ⟨.hbm, 209, rfl⟩
abbrev main_v124 : Ref sig .tc := ⟨.hbm, 210, rfl⟩
abbrev main_c_44 : Ref sig .tc := ⟨.hbm, 211, rfl⟩
abbrev main_c_45 : Ref sig .tc := ⟨.hbm, 212, rfl⟩
abbrev main_call7_v0 : Ref sig .tc := ⟨.hbm, 213, rfl⟩
abbrev main_call7_v1 : Ref sig .tc := ⟨.hbm, 214, rfl⟩
abbrev main_call7_v2 : Ref sig .tc := ⟨.hbm, 215, rfl⟩
abbrev main_call7_v3 : Ref sig .tc := ⟨.hbm, 216, rfl⟩
abbrev main_call7_v4 : Ref sig .tc := ⟨.hbm, 217, rfl⟩
abbrev main_v125 : Ref sig .tc := ⟨.hbm, 218, rfl⟩
abbrev main_v126 : Ref sig .tc := ⟨.hbm, 219, rfl⟩
abbrev main_cst_46 : Ref sig .tc := ⟨.hbm, 220, rfl⟩
abbrev main_v127 : Ref sig .tc := ⟨.hbm, 221, rfl⟩
abbrev main_v128 : Ref sig .tc := ⟨.hbm, 222, rfl⟩
abbrev main_cst_47 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_cst_48 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_cst_49 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_c_50 : Ref sig .tc := ⟨.hbm, 236, rfl⟩
abbrev main_v139 : Ref sig .tc := ⟨.hbm, 237, rfl⟩
abbrev main_v140 : Ref sig .tc := ⟨.hbm, 238, rfl⟩
abbrev main_c_51 : Ref sig .tc := ⟨.hbm, 239, rfl⟩
abbrev main_v141 : Ref sig .tc := ⟨.hbm, 240, rfl⟩
abbrev main_v142 : Ref sig .tc := ⟨.hbm, 241, rfl⟩
abbrev main_v143 : Ref sig .tc := ⟨.hbm, 242, rfl⟩
abbrev main_c_52 : Ref sig .tc := ⟨.hbm, 243, rfl⟩
abbrev main_v144 : Ref sig .tc := ⟨.hbm, 244, rfl⟩
abbrev main_v145 : Ref sig .tc := ⟨.hbm, 245, rfl⟩
abbrev main_c_53 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_cst_54 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_cst_55 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_cst_56 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_cst_57 : Ref sig .tc := ⟨.hbm, 279, rfl⟩
abbrev main_v175 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_v189 : Ref sig .tc := ⟨.hbm, 294, rfl⟩
abbrev main_v190 : Ref sig .tc := ⟨.hbm, 295, rfl⟩
abbrev main_v191 : Ref sig .tc := ⟨.hbm, 296, rfl⟩
abbrev main_v192 : Ref sig .tc := ⟨.hbm, 297, rfl⟩
abbrev main_cst_58 : Ref sig .tc := ⟨.hbm, 298, rfl⟩
abbrev main_v193 : Ref sig .tc := ⟨.hbm, 299, rfl⟩
abbrev main_v194 : Ref sig .tc := ⟨.hbm, 300, rfl⟩
abbrev main_cst_59 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_cst_60 : Ref sig .tc := ⟨.hbm, 306, rfl⟩
abbrev main_v199 : Ref sig .tc := ⟨.hbm, 307, rfl⟩
abbrev main_v200 : Ref sig .tc := ⟨.hbm, 308, rfl⟩
abbrev main_cst_61 : Ref sig .tc := ⟨.hbm, 309, rfl⟩
abbrev main_v201 : Ref sig .tc := ⟨.hbm, 310, rfl⟩
abbrev main_v202 : Ref sig .tc := ⟨.hbm, 311, rfl⟩
abbrev main_v203 : Ref sig .tc := ⟨.hbm, 312, rfl⟩
abbrev main_v204 : Ref sig .tc := ⟨.hbm, 313, rfl⟩
abbrev main_v205 : Ref sig .tc := ⟨.hbm, 314, rfl⟩
abbrev main_v206 : Ref sig .tc := ⟨.hbm, 315, rfl⟩
abbrev main_c_62 : Ref sig .tc := ⟨.hbm, 316, rfl⟩
abbrev main_c_63 : Ref sig .tc := ⟨.hbm, 317, rfl⟩
abbrev main_call8_v0 : Ref sig .tc := ⟨.hbm, 318, rfl⟩
abbrev main_call8_v1 : Ref sig .tc := ⟨.hbm, 319, rfl⟩
abbrev main_call8_v2 : Ref sig .tc := ⟨.hbm, 320, rfl⟩
abbrev main_call8_v3 : Ref sig .tc := ⟨.hbm, 321, rfl⟩
abbrev main_call8_v4 : Ref sig .tc := ⟨.hbm, 322, rfl⟩
abbrev main_v207 : Ref sig .tc := ⟨.hbm, 323, rfl⟩
abbrev main_v208 : Ref sig .tc := ⟨.hbm, 324, rfl⟩
abbrev main_c_64 : Ref sig .tc := ⟨.hbm, 325, rfl⟩
abbrev main_c_65 : Ref sig .tc := ⟨.hbm, 326, rfl⟩
abbrev main_call9_v0 : Ref sig .tc := ⟨.hbm, 327, rfl⟩
abbrev main_call9_v1 : Ref sig .tc := ⟨.hbm, 328, rfl⟩
abbrev main_call9_v2 : Ref sig .tc := ⟨.hbm, 329, rfl⟩
abbrev main_call9_v3 : Ref sig .tc := ⟨.hbm, 330, rfl⟩
abbrev main_call9_v4 : Ref sig .tc := ⟨.hbm, 331, rfl⟩
abbrev main_v209 : Ref sig .tc := ⟨.hbm, 332, rfl⟩
abbrev main_v210 : Ref sig .tc := ⟨.hbm, 333, rfl⟩
abbrev main_cst_66 : Ref sig .tc := ⟨.hbm, 334, rfl⟩
abbrev main_v211 : Ref sig .tc := ⟨.hbm, 335, rfl⟩
abbrev main_v212 : Ref sig .tc := ⟨.hbm, 336, rfl⟩
abbrev main_cst_67 : Ref sig .tc := ⟨.hbm, 337, rfl⟩
abbrev main_v213 : Ref sig .tc := ⟨.hbm, 338, rfl⟩
abbrev main_v214 : Ref sig .tc := ⟨.hbm, 339, rfl⟩
abbrev main_v215 : Ref sig .tc := ⟨.hbm, 340, rfl⟩
abbrev main_cst_68 : Ref sig .tc := ⟨.hbm, 341, rfl⟩
abbrev main_v216 : Ref sig .tc := ⟨.hbm, 342, rfl⟩
abbrev main_v217 : Ref sig .tc := ⟨.hbm, 343, rfl⟩
abbrev main_v218 : Ref sig .tc := ⟨.hbm, 344, rfl⟩
abbrev main_cst_69 : Ref sig .tc := ⟨.hbm, 345, rfl⟩
abbrev main_v219 : Ref sig .tc := ⟨.hbm, 346, rfl⟩
abbrev main_v220 : Ref sig .tc := ⟨.hbm, 347, rfl⟩
abbrev main_v221 : Ref sig .tc := ⟨.hbm, 348, rfl⟩
abbrev main_v222 : Ref sig .tc := ⟨.hbm, 349, rfl⟩
abbrev main_c_70 : Ref sig .tc := ⟨.hbm, 350, rfl⟩
abbrev main_v223 : Ref sig .tc := ⟨.hbm, 351, rfl⟩
abbrev main_v224 : Ref sig .tc := ⟨.hbm, 352, rfl⟩
abbrev main_c_71 : Ref sig .tc := ⟨.hbm, 353, rfl⟩
abbrev main_v225 : Ref sig .tc := ⟨.hbm, 354, rfl⟩
abbrev main_v226 : Ref sig .tc := ⟨.hbm, 355, rfl⟩
abbrev main_v227 : Ref sig .tc := ⟨.hbm, 356, rfl⟩
abbrev main_c_72 : Ref sig .tc := ⟨.hbm, 357, rfl⟩
abbrev main_v228 : Ref sig .tc := ⟨.hbm, 358, rfl⟩
abbrev main_v229 : Ref sig .tc := ⟨.hbm, 359, rfl⟩
abbrev main_c_73 : Ref sig .tc := ⟨.hbm, 360, rfl⟩
abbrev main_v230 : Ref sig .tc := ⟨.hbm, 361, rfl⟩
abbrev main_v231 : Ref sig .tc := ⟨.hbm, 362, rfl⟩
abbrev main_v232 : Ref sig .tc := ⟨.hbm, 363, rfl⟩
abbrev main_v233 : Ref sig .tc := ⟨.hbm, 364, rfl⟩
abbrev main_v234 : Ref sig .tc := ⟨.hbm, 365, rfl⟩
abbrev main_v235 : Ref sig .tc := ⟨.hbm, 366, rfl⟩
abbrev main_v236 : Ref sig .tc := ⟨.hbm, 367, rfl⟩
abbrev main_v237 : Ref sig .tc := ⟨.hbm, 368, rfl⟩
abbrev main_v238 : Ref sig .tc := ⟨.hbm, 369, rfl⟩
abbrev main_v239 : Ref sig .tc := ⟨.hbm, 370, rfl⟩
abbrev main_cst_74 : Ref sig .tc := ⟨.hbm, 371, rfl⟩
abbrev main_v240 : Ref sig .tc := ⟨.hbm, 372, rfl⟩
abbrev main_v241 : Ref sig .tc := ⟨.hbm, 373, rfl⟩
abbrev main_c_75 : Ref sig .tc := ⟨.hbm, 374, rfl⟩
abbrev main_c_76 : Ref sig .tc := ⟨.hbm, 375, rfl⟩
abbrev main_call10_v0 : Ref sig .tc := ⟨.hbm, 376, rfl⟩
abbrev main_call10_v1 : Ref sig .tc := ⟨.hbm, 377, rfl⟩
abbrev main_call10_v2 : Ref sig .tc := ⟨.hbm, 378, rfl⟩
abbrev main_call10_v3 : Ref sig .tc := ⟨.hbm, 379, rfl⟩
abbrev main_call10_v4 : Ref sig .tc := ⟨.hbm, 380, rfl⟩
abbrev main_v242 : Ref sig .tc := ⟨.hbm, 381, rfl⟩
abbrev main_v243 : Ref sig .tc := ⟨.hbm, 382, rfl⟩
abbrev main_c_77 : Ref sig .tc := ⟨.hbm, 383, rfl⟩
abbrev main_c_78 : Ref sig .tc := ⟨.hbm, 384, rfl⟩
abbrev main_call11_v0 : Ref sig .tc := ⟨.hbm, 385, rfl⟩
abbrev main_call11_v1 : Ref sig .tc := ⟨.hbm, 386, rfl⟩
abbrev main_call11_v2 : Ref sig .tc := ⟨.hbm, 387, rfl⟩
abbrev main_call11_v3 : Ref sig .tc := ⟨.hbm, 388, rfl⟩
abbrev main_call11_v4 : Ref sig .tc := ⟨.hbm, 389, rfl⟩
abbrev main_v244 : Ref sig .tc := ⟨.hbm, 390, rfl⟩
abbrev main_v245 : Ref sig .tc := ⟨.hbm, 391, rfl⟩
abbrev main_cst_79 : Ref sig .tc := ⟨.hbm, 392, rfl⟩
abbrev main_v246 : Ref sig .tc := ⟨.hbm, 393, rfl⟩
abbrev main_v247 : Ref sig .tc := ⟨.hbm, 394, rfl⟩
abbrev main_cst_80 : Ref sig .tc := ⟨.hbm, 395, rfl⟩
abbrev main_v248 : Ref sig .tc := ⟨.hbm, 396, rfl⟩
abbrev main_v249 : Ref sig .tc := ⟨.hbm, 397, rfl⟩
abbrev main_v250 : Ref sig .tc := ⟨.hbm, 398, rfl⟩
abbrev main_cst_81 : Ref sig .tc := ⟨.hbm, 399, rfl⟩
abbrev main_v251 : Ref sig .tc := ⟨.hbm, 400, rfl⟩
abbrev main_v252 : Ref sig .tc := ⟨.hbm, 401, rfl⟩
abbrev main_v253 : Ref sig .tc := ⟨.hbm, 402, rfl⟩
abbrev main_cst_82 : Ref sig .tc := ⟨.hbm, 403, rfl⟩
abbrev main_v254 : Ref sig .tc := ⟨.hbm, 404, rfl⟩
abbrev main_v255 : Ref sig .tc := ⟨.hbm, 405, rfl⟩
abbrev main_v256 : Ref sig .tc := ⟨.hbm, 406, rfl⟩
abbrev main_v257 : Ref sig .tc := ⟨.hbm, 407, rfl⟩
abbrev main_c_83 : Ref sig .tc := ⟨.hbm, 408, rfl⟩
abbrev main_v258 : Ref sig .tc := ⟨.hbm, 409, rfl⟩
abbrev main_v259 : Ref sig .tc := ⟨.hbm, 410, rfl⟩
abbrev main_c_84 : Ref sig .tc := ⟨.hbm, 411, rfl⟩
abbrev main_v260 : Ref sig .tc := ⟨.hbm, 412, rfl⟩
abbrev main_v261 : Ref sig .tc := ⟨.hbm, 413, rfl⟩
abbrev main_v262 : Ref sig .tc := ⟨.hbm, 414, rfl⟩
abbrev main_c_85 : Ref sig .tc := ⟨.hbm, 415, rfl⟩
abbrev main_v263 : Ref sig .tc := ⟨.hbm, 416, rfl⟩
abbrev main_v264 : Ref sig .tc := ⟨.hbm, 417, rfl⟩
abbrev main_c_86 : Ref sig .tc := ⟨.hbm, 418, rfl⟩
abbrev main_v265 : Ref sig .tc := ⟨.hbm, 419, rfl⟩
abbrev main_v266 : Ref sig .tc := ⟨.hbm, 420, rfl⟩
abbrev main_v267 : Ref sig .tc := ⟨.hbm, 421, rfl⟩
abbrev main_v268 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_v272 : Ref sig .tc := ⟨.hbm, 426, rfl⟩
abbrev main_v273 : Ref sig .tc := ⟨.hbm, 427, rfl⟩
abbrev main_v274 : Ref sig .tc := ⟨.hbm, 428, rfl⟩
abbrev main_cst_87 : Ref sig .tc := ⟨.hbm, 429, rfl⟩
abbrev main_v275 : Ref sig .tc := ⟨.hbm, 430, rfl⟩
abbrev main_v276 : Ref sig .tc := ⟨.hbm, 431, rfl⟩
abbrev main_c_88 : Ref sig .tc := ⟨.hbm, 432, rfl⟩
abbrev main_c_89 : Ref sig .tc := ⟨.hbm, 433, rfl⟩
abbrev main_call12_v0 : Ref sig .tc := ⟨.hbm, 434, rfl⟩
abbrev main_call12_v1 : Ref sig .tc := ⟨.hbm, 435, rfl⟩
abbrev main_call12_v2 : Ref sig .tc := ⟨.hbm, 436, rfl⟩
abbrev main_call12_v3 : Ref sig .tc := ⟨.hbm, 437, rfl⟩
abbrev main_call12_v4 : Ref sig .tc := ⟨.hbm, 438, rfl⟩
abbrev main_v277 : Ref sig .tc := ⟨.hbm, 439, rfl⟩
abbrev main_v278 : Ref sig .tc := ⟨.hbm, 440, rfl⟩
abbrev main_c_90 : Ref sig .tc := ⟨.hbm, 441, rfl⟩
abbrev main_c_91 : Ref sig .tc := ⟨.hbm, 442, rfl⟩
abbrev main_call13_v0 : Ref sig .tc := ⟨.hbm, 443, rfl⟩
abbrev main_call13_v1 : Ref sig .tc := ⟨.hbm, 444, rfl⟩
abbrev main_call13_v2 : Ref sig .tc := ⟨.hbm, 445, rfl⟩
abbrev main_call13_v3 : Ref sig .tc := ⟨.hbm, 446, rfl⟩
abbrev main_call13_v4 : Ref sig .tc := ⟨.hbm, 447, rfl⟩
abbrev main_v279 : Ref sig .tc := ⟨.hbm, 448, rfl⟩
abbrev main_v280 : Ref sig .tc := ⟨.hbm, 449, rfl⟩
abbrev main_cst_92 : Ref sig .tc := ⟨.hbm, 450, rfl⟩
abbrev main_v281 : Ref sig .tc := ⟨.hbm, 451, rfl⟩
abbrev main_v282 : Ref sig .tc := ⟨.hbm, 452, rfl⟩
abbrev main_cst_93 : Ref sig .tc := ⟨.hbm, 453, rfl⟩
abbrev main_v283 : Ref sig .tc := ⟨.hbm, 454, rfl⟩
abbrev main_v284 : Ref sig .tc := ⟨.hbm, 455, rfl⟩
abbrev main_v285 : Ref sig .tc := ⟨.hbm, 456, rfl⟩
abbrev main_cst_94 : Ref sig .tc := ⟨.hbm, 457, rfl⟩
abbrev main_v286 : Ref sig .tc := ⟨.hbm, 458, rfl⟩
abbrev main_v287 : Ref sig .tc := ⟨.hbm, 459, rfl⟩
abbrev main_v288 : Ref sig .tc := ⟨.hbm, 460, rfl⟩
abbrev main_cst_95 : Ref sig .tc := ⟨.hbm, 461, rfl⟩
abbrev main_v289 : Ref sig .tc := ⟨.hbm, 462, rfl⟩
abbrev main_v290 : Ref sig .tc := ⟨.hbm, 463, rfl⟩
abbrev main_v291 : Ref sig .tc := ⟨.hbm, 464, rfl⟩
abbrev main_v292 : Ref sig .tc := ⟨.hbm, 465, rfl⟩
abbrev main_c_96 : Ref sig .tc := ⟨.hbm, 466, rfl⟩
abbrev main_v293 : Ref sig .tc := ⟨.hbm, 467, rfl⟩
abbrev main_v294 : Ref sig .tc := ⟨.hbm, 468, rfl⟩
abbrev main_c_97 : Ref sig .tc := ⟨.hbm, 469, rfl⟩
abbrev main_v295 : Ref sig .tc := ⟨.hbm, 470, rfl⟩
abbrev main_v296 : Ref sig .tc := ⟨.hbm, 471, rfl⟩
abbrev main_v297 : Ref sig .tc := ⟨.hbm, 472, rfl⟩
abbrev main_c_98 : Ref sig .tc := ⟨.hbm, 473, rfl⟩
abbrev main_v298 : Ref sig .tc := ⟨.hbm, 474, rfl⟩
abbrev main_v299 : Ref sig .tc := ⟨.hbm, 475, rfl⟩
abbrev main_c_99 : Ref sig .tc := ⟨.hbm, 476, rfl⟩
abbrev main_v300 : Ref sig .tc := ⟨.hbm, 477, rfl⟩
abbrev main_v301 : Ref sig .tc := ⟨.hbm, 478, rfl⟩
abbrev main_v302 : Ref sig .tc := ⟨.hbm, 479, rfl⟩
abbrev main_v303 : Ref sig .tc := ⟨.hbm, 480, rfl⟩
abbrev main_v304 : Ref sig .tc := ⟨.hbm, 481, rfl⟩
abbrev main_v305 : Ref sig .tc := ⟨.hbm, 482, rfl⟩
abbrev main_v306 : Ref sig .tc := ⟨.hbm, 483, rfl⟩
abbrev main_v307 : Ref sig .tc := ⟨.hbm, 484, rfl⟩
abbrev main_v308 : Ref sig .tc := ⟨.hbm, 485, rfl⟩
abbrev main_v309 : Ref sig .tc := ⟨.hbm, 486, rfl⟩
abbrev main_cst_100 : Ref sig .tc := ⟨.hbm, 487, rfl⟩
abbrev main_v310 : Ref sig .tc := ⟨.hbm, 488, rfl⟩
abbrev main_v311 : Ref sig .tc := ⟨.hbm, 489, rfl⟩
abbrev main_cst_101 : Ref sig .tc := ⟨.hbm, 490, rfl⟩
abbrev main_v312 : Ref sig .tc := ⟨.hbm, 491, rfl⟩
abbrev main_v313 : Ref sig .tc := ⟨.hbm, 492, rfl⟩
abbrev main_c_102 : Ref sig .tc := ⟨.hbm, 493, rfl⟩
abbrev main_c_103 : Ref sig .tc := ⟨.hbm, 494, rfl⟩
abbrev main_call14_v0 : Ref sig .tc := ⟨.hbm, 495, rfl⟩
abbrev main_call14_v1 : Ref sig .tc := ⟨.hbm, 496, rfl⟩
abbrev main_call14_v2 : Ref sig .tc := ⟨.hbm, 497, rfl⟩
abbrev main_call14_v3 : Ref sig .tc := ⟨.hbm, 498, rfl⟩
abbrev main_call14_v4 : Ref sig .tc := ⟨.hbm, 499, rfl⟩
abbrev main_v314 : Ref sig .tc := ⟨.hbm, 500, rfl⟩
abbrev main_v315 : Ref sig .tc := ⟨.hbm, 501, rfl⟩
abbrev main_c_104 : Ref sig .tc := ⟨.hbm, 502, rfl⟩
abbrev main_c_105 : Ref sig .tc := ⟨.hbm, 503, rfl⟩
abbrev main_call15_v0 : Ref sig .tc := ⟨.hbm, 504, rfl⟩
abbrev main_call15_v1 : Ref sig .tc := ⟨.hbm, 505, rfl⟩
abbrev main_call15_v2 : Ref sig .tc := ⟨.hbm, 506, rfl⟩
abbrev main_call15_v3 : Ref sig .tc := ⟨.hbm, 507, rfl⟩
abbrev main_call15_v4 : Ref sig .tc := ⟨.hbm, 508, rfl⟩
abbrev main_v316 : Ref sig .tc := ⟨.hbm, 509, rfl⟩
abbrev main_v317 : Ref sig .tc := ⟨.hbm, 510, rfl⟩
abbrev main_cst_106 : Ref sig .tc := ⟨.hbm, 511, rfl⟩
abbrev main_v318 : Ref sig .tc := ⟨.hbm, 512, rfl⟩
abbrev main_v319 : Ref sig .tc := ⟨.hbm, 513, rfl⟩
abbrev main_cst_107 : Ref sig .tc := ⟨.hbm, 514, rfl⟩
abbrev main_v320 : Ref sig .tc := ⟨.hbm, 515, rfl⟩
abbrev main_v321 : Ref sig .tc := ⟨.hbm, 516, rfl⟩
abbrev main_v322 : Ref sig .tc := ⟨.hbm, 517, rfl⟩
abbrev main_cst_108 : Ref sig .tc := ⟨.hbm, 518, rfl⟩
abbrev main_v323 : Ref sig .tc := ⟨.hbm, 519, rfl⟩
abbrev main_v324 : Ref sig .tc := ⟨.hbm, 520, rfl⟩
abbrev main_v325 : Ref sig .tc := ⟨.hbm, 521, rfl⟩
abbrev main_cst_109 : Ref sig .tc := ⟨.hbm, 522, rfl⟩
abbrev main_v326 : Ref sig .tc := ⟨.hbm, 523, rfl⟩
abbrev main_v327 : Ref sig .tc := ⟨.hbm, 524, rfl⟩
abbrev main_v328 : Ref sig .tc := ⟨.hbm, 525, rfl⟩
abbrev main_v329 : Ref sig .tc := ⟨.hbm, 526, rfl⟩
abbrev main_c_110 : Ref sig .tc := ⟨.hbm, 527, rfl⟩
abbrev main_v330 : Ref sig .tc := ⟨.hbm, 528, rfl⟩
abbrev main_v331 : Ref sig .tc := ⟨.hbm, 529, rfl⟩
abbrev main_c_111 : Ref sig .tc := ⟨.hbm, 530, rfl⟩
abbrev main_v332 : Ref sig .tc := ⟨.hbm, 531, rfl⟩
abbrev main_v333 : Ref sig .tc := ⟨.hbm, 532, rfl⟩
abbrev main_v334 : Ref sig .tc := ⟨.hbm, 533, rfl⟩
abbrev main_c_112 : Ref sig .tc := ⟨.hbm, 534, rfl⟩
abbrev main_v335 : Ref sig .tc := ⟨.hbm, 535, rfl⟩
abbrev main_v336 : Ref sig .tc := ⟨.hbm, 536, rfl⟩
abbrev main_c_113 : Ref sig .tc := ⟨.hbm, 537, rfl⟩
abbrev main_v337 : Ref sig .tc := ⟨.hbm, 538, rfl⟩
abbrev main_v338 : Ref sig .tc := ⟨.hbm, 539, rfl⟩
abbrev main_v339 : Ref sig .tc := ⟨.hbm, 540, rfl⟩
abbrev main_v340 : Ref sig .tc := ⟨.hbm, 541, rfl⟩
abbrev main_v341 : Ref sig .tc := ⟨.hbm, 542, rfl⟩
abbrev main_v342 : Ref sig .tc := ⟨.hbm, 543, rfl⟩
abbrev main_v343 : Ref sig .tc := ⟨.hbm, 544, rfl⟩
abbrev main_v344 : Ref sig .tc := ⟨.hbm, 545, rfl⟩
abbrev main_v345 : Ref sig .tc := ⟨.hbm, 546, rfl⟩
abbrev main_v346 : Ref sig .tc := ⟨.hbm, 547, rfl⟩
abbrev main_cst_114 : Ref sig .tc := ⟨.hbm, 548, rfl⟩
abbrev main_v347 : Ref sig .tc := ⟨.hbm, 549, rfl⟩
abbrev main_v348 : Ref sig .tc := ⟨.hbm, 550, rfl⟩
abbrev main_v349 : Ref sig .tc := ⟨.hbm, 551, rfl⟩
abbrev main_v350 : Ref sig .tc := ⟨.hbm, 552, rfl⟩
abbrev main_v351 : Ref sig .tc := ⟨.hbm, 553, rfl⟩
abbrev main_cst_115 : Ref sig .tc := ⟨.hbm, 554, rfl⟩
abbrev main_v352 : Ref sig .tc := ⟨.hbm, 555, rfl⟩
abbrev main_v353 : Ref sig .tc := ⟨.hbm, 556, rfl⟩
abbrev main_v354 : Ref sig .tc := ⟨.hbm, 557, rfl⟩
abbrev main_v355 : Ref sig .tc := ⟨.hbm, 558, rfl⟩
abbrev main_v356 : Ref sig .tc := ⟨.hbm, 559, rfl⟩
abbrev main_v357 : Ref sig .tc := ⟨.hbm, 560, rfl⟩
abbrev main_v358 : Ref sig .tc := ⟨.hbm, 561, rfl⟩
abbrev main_v359 : Ref sig .tc := ⟨.hbm, 562, rfl⟩
abbrev main_cst_116 : Ref sig .tc := ⟨.hbm, 563, rfl⟩
abbrev main_v360 : Ref sig .tc := ⟨.hbm, 564, rfl⟩
abbrev main_v361 : Ref sig .tc := ⟨.hbm, 565, rfl⟩
abbrev main_v362 : Ref sig .tc := ⟨.hbm, 566, rfl⟩
abbrev main_v363 : Ref sig .tc := ⟨.hbm, 567, rfl⟩
abbrev main_v364 : Ref sig .tc := ⟨.hbm, 568, rfl⟩
abbrev main_v365 : Ref sig .tc := ⟨.hbm, 569, rfl⟩
abbrev main_cst_117 : Ref sig .tc := ⟨.hbm, 570, rfl⟩
abbrev main_v366 : Ref sig .tc := ⟨.hbm, 571, rfl⟩
abbrev main_v367 : Ref sig .tc := ⟨.hbm, 572, rfl⟩
abbrev main_v368 : Ref sig .tc := ⟨.hbm, 573, rfl⟩
abbrev main_v369 : Ref sig .tc := ⟨.hbm, 574, rfl⟩
abbrev main_v370 : Ref sig .tc := ⟨.hbm, 575, rfl⟩
abbrev main_v371 : Ref sig .tc := ⟨.hbm, 576, rfl⟩
abbrev main_v372 : Ref sig .tc := ⟨.hbm, 577, rfl⟩
abbrev main_v373 : Ref sig .tc := ⟨.hbm, 578, rfl⟩
abbrev main_v374 : Ref sig .tc := ⟨.hbm, 579, rfl⟩
abbrev main_v375 : Ref sig .tc := ⟨.hbm, 580, rfl⟩
abbrev main_v376 : Ref sig .tc := ⟨.hbm, 581, rfl⟩
abbrev main_v377 : Ref sig .tc := ⟨.hbm, 582, rfl⟩
abbrev main_v378 : Ref sig .tc := ⟨.hbm, 583, rfl⟩
abbrev main_v379 : Ref sig .tc := ⟨.hbm, 584, rfl⟩
abbrev main_v380 : Ref sig .tc := ⟨.hbm, 585, rfl⟩
abbrev main_v381 : Ref sig .tc := ⟨.hbm, 586, rfl⟩
abbrev main_v382 : Ref sig .tc := ⟨.hbm, 587, rfl⟩
abbrev main_v383 : Ref sig .tc := ⟨.hbm, 588, rfl⟩
abbrev main_cst_118 : Ref sig .tc := ⟨.hbm, 589, rfl⟩
abbrev main_v384 : Ref sig .tc := ⟨.hbm, 590, rfl⟩
abbrev main_v385 : Ref sig .tc := ⟨.hbm, 591, rfl⟩
abbrev main_cst_119 : Ref sig .tc := ⟨.hbm, 592, rfl⟩
abbrev main_v386 : Ref sig .tc := ⟨.hbm, 593, rfl⟩
abbrev main_v387 : Ref sig .tc := ⟨.hbm, 594, rfl⟩
abbrev main_cst_120 : Ref sig .tc := ⟨.hbm, 595, rfl⟩
abbrev main_v388 : Ref sig .tc := ⟨.hbm, 596, rfl⟩
abbrev main_v389 : Ref sig .tc := ⟨.hbm, 597, rfl⟩
abbrev main_cst_121 : Ref sig .tc := ⟨.hbm, 598, rfl⟩
abbrev main_v390 : Ref sig .tc := ⟨.hbm, 599, rfl⟩
abbrev main_v391 : Ref sig .tc := ⟨.hbm, 600, rfl⟩
abbrev main_cst_122 : Ref sig .tc := ⟨.hbm, 601, rfl⟩
abbrev main_v392 : Ref sig .tc := ⟨.hbm, 602, rfl⟩
abbrev main_v393 : Ref sig .tc := ⟨.hbm, 603, rfl⟩
abbrev main_cst_123 : Ref sig .tc := ⟨.hbm, 604, rfl⟩
abbrev main_v394 : Ref sig .tc := ⟨.hbm, 605, rfl⟩
abbrev main_v395 : Ref sig .tc := ⟨.hbm, 606, rfl⟩
abbrev main_v396 : Ref sig .tc := ⟨.hbm, 607, rfl⟩
abbrev main_v397 : Ref sig .tc := ⟨.hbm, 608, rfl⟩
abbrev main_v398 : Ref sig .tc := ⟨.hbm, 609, rfl⟩
abbrev main_cst_124 : Ref sig .tc := ⟨.hbm, 610, rfl⟩
abbrev main_v399 : Ref sig .tc := ⟨.hbm, 611, rfl⟩
abbrev main_v400 : Ref sig .tc := ⟨.hbm, 612, rfl⟩
abbrev main_cst_125 : Ref sig .tc := ⟨.hbm, 613, rfl⟩
abbrev main_v401 : Ref sig .tc := ⟨.hbm, 614, rfl⟩
abbrev main_v402 : Ref sig .tc := ⟨.hbm, 615, rfl⟩
abbrev main_cst_126 : Ref sig .tc := ⟨.hbm, 616, rfl⟩
abbrev main_v403 : Ref sig .tc := ⟨.hbm, 617, rfl⟩
abbrev main_v404 : Ref sig .tc := ⟨.hbm, 618, rfl⟩
abbrev main_cst_127 : Ref sig .tc := ⟨.hbm, 619, rfl⟩
abbrev main_v405 : Ref sig .tc := ⟨.hbm, 620, rfl⟩
abbrev main_v406 : Ref sig .tc := ⟨.hbm, 621, rfl⟩
abbrev main_v407 : Ref sig .tc := ⟨.hbm, 622, rfl⟩
abbrev main_v408 : Ref sig .tc := ⟨.hbm, 623, rfl⟩
abbrev main_v409 : Ref sig .tc := ⟨.hbm, 624, rfl⟩
abbrev main_c_128 : Ref sig .tc := ⟨.hbm, 625, rfl⟩
abbrev main_v410 : Ref sig .tc := ⟨.hbm, 626, rfl⟩
abbrev main_v411 : Ref sig .tc := ⟨.hbm, 627, rfl⟩
abbrev main_c_129 : Ref sig .tc := ⟨.hbm, 628, rfl⟩
abbrev main_v412 : Ref sig .tc := ⟨.hbm, 629, rfl⟩
abbrev main_v413 : Ref sig .tc := ⟨.hbm, 630, rfl⟩
abbrev main_v414 : Ref sig .tc := ⟨.hbm, 631, rfl⟩
abbrev main_v415 : Ref sig .tc := ⟨.hbm, 632, rfl⟩
abbrev main_v416 : Ref sig .tc := ⟨.hbm, 633, rfl⟩
abbrev main_c_130 : Ref sig .tc := ⟨.hbm, 634, rfl⟩
abbrev main_v417 : Ref sig .tc := ⟨.hbm, 635, rfl⟩
abbrev main_v418 : Ref sig .tc := ⟨.hbm, 636, rfl⟩
abbrev main_c_131 : Ref sig .tc := ⟨.hbm, 637, rfl⟩
abbrev main_v419 : Ref sig .tc := ⟨.hbm, 638, rfl⟩
abbrev main_v420 : Ref sig .tc := ⟨.hbm, 639, rfl⟩
abbrev main_v421 : Ref sig .tc := ⟨.hbm, 640, rfl⟩
abbrev main_v422 : Ref sig .tc := ⟨.hbm, 641, rfl⟩
abbrev main_v423 : Ref sig .tc := ⟨.hbm, 642, rfl⟩
abbrev main_v424 : Ref sig .tc := ⟨.hbm, 643, rfl⟩
abbrev main_v425 : Ref sig .tc := ⟨.hbm, 644, rfl⟩
abbrev main_call16_cst : Ref sig .tc := ⟨.hbm, 645, rfl⟩
abbrev main_call16_v0 : Ref sig .tc := ⟨.hbm, 646, rfl⟩
abbrev main_call16_v1 : Ref sig .tc := ⟨.hbm, 647, rfl⟩
abbrev main_call16_v2 : Ref sig .tc := ⟨.hbm, 648, rfl⟩
abbrev main_call16_v3 : Ref sig .tc := ⟨.hbm, 649, rfl⟩
abbrev main_call16_v4 : Ref sig .tc := ⟨.hbm, 650, rfl⟩
abbrev main_call16_v5 : Ref sig .tc := ⟨.hbm, 651, rfl⟩
abbrev main_call16_v6 : Ref sig .tc := ⟨.hbm, 652, rfl⟩
abbrev main_call16_v7 : Ref sig .tc := ⟨.hbm, 653, rfl⟩
abbrev main_call16_v8 : Ref sig .tc := ⟨.hbm, 654, rfl⟩
abbrev main_call16_v9 : Ref sig .tc := ⟨.hbm, 655, rfl⟩
abbrev main_call16_v10 : Ref sig .tc := ⟨.hbm, 656, rfl⟩
abbrev main_call16_v11 : Ref sig .tc := ⟨.hbm, 657, rfl⟩
abbrev main_v426 : Ref sig .tc := ⟨.hbm, 658, rfl⟩
abbrev main_call17_cst : Ref sig .tc := ⟨.hbm, 659, rfl⟩
abbrev main_call17_v0 : Ref sig .tc := ⟨.hbm, 660, rfl⟩
abbrev main_call17_v1 : Ref sig .tc := ⟨.hbm, 661, rfl⟩
abbrev main_call17_v2 : Ref sig .tc := ⟨.hbm, 662, rfl⟩
abbrev main_call17_v3 : Ref sig .tc := ⟨.hbm, 663, rfl⟩
abbrev main_call17_v4 : Ref sig .tc := ⟨.hbm, 664, rfl⟩
abbrev main_call17_v5 : Ref sig .tc := ⟨.hbm, 665, rfl⟩
abbrev main_call17_v6 : Ref sig .tc := ⟨.hbm, 666, rfl⟩
abbrev main_call17_v7 : Ref sig .tc := ⟨.hbm, 667, rfl⟩
abbrev main_call17_v8 : Ref sig .tc := ⟨.hbm, 668, rfl⟩
abbrev main_call17_v9 : Ref sig .tc := ⟨.hbm, 669, rfl⟩
abbrev main_call17_v10 : Ref sig .tc := ⟨.hbm, 670, rfl⟩
abbrev main_call17_v11 : Ref sig .tc := ⟨.hbm, 671, rfl⟩
abbrev main_v427 : Ref sig .tc := ⟨.hbm, 672, rfl⟩
abbrev main_v428 : Ref sig .tc := ⟨.hbm, 673, rfl⟩
abbrev main_cst_132 : Ref sig .tc := ⟨.hbm, 674, rfl⟩
abbrev main_v429 : Ref sig .tc := ⟨.hbm, 675, rfl⟩
abbrev main_v430 : Ref sig .tc := ⟨.hbm, 676, rfl⟩
abbrev main_v431 : Ref sig .tc := ⟨.hbm, 677, rfl⟩
abbrev main_v432 : Ref sig .tc := ⟨.hbm, 678, rfl⟩
abbrev main_cst_133 : Ref sig .tc := ⟨.hbm, 679, rfl⟩
abbrev main_v433 : Ref sig .tc := ⟨.hbm, 680, rfl⟩
abbrev main_v434 : Ref sig .tc := ⟨.hbm, 681, rfl⟩
abbrev main_v435 : Ref sig .tc := ⟨.hbm, 682, rfl⟩
abbrev main_v436 : Ref sig .tc := ⟨.hbm, 683, rfl⟩
abbrev main_cst_134 : Ref sig .tc := ⟨.hbm, 684, rfl⟩
abbrev main_v437 : Ref sig .tc := ⟨.hbm, 685, rfl⟩
abbrev main_v438 : Ref sig .tc := ⟨.hbm, 686, rfl⟩
abbrev main_cst_135 : Ref sig .tc := ⟨.hbm, 687, rfl⟩
abbrev main_v439 : Ref sig .tc := ⟨.hbm, 688, rfl⟩
abbrev main_v440 : Ref sig .tc := ⟨.hbm, 689, rfl⟩
abbrev main_v441 : Ref sig .tc := ⟨.hbm, 690, rfl⟩
abbrev main_cst_136 : Ref sig .tc := ⟨.hbm, 691, rfl⟩
abbrev main_v442 : Ref sig .tc := ⟨.hbm, 692, rfl⟩
abbrev main_v443 : Ref sig .tc := ⟨.hbm, 693, rfl⟩
abbrev main_cst_137 : Ref sig .tc := ⟨.hbm, 694, rfl⟩
abbrev main_v444 : Ref sig .tc := ⟨.hbm, 695, rfl⟩
abbrev main_v445 : Ref sig .tc := ⟨.hbm, 696, rfl⟩
abbrev main_cst_138 : Ref sig .tc := ⟨.hbm, 697, rfl⟩
abbrev main_v446 : Ref sig .tc := ⟨.hbm, 698, rfl⟩
abbrev main_v447 : Ref sig .tc := ⟨.hbm, 699, rfl⟩
abbrev main_v448 : Ref sig .tc := ⟨.hbm, 700, rfl⟩
abbrev main_v449 : Ref sig .tc := ⟨.hbm, 701, rfl⟩
abbrev main_v450 : Ref sig .tc := ⟨.hbm, 702, rfl⟩
abbrev main_cst_139 : Ref sig .tc := ⟨.hbm, 703, rfl⟩
abbrev main_v451 : Ref sig .tc := ⟨.hbm, 704, rfl⟩
abbrev main_v452 : Ref sig .tc := ⟨.hbm, 705, rfl⟩
abbrev main_cst_140 : Ref sig .tc := ⟨.hbm, 706, rfl⟩
abbrev main_v453 : Ref sig .tc := ⟨.hbm, 707, rfl⟩
abbrev main_v454 : Ref sig .tc := ⟨.hbm, 708, rfl⟩
abbrev main_v455 : Ref sig .tc := ⟨.hbm, 709, rfl⟩
abbrev main_cst_141 : Ref sig .tc := ⟨.hbm, 710, rfl⟩
abbrev main_v456 : Ref sig .tc := ⟨.hbm, 711, rfl⟩
abbrev main_v457 : Ref sig .tc := ⟨.hbm, 712, rfl⟩
abbrev main_cst_142 : Ref sig .tc := ⟨.hbm, 713, rfl⟩
abbrev main_v458 : Ref sig .tc := ⟨.hbm, 714, rfl⟩
abbrev main_v459 : Ref sig .tc := ⟨.hbm, 715, rfl⟩
abbrev main_cst_143 : Ref sig .tc := ⟨.hbm, 716, rfl⟩
abbrev main_v460 : Ref sig .tc := ⟨.hbm, 717, rfl⟩
abbrev main_v461 : Ref sig .tc := ⟨.hbm, 718, rfl⟩
abbrev main_v462 : Ref sig .tc := ⟨.hbm, 719, rfl⟩
abbrev main_cst_144 : Ref sig .tc := ⟨.hbm, 720, rfl⟩
abbrev main_v463 : Ref sig .tc := ⟨.hbm, 721, rfl⟩
abbrev main_v464 : Ref sig .tc := ⟨.hbm, 722, rfl⟩
abbrev main_v465 : Ref sig .tc := ⟨.hbm, 723, rfl⟩
abbrev main_v466 : Ref sig .tc := ⟨.hbm, 724, rfl⟩

abbrev nD : Nat := 1
abbrev τ : Topo := Topo.v7x

variable {F : FTy → Type} [FloatOps F]

class Facts₀ : Prop where
  slices_S4x12544x2_S4x12544x1_0_0_0 : S4x12544x2.Slices ![0, 0, 0] S4x12544x1
  shapeCasts_S4x12544x1_S4x12544 : S4x12544x1.ShapeCasts S4x12544
  bcast_S_S4x12544 : S_.BroadcastsInDim S4x12544 (![] : Fin 0 → Fin S4x12544.rank)
  slices_S4x12544x2_S4x12544x1_0_0_1 : S4x12544x2.Slices ![0, 0, 1] S4x12544x1
  bcast_S4x12544_S4x12544x1_0_1 : S4x12544.BroadcastsInDim S4x12544x1 (![0, 1] : Fin 2 → Fin S4x12544x1.rank)
  concatenates_S4x12544x1_S4x12544x1_S4x12544x2_d2 : Shape.Concatenates [S4x12544x1, S4x12544x1] S4x12544x2 2
  bcast_S4x12544_S4x1x12544_0_2 : S4x12544.BroadcastsInDim S4x1x12544 (![0, 2] : Fin 2 → Fin S4x1x12544.rank)
  bcast_S4x1x12544_S4x300x12544_0_1_2 : S4x1x12544.BroadcastsInDim S4x300x12544 (![0, 1, 2] : Fin 3 → Fin S4x300x12544.rank)
  bcast_S4x1x12544_S4x100x12544_0_1_2 : S4x1x12544.BroadcastsInDim S4x100x12544 (![0, 1, 2] : Fin 3 → Fin S4x100x12544.rank)
  bcast_S_S4x300x80 : S_.BroadcastsInDim S4x300x80 (![] : Fin 0 → Fin S4x300x80.rank)
  bcast_S_S4x100 : S_.BroadcastsInDim S4x100 (![] : Fin 0 → Fin S4x100.rank)
  bcast_S4x100_S4x100x1_0_1 : S4x100.BroadcastsInDim S4x100x1 (![0, 1] : Fin 2 → Fin S4x100x1.rank)
  bcast_S_S4x300x12544 : S_.BroadcastsInDim S4x300x12544 (![] : Fin 0 → Fin S4x300x12544.rank)
  bcast_S_S4x100x12544 : S_.BroadcastsInDim S4x100x12544 (![] : Fin 0 → Fin S4x100x12544.rank)
  bcast_S_S4x300x100 : S_.BroadcastsInDim S4x300x100 (![] : Fin 0 → Fin S4x300x100.rank)
  reducesTo_S4x300x12544_S4x300_d2 : S4x300x12544.ReducesTo [2] S4x300
  h_S_ : 0 < S_.numel
  bcast_S4x300_S4x300x1_0_1 : S4x300.BroadcastsInDim S4x300x1 (![0, 1] : Fin 2 → Fin S4x300x1.rank)
  reducesTo_S4x100x12544_S4x100_d2 : S4x100x12544.ReducesTo [2] S4x100
  bcast_S4x100_S4x1x100_0_2 : S4x100.BroadcastsInDim S4x1x100 (![0, 2] : Fin 2 → Fin S4x1x100.rank)
  bcast_S4x300x1_S4x300x100_0_1_2 : S4x300x1.BroadcastsInDim S4x300x100 (![0, 1, 2] : Fin 3 → Fin S4x300x100.rank)
  bcast_S4x1x100_S4x300x100_0_1_2 : S4x1x100.BroadcastsInDim S4x300x100 (![0, 1, 2] : Fin 3 → Fin S4x300x100.rank)
  gather_S4x300x256x256_S4x12544x2_S4x300x12544_1_23_0_0_23_2_130011_wf : GatherDims.WF S4x300x256x256 S4x12544x2 S4x300x12544 [1] [2, 3] [0] [2, 3] [0] 2 ![1, 300, 1, 1]
  gather_S4x100x256x256_S4x12544x2_S4x100x12544_1_23_0_0_23_2_110011_wf : GatherDims.WF S4x100x256x256 S4x12544x2 S4x100x12544 [1] [2, 3] [0] [2, 3] [0] 2 ![1, 100, 1, 1]
  gather_S4x300x80_S4x100x1_S4x300x100_1_2_0_0_2_2_13001_wf : GatherDims.WF S4x300x80 S4x100x1 S4x300x100 [1] [2] [0] [2] [0] 2 ![1, 300, 1]
  dot_S4x300x12544_S4x100x12544_S4x300x100_2_2_1_1_0_0_wf : DotDims.WF S4x300x12544 S4x100x12544 S4x300x100 [2] [2] [1] [1] [0] [0]

variable [Facts₀]

def gather_S4x300x256x256_S4x12544x2_S4x300x12544_1_23_0_0_23_2_130011 : GatherDims S4x300x256x256 S4x12544x2 S4x300x12544 where
  offsetDims := [1]
  collapsedSliceDims := [2, 3]
  operandBatchingDims := [0]
  startIndicesBatchingDims := [0]
  startIndexMap := [2, 3]
  indexVectorDim := 2
  sliceSizes := ![1, 300, 1, 1]
  wf := gather_S4x300x256x256_S4x12544x2_S4x300x12544_1_23_0_0_23_2_130011_wf
def gather_S4x100x256x256_S4x12544x2_S4x100x12544_1_23_0_0_23_2_110011 : GatherDims S4x100x256x256 S4x12544x2 S4x100x12544 where
  offsetDims := [1]
  collapsedSliceDims := [2, 3]
  operandBatchingDims := [0]
  startIndicesBatchingDims := [0]
  startIndexMap := [2, 3]
  indexVectorDim := 2
  sliceSizes := ![1, 100, 1, 1]
  wf := gather_S4x100x256x256_S4x12544x2_S4x100x12544_1_23_0_0_23_2_110011_wf
def gather_S4x300x80_S4x100x1_S4x300x100_1_2_0_0_2_2_13001 : GatherDims S4x300x80 S4x100x1 S4x300x100 where
  offsetDims := [1]
  collapsedSliceDims := [2]
  operandBatchingDims := [0]
  startIndicesBatchingDims := [0]
  startIndexMap := [2]
  indexVectorDim := 2
  sliceSizes := ![1, 300, 1]
  wf := gather_S4x300x80_S4x100x1_S4x300x100_1_2_0_0_2_2_13001_wf
def dot_S4x300x12544_S4x100x12544_S4x300x100_2_2_1_1_0_0 : DotDims S4x300x12544 S4x100x12544 S4x300x100 where
  lhsContracting := [2]
  rhsContracting := [2]
  lhsNonContracting := [1]
  rhsNonContracting := [1]
  lhsBatch := [0]
  rhsBatch := [0]
  wf := dot_S4x300x12544_S4x100x12544_S4x300x100_2_2_1_1_0_0_wf

class Facts : Prop extends Facts₀ where

variable [Facts]
-- ==== Proof.RefRunC0.lean ====
import proofs.«146640_j52948356825308_1_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 70 of 720, in order (a called function's operations stand in its call's place). -/
abbrev ops_0 : List (HloOp τ sig (Elt F)) :=
  [ unary main_arg4 main_v0 ((extractStridedSlice S4x12544x1 ![0, 0, 0] · slices_S4x12544x2_S4x12544x1_0_0_0) : (⟨S4x12544x2, .f32⟩ : BufTy).Contents (Elt F) → (⟨S4x12544x1, .f32⟩ : BufTy).Contents (Elt F)),
    reshape main_v0 main_v1 rfl shapeCasts_S4x12544x1_S4x12544,
    nullary main_cst (constant S_ .f32 0x43800000#32),
    unary main_cst main_v2 (broadcastInDim S4x12544 ![] bcast_S_S4x12544 : (⟨S_, .f32⟩ : BufTy).Contents (Elt F) → (⟨S4x12544, .f32⟩ : BufTy).Contents (Elt F)),
    binary main_v1 main_v2 main_v3 (mulf : (⟨S4x12544, .f32⟩ : BufTy).Contents (Elt F) → (⟨S4x12544, .f32⟩ : BufTy).Contents (Elt F) → (⟨S4x12544, .f32⟩ : BufTy).Contents (Elt F)),
    nullary main_cst_0 (constant S_ .f32 0x3F000000#32),
    unary main_cst_0 main_v4 (broadcastInDim S4x12544 ![] bcast_S_S4x12544 : (⟨S_, .f32⟩ : BufTy).Contents (Elt F) → (⟨S4x12544, .f32⟩ : BufTy).Contents (Elt F)),
    binary main_v3 main_v4 main_v5 (subf : (⟨S4x12544, .f32⟩ : BufTy).Contents (Elt F) → (⟨S4x12544, .f32⟩ : BufTy).Contents (Elt F) → (⟨S4x12544, .f32⟩ : BufTy).Contents (Elt F)),
    unary main_arg4 main_v6 ((extractStridedSlice S4x12544x1 ![0, 0, 1] · slices_S4x12544x2_S4x12544x1_0_0_1) : (⟨S4x12544x2, .f32⟩ : BufTy).Contents (Elt F) → (⟨S4x12544x1, .f32⟩ : BufTy).Contents (Elt F)),
    reshape main_v6 main_v7 rfl shapeCasts_S4x12544x1_S4x12544,
    nullary main_cst_1 (constant S_ .f32 0x43800000#32),
    unary main_cst_1 main_v8 (broadcastInDim S4x12544 ![] bcast_S_S4x12544 : (⟨S_, .f32⟩ : BufTy).Contents (Elt F) → (⟨S4x12544, .f32⟩ : BufTy).Contents (Elt F)),
    binary main_v7 main_v8 main_v9 (mulf : (⟨S4x12544, .f32⟩ : BufTy).Contents (Elt F) → (⟨S4x12544, .f32⟩ : BufTy).Contents (Elt F) → (⟨S4x12544, .f32⟩ : BufTy).Contents (Elt F)),
    nullary main_cst_2 (constant S_ .f32 0x3F000000#32),
    unary main_cst_2 main_v10 (broadcastInDim S4x12544 ![] bcast_S_S4x12544 : (⟨S_, .f32⟩ : BufTy).Contents (Elt F) → (⟨S4x12544, .f32⟩ : BufTy).Contents (Elt F)),
    binary main_v9 main_v10 main_v11 (subf : (⟨S4x12544, .f32⟩ : BufTy).Contents (Elt F) → (⟨S4x12544, .f32⟩ : BufTy).Contents (Elt F) → (⟨S4x12544, .f32⟩ : BufTy).Contents (Elt F)),
    unary main_v5 main_v12 (Host.floor : (⟨S4x12544, .f32⟩ : BufTy).Contents (Elt F) → (⟨S4x12544, .f32⟩ : BufTy).Contents (Elt F)),
    unary main_v11 main_v13 (Host.floor : (⟨S4x12544, .f32⟩ : BufTy).Contents (Elt F) → (⟨S4x12544, .f32⟩ : BufTy).Contents (Elt F)),
    binary main_v5 main_v12 main_v14 (subf : (⟨S4x12544, .f32⟩ : BufTy).Contents (Elt F) → (⟨S4x12544, .f32⟩ : BufTy).Contents (Elt F) → (⟨S4x12544, .f32⟩ : BufTy).Contents (Elt F)),
    binary main_v11 main_v13 main_v15 (subf : (⟨S4x12544, .f32⟩ : BufTy).Contents (Elt F) → (⟨S4x12544, .f32⟩ : BufTy).Contents (Elt F) → (⟨S4x12544, .f32⟩ : BufTy).Contents (Elt F)),
    nullary main_c (constantI S_ 32 0#32),
    nullary main_c_3 (constantI S_ 32 255#32),
    TRef.unary (TRef.of (T := ⟨S_, .i32⟩) main_c) (TRef.of (T := ⟨S_, .f32⟩) main_call0_v0) (sitofp .f32),
    TRef.unary (TRef.of (T := ⟨S_, .f32⟩) main_call0_v0) (TRef.of (T := ⟨S4x12544, .f32⟩) main_call0_v1) (broadcastInDim S4x12544 ![] bcast_S_S4x12544),
    TRef.binary (TRef.of (T := ⟨S4x12544, .f32⟩) main_call0_v1) (TRef.of (T := ⟨S4x12544, .f32⟩) main_v12) (TRef.of (T := ⟨S4x12544, .f32⟩) main_call0_v2) maximumf,
    TRef.unary (TRef.of (T := ⟨S_, .i32⟩) main_c_3) (TRef.of (T := ⟨S_, .f32⟩) main_call0_v3) (sitofp .f32),
    TRef.unary (TRef.of (T := ⟨S_, .f32⟩) main_call0_v3) (TRef.of (T := ⟨S4x12544, .f32⟩) main_call0_v4) (broadcastInDim S4x12544 ![] bcast_S_S4x12544),
    TRef.binary (TRef.of (T := ⟨S4x12544, .f32⟩) main_call0_v4) (TRef.of (T := ⟨S4x12544, .f32⟩) main_call0_v2) (TRef.of (T := ⟨S4x12544, .f32⟩) main_v16) minimumf,
    unary main_v16 main_v17 (fptosi 32 : (⟨S4x12544, .f32⟩ : BufTy).Contents (Elt F) → (⟨S4x12544, .i32⟩ : BufTy).Contents (Elt F)),
    nullary main_c_4 (constantI S_ 32 0#32),
    nullary main_c_5 (constantI S_ 32 255#32),
    TRef.unary (TRef.of (T := ⟨S_, .i32⟩) main_c_4) (TRef.of (T := ⟨S_, .f32⟩) main_call1_v0) (sitofp .f32),
    TRef.unary (TRef.of (T := ⟨S_, .f32⟩) main_call1_v0) (TRef.of (T := ⟨S4x12544, .f32⟩) main_call1_v1) (broadcastInDim S4x12544 ![] bcast_S_S4x12544),
    TRef.binary (TRef.of (T := ⟨S4x12544, .f32⟩) main_call1_v1) (TRef.of (T := ⟨S4x12544, .f32⟩) main_v13) (TRef.of (T := ⟨S4x12544, .f32⟩) main_call1_v2) maximumf,
    TRef.unary (TRef.of (T := ⟨S_, .i32⟩) main_c_5) (TRef.of (T := ⟨S_, .f32⟩) main_call1_v3) (sitofp .f32),
    TRef.unary (TRef.of (T := ⟨S_, .f32⟩) main_call1_v3) (TRef.of (T := ⟨S4x12544, .f32⟩) main_call1_v4) (broadcastInDim S4x12544 ![] bcast_S_S4x12544),
    TRef.binary (TRef.of (T := ⟨S4x12544, .f32⟩) main_call1_v4) (TRef.of (T := ⟨S4x12544, .f32⟩) main_call1_v2) (TRef.of (T := ⟨S4x12544, .f32⟩) main_v18) minimumf,
    unary main_v18 main_v19 (fptosi 32 : (⟨S4x12544, .f32⟩ : BufTy).Contents (Elt F) → (⟨S4x12544, .i32⟩ : BufTy).Contents (Elt F)),
    nullary main_cst_6 (constant S_ .f32 0x00000000#32),
    unary main_cst_6 main_v20 (broadcastInDim S4x12544 ![] bcast_S_S4x12544 : (⟨S_, .f32⟩ : BufTy).Contents (Elt F) → (⟨S4x12544, .f32⟩ : BufTy).Contents (Elt F)),
    binary main_v12 main_v20 main_v21 (cmpf .oge : (⟨S4x12544, .f32⟩ : BufTy).Contents (Elt F) → (⟨S4x12544, .f32⟩ : BufTy).Contents (Elt F) → (⟨S4x12544, .i1⟩ : BufTy).Contents (Elt F)),
    nullary main_cst_7 (constant S_ .f32 0x437F0000#32),
    unary main_cst_7 main_v22 (broadcastInDim S4x12544 ![] bcast_S_S4x12544 : (⟨S_, .f32⟩ : BufTy).Contents (Elt F) → (⟨S4x12544, .f32⟩ : BufTy).Contents (Elt F)),
    binary main_v12 main_v22 main_v23 (cmpf .ole : (⟨S4x12544, .f32⟩ : BufTy).Contents (Elt F) → (⟨S4x12544, .f32⟩ : BufTy).Contents (Elt F) → (⟨S4x12544, .i1⟩ : BufTy).Contents (Elt F)),
    binary main_v21 main_v23 main_v24 (andi : (⟨S4x12544, .i1⟩ : BufTy).Contents (Elt F) → (⟨S4x12544, .i1⟩ : BufTy).Contents (Elt F) → (⟨S4x12544, .i1⟩ : BufTy).Contents (Elt F)),
    nullary main_cst_8 (constant S_ .f32 0x00000000#32),
    unary main_cst_8 main_v25 (broadcastInDim S4x12544 ![] bcast_S_S4x12544 : (⟨S_, .f32⟩ : BufTy).Contents (Elt F) → (⟨S4x12544, .f32⟩ : BufTy).Contents (Elt F)),
    binary main_v13 main_v25 main_v26 (cmpf .oge : (⟨S4x12544, .f32⟩ : BufTy).Contents (Elt F) → (⟨S4x12544, .f32⟩ : BufTy).Contents (Elt F) → (⟨S4x12544, .i1⟩ : BufTy).Contents (Elt F)),
    binary main_v24 main_v26 main_v27 (andi : (⟨S4x12544, .i1⟩ : BufTy).Contents (Elt F) → (⟨S4x12544, .i1⟩ : BufTy).Contents (Elt F) → (⟨S4x12544, .i1⟩ : BufTy).Contents (Elt F)),
    nullary main_cst_9 (constant S_ .f32 0x437F0000#32),
    unary main_cst_9 main_v28 (broadcastInDim S4x12544 ![] bcast_S_S4x12544 : (⟨S_, .f32⟩ : BufTy).Contents (Elt F) → (⟨S4x12544, .f32⟩ : BufTy).Contents (Elt F)),
    binary main_v13 main_v28 main_v29 (cmpf .ole : (⟨S4x12544, .f32⟩ : BufTy).Contents (Elt F) → (⟨S4x12544, .f32⟩ : BufTy).Contents (Elt F) → (⟨S4x12544, .i1⟩ : BufTy).Contents (Elt F)),
    binary main_v27 main_v29 main_v30 (andi : (⟨S4x12544, .i1⟩ : BufTy).Contents (Elt F) → (⟨S4x12544, .i1⟩ : BufTy).Contents (Elt F) → (⟨S4x12544, .i1⟩ : BufTy).Contents (Elt F)),
    unary main_v30 main_v31 (uitofp .f32 : (⟨S4x12544, .i1⟩ : BufTy).Contents (Elt F) → (⟨S4x12544, .f32⟩ : BufTy).Contents (Elt F)),
    nullary main_c_10 (constantI S_ 32 0#32),
    unary main_c_10 main_v32 (broadcastInDim S4x12544 ![] bcast_S_S4x12544 : (⟨S_, .i32⟩ : BufTy).Contents (Elt F) → (⟨S4x12544, .i32⟩ : BufTy).Contents (Elt F)),
    binary main_v19 main_v32 main_v33 (cmpi .slt : (⟨S4x12544, .i32⟩ : BufTy).Contents (Elt F) → (⟨S4x12544, .i32⟩ : BufTy).Contents (Elt F) → (⟨S4x12544, .i1⟩ : BufTy).Contents (Elt F)),
    nullary main_c_11 (constantI S_ 32 256#32),
    unary main_c_11 main_v34 (broadcastInDim S4x12544 ![] bcast_S_S4x12544 : (⟨S_, .i32⟩ : BufTy).Contents (Elt F) → (⟨S4x12544, .i32⟩ : BufTy).Contents (Elt F)),
    binary main_v19 main_v34 main_v35 (addi : (⟨S4x12544, .i32⟩ : BufTy).Contents (Elt F) → (⟨S4x12544, .i32⟩ : BufTy).Contents (Elt F) → (⟨S4x12544, .i32⟩ : BufTy).Contents (Elt F)),
    ternary main_v33 main_v35 main_v19 main_v36 (select : (⟨S4x12544, .i1⟩ : BufTy).Contents (Elt F) → (⟨S4x12544, .i32⟩ : BufTy).Contents (Elt F) → (⟨S4x12544, .i32⟩ : BufTy).Contents (Elt F) → (⟨S4x12544, .i32⟩ : BufTy).Contents (Elt F)),
    nullary main_c_12 (constantI S_ 32 0#32),
    unary main_c_12 main_v37 (broadcastInDim S4x12544 ![] bcast_S_S4x12544 : (⟨S_, .i32⟩ : BufTy).Contents (Elt F) → (⟨S4x12544, .i32⟩ : BufTy).Contents (Elt F)),
    binary main_v17 main_v37 main_v38 (cmpi .slt : (⟨S4x12544, .i32⟩ : BufTy).Contents (Elt F) → (⟨S4x12544, .i32⟩ : BufTy).Contents (Elt F) → (⟨S4x12544, .i1⟩ : BufTy).Contents (Elt F)),
    nullary main_c_13 (constantI S_ 32 256#32),
    unary main_c_13 main_v39 (broadcastInDim S4x12544 ![] bcast_S_S4x12544 : (⟨S_, .i32⟩ : BufTy).Contents (Elt F) → (⟨S4x12544, .i32⟩ : BufTy).Contents (Elt F)),
    binary main_v17 main_v39 main_v40 (addi : (⟨S4x12544, .i32⟩ : BufTy).Contents (Elt F) → (⟨S4x12544, .i32⟩ : BufTy).Contents (Elt F) → (⟨S4x12544, .i32⟩ : BufTy).Contents (Elt F)),
    ternary main_v38 main_v40 main_v17 main_v41 (select : (⟨S4x12544, .i1⟩ : BufTy).Contents (Elt F) → (⟨S4x12544, .i32⟩ : BufTy).Contents (Elt F) → (⟨S4x12544, .i32⟩ : BufTy).Contents (Elt F) → (⟨S4x12544, .i32⟩ : BufTy).Contents (Elt F)),
    unary main_v36 main_v42 (broadcastInDim S4x12544x1 ![0, 1] bcast_S4x12544_S4x12544x1_0_1 : (⟨S4x12544, .i32⟩ : BufTy).Contents (Elt F) → (⟨S4x12544x1, .i32⟩ : BufTy).Contents (Elt F)),
    unary main_v41 main_v43 (broadcastInDim S4x12544x1 ![0, 1] bcast_S4x12544_S4x12544x1_0_1 : (⟨S4x12544, .i32⟩ : BufTy).Contents (Elt F) → (⟨S4x12544x1, .i32⟩ : BufTy).Contents (Elt F)) ]

set_option maxRecDepth 8192 in
set_option maxHeartbeats 4000000 in
theorem main_part0_eq (c : Dev nD) : main_part0 (F := F) c = seq ops_0 := rfl

set_option maxRecDepth 8192 in
theorem ops_0_sub : (ops_0 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

set_option maxRecDepth 8192 in
set_option maxHeartbeats 4000000 in
theorem ops_0_fresh : ∀ op ∈ (ops_0 : List (HloOp τ sig (Elt F))), op.fresh = ∅ := by
  intro _ h; (repeat (cases h with | head => rfl | tail _ h => ?_)); exact nomatch h

set_option maxRecDepth 8192 in
set_option maxHeartbeats 16000000 in
/-- From contents W that hold the stages' values at the buffers live before these operations, the contents after them hold
    the stages' values at the buffers live after them. -/
theorem stage_0 (x0 : (⟨S4x300x80, .f32⟩ : BufTy).Contents (Elt F)) (x1 : (⟨S4x300x256x256, .f32⟩ : BufTy).Contents (Elt F)) (x2 : (⟨S4x100, .i32⟩ : BufTy).Contents (Elt F)) (x3 : (⟨S4x100x256x256, .f32⟩ : BufTy).Contents (Elt F)) (x4 : (⟨S4x12544x2, .f32⟩ : BufTy).Contents (Elt F))
    (W : Valuation τ sig (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4) :
    (after ops_0 W (Proc.devRef .tc main_arg0) = x0)
      ∧ (after ops_0 W (Proc.devRef .tc main_arg1) = x1)
      ∧ (after ops_0 W (Proc.devRef .tc main_arg2) = x2)
      ∧ (after ops_0 W (Proc.devRef .tc main_arg3) = x3)
      ∧ (after ops_0 W (Proc.devRef .tc main_arg4) = x4)
      ∧ (after ops_0 W (Proc.devRef .tc main_v12) = ReadP.val_main_v12 (F := F) x4)
      ∧ (after ops_0 W (Proc.devRef .tc main_v13) = ReadP.val_main_v13 (F := F) x4)
      ∧ (after ops_0 W (Proc.devRef .tc main_v14) = ReadP.val_main_v14 (F := F) x4)
      ∧ (after ops_0 W (Proc.devRef .tc main_v15) = ReadP.val_main_v15 (F := F) x4)
      ∧ (after ops_0 W (Proc.devRef .tc main_v31) = ReadP.val_main_v31 (F := F) x4)
      ∧ (after ops_0 W (Proc.devRef .tc main_v42) = ReadP.val_main_v42 (F := F) x4)
      ∧ (after ops_0 W (Proc.devRef .tc main_v43) = ReadP.val_main_v43 (F := F) x4) := by
  simp only [ops_0]
  after_results_simp
  simp only [TRef.ofBuf, TRef.toBuf, cast_eq, h_main_arg0, h_main_arg1, h_main_arg2, h_main_arg3, h_main_arg4]
  refine ⟨?_, ?_, ?_, ?_, ?_, ?_, ?_, ?_, ?_, ?_, ?_, ?_⟩ <;> first | trivial | rfl

end Cert.ReferenceIdeal.RefRun

end
-- ==== Proof.RefRunC1.lean ====
import proofs.«146640_j52948356825308_1_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two index columns side by side, as one function of the two (a named function, so that its operands are plain arguments). -/
def cat_1 : (⟨S4x12544x1, .i32⟩ : BufTy).Contents (Elt F) → (⟨S4x12544x1, .i32⟩ : BufTy).Contents (Elt F) → (⟨S4x12544x2, .i32⟩ : BufTy).Contents (Elt F) :=
  fun a b => concatenate S4x12544x2 2 [⟨S4x12544x1, a⟩, ⟨S4x12544x1, b⟩] concatenates_S4x12544x1_S4x12544x1_S4x12544x2_d2

/-- @main's operations 71 … 145 of 720, in order (a called function's operations stand in its call's place). -/
abbrev ops_1 : List (HloOp τ sig (Elt F)) :=
  [ binary main_v42 main_v43 main_v44 (cat_1 : (⟨S4x12544x1, .i32⟩ : BufTy).Contents (Elt F) → (⟨S4x12544x1, .i32⟩ : BufTy).Contents (Elt F) → (⟨S4x12544x2, .i32⟩ : BufTy).Contents (Elt F)),
    binary main_arg1 main_v44 main_v45 ((fun x i => Host.gather gather_S4x300x256x256_S4x12544x2_S4x300x12544_1_23_0_0_23_2_130011 x i) : (⟨S4x300x256x256, .f32⟩ : BufTy).Contents (Elt F) → (⟨S4x12544x2, .i32⟩ : BufTy).Contents (Elt F) → (⟨S4x300x12544, .f32⟩ : BufTy).Contents (Elt F)),
    unary main_v31 main_v46 (broadcastInDim S4x1x12544 ![0, 2] bcast_S4x12544_S4x1x12544_0_2 : (⟨S4x12544, .f32⟩ : BufTy).Contents (Elt F) → (⟨S4x1x12544, .f32⟩ : BufTy).Contents (Elt F)),
    unary main_v46 main_v47 (broadcastInDim S4x300x12544 ![0, 1, 2] bcast_S4x1x12544_S4x300x12544_0_1_2 : (⟨S4x1x12544, .f32⟩ : BufTy).Contents (Elt F) → (⟨S4x300x12544, .f32⟩ : BufTy).Contents (Elt F)),
    binary main_v45 main_v47 main_v48 (mulf : (⟨S4x300x12544, .f32⟩ : BufTy).Contents (Elt F) → (⟨S4x300x12544, .f32⟩ : BufTy).Contents (Elt F) → (⟨S4x300x12544, .f32⟩ : BufTy).Contents (Elt F)),
    nullary main_cst_14 (constant S_ .f32 0x3F800000#32),
    unary main_cst_14 main_v49 (broadcastInDim S4x12544 ![] bcast_S_S4x12544 : (⟨S_, .f32⟩ : BufTy).Contents (Elt F) → (⟨S4x12544, .f32⟩ : BufTy).Contents (Elt F)),
    binary main_v12 main_v49 main_v50 (addf : (⟨S4x12544, .f32⟩ : BufTy).Contents (Elt F) → (⟨S4x12544, .f32⟩ : BufTy).Contents (Elt F) → (⟨S4x12544, .f32⟩ : BufTy).Contents (Elt F)),
    nullary main_c_15 (constantI S_ 32 0#32),
    nullary main_c_16 (constantI S_ 32 255#32),
    TRef.unary (TRef.of (T := ⟨S_, .i32⟩) main_c_15) (TRef.of (T := ⟨S_, .f32⟩) main_call2_v0) (sitofp .f32),
    TRef.unary (TRef.of (T := ⟨S_, .f32⟩) main_call2_v0) (TRef.of (T := ⟨S4x12544, .f32⟩) main_call2_v1) (broadcastInDim S4x12544 ![] bcast_S_S4x12544),
    TRef.binary (TRef.of (T := ⟨S4x12544, .f32⟩) main_call2_v1) (TRef.of (T := ⟨S4x12544, .f32⟩) main_v50) (TRef.of (T := ⟨S4x12544, .f32⟩) main_call2_v2) maximumf,
    TRef.unary (TRef.of (T := ⟨S_, .i32⟩) main_c_16) (TRef.of (T := ⟨S_, .f32⟩) main_call2_v3) (sitofp .f32),
    TRef.unary (TRef.of (T := ⟨S_, .f32⟩) main_call2_v3) (TRef.of (T := ⟨S4x12544, .f32⟩) main_call2_v4) (broadcastInDim S4x12544 ![] bcast_S_S4x12544),
    TRef.binary (TRef.of (T := ⟨S4x12544, .f32⟩) main_call2_v4) (TRef.of (T := ⟨S4x12544, .f32⟩) main_call2_v2) (TRef.of (T := ⟨S4x12544, .f32⟩) main_v51) minimumf,
    unary main_v51 main_v52 (fptosi 32 : (⟨S4x12544, .f32⟩ : BufTy).Contents (Elt F) → (⟨S4x12544, .i32⟩ : BufTy).Contents (Elt F)),
    nullary main_c_17 (constantI S_ 32 0#32),
    nullary main_c_18 (constantI S_ 32 255#32),
    TRef.unary (TRef.of (T := ⟨S_, .i32⟩) main_c_17) (TRef.of (T := ⟨S_, .f32⟩) main_call3_v0) (sitofp .f32),
    TRef.unary (TRef.of (T := ⟨S_, .f32⟩) main_call3_v0) (TRef.of (T := ⟨S4x12544, .f32⟩) main_call3_v1) (broadcastInDim S4x12544 ![] bcast_S_S4x12544),
    TRef.binary (TRef.of (T := ⟨S4x12544, .f32⟩) main_call3_v1) (TRef.of (T := ⟨S4x12544, .f32⟩) main_v13) (TRef.of (T := ⟨S4x12544, .f32⟩) main_call3_v2) maximumf,
    TRef.unary (TRef.of (T := ⟨S_, .i32⟩) main_c_18) (TRef.of (T := ⟨S_, .f32⟩) main_call3_v3) (sitofp .f32),
    TRef.unary (TRef.of (T := ⟨S_, .f32⟩) main_call3_v3) (TRef.of (T := ⟨S4x12544, .f32⟩) main_call3_v4) (broadcastInDim S4x12544 ![] bcast_S_S4x12544),
    TRef.binary (TRef.of (T := ⟨S4x12544, .f32⟩) main_call3_v4) (TRef.of (T := ⟨S4x12544, .f32⟩) main_call3_v2) (TRef.of (T := ⟨S4x12544, .f32⟩) main_v53) minimumf,
    unary main_v53 main_v54 (fptosi 32 : (⟨S4x12544, .f32⟩ : BufTy).Contents (Elt F) → (⟨S4x12544, .i32⟩ : BufTy).Contents (Elt F)),
    nullary main_cst_19 (constant S_ .f32 0x00000000#32),
    unary main_cst_19 main_v55 (broadcastInDim S4x12544 ![] bcast_S_S4x12544 : (⟨S_, .f32⟩ : BufTy).Contents (Elt F) → (⟨S4x12544, .f32⟩ : BufTy).Contents (Elt F)),
    binary main_v50 main_v55 main_v56 (cmpf .oge : (⟨S4x12544, .f32⟩ : BufTy).Contents (Elt F) → (⟨S4x12544, .f32⟩ : BufTy).Contents (Elt F) → (⟨S4x12544, .i1⟩ : BufTy).Contents (Elt F)),
    nullary main_cst_20 (constant S_ .f32 0x437F0000#32),
    unary main_cst_20 main_v57 (broadcastInDim S4x12544 ![] bcast_S_S4x12544 : (⟨S_, .f32⟩ : BufTy).Contents (Elt F) → (⟨S4x12544, .f32⟩ : BufTy).Contents (Elt F)),
    binary main_v50 main_v57 main_v58 (cmpf .ole : (⟨S4x12544, .f32⟩ : BufTy).Contents (Elt F) → (⟨S4x12544, .f32⟩ : BufTy).Contents (Elt F) → (⟨S4x12544, .i1⟩ : BufTy).Contents (Elt F)),
    binary main_v56 main_v58 main_v59 (andi : (⟨S4x12544, .i1⟩ : BufTy).Contents (Elt F) → (⟨S4x12544, .i1⟩ : BufTy).Contents (Elt F) → (⟨S4x12544, .i1⟩ : BufTy).Contents (Elt F)),
    nullary main_cst_21 (constant S_ .f32 0x00000000#32),
    unary main_cst_21 main_v60 (broadcastInDim S4x12544 ![] bcast_S_S4x12544 : (⟨S_, .f32⟩ : BufTy).Contents (Elt F) → (⟨S4x12544, .f32⟩ : BufTy).Contents (Elt F)),
    binary main_v13 main_v60 main_v61 (cmpf .oge : (⟨S4x12544, .f32⟩ : BufTy).Contents (Elt F) → (⟨S4x12544, .f32⟩ : BufTy).Contents (Elt F) → (⟨S4x12544, .i1⟩ : BufTy).Contents (Elt F)),
    binary main_v59 main_v61 main_v62 (andi : (⟨S4x12544, .i1⟩ : BufTy).Contents (Elt F) → (⟨S4x12544, .i1⟩ : BufTy).Contents (Elt F) → (⟨S4x12544, .i1⟩ : BufTy).Contents (Elt F)),
    nullary main_cst_22 (constant S_ .f32 0x437F0000#32),
    unary main_cst_22 main_v63 (broadcastInDim S4x12544 ![] bcast_S_S4x12544 : (⟨S_, .f32⟩ : BufTy).Contents (Elt F) → (⟨S4x12544, .f32⟩ : BufTy).Contents (Elt F)),
    binary main_v13 main_v63 main_v64 (cmpf .ole : (⟨S4x12544, .f32⟩ : BufTy).Contents (Elt F) → (⟨S4x12544, .f32⟩ : BufTy).Contents (Elt F) → (⟨S4x12544, .i1⟩ : BufTy).Contents (Elt F)),
    binary main_v62 main_v64 main_v65 (andi : (⟨S4x12544, .i1⟩ : BufTy).Contents (Elt F) → (⟨S4x12544, .i1⟩ : BufTy).Contents (Elt F) → (⟨S4x12544, .i1⟩ : BufTy).Contents (Elt F)),
    unary main_v65 main_v66 (uitofp .f32 : (⟨S4x12544, .i1⟩ : BufTy).Contents (Elt F) → (⟨S4x12544, .f32⟩ : BufTy).Contents (Elt F)),
    nullary main_c_23 (constantI S_ 32 0#32),
    unary main_c_23 main_v67 (broadcastInDim S4x12544 ![] bcast_S_S4x12544 : (⟨S_, .i32⟩ : BufTy).Contents (Elt F) → (⟨S4x12544, .i32⟩ : BufTy).Contents (Elt F)),
    binary main_v54 main_v67 main_v68 (cmpi .slt : (⟨S4x12544, .i32⟩ : BufTy).Contents (Elt F) → (⟨S4x12544, .i32⟩ : BufTy).Contents (Elt F) → (⟨S4x12544, .i1⟩ : BufTy).Contents (Elt F)),
    nullary main_c_24 (constantI S_ 32 256#32),
    unary main_c_24 main_v69 (broadcastInDim S4x12544 ![] bcast_S_S4x12544 : (⟨S_, .i32⟩ : BufTy).Contents (Elt F) → (⟨S4x12544, .i32⟩ : BufTy).Contents (Elt F)),
    binary main_v54 main_v69 main_v70 (addi : (⟨S4x12544, .i32⟩ : BufTy).Contents (Elt F) → (⟨S4x12544, .i32⟩ : BufTy).Contents (Elt F) → (⟨S4x12544, .i32⟩ : BufTy).Contents (Elt F)),
    ternary main_v68 main_v70 main_v54 main_v71 (select : (⟨S4x12544, .i1⟩ : BufTy).Contents (Elt F) → (⟨S4x12544, .i32⟩ : BufTy).Contents (Elt F) → (⟨S4x12544, .i32⟩ : BufTy).Contents (Elt F) → (⟨S4x12544, .i32⟩ : BufTy).Contents (Elt F)),
    nullary main_c_25 (constantI S_ 32 0#32),
    unary main_c_25 main_v72 (broadcastInDim S4x12544 ![] bcast_S_S4x12544 : (⟨S_, .i32⟩ : BufTy).Contents (Elt F) → (⟨S4x12544, .i32⟩ : BufTy).Contents (Elt F)),
    binary main_v52 main_v72 main_v73 (cmpi .slt : (⟨S4x12544, .i32⟩ : BufTy).Contents (Elt F) → (⟨S4x12544, .i32⟩ : BufTy).Contents (Elt F) → (⟨S4x12544, .i1⟩ : BufTy).Contents (Elt F)),
    nullary main_c_26 (constantI S_ 32 256#32),
    unary main_c_26 main_v74 (broadcastInDim S4x12544 ![] bcast_S_S4x12544 : (⟨S_, .i32⟩ : BufTy).Contents (Elt F) → (⟨S4x12544, .i32⟩ : BufTy).Contents (Elt F)),
    binary main_v52 main_v74 main_v75 (addi : (⟨S4x12544, .i32⟩ : BufTy).Contents (Elt F) → (⟨S4x12544, .i32⟩ : BufTy).Contents (Elt F) → (⟨S4x12544, .i32⟩ : BufTy).Contents (Elt F)),
    ternary main_v73 main_v75 main_v52 main_v76 (select : (⟨S4x12544, .i1⟩ : BufTy).Contents (Elt F) → (⟨S4x12544, .i32⟩ : BufTy).Contents (Elt F) → (⟨S4x12544, .i32⟩ : BufTy).Contents (Elt F) → (⟨S4x12544, .i32⟩ : BufTy).Contents (Elt F)),
    unary main_v71 main_v77 (broadcastInDim S4x12544x1 ![0, 1] bcast_S4x12544_S4x12544x1_0_1 : (⟨S4x12544, .i32⟩ : BufTy).Contents (Elt F) → (⟨S4x12544x1, .i32⟩ : BufTy).Contents (Elt F)),
    unary main_v76 main_v78 (broadcastInDim S4x12544x1 ![0, 1] bcast_S4x12544_S4x12544x1_0_1 : (⟨S4x12544, .i32⟩ : BufTy).Contents (Elt F) → (⟨S4x12544x1, .i32⟩ : BufTy).Contents (Elt F)),
    binary main_v77 main_v78 main_v79 (cat_1 : (⟨S4x12544x1, .i32⟩ : BufTy).Contents (Elt F) → (⟨S4x12544x1, .i32⟩ : BufTy).Contents (Elt F) → (⟨S4x12544x2, .i32⟩ : BufTy).Contents (Elt F)),
    binary main_arg1 main_v79 main_v80 ((fun x i => Host.gather gather_S4x300x256x256_S4x12544x2_S4x300x12544_1_23_0_0_23_2_130011 x i) : (⟨S4x300x256x256, .f32⟩ : BufTy).Contents (Elt F) → (⟨S4x12544x2, .i32⟩ : BufTy).Contents (Elt F) → (⟨S4x300x12544, .f32⟩ : BufTy).Contents (Elt F)),
    unary main_v66 main_v81 (broadcastInDim S4x1x12544 ![0, 2] bcast_S4x12544_S4x1x12544_0_2 : (⟨S4x12544, .f32⟩ : BufTy).Contents (Elt F) → (⟨S4x1x12544, .f32⟩ : BufTy).Contents (Elt F)),
    unary main_v81 main_v82 (broadcastInDim S4x300x12544 ![0, 1, 2] bcast_S4x1x12544_S4x300x12544_0_1_2 : (⟨S4x1x12544, .f32⟩ : BufTy).Contents (Elt F) → (⟨S4x300x12544, .f32⟩ : BufTy).Contents (Elt F)),
    binary main_v80 main_v82 main_v83 (mulf : (⟨S4x300x12544, .f32⟩ : BufTy).Contents (Elt F) → (⟨S4x300x12544, .f32⟩ : BufTy).Contents (Elt F) → (⟨S4x300x12544, .f32⟩ : BufTy).Contents (Elt F)),
    nullary main_cst_27 (constant S_ .f32 0x3F800000#32),
    unary main_cst_27 main_v84 (broadcastInDim S4x12544 ![] bcast_S_S4x12544 : (⟨S_, .f32⟩ : BufTy).Contents (Elt F) → (⟨S4x12544, .f32⟩ : BufTy).Contents (Elt F)),
    binary main_v13 main_v84 main_v85 (addf : (⟨S4x12544, .f32⟩ : BufTy).Contents (Elt F) → (⟨S4x12544, .f32⟩ : BufTy).Contents (Elt F) → (⟨S4x12544, .f32⟩ : BufTy).Contents (Elt F)),
    nullary main_c_28 (constantI S_ 32 0#32),
    nullary main_c_29 (constantI S_ 32 255#32),
    TRef.unary (TRef.of (T := ⟨S_, .i32⟩) main_c_28) (TRef.of (T := ⟨S_, .f32⟩) main_call4_v0) (sitofp .f32),
    TRef.unary (TRef.of (T := ⟨S_, .f32⟩) main_call4_v0) (TRef.of (T := ⟨S4x12544, .f32⟩) main_call4_v1) (broadcastInDim S4x12544 ![] bcast_S_S4x12544),
    TRef.binary (TRef.of (T := ⟨S4x12544, .f32⟩) main_call4_v1) (TRef.of (T := ⟨S4x12544, .f32⟩) main_v12) (TRef.of (T := ⟨S4x12544, .f32⟩) main_call4_v2) maximumf,
    TRef.unary (TRef.of (T := ⟨S_, .i32⟩) main_c_29) (TRef.of (T := ⟨S_, .f32⟩) main_call4_v3) (sitofp .f32),
    TRef.unary (TRef.of (T := ⟨S_, .f32⟩) main_call4_v3) (TRef.of (T := ⟨S4x12544, .f32⟩) main_call4_v4) (broadcastInDim S4x12544 ![] bcast_S_S4x12544),
    TRef.binary (TRef.of (T := ⟨S4x12544, .f32⟩) main_call4_v4) (TRef.of (T := ⟨S4x12544, .f32⟩) main_call4_v2) (TRef.of (T := ⟨S4x12544, .f32⟩) main_v86) minimumf,
    unary main_v86 main_v87 (fptosi 32 : (⟨S4x12544, .f32⟩ : BufTy).Contents (Elt F) → (⟨S4x12544, .i32⟩ : BufTy).Contents (Elt F)) ]

set_option maxRecDepth 8192 in
set_option maxHeartbeats 4000000 in
theorem main_part1_eq (c : Dev nD) : main_part1 (F := F) c = seq ops_1 := rfl

set_option maxRecDepth 8192 in
theorem ops_1_sub : (ops_1 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub ..⟩

set_option maxRecDepth 8192 in
set_option maxHeartbeats 4000000 in
theorem ops_1_fresh : ∀ op ∈ (ops_1 : List (HloOp τ sig (Elt F))), op.fresh = ∅ := by
  intro _ h; (repeat (cases h with | head => rfl | tail _ h => ?_)); exact nomatch h

set_option maxRecDepth 8192 in
set_option maxHeartbeats 16000000 in
/-- From contents W that hold the stages' values at the buffers live before these operations, the contents after them hold
    the stages' values at the buffers live after them. -/
theorem stage_1 (x0 : (⟨S4x300x80, .f32⟩ : BufTy).Contents (Elt F)) (x1 : (⟨S4x300x256x256, .f32⟩ : BufTy).Contents (Elt F)) (x2 : (⟨S4x100, .i32⟩ : BufTy).Contents (Elt F)) (x3 : (⟨S4x100x256x256, .f32⟩ : BufTy).Contents (Elt F)) (x4 : (⟨S4x12544x2, .f32⟩ : BufTy).Contents (Elt F))
    (W : Valuation τ sig (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_v12 : W (no_index (Proc.devRef .tc main_v12)) = ReadP.val_main_v12 (F := F) x4)
    (h_main_v13 : W (no_index (Proc.devRef .tc main_v13)) = ReadP.val_main_v13 (F := F) x4)
    (h_main_v14 : W (no_index (Proc.devRef .tc main_v14)) = ReadP.val_main_v14 (F := F) x4)
    (h_main_v15 : W (no_index (Proc.devRef .tc main_v15)) = ReadP.val_main_v15 (F := F) x4)
    (h_main_v31 : W (no_index (Proc.devRef .tc main_v31)) = ReadP.val_main_v31 (F := F) x4)
    (h_main_v42 : W (no_index (Proc.devRef .tc main_v42)) = ReadP.val_main_v42 (F := F) x4)
    (h_main_v43 : W (no_index (Proc.devRef .tc main_v43)) = ReadP.val_main_v43 (F := F) x4) :
    (after ops_1 W (Proc.devRef .tc main_arg0) = x0)
      ∧ (after ops_1 W (Proc.devRef .tc main_arg1) = x1)
      ∧ (after ops_1 W (Proc.devRef .tc main_arg2) = x2)
      ∧ (after ops_1 W (Proc.devRef .tc main_arg3) = x3)
      ∧ (after ops_1 W (Proc.devRef .tc main_arg4) = x4)
      ∧ (after ops_1 W (Proc.devRef .tc main_v12) = ReadP.val_main_v12 (F := F) x4)
      ∧ (after ops_1 W (Proc.devRef .tc main_v13) = ReadP.val_main_v13 (F := F) x4)
      ∧ (after ops_1 W (Proc.devRef .tc main_v14) = ReadP.val_main_v14 (F := F) x4)
      ∧ (after ops_1 W (Proc.devRef .tc main_v15) = ReadP.val_main_v15 (F := F) x4)
      ∧ (after ops_1 W (Proc.devRef .tc main_v48) = ReadP.val_main_v48 (F := F) x1 x4)
      ∧ (after ops_1 W (Proc.devRef .tc main_v83) = ReadP.val_main_v83 (F := F) x1 x4)
      ∧ (after ops_1 W (Proc.devRef .tc main_v85) = ReadP.val_main_v85 (F := F) x4)
      ∧ (after ops_1 W (Proc.devRef .tc main_v87) = ReadP.val_main_v87 (F := F) x4) := by
  simp only [ops_1]
  after_results_simp
  simp only [TRef.ofBuf, TRef.toBuf, cast_eq, h_main_arg0, h_main_arg1, h_main_arg2, h_main_arg3, h_main_arg4, h_main_v12, h_main_v13, h_main_v14, h_main_v15, h_main_v31, h_main_v42, h_main_v43]
  refine ⟨?_, ?_, ?_, ?_, ?_, ?_, ?_, ?_, ?_, ?_, ?_, ?_, ?_⟩ <;> first | trivial | rfl

end Cert.ReferenceIdeal.RefRun

end
-- ==== Proof.RefRunC2.lean ====
import proofs.«146640_j52948356825308_1_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two index columns side by side, as one function of the two (a named function, so that its operands are plain arguments). -/
def cat_2 : (⟨S4x12544x1, .i32⟩ : BufTy).Contents (Elt F) → (⟨S4x12544x1, .i32⟩ : BufTy).Contents (Elt F) → (⟨S4x12544x2, .i32⟩ : BufTy).Contents (Elt F) :=
  fun a b => concatenate S4x12544x2 2 [⟨S4x12544x1, a⟩, ⟨S4x12544x1, b⟩] concatenates_S4x12544x1_S4x12544x1_S4x12544x2_d2

/-- @main's operations 146 … 220 of 720, in order (a called function's operations stand in its call's place). -/
abbrev ops_2 : List (HloOp τ sig (Elt F)) :=
  [ nullary main_c_30 (constantI S_ 32 0#32),
    nullary main_c_31 (constantI S_ 32 255#32),
    TRef.unary (TRef.of (T := ⟨S_, .i32⟩) main_c_30) (TRef.of (T := ⟨S_, .f32⟩) main_call5_v0) (sitofp .f32),
    TRef.unary (TRef.of (T := ⟨S_, .f32⟩) main_call5_v0) (TRef.of (T := ⟨S4x12544, .f32⟩) main_call5_v1) (broadcastInDim S4x12544 ![] bcast_S_S4x12544),
    TRef.binary (TRef.of (T := ⟨S4x12544, .f32⟩) main_call5_v1) (TRef.of (T := ⟨S4x12544, .f32⟩) main_v85) (TRef.of (T := ⟨S4x12544, .f32⟩) main_call5_v2) maximumf,
    TRef.unary (TRef.of (T := ⟨S_, .i32⟩) main_c_31) (TRef.of (T := ⟨S_, .f32⟩) main_call5_v3) (sitofp .f32),
    TRef.unary (TRef.of (T := ⟨S_, .f32⟩) main_call5_v3) (TRef.of (T := ⟨S4x12544, .f32⟩) main_call5_v4) (broadcastInDim S4x12544 ![] bcast_S_S4x12544),
    TRef.binary (TRef.of (T := ⟨S4x12544, .f32⟩) main_call5_v4) (TRef.of (T := ⟨S4x12544, .f32⟩) main_call5_v2) (TRef.of (T := ⟨S4x12544, .f32⟩) main_v88) minimumf,
    unary main_v88 main_v89 (fptosi 32 : (⟨S4x12544, .f32⟩ : BufTy).Contents (Elt F) → (⟨S4x12544, .i32⟩ : BufTy).Contents (Elt F)),
    nullary main_cst_32 (constant S_ .f32 0x00000000#32),
    unary main_cst_32 main_v90 (broadcastInDim S4x12544 ![] bcast_S_S4x12544 : (⟨S_, .f32⟩ : BufTy).Contents (Elt F) → (⟨S4x12544, .f32⟩ : BufTy).Contents (Elt F)),
    binary main_v12 main_v90 main_v91 (cmpf .oge : (⟨S4x12544, .f32⟩ : BufTy).Contents (Elt F) → (⟨S4x12544, .f32⟩ : BufTy).Contents (Elt F) → (⟨S4x12544, .i1⟩ : BufTy).Contents (Elt F)),
    nullary main_cst_33 (constant S_ .f32 0x437F0000#32),
    unary main_cst_33 main_v92 (broadcastInDim S4x12544 ![] bcast_S_S4x12544 : (⟨S_, .f32⟩ : BufTy).Contents (Elt F) → (⟨S4x12544, .f32⟩ : BufTy).Contents (Elt F)),
    binary main_v12 main_v92 main_v93 (cmpf .ole : (⟨S4x12544, .f32⟩ : BufTy).Contents (Elt F) → (⟨S4x12544, .f32⟩ : BufTy).Contents (Elt F) → (⟨S4x12544, .i1⟩ : BufTy).Contents (Elt F)),
    binary main_v91 main_v93 main_v94 (andi : (⟨S4x12544, .i1⟩ : BufTy).Contents (Elt F) → (⟨S4x12544, .i1⟩ : BufTy).Contents (Elt F) → (⟨S4x12544, .i1⟩ : BufTy).Contents (Elt F)),
    nullary main_cst_34 (constant S_ .f32 0x00000000#32),
    unary main_cst_34 main_v95 (broadcastInDim S4x12544 ![] bcast_S_S4x12544 : (⟨S_, .f32⟩ : BufTy).Contents (Elt F) → (⟨S4x12544, .f32⟩ : BufTy).Contents (Elt F)),
    binary main_v85 main_v95 main_v96 (cmpf .oge : (⟨S4x12544, .f32⟩ : BufTy).Contents (Elt F) → (⟨S4x12544, .f32⟩ : BufTy).Contents (Elt F) → (⟨S4x12544, .i1⟩ : BufTy).Contents (Elt F)),
    binary main_v94 main_v96 main_v97 (andi : (⟨S4x12544, .i1⟩ : BufTy).Contents (Elt F) → (⟨S4x12544, .i1⟩ : BufTy).Contents (Elt F) → (⟨S4x12544, .i1⟩ : BufTy).Contents (Elt F)),
    nullary main_cst_35 (constant S_ .f32 0x437F0000#32),
    unary main_cst_35 main_v98 (broadcastInDim S4x12544 ![] bcast_S_S4x12544 : (⟨S_, .f32⟩ : BufTy).Contents (Elt F) → (⟨S4x12544, .f32⟩ : BufTy).Contents (Elt F)),
    binary main_v85 main_v98 main_v99 (cmpf .ole : (⟨S4x12544, .f32⟩ : BufTy).Contents (Elt F) → (⟨S4x12544, .f32⟩ : BufTy).Contents (Elt F) → (⟨S4x12544, .i1⟩ : BufTy).Contents (Elt F)),
    binary main_v97 main_v99 main_v100 (andi : (⟨S4x12544, .i1⟩ : BufTy).Contents (Elt F) → (⟨S4x12544, .i1⟩ : BufTy).Contents (Elt F) → (⟨S4x12544, .i1⟩ : BufTy).Contents (Elt F)),
    unary main_v100 main_v101 (uitofp .f32 : (⟨S4x12544, .i1⟩ : BufTy).Contents (Elt F) → (⟨S4x12544, .f32⟩ : BufTy).Contents (Elt F)),
    nullary main_c_36 (constantI S_ 32 0#32),
    unary main_c_36 main_v102 (broadcastInDim S4x12544 ![] bcast_S_S4x12544 : (⟨S_, .i32⟩ : BufTy).Contents (Elt F) → (⟨S4x12544, .i32⟩ : BufTy).Contents (Elt F)),
    binary main_v89 main_v102 main_v103 (cmpi .slt : (⟨S4x12544, .i32⟩ : BufTy).Contents (Elt F) → (⟨S4x12544, .i32⟩ : BufTy).Contents (Elt F) → (⟨S4x12544, .i1⟩ : BufTy).Contents (Elt F)),
    nullary main_c_37 (constantI S_ 32 256#32),
    unary main_c_37 main_v104 (broadcastInDim S4x12544 ![] bcast_S_S4x12544 : (⟨S_, .i32⟩ : BufTy).Contents (Elt F) → (⟨S4x12544, .i32⟩ : BufTy).Contents (Elt F)),
    binary main_v89 main_v104 main_v105 (addi : (⟨S4x12544, .i32⟩ : BufTy).Contents (Elt F) → (⟨S4x12544, .i32⟩ : BufTy).Contents (Elt F) → (⟨S4x12544, .i32⟩ : BufTy).Contents (Elt F)),
    ternary main_v103 main_v105 main_v89 main_v106 (select : (⟨S4x12544, .i1⟩ : BufTy).Contents (Elt F) → (⟨S4x12544, .i32⟩ : BufTy).Contents (Elt F) → (⟨S4x12544, .i32⟩ : BufTy).Contents (Elt F) → (⟨S4x12544, .i32⟩ : BufTy).Contents (Elt F)),
    nullary main_c_38 (constantI S_ 32 0#32),
    unary main_c_38 main_v107 (broadcastInDim S4x12544 ![] bcast_S_S4x12544 : (⟨S_, .i32⟩ : BufTy).Contents (Elt F) → (⟨S4x12544, .i32⟩ : BufTy).Contents (Elt F)),
    binary main_v87 main_v107 main_v108 (cmpi .slt : (⟨S4x12544, .i32⟩ : BufTy).Contents (Elt F) → (⟨S4x12544, .i32⟩ : BufTy).Contents (Elt F) → (⟨S4x12544, .i1⟩ : BufTy).Contents (Elt F)),
    nullary main_c_39 (constantI S_ 32 256#32),
    unary main_c_39 main_v109 (broadcastInDim S4x12544 ![] bcast_S_S4x12544 : (⟨S_, .i32⟩ : BufTy).Contents (Elt F) → (⟨S4x12544, .i32⟩ : BufTy).Contents (Elt F)),
    binary main_v87 main_v109 main_v110 (addi : (⟨S4x12544, .i32⟩ : BufTy).Contents (Elt F) → (⟨S4x12544, .i32⟩ : BufTy).Contents (Elt F) → (⟨S4x12544, .i32⟩ : BufTy).Contents (Elt F)),
    ternary main_v108 main_v110 main_v87 main_v111 (select : (⟨S4x12544, .i1⟩ : BufTy).Contents (Elt F) → (⟨S4x12544, .i32⟩ : BufTy).Contents (Elt F) → (⟨S4x12544, .i32⟩ : BufTy).Contents (Elt F) → (⟨S4x12544, .i32⟩ : BufTy).Contents (Elt F)),
    unary main_v106 main_v112 (broadcastInDim S4x12544x1 ![0, 1] bcast_S4x12544_S4x12544x1_0_1 : (⟨S4x12544, .i32⟩ : BufTy).Contents (Elt F) → (⟨S4x12544x1, .i32⟩ : BufTy).Contents (Elt F)),
    unary main_v111 main_v113 (broadcastInDim S4x12544x1 ![0, 1] bcast_S4x12544_S4x12544x1_0_1 : (⟨S4x12544, .i32⟩ : BufTy).Contents (Elt F) → (⟨S4x12544x1, .i32⟩ : BufTy).Contents (Elt F)),
    binary main_v112 main_v113 main_v114 (cat_2 : (⟨S4x12544x1, .i32⟩ : BufTy).Contents (Elt F) → (⟨S4x12544x1, .i32⟩ : BufTy).Contents (Elt F) → (⟨S4x12544x2, .i32⟩ : BufTy).Contents (Elt F)),
    binary main_arg1 main_v114 main_v115 ((fun x i => Host.gather gather_S4x300x256x256_S4x12544x2_S4x300x12544_1_23_0_0_23_2_130011 x i) : (⟨S4x300x256x256, .f32⟩ : BufTy).Contents (Elt F) → (⟨S4x12544x2, .i32⟩ : BufTy).Contents (Elt F) → (⟨S4x300x12544, .f32⟩ : BufTy).Contents (Elt F)),
    unary main_v101 main_v116 (broadcastInDim S4x1x12544 ![0, 2] bcast_S4x12544_S4x1x12544_0_2 : (⟨S4x12544, .f32⟩ : BufTy).Contents (Elt F) → (⟨S4x1x12544, .f32⟩ : BufTy).Contents (Elt F)),
    unary main_v116 main_v117 (broadcastInDim S4x300x12544 ![0, 1, 2] bcast_S4x1x12544_S4x300x12544_0_1_2 : (⟨S4x1x12544, .f32⟩ : BufTy).Contents (Elt F) → (⟨S4x300x12544, .f32⟩ : BufTy).Contents (Elt F)),
    binary main_v115 main_v117 main_v118 (mulf : (⟨S4x300x12544, .f32⟩ : BufTy).Contents (Elt F) → (⟨S4x300x12544, .f32⟩ : BufTy).Contents (Elt F) → (⟨S4x300x12544, .f32⟩ : BufTy).Contents (Elt F)),
    nullary main_cst_40 (constant S_ .f32 0x3F800000#32),
    unary main_cst_40 main_v119 (broadcastInDim S4x12544 ![] bcast_S_S4x12544 : (⟨S_, .f32⟩ : BufTy).Contents (Elt F) → (⟨S4x12544, .f32⟩ : BufTy).Contents (Elt F)),
    binary main_v12 main_v119 main_v120 (addf : (⟨S4x12544, .f32⟩ : BufTy).Contents (Elt F) → (⟨S4x12544, .f32⟩ : BufTy).Contents (Elt F) → (⟨S4x12544, .f32⟩ : BufTy).Contents (Elt F)),
    nullary main_cst_41 (constant S_ .f32 0x3F800000#32),
    unary main_cst_41 main_v121 (broadcastInDim S4x12544 ![] bcast_S_S4x12544 : (⟨S_, .f32⟩ : BufTy).Contents (Elt F) → (⟨S4x12544, .f32⟩ : BufTy).Contents (Elt F)),
    binary main_v13 main_v121 main_v122 (addf : (⟨S4x12544, .f32⟩ : BufTy).Contents (Elt F) → (⟨S4x12544, .f32⟩ : BufTy).Contents (Elt F) → (⟨S4x12544, .f32⟩ : BufTy).Contents (Elt F)),
    nullary main_c_42 (constantI S_ 32 0#32),
    nullary main_c_43 (constantI S_ 32 255#32),
    TRef.unary (TRef.of (T := ⟨S_, .i32⟩) main_c_42) (TRef.of (T := ⟨S_, .f32⟩) main_call6_v0) (sitofp .f32),
    TRef.unary (TRef.of (T := ⟨S_, .f32⟩) main_call6_v0) (TRef.of (T := ⟨S4x12544, .f32⟩) main_call6_v1) (broadcastInDim S4x12544 ![] bcast_S_S4x12544),
    TRef.binary (TRef.of (T := ⟨S4x12544, .f32⟩) main_call6_v1) (TRef.of (T := ⟨S4x12544, .f32⟩) main_v120) (TRef.of (T := ⟨S4x12544, .f32⟩) main_call6_v2) maximumf,
    TRef.unary (TRef.of (T := ⟨S_, .i32⟩) main_c_43) (TRef.of (T := ⟨S_, .f32⟩) main_call6_v3) (sitofp .f32),
    TRef.unary (TRef.of (T := ⟨S_, .f32⟩) main_call6_v3) (TRef.of (T := ⟨S4x12544, .f32⟩) main_call6_v4) (broadcastInDim S4x12544 ![] bcast_S_S4x12544),
    TRef.binary (TRef.of (T := ⟨S4x12544, .f32⟩) main_call6_v4) (TRef.of (T := ⟨S4x12544, .f32⟩) main_call6_v2) (TRef.of (T := ⟨S4x12544, .f32⟩) main_v123) minimumf,
    unary main_v123 main_v124 (fptosi 32 : (⟨S4x12544, .f32⟩ : BufTy).Contents (Elt F) → (⟨S4x12544, .i32⟩ : BufTy).Contents (Elt F)),
    nullary main_c_44 (constantI S_ 32 0#32),
    nullary main_c_45 (constantI S_ 32 255#32),
    TRef.unary (TRef.of (T := ⟨S_, .i32⟩) main_c_44) (TRef.of (T := ⟨S_, .f32⟩) main_call7_v0) (sitofp .f32),
    TRef.unary (TRef.of (T := ⟨S_, .f32⟩) main_call7_v0) (TRef.of (T := ⟨S4x12544, .f32⟩) main_call7_v1) (broadcastInDim S4x12544 ![] bcast_S_S4x12544),
    TRef.binary (TRef.of (T := ⟨S4x12544, .f32⟩) main_call7_v1) (TRef.of (T := ⟨S4x12544, .f32⟩) main_v122) (TRef.of (T := ⟨S4x12544, .f32⟩) main_call7_v2) maximumf,
    TRef.unary (TRef.of (T := ⟨S_, .i32⟩) main_c_45) (TRef.of (T := ⟨S_, .f32⟩) main_call7_v3) (sitofp .f32),
    TRef.unary (TRef.of (T := ⟨S_, .f32⟩) main_call7_v3) (TRef.of (T := ⟨S4x12544, .f32⟩) main_call7_v4) (broadcastInDim S4x12544 ![] bcast_S_S4x12544),
    TRef.binary (TRef.of (T := ⟨S4x12544, .f32⟩) main_call7_v4) (TRef.of (T := ⟨S4x12544, .f32⟩) main_call7_v2) (TRef.of (T := ⟨S4x12544, .f32⟩) main_v125) minimumf,
    unary main_v125 main_v126 (fptosi 32 : (⟨S4x12544, .f32⟩ : BufTy).Contents (Elt F) → (⟨S4x12544, .i32⟩ : BufTy).Contents (Elt F)),
    nullary main_cst_46 (constant S_ .f32 0x00000000#32),
    unary main_cst_46 main_v127 (broadcastInDim S4x12544 ![] bcast_S_S4x12544 : (⟨S_, .f32⟩ : BufTy).Contents (Elt F) → (⟨S4x12544, .f32⟩ : BufTy).Contents (Elt F)),
    binary main_v120 main_v127 main_v128 (cmpf .oge : (⟨S4x12544, .f32⟩ : BufTy).Contents (Elt F) → (⟨S4x12544, .f32⟩ : BufTy).Contents (Elt F) → (⟨S4x12544, .i1⟩ : BufTy).Contents (Elt F)),
    nullary main_cst_47 (constant S_ .f32 0x437F0000#32),
    unary main_cst_47 main_v129 (broadcastInDim S4x12544 ![] bcast_S_S4x12544 : (⟨S_, .f32⟩ : BufTy).Contents (Elt F) → (⟨S4x12544, .f32⟩ : BufTy).Contents (Elt F)) ]

set_option maxRecDepth 8192 in
set_option maxHeartbeats 4000000 in
theorem main_part2_eq (c : Dev nD) : main_part2 (F := F) c = seq ops_2 := rfl

set_option maxRecDepth 8192 in
theorem ops_2_sub : (ops_2 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub ..⟩

set_option maxRecDepth 8192 in
set_option maxHeartbeats 4000000 in
theorem ops_2_fresh : ∀ op ∈ (ops_2 : List (HloOp τ sig (Elt F))), op.fresh = ∅ := by
  intro _ h; (repeat (cases h with | head => rfl | tail _ h => ?_)); exact nomatch h

set_option maxRecDepth 8192 in
set_option maxHeartbeats 16000000 in
/-- From contents W that hold the stages' values at the buffers live before these operations, the contents after them hold
    the stages' values at the buffers live after them. -/
theorem stage_2 (x0 : (⟨S4x300x80, .f32⟩ : BufTy).Contents (Elt F)) (x1 : (⟨S4x300x256x256, .f32⟩ : BufTy).Contents (Elt F)) (x2 : (⟨S4x100, .i32⟩ : BufTy).Contents (Elt F)) (x3 : (⟨S4x100x256x256, .f32⟩ : BufTy).Contents (Elt F)) (x4 : (⟨S4x12544x2, .f32⟩ : BufTy).Contents (Elt F))
    (W : Valuation τ sig (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_v12 : W (no_index (Proc.devRef .tc main_v12)) = ReadP.val_main_v12 (F := F) x4)
    (h_main_v13 : W (no_index (Proc.devRef .tc main_v13)) = ReadP.val_main_v13 (F := F) x4)
    (h_main_v14 : W (no_index (Proc.devRef .tc main_v14)) = ReadP.val_main_v14 (F := F) x4)
    (h_main_v15 : W (no_index (Proc.devRef .tc main_v15)) = ReadP.val_main_v15 (F := F) x4)
    (h_main_v48 : W (no_index (Proc.devRef .tc main_v48)) = ReadP.val_main_v48 (F := F) x1 x4)
    (h_main_v83 : W (no_index (Proc.devRef .tc main_v83)) = ReadP.val_main_v83 (F := F) x1 x4)
    (h_main_v85 : W (no_index (Proc.devRef .tc main_v85)) = ReadP.val_main_v85 (F := F) x4)
    (h_main_v87 : W (no_index (Proc.devRef .tc main_v87)) = ReadP.val_main_v87 (F := F) x4) :
    (after ops_2 W (Proc.devRef .tc main_arg0) = x0)
      ∧ (after ops_2 W (Proc.devRef .tc main_arg1) = x1)
      ∧ (after ops_2 W (Proc.devRef .tc main_arg2) = x2)
      ∧ (after ops_2 W (Proc.devRef .tc main_arg3) = x3)
      ∧ (after ops_2 W (Proc.devRef .tc main_arg4) = x4)
      ∧ (after ops_2 W (Proc.devRef .tc main_v14) = ReadP.val_main_v14 (F := F) x4)
      ∧ (after ops_2 W (Proc.devRef .tc main_v15) = ReadP.val_main_v15 (F := F) x4)
      ∧ (after ops_2 W (Proc.devRef .tc main_v48) = ReadP.val_main_v48 (F := F) x1 x4)
      ∧ (after ops_2 W (Proc.devRef .tc main_v83) = ReadP.val_main_v83 (F := F) x1 x4)
      ∧ (after ops_2 W (Proc.devRef .tc main_v118) = ReadP.val_main_v118 (F := F) x1 x4)
      ∧ (after ops_2 W (Proc.devRef .tc main_v120) = ReadP.val_main_v120 (F := F) x4)
      ∧ (after ops_2 W (Proc.devRef .tc main_v122) = ReadP.val_main_v122 (F := F) x4)
      ∧ (after ops_2 W (Proc.devRef .tc main_v124) = ReadP.val_main_v124 (F := F) x4)
      ∧ (after ops_2 W (Proc.devRef .tc main_v126) = ReadP.val_main_v126 (F := F) x4)
      ∧ (after ops_2 W (Proc.devRef .tc main_v128) = ReadP.val_main_v128 (F := F) x4)
      ∧ (after ops_2 W (Proc.devRef .tc main_v129) = ReadP.val_main_v129 (F := F)) := by
  simp only [ops_2]
  after_results_simp
  simp only [TRef.ofBuf, TRef.toBuf, cast_eq, h_main_arg0, h_main_arg1, h_main_arg2, h_main_arg3, h_main_arg4, h_main_v12, h_main_v13, h_main_v14, h_main_v15, h_main_v48, h_main_v83, h_main_v85, h_main_v87]
  refine ⟨?_, ?_, ?_, ?_, ?_, ?_, ?_, ?_, ?_, ?_, ?_, ?_, ?_, ?_, ?_, ?_⟩ <;> first | trivial | rfl

end Cert.ReferenceIdeal.RefRun

end
-- ==== Proof.RefRunC3.lean ====
import proofs.«146640_j52948356825308_1_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two index columns side by side, as one function of the two (a named function, so that its operands are plain arguments). -/
def cat_3 : (⟨S4x12544x1, .i32⟩ : BufTy).Contents (Elt F) → (⟨S4x12544x1, .i32⟩ : BufTy).Contents (Elt F) → (⟨S4x12544x2, .i32⟩ : BufTy).Contents (Elt F) :=
  fun a b => concatenate S4x12544x2 2 [⟨S4x12544x1, a⟩, ⟨S4x12544x1, b⟩] concatenates_S4x12544x1_S4x12544x1_S4x12544x2_d2

/-- @main's operations 221 … 280 of 720, in order (a called function's operations stand in its call's place). -/
abbrev ops_3 : List (HloOp τ sig (Elt F)) :=
  [ binary main_v120 main_v129 main_v130 (cmpf .ole : (⟨S4x12544, .f32⟩ : BufTy).Contents (Elt F) → (⟨S4x12544, .f32⟩ : BufTy).Contents (Elt F) → (⟨S4x12544, .i1⟩ : BufTy).Contents (Elt F)),
    binary main_v128 main_v130 main_v131 (andi : (⟨S4x12544, .i1⟩ : BufTy).Contents (Elt F) → (⟨S4x12544, .i1⟩ : BufTy).Contents (Elt F) → (⟨S4x12544, .i1⟩ : BufTy).Contents (Elt F)),
    nullary main_cst_48 (constant S_ .f32 0x00000000#32),
    unary main_cst_48 main_v132 (broadcastInDim S4x12544 ![] bcast_S_S4x12544 : (⟨S_, .f32⟩ : BufTy).Contents (Elt F) → (⟨S4x12544, .f32⟩ : BufTy).Contents (Elt F)),
    binary main_v122 main_v132 main_v133 (cmpf .oge : (⟨S4x12544, .f32⟩ : BufTy).Contents (Elt F) → (⟨S4x12544, .f32⟩ : BufTy).Contents (Elt F) → (⟨S4x12544, .i1⟩ : BufTy).Contents (Elt F)),
    binary main_v131 main_v133 main_v134 (andi : (⟨S4x12544, .i1⟩ : BufTy).Contents (Elt F) → (⟨S4x12544, .i1⟩ : BufTy).Contents (Elt F) → (⟨S4x12544, .i1⟩ : BufTy).Contents (Elt F)),
    nullary main_cst_49 (constant S_ .f32 0x437F0000#32),
    unary main_cst_49 main_v135 (broadcastInDim S4x12544 ![] bcast_S_S4x12544 : (⟨S_, .f32⟩ : BufTy).Contents (Elt F) → (⟨S4x12544, .f32⟩ : BufTy).Contents (Elt F)),
    binary main_v122 main_v135 main_v136 (cmpf .ole : (⟨S4x12544, .f32⟩ : BufTy).Contents (Elt F) → (⟨S4x12544, .f32⟩ : BufTy).Contents (Elt F) → (⟨S4x12544, .i1⟩ : BufTy).Contents (Elt F)),
    binary main_v134 main_v136 main_v137 (andi : (⟨S4x12544, .i1⟩ : BufTy).Contents (Elt F) → (⟨S4x12544, .i1⟩ : BufTy).Contents (Elt F) → (⟨S4x12544, .i1⟩ : BufTy).Contents (Elt F)),
    unary main_v137 main_v138 (uitofp .f32 : (⟨S4x12544, .i1⟩ : BufTy).Contents (Elt F) → (⟨S4x12544, .f32⟩ : BufTy).Contents (Elt F)),
    nullary main_c_50 (constantI S_ 32 0#32),
    unary main_c_50 main_v139 (broadcastInDim S4x12544 ![] bcast_S_S4x12544 : (⟨S_, .i32⟩ : BufTy).Contents (Elt F) → (⟨S4x12544, .i32⟩ : BufTy).Contents (Elt F)),
    binary main_v126 main_v139 main_v140 (cmpi .slt : (⟨S4x12544, .i32⟩ : BufTy).Contents (Elt F) → (⟨S4x12544, .i32⟩ : BufTy).Contents (Elt F) → (⟨S4x12544, .i1⟩ : BufTy).Contents (Elt F)),
    nullary main_c_51 (constantI S_ 32 256#32),
    unary main_c_51 main_v141 (broadcastInDim S4x12544 ![] bcast_S_S4x12544 : (⟨S_, .i32⟩ : BufTy).Contents (Elt F) → (⟨S4x12544, .i32⟩ : BufTy).Contents (Elt F)),
    binary main_v126 main_v141 main_v142 (addi : (⟨S4x12544, .i32⟩ : BufTy).Contents (Elt F) → (⟨S4x12544, .i32⟩ : BufTy).Contents (Elt F) → (⟨S4x12544, .i32⟩ : BufTy).Contents (Elt F)),
    ternary main_v140 main_v142 main_v126 main_v143 (select : (⟨S4x12544, .i1⟩ : BufTy).Contents (Elt F) → (⟨S4x12544, .i32⟩ : BufTy).Contents (Elt F) → (⟨S4x12544, .i32⟩ : BufTy).Contents (Elt F) → (⟨S4x12544, .i32⟩ : BufTy).Contents (Elt F)),
    nullary main_c_52 (constantI S_ 32 0#32),
    unary main_c_52 main_v144 (broadcastInDim S4x12544 ![] bcast_S_S4x12544 : (⟨S_, .i32⟩ : BufTy).Contents (Elt F) → (⟨S4x12544, .i32⟩ : BufTy).Contents (Elt F)),
    binary main_v124 main_v144 main_v145 (cmpi .slt : (⟨S4x12544, .i32⟩ : BufTy).Contents (Elt F) → (⟨S4x12544, .i32⟩ : BufTy).Contents (Elt F) → (⟨S4x12544, .i1⟩ : BufTy).Contents (Elt F)),
    nullary main_c_53 (constantI S_ 32 256#32),
    unary main_c_53 main_v146 (broadcastInDim S4x12544 ![] bcast_S_S4x12544 : (⟨S_, .i32⟩ : BufTy).Contents (Elt F) → (⟨S4x12544, .i32⟩ : BufTy).Contents (Elt F)),
    binary main_v124 main_v146 main_v147 (addi : (⟨S4x12544, .i32⟩ : BufTy).Contents (Elt F) → (⟨S4x12544, .i32⟩ : BufTy).Contents (Elt F) → (⟨S4x12544, .i32⟩ : BufTy).Contents (Elt F)),
    ternary main_v145 main_v147 main_v124 main_v148 (select : (⟨S4x12544, .i1⟩ : BufTy).Contents (Elt F) → (⟨S4x12544, .i32⟩ : BufTy).Contents (Elt F) → (⟨S4x12544, .i32⟩ : BufTy).Contents (Elt F) → (⟨S4x12544, .i32⟩ : BufTy).Contents (Elt F)),
    unary main_v143 main_v149 (broadcastInDim S4x12544x1 ![0, 1] bcast_S4x12544_S4x12544x1_0_1 : (⟨S4x12544, .i32⟩ : BufTy).Contents (Elt F) → (⟨S4x12544x1, .i32⟩ : BufTy).Contents (Elt F)),
    unary main_v148 main_v150 (broadcastInDim S4x12544x1 ![0, 1] bcast_S4x12544_S4x12544x1_0_1 : (⟨S4x12544, .i32⟩ : BufTy).Contents (Elt F) → (⟨S4x12544x1, .i32⟩ : BufTy).Contents (Elt F)),
    binary main_v149 main_v150 main_v151 (cat_3 : (⟨S4x12544x1, .i32⟩ : BufTy).Contents (Elt F) → (⟨S4x12544x1, .i32⟩ : BufTy).Contents (Elt F) → (⟨S4x12544x2, .i32⟩ : BufTy).Contents (Elt F)),
    binary main_arg1 main_v151 main_v152 ((fun x i => Host.gather gather_S4x300x256x256_S4x12544x2_S4x300x12544_1_23_0_0_23_2_130011 x i) : (⟨S4x300x256x256, .f32⟩ : BufTy).Contents (Elt F) → (⟨S4x12544x2, .i32⟩ : BufTy).Contents (Elt F) → (⟨S4x300x12544, .f32⟩ : BufTy).Contents (Elt F)),
    unary main_v138 main_v153 (broadcastInDim S4x1x12544 ![0, 2] bcast_S4x12544_S4x1x12544_0_2 : (⟨S4x12544, .f32⟩ : BufTy).Contents (Elt F) → (⟨S4x1x12544, .f32⟩ : BufTy).Contents (Elt F)),
    unary main_v153 main_v154 (broadcastInDim S4x300x12544 ![0, 1, 2] bcast_S4x1x12544_S4x300x12544_0_1_2 : (⟨S4x1x12544, .f32⟩ : BufTy).Contents (Elt F) → (⟨S4x300x12544, .f32⟩ : BufTy).Contents (Elt F)),
    binary main_v152 main_v154 main_v155 (mulf : (⟨S4x300x12544, .f32⟩ : BufTy).Contents (Elt F) → (⟨S4x300x12544, .f32⟩ : BufTy).Contents (Elt F) → (⟨S4x300x12544, .f32⟩ : BufTy).Contents (Elt F)),
    nullary main_cst_54 (constant S_ .f32 0x3F800000#32),
    unary main_cst_54 main_v156 (broadcastInDim S4x12544 ![] bcast_S_S4x12544 : (⟨S_, .f32⟩ : BufTy).Contents (Elt F) → (⟨S4x12544, .f32⟩ : BufTy).Contents (Elt F)),
    binary main_v156 main_v14 main_v157 (subf : (⟨S4x12544, .f32⟩ : BufTy).Contents (Elt F) → (⟨S4x12544, .f32⟩ : BufTy).Contents (Elt F) → (⟨S4x12544, .f32⟩ : BufTy).Contents (Elt F)),
    unary main_v157 main_v158 (broadcastInDim S4x1x12544 ![0, 2] bcast_S4x12544_S4x1x12544_0_2 : (⟨S4x12544, .f32⟩ : BufTy).Contents (Elt F) → (⟨S4x1x12544, .f32⟩ : BufTy).Contents (Elt F)),
    unary main_v158 main_v159 (broadcastInDim S4x300x12544 ![0, 1, 2] bcast_S4x1x12544_S4x300x12544_0_1_2 : (⟨S4x1x12544, .f32⟩ : BufTy).Contents (Elt F) → (⟨S4x300x12544, .f32⟩ : BufTy).Contents (Elt F)),
    binary main_v48 main_v159 main_v160 (mulf : (⟨S4x300x12544, .f32⟩ : BufTy).Contents (Elt F) → (⟨S4x300x12544, .f32⟩ : BufTy).Contents (Elt F) → (⟨S4x300x12544, .f32⟩ : BufTy).Contents (Elt F)),
    nullary main_cst_55 (constant S_ .f32 0x3F800000#32),
    unary main_cst_55 main_v161 (broadcastInDim S4x12544 ![] bcast_S_S4x12544 : (⟨S_, .f32⟩ : BufTy).Contents (Elt F) → (⟨S4x12544, .f32⟩ : BufTy).Contents (Elt F)),
    binary main_v161 main_v15 main_v162 (subf : (⟨S4x12544, .f32⟩ : BufTy).Contents (Elt F) → (⟨S4x12544, .f32⟩ : BufTy).Contents (Elt F) → (⟨S4x12544, .f32⟩ : BufTy).Contents (Elt F)),
    unary main_v162 main_v163 (broadcastInDim S4x1x12544 ![0, 2] bcast_S4x12544_S4x1x12544_0_2 : (⟨S4x12544, .f32⟩ : BufTy).Contents (Elt F) → (⟨S4x1x12544, .f32⟩ : BufTy).Contents (Elt F)),
    unary main_v163 main_v164 (broadcastInDim S4x300x12544 ![0, 1, 2] bcast_S4x1x12544_S4x300x12544_0_1_2 : (⟨S4x1x12544, .f32⟩ : BufTy).Contents (Elt F) → (⟨S4x300x12544, .f32⟩ : BufTy).Contents (Elt F)),
    binary main_v160 main_v164 main_v165 (mulf : (⟨S4x300x12544, .f32⟩ : BufTy).Contents (Elt F) → (⟨S4x300x12544, .f32⟩ : BufTy).Contents (Elt F) → (⟨S4x300x12544, .f32⟩ : BufTy).Contents (Elt F)),
    unary main_v14 main_v166 (broadcastInDim S4x1x12544 ![0, 2] bcast_S4x12544_S4x1x12544_0_2 : (⟨S4x12544, .f32⟩ : BufTy).Contents (Elt F) → (⟨S4x1x12544, .f32⟩ : BufTy).Contents (Elt F)),
    unary main_v166 main_v167 (broadcastInDim S4x300x12544 ![0, 1, 2] bcast_S4x1x12544_S4x300x12544_0_1_2 : (⟨S4x1x12544, .f32⟩ : BufTy).Contents (Elt F) → (⟨S4x300x12544, .f32⟩ : BufTy).Contents (Elt F)),
    binary main_v83 main_v167 main_v168 (mulf : (⟨S4x300x12544, .f32⟩ : BufTy).Contents (Elt F) → (⟨S4x300x12544, .f32⟩ : BufTy).Contents (Elt F) → (⟨S4x300x12544, .f32⟩ : BufTy).Contents (Elt F)),
    nullary main_cst_56 (constant S_ .f32 0x3F800000#32),
    unary main_cst_56 main_v169 (broadcastInDim S4x12544 ![] bcast_S_S4x12544 : (⟨S_, .f32⟩ : BufTy).Contents (Elt F) → (⟨S4x12544, .f32⟩ : BufTy).Contents (Elt F)),
    binary main_v169 main_v15 main_v170 (subf : (⟨S4x12544, .f32⟩ : BufTy).Contents (Elt F) → (⟨S4x12544, .f32⟩ : BufTy).Contents (Elt F) → (⟨S4x12544, .f32⟩ : BufTy).Contents (Elt F)),
    unary main_v170 main_v171 (broadcastInDim S4x1x12544 ![0, 2] bcast_S4x12544_S4x1x12544_0_2 : (⟨S4x12544, .f32⟩ : BufTy).Contents (Elt F) → (⟨S4x1x12544, .f32⟩ : BufTy).Contents (Elt F)),
    unary main_v171 main_v172 (broadcastInDim S4x300x12544 ![0, 1, 2] bcast_S4x1x12544_S4x300x12544_0_1_2 : (⟨S4x1x12544, .f32⟩ : BufTy).Contents (Elt F) → (⟨S4x300x12544, .f32⟩ : BufTy).Contents (Elt F)),
    binary main_v168 main_v172 main_v173 (mulf : (⟨S4x300x12544, .f32⟩ : BufTy).Contents (Elt F) → (⟨S4x300x12544, .f32⟩ : BufTy).Contents (Elt F) → (⟨S4x300x12544, .f32⟩ : BufTy).Contents (Elt F)),
    binary main_v165 main_v173 main_v174 (addf : (⟨S4x300x12544, .f32⟩ : BufTy).Contents (Elt F) → (⟨S4x300x12544, .f32⟩ : BufTy).Contents (Elt F) → (⟨S4x300x12544, .f32⟩ : BufTy).Contents (Elt F)),
    nullary main_cst_57 (constant S_ .f32 0x3F800000#32),
    unary main_cst_57 main_v175 (broadcastInDim S4x12544 ![] bcast_S_S4x12544 : (⟨S_, .f32⟩ : BufTy).Contents (Elt F) → (⟨S4x12544, .f32⟩ : BufTy).Contents (Elt F)),
    binary main_v175 main_v14 main_v176 (subf : (⟨S4x12544, .f32⟩ : BufTy).Contents (Elt F) → (⟨S4x12544, .f32⟩ : BufTy).Contents (Elt F) → (⟨S4x12544, .f32⟩ : BufTy).Contents (Elt F)),
    unary main_v176 main_v177 (broadcastInDim S4x1x12544 ![0, 2] bcast_S4x12544_S4x1x12544_0_2 : (⟨S4x12544, .f32⟩ : BufTy).Contents (Elt F) → (⟨S4x1x12544, .f32⟩ : BufTy).Contents (Elt F)),
    unary main_v177 main_v178 (broadcastInDim S4x300x12544 ![0, 1, 2] bcast_S4x1x12544_S4x300x12544_0_1_2 : (⟨S4x1x12544, .f32⟩ : BufTy).Contents (Elt F) → (⟨S4x300x12544, .f32⟩ : BufTy).Contents (Elt F)),
    binary main_v118 main_v178 main_v179 (mulf : (⟨S4x300x12544, .f32⟩ : BufTy).Contents (Elt F) → (⟨S4x300x12544, .f32⟩ : BufTy).Contents (Elt F) → (⟨S4x300x12544, .f32⟩ : BufTy).Contents (Elt F)) ]

set_option maxRecDepth 8192 in
set_option maxHeartbeats 4000000 in
theorem main_part3_eq (c : Dev nD) : main_part3 (F := F) c = seq ops_3 := rfl

set_option maxRecDepth 8192 in
theorem ops_3_sub : (ops_3 : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub ..⟩

set_option maxRecDepth 8192 in
set_option maxHeartbeats 4000000 in
theorem ops_3_fresh : ∀ op ∈ (ops_3 : List (HloOp τ sig (Elt F))), op.fresh = ∅ := by
  intro _ h; (repeat (cases h with | head => rfl | tail _ h => ?_)); exact nomatch h

set_option maxRecDepth 8192 in
set_option maxHeartbeats 16000000 in
/-- From contents W that hold the stages' values at the buffers live before these operations, the contents after them hold
    the stages' values at the buffers live after them. -/
theorem stage_3 (x0 : (⟨S4x300x80, .f32⟩ : BufTy).Contents (Elt F)) (x1 : (⟨S4x300x256x256, .f32⟩ : BufTy).Contents (Elt F)) (x2 : (⟨S4x100, .i32⟩ : BufTy).Contents (Elt F)) (x3 : (⟨S4x100x256x256, .f32⟩ : BufTy).Contents (Elt F)) (x4 : (⟨S4x12544x2, .f32⟩ : BufTy).Contents (Elt F))
    (W : Valuation τ sig (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_v14 : W (no_index (Proc.devRef .tc main_v14)) = ReadP.val_main_v14 (F := F) x4)
    (h_main_v15 : W (no_index (Proc.devRef .tc main_v15)) = ReadP.val_main_v15 (F := F) x4)
    (h_main_v48 : W (no_index (Proc.devRef .tc main_v48)) = ReadP.val_main_v48 (F := F) x1 x4)
    (h_main_v83 : W (no_index (Proc.devRef .tc main_v83)) = ReadP.val_main_v83 (F := F) x1 x4)
    (h_main_v118 : W (no_index (Proc.devRef .tc main_v118)) = ReadP.val_main_v118 (F := F) x1 x4)
    (h_main_v120 : W (no_index (Proc.devRef .tc main_v120)) = ReadP.val_main_v120 (F := F) x4)
    (h_main_v122 : W (no_index (Proc.devRef .tc main_v122)) = ReadP.val_main_v122 (F := F) x4)
    (h_main_v124 : W (no_index (Proc.devRef .tc main_v124)) = ReadP.val_main_v124 (F := F) x4)
    (h_main_v126 : W (no_index (Proc.devRef .tc main_v126)) = ReadP.val_main_v126 (F := F) x4)
    (h_main_v128 : W (no_index (Proc.devRef .tc main_v128)) = ReadP.val_main_v128 (F := F) x4)
    (h_main_v129 : W (no_index (Proc.devRef .tc main_v129)) = ReadP.val_main_v129 (F := F)) :
    (after ops_3 W (Proc.devRef .tc main_arg0) = x0)
      ∧ (after ops_3 W (Proc.devRef .tc main_arg1) = x1)
      ∧ (after ops_3 W (Proc.devRef .tc main_arg2) = x2)
      ∧ (after ops_3 W (Proc.devRef .tc main_arg3) = x3)
      ∧ (after ops_3 W (Proc.devRef .tc main_arg4) = x4)
      ∧ (after ops_3 W (Proc.devRef .tc main_v14) = ReadP.val_main_v14 (F := F) x4)
      ∧ (after ops_3 W (Proc.devRef .tc main_v15) = ReadP.val_main_v15 (F := F) x4)
      ∧ (after ops_3 W (Proc.devRef .tc main_v155) = ReadP.val_main_v155 (F := F) x1 x4)
      ∧ (after ops_3 W (Proc.devRef .tc main_v174) = ReadP.val_main_v174 (F := F) x1 x4)
      ∧ (after ops_3 W (Proc.devRef .tc main_v179) = ReadP.val_main_v179 (F := F) x1 x4) := by
  simp only [ops_3]
  after_results_simp
  simp only [h_main_arg0, h_main_arg1, h_main_arg2, h_main_arg3, h_main_arg4, h_main_v14, h_main_v15, h_main_v48, h_main_v83, h_main_v118, h_main_v120, h_main_v122, h_main_v124, h_main_v126, h_main_v128, h_main_v129]
  refine ⟨?_, ?_, ?_, ?_, ?_, ?_, ?_, ?_, ?_, ?_⟩ <;> first | trivial | rfl

end Cert.ReferenceIdeal.RefRun

end
-- ==== Proof.RefRunC4.lean ====
import proofs.«146640_j52948356825308_1_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 281 … 350 of 720, in order (a called function's operations stand in its call's place). -/
abbrev ops_4 : List (HloOp τ sig (Elt F)) :=
  [ unary main_v15 main_v180 (broadcastInDim S4x1x12544 ![0, 2] bcast_S4x12544_S4x1x12544_0_2 : (⟨S4x12544, .f32⟩ : BufTy).Contents (Elt F) → (⟨S4x1x12544, .f32⟩ : BufTy).Contents (Elt F)),
    unary main_v180 main_v181 (broadcastInDim S4x300x12544 ![0, 1, 2] bcast_S4x1x12544_S4x300x12544_0_1_2 : (⟨S4x1x12544, .f32⟩ : BufTy).Contents (Elt F) → (⟨S4x300x12544, .f32⟩ : BufTy).Contents (Elt F)),
    binary main_v179 main_v181 main_v182 (mulf : (⟨S4x300x12544, .f32⟩ : BufTy).Contents (Elt F) → (⟨S4x300x12544, .f32⟩ : BufTy).Contents (Elt F) → (⟨S4x300x12544, .f32⟩ : BufTy).Contents (Elt F)),
    binary main_v174 main_v182 main_v183 (addf : (⟨S4x300x12544, .f32⟩ : BufTy).Contents (Elt F) → (⟨S4x300x12544, .f32⟩ : BufTy).Contents (Elt F) → (⟨S4x300x12544, .f32⟩ : BufTy).Contents (Elt F)),
    unary main_v14 main_v184 (broadcastInDim S4x1x12544 ![0, 2] bcast_S4x12544_S4x1x12544_0_2 : (⟨S4x12544, .f32⟩ : BufTy).Contents (Elt F) → (⟨S4x1x12544, .f32⟩ : BufTy).Contents (Elt F)),
    unary main_v184 main_v185 (broadcastInDim S4x300x12544 ![0, 1, 2] bcast_S4x1x12544_S4x300x12544_0_1_2 : (⟨S4x1x12544, .f32⟩ : BufTy).Contents (Elt F) → (⟨S4x300x12544, .f32⟩ : BufTy).Contents (Elt F)),
    binary main_v155 main_v185 main_v186 (mulf : (⟨S4x300x12544, .f32⟩ : BufTy).Contents (Elt F) → (⟨S4x300x12544, .f32⟩ : BufTy).Contents (Elt F) → (⟨S4x300x12544, .f32⟩ : BufTy).Contents (Elt F)),
    unary main_v15 main_v187 (broadcastInDim S4x1x12544 ![0, 2] bcast_S4x12544_S4x1x12544_0_2 : (⟨S4x12544, .f32⟩ : BufTy).Contents (Elt F) → (⟨S4x1x12544, .f32⟩ : BufTy).Contents (Elt F)),
    unary main_v187 main_v188 (broadcastInDim S4x300x12544 ![0, 1, 2] bcast_S4x1x12544_S4x300x12544_0_1_2 : (⟨S4x1x12544, .f32⟩ : BufTy).Contents (Elt F) → (⟨S4x300x12544, .f32⟩ : BufTy).Contents (Elt F)),
    binary main_v186 main_v188 main_v189 (mulf : (⟨S4x300x12544, .f32⟩ : BufTy).Contents (Elt F) → (⟨S4x300x12544, .f32⟩ : BufTy).Contents (Elt F) → (⟨S4x300x12544, .f32⟩ : BufTy).Contents (Elt F)),
    binary main_v183 main_v189 main_v190 (addf : (⟨S4x300x12544, .f32⟩ : BufTy).Contents (Elt F) → (⟨S4x300x12544, .f32⟩ : BufTy).Contents (Elt F) → (⟨S4x300x12544, .f32⟩ : BufTy).Contents (Elt F)),
    unary main_arg4 main_v191 ((extractStridedSlice S4x12544x1 ![0, 0, 0] · slices_S4x12544x2_S4x12544x1_0_0_0) : (⟨S4x12544x2, .f32⟩ : BufTy).Contents (Elt F) → (⟨S4x12544x1, .f32⟩ : BufTy).Contents (Elt F)),
    reshape main_v191 main_v192 rfl shapeCasts_S4x12544x1_S4x12544,
    nullary main_cst_58 (constant S_ .f32 0x43800000#32),
    unary main_cst_58 main_v193 (broadcastInDim S4x12544 ![] bcast_S_S4x12544 : (⟨S_, .f32⟩ : BufTy).Contents (Elt F) → (⟨S4x12544, .f32⟩ : BufTy).Contents (Elt F)),
    binary main_v192 main_v193 main_v194 (mulf : (⟨S4x12544, .f32⟩ : BufTy).Contents (Elt F) → (⟨S4x12544, .f32⟩ : BufTy).Contents (Elt F) → (⟨S4x12544, .f32⟩ : BufTy).Contents (Elt F)),
    nullary main_cst_59 (constant S_ .f32 0x3F000000#32),
    unary main_cst_59 main_v195 (broadcastInDim S4x12544 ![] bcast_S_S4x12544 : (⟨S_, .f32⟩ : BufTy).Contents (Elt F) → (⟨S4x12544, .f32⟩ : BufTy).Contents (Elt F)),
    binary main_v194 main_v195 main_v196 (subf : (⟨S4x12544, .f32⟩ : BufTy).Contents (Elt F) → (⟨S4x12544, .f32⟩ : BufTy).Contents (Elt F) → (⟨S4x12544, .f32⟩ : BufTy).Contents (Elt F)),
    unary main_arg4 main_v197 ((extractStridedSlice S4x12544x1 ![0, 0, 1] · slices_S4x12544x2_S4x12544x1_0_0_1) : (⟨S4x12544x2, .f32⟩ : BufTy).Contents (Elt F) → (⟨S4x12544x1, .f32⟩ : BufTy).Contents (Elt F)),
    reshape main_v197 main_v198 rfl shapeCasts_S4x12544x1_S4x12544,
    nullary main_cst_60 (constant S_ .f32 0x43800000#32),
    unary main_cst_60 main_v199 (broadcastInDim S4x12544 ![] bcast_S_S4x12544 : (⟨S_, .f32⟩ : BufTy).Contents (Elt F) → (⟨S4x12544, .f32⟩ : BufTy).Contents (Elt F)),
    binary main_v198 main_v199 main_v200 (mulf : (⟨S4x12544, .f32⟩ : BufTy).Contents (Elt F) → (⟨S4x12544, .f32⟩ : BufTy).Contents (Elt F) → (⟨S4x12544, .f32⟩ : BufTy).Contents (Elt F)),
    nullary main_cst_61 (constant S_ .f32 0x3F000000#32),
    unary main_cst_61 main_v201 (broadcastInDim S4x12544 ![] bcast_S_S4x12544 : (⟨S_, .f32⟩ : BufTy).Contents (Elt F) → (⟨S4x12544, .f32⟩ : BufTy).Contents (Elt F)),
    binary main_v200 main_v201 main_v202 (subf : (⟨S4x12544, .f32⟩ : BufTy).Contents (Elt F) → (⟨S4x12544, .f32⟩ : BufTy).Contents (Elt F) → (⟨S4x12544, .f32⟩ : BufTy).Contents (Elt F)),
    unary main_v196 main_v203 (Host.floor : (⟨S4x12544, .f32⟩ : BufTy).Contents (Elt F) → (⟨S4x12544, .f32⟩ : BufTy).Contents (Elt F)),
    unary main_v202 main_v204 (Host.floor : (⟨S4x12544, .f32⟩ : BufTy).Contents (Elt F) → (⟨S4x12544, .f32⟩ : BufTy).Contents (Elt F)),
    binary main_v196 main_v203 main_v205 (subf : (⟨S4x12544, .f32⟩ : BufTy).Contents (Elt F) → (⟨S4x12544, .f32⟩ : BufTy).Contents (Elt F) → (⟨S4x12544, .f32⟩ : BufTy).Contents (Elt F)),
    binary main_v202 main_v204 main_v206 (subf : (⟨S4x12544, .f32⟩ : BufTy).Contents (Elt F) → (⟨S4x12544, .f32⟩ : BufTy).Contents (Elt F) → (⟨S4x12544, .f32⟩ : BufTy).Contents (Elt F)),
    nullary main_c_62 (constantI S_ 32 0#32),
    nullary main_c_63 (constantI S_ 32 255#32),
    TRef.unary (TRef.of (T := ⟨S_, .i32⟩) main_c_62) (TRef.of (T := ⟨S_, .f32⟩) main_call8_v0) (sitofp .f32),
    TRef.unary (TRef.of (T := ⟨S_, .f32⟩) main_call8_v0) (TRef.of (T := ⟨S4x12544, .f32⟩) main_call8_v1) (broadcastInDim S4x12544 ![] bcast_S_S4x12544),
    TRef.binary (TRef.of (T := ⟨S4x12544, .f32⟩) main_call8_v1) (TRef.of (T := ⟨S4x12544, .f32⟩) main_v203) (TRef.of (T := ⟨S4x12544, .f32⟩) main_call8_v2) maximumf,
    TRef.unary (TRef.of (T := ⟨S_, .i32⟩) main_c_63) (TRef.of (T := ⟨S_, .f32⟩) main_call8_v3) (sitofp .f32),
    TRef.unary (TRef.of (T := ⟨S_, .f32⟩) main_call8_v3) (TRef.of (T := ⟨S4x12544, .f32⟩) main_call8_v4) (broadcastInDim S4x12544 ![] bcast_S_S4x12544),
    TRef.binary (TRef.of (T := ⟨S4x12544, .f32⟩) main_call8_v4) (TRef.of (T := ⟨S4x12544, .f32⟩) main_call8_v2) (TRef.of (T := ⟨S4x12544, .f32⟩) main_v207) minimumf,
    unary main_v207 main_v208 (fptosi 32 : (⟨S4x12544, .f32⟩ : BufTy).Contents (Elt F) → (⟨S4x12544, .i32⟩ : BufTy).Contents (Elt F)),
    nullary main_c_64 (constantI S_ 32 0#32),
    nullary main_c_65 (constantI S_ 32 255#32),
    TRef.unary (TRef.of (T := ⟨S_, .i32⟩) main_c_64) (TRef.of (T := ⟨S_, .f32⟩) main_call9_v0) (sitofp .f32),
    TRef.unary (TRef.of (T := ⟨S_, .f32⟩) main_call9_v0) (TRef.of (T := ⟨S4x12544, .f32⟩) main_call9_v1) (broadcastInDim S4x12544 ![] bcast_S_S4x12544),
    TRef.binary (TRef.of (T := ⟨S4x12544, .f32⟩) main_call9_v1) (TRef.of (T := ⟨S4x12544, .f32⟩) main_v204) (TRef.of (T := ⟨S4x12544, .f32⟩) main_call9_v2) maximumf,
    TRef.unary (TRef.of (T := ⟨S_, .i32⟩) main_c_65) (TRef.of (T := ⟨S_, .f32⟩) main_call9_v3) (sitofp .f32),
    TRef.unary (TRef.of (T := ⟨S_, .f32⟩) main_call9_v3) (TRef.of (T := ⟨S4x12544, .f32⟩) main_call9_v4) (broadcastInDim S4x12544 ![] bcast_S_S4x12544),
    TRef.binary (TRef.of (T := ⟨S4x12544, .f32⟩) main_call9_v4) (TRef.of (T := ⟨S4x12544, .f32⟩) main_call9_v2) (TRef.of (T := ⟨S4x12544, .f32⟩) main_v209) minimumf,
    unary main_v209 main_v210 (fptosi 32 : (⟨S4x12544, .f32⟩ : BufTy).Contents (Elt F) → (⟨S4x12544, .i32⟩ : BufTy).Contents (Elt F)),
    nullary main_cst_66 (constant S_ .f32 0x00000000#32),
    unary main_cst_66 main_v211 (broadcastInDim S4x12544 ![] bcast_S_S4x12544 : (⟨S_, .f32⟩ : BufTy).Contents (Elt F) → (⟨S4x12544, .f32⟩ : BufTy).Contents (Elt F)),
    binary main_v203 main_v211 main_v212 (cmpf .oge : (⟨S4x12544, .f32⟩ : BufTy).Contents (Elt F) → (⟨S4x12544, .f32⟩ : BufTy).Contents (Elt F) → (⟨S4x12544, .i1⟩ : BufTy).Contents (Elt F)),
    nullary main_cst_67 (constant S_ .f32 0x437F0000#32),
    unary main_cst_67 main_v213 (broadcastInDim S4x12544 ![] bcast_S_S4x12544 : (⟨S_, .f32⟩ : BufTy).Contents (Elt F) → (⟨S4x12544, .f32⟩ : BufTy).Contents (Elt F)),
    binary main_v203 main_v213 main_v214 (cmpf .ole : (⟨S4x12544, .f32⟩ : BufTy).Contents (Elt F) → (⟨S4x12544, .f32⟩ : BufTy).Contents (Elt F) → (⟨S4x12544, .i1⟩ : BufTy).Contents (Elt F)),
    binary main_v212 main_v214 main_v215 (andi : (⟨S4x12544, .i1⟩ : BufTy).Contents (Elt F) → (⟨S4x12544, .i1⟩ : BufTy).Contents (Elt F) → (⟨S4x12544, .i1⟩ : BufTy).Contents (Elt F)),
    nullary main_cst_68 (constant S_ .f32 0x00000000#32),
    unary main_cst_68 main_v216 (broadcastInDim S4x12544 ![] bcast_S_S4x12544 : (⟨S_, .f32⟩ : BufTy).Contents (Elt F) → (⟨S4x12544, .f32⟩ : BufTy).Contents (Elt F)),
    binary main_v204 main_v216 main_v217 (cmpf .oge : (⟨S4x12544, .f32⟩ : BufTy).Contents (Elt F) → (⟨S4x12544, .f32⟩ : BufTy).Contents (Elt F) → (⟨S4x12544, .i1⟩ : BufTy).Contents (Elt F)),
    binary main_v215 main_v217 main_v218 (andi : (⟨S4x12544, .i1⟩ : BufTy).Contents (Elt F) → (⟨S4x12544, .i1⟩ : BufTy).Contents (Elt F) → (⟨S4x12544, .i1⟩ : BufTy).Contents (Elt F)),
    nullary main_cst_69 (constant S_ .f32 0x437F0000#32),
    unary main_cst_69 main_v219 (broadcastInDim S4x12544 ![] bcast_S_S4x12544 : (⟨S_, .f32⟩ : BufTy).Contents (Elt F) → (⟨S4x12544, .f32⟩ : BufTy).Contents (Elt F)),
    binary main_v204 main_v219 main_v220 (cmpf .ole : (⟨S4x12544, .f32⟩ : BufTy).Contents (Elt F) → (⟨S4x12544, .f32⟩ : BufTy).Contents (Elt F) → (⟨S4x12544, .i1⟩ : BufTy).Contents (Elt F)),
    binary main_v218 main_v220 main_v221 (andi : (⟨S4x12544, .i1⟩ : BufTy).Contents (Elt F) → (⟨S4x12544, .i1⟩ : BufTy).Contents (Elt F) → (⟨S4x12544, .i1⟩ : BufTy).Contents (Elt F)),
    unary main_v221 main_v222 (uitofp .f32 : (⟨S4x12544, .i1⟩ : BufTy).Contents (Elt F) → (⟨S4x12544, .f32⟩ : BufTy).Contents (Elt F)),
    nullary main_c_70 (constantI S_ 32 0#32),
    unary main_c_70 main_v223 (broadcastInDim S4x12544 ![] bcast_S_S4x12544 : (⟨S_, .i32⟩ : BufTy).Contents (Elt F) → (⟨S4x12544, .i32⟩ : BufTy).Contents (Elt F)),
    binary main_v210 main_v223 main_v224 (cmpi .slt : (⟨S4x12544, .i32⟩ : BufTy).Contents (Elt F) → (⟨S4x12544, .i32⟩ : BufTy).Contents (Elt F) → (⟨S4x12544, .i1⟩ : BufTy).Contents (Elt F)),
    nullary main_c_71 (constantI S_ 32 256#32),
    unary main_c_71 main_v225 (broadcastInDim S4x12544 ![] bcast_S_S4x12544 : (⟨S_, .i32⟩ : BufTy).Contents (Elt F) → (⟨S4x12544, .i32⟩ : BufTy).Contents (Elt F)) ]

set_option maxRecDepth 8192 in
set_option maxHeartbeats 4000000 in
theorem main_part4_eq (c : Dev nD) : main_part4 (F := F) c = seq ops_4 := rfl

set_option maxRecDepth 8192 in
theorem ops_4_sub : (ops_4 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., reshape_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub ..⟩

set_option maxRecDepth 8192 in
set_option maxHeartbeats 4000000 in
theorem ops_4_fresh : ∀ op ∈ (ops_4 : List (HloOp τ sig (Elt F))), op.fresh = ∅ := by
  intro _ h; (repeat (cases h with | head => rfl | tail _ h => ?_)); exact nomatch h

set_option maxRecDepth 8192 in
set_option maxHeartbeats 16000000 in
/-- From contents W that hold the stages' values at the buffers live before these operations, the contents after them hold
    the stages' values at the buffers live after them. -/
theorem stage_4 (x0 : (⟨S4x300x80, .f32⟩ : BufTy).Contents (Elt F)) (x1 : (⟨S4x300x256x256, .f32⟩ : BufTy).Contents (Elt F)) (x2 : (⟨S4x100, .i32⟩ : BufTy).Contents (Elt F)) (x3 : (⟨S4x100x256x256, .f32⟩ : BufTy).Contents (Elt F)) (x4 : (⟨S4x12544x2, .f32⟩ : BufTy).Contents (Elt F))
    (W : Valuation τ sig (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_v14 : W (no_index (Proc.devRef .tc main_v14)) = ReadP.val_main_v14 (F := F) x4)
    (h_main_v15 : W (no_index (Proc.devRef .tc main_v15)) = ReadP.val_main_v15 (F := F) x4)
    (h_main_v155 : W (no_index (Proc.devRef .tc main_v155)) = ReadP.val_main_v155 (F := F) x1 x4)
    (h_main_v174 : W (no_index (Proc.devRef .tc main_v174)) = ReadP.val_main_v174 (F := F) x1 x4)
    (h_main_v179 : W (no_index (Proc.devRef .tc main_v179)) = ReadP.val_main_v179 (F := F) x1 x4) :
    (after ops_4 W (Proc.devRef .tc main_arg0) = x0)
      ∧ (after ops_4 W (Proc.devRef .tc main_arg1) = x1)
      ∧ (after ops_4 W (Proc.devRef .tc main_arg2) = x2)
      ∧ (after ops_4 W (Proc.devRef .tc main_arg3) = x3)
      ∧ (after ops_4 W (Proc.devRef .tc main_arg4) = x4)
      ∧ (after ops_4 W (Proc.devRef .tc main_v190) = ReadP.val_main_v190 (F := F) x1 x4)
      ∧ (after ops_4 W (Proc.devRef .tc main_v203) = ReadP.val_main_v203 (F := F) x4)
      ∧ (after ops_4 W (Proc.devRef .tc main_v204) = ReadP.val_main_v204 (F := F) x4)
      ∧ (after ops_4 W (Proc.devRef .tc main_v205) = ReadP.val_main_v205 (F := F) x4)
      ∧ (after ops_4 W (Proc.devRef .tc main_v206) = ReadP.val_main_v206 (F := F) x4)
      ∧ (after ops_4 W (Proc.devRef .tc main_v208) = ReadP.val_main_v208 (F := F) x4)
      ∧ (after ops_4 W (Proc.devRef .tc main_v210) = ReadP.val_main_v210 (F := F) x4)
      ∧ (after ops_4 W (Proc.devRef .tc main_v222) = ReadP.val_main_v222 (F := F) x4)
      ∧ (after ops_4 W (Proc.devRef .tc main_v224) = ReadP.val_main_v224 (F := F) x4)
      ∧ (after ops_4 W (Proc.devRef .tc main_v225) = ReadP.val_main_v225 (F := F)) := by
  simp only [ops_4]
  after_results_simp
  simp only [TRef.ofBuf, TRef.toBuf, cast_eq, h_main_arg0, h_main_arg1, h_main_arg2, h_main_arg3, h_main_arg4, h_main_v14, h_main_v15, h_main_v155, h_main_v174, h_main_v179]
  refine ⟨?_, ?_, ?_, ?_, ?_, ?_, ?_, ?_, ?_, ?_, ?_, ?_, ?_, ?_, ?_⟩ <;> first | trivial | rfl

end Cert.ReferenceIdeal.RefRun

end
-- ==== Proof.RefRunC5.lean ====
import proofs.«146640_j52948356825308_1_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two index columns side by side, as one function of the two (a named function, so that its operands are plain arguments). -/
def cat_5 : (⟨S4x12544x1, .i32⟩ : BufTy).Contents (Elt F) → (⟨S4x12544x1, .i32⟩ : BufTy).Contents (Elt F) → (⟨S4x12544x2, .i32⟩ : BufTy).Contents (Elt F) :=
  fun a b => concatenate S4x12544x2 2 [⟨S4x12544x1, a⟩, ⟨S4x12544x1, b⟩] concatenates_S4x12544x1_S4x12544x1_S4x12544x2_d2

/-- @main's operations 351 … 420 of 720, in order (a called function's operations stand in its call's place). -/
abbrev ops_5 : List (HloOp τ sig (Elt F)) :=
  [ binary main_v210 main_v225 main_v226 (addi : (⟨S4x12544, .i32⟩ : BufTy).Contents (Elt F) → (⟨S4x12544, .i32⟩ : BufTy).Contents (Elt F) → (⟨S4x12544, .i32⟩ : BufTy).Contents (Elt F)),
    ternary main_v224 main_v226 main_v210 main_v227 (select : (⟨S4x12544, .i1⟩ : BufTy).Contents (Elt F) → (⟨S4x12544, .i32⟩ : BufTy).Contents (Elt F) → (⟨S4x12544, .i32⟩ : BufTy).Contents (Elt F) → (⟨S4x12544, .i32⟩ : BufTy).Contents (Elt F)),
    nullary main_c_72 (constantI S_ 32 0#32),
    unary main_c_72 main_v228 (broadcastInDim S4x12544 ![] bcast_S_S4x12544 : (⟨S_, .i32⟩ : BufTy).Contents (Elt F) → (⟨S4x12544, .i32⟩ : BufTy).Contents (Elt F)),
    binary main_v208 main_v228 main_v229 (cmpi .slt : (⟨S4x12544, .i32⟩ : BufTy).Contents (Elt F) → (⟨S4x12544, .i32⟩ : BufTy).Contents (Elt F) → (⟨S4x12544, .i1⟩ : BufTy).Contents (Elt F)),
    nullary main_c_73 (constantI S_ 32 256#32),
    unary main_c_73 main_v230 (broadcastInDim S4x12544 ![] bcast_S_S4x12544 : (⟨S_, .i32⟩ : BufTy).Contents (Elt F) → (⟨S4x12544, .i32⟩ : BufTy).Contents (Elt F)),
    binary main_v208 main_v230 main_v231 (addi : (⟨S4x12544, .i32⟩ : BufTy).Contents (Elt F) → (⟨S4x12544, .i32⟩ : BufTy).Contents (Elt F) → (⟨S4x12544, .i32⟩ : BufTy).Contents (Elt F)),
    ternary main_v229 main_v231 main_v208 main_v232 (select : (⟨S4x12544, .i1⟩ : BufTy).Contents (Elt F) → (⟨S4x12544, .i32⟩ : BufTy).Contents (Elt F) → (⟨S4x12544, .i32⟩ : BufTy).Contents (Elt F) → (⟨S4x12544, .i32⟩ : BufTy).Contents (Elt F)),
    unary main_v227 main_v233 (broadcastInDim S4x12544x1 ![0, 1] bcast_S4x12544_S4x12544x1_0_1 : (⟨S4x12544, .i32⟩ : BufTy).Contents (Elt F) → (⟨S4x12544x1, .i32⟩ : BufTy).Contents (Elt F)),
    unary main_v232 main_v234 (broadcastInDim S4x12544x1 ![0, 1] bcast_S4x12544_S4x12544x1_0_1 : (⟨S4x12544, .i32⟩ : BufTy).Contents (Elt F) → (⟨S4x12544x1, .i32⟩ : BufTy).Contents (Elt F)),
    binary main_v233 main_v234 main_v235 (cat_5 : (⟨S4x12544x1, .i32⟩ : BufTy).Contents (Elt F) → (⟨S4x12544x1, .i32⟩ : BufTy).Contents (Elt F) → (⟨S4x12544x2, .i32⟩ : BufTy).Contents (Elt F)),
    binary main_arg3 main_v235 main_v236 ((fun x i => Host.gather gather_S4x100x256x256_S4x12544x2_S4x100x12544_1_23_0_0_23_2_110011 x i) : (⟨S4x100x256x256, .f32⟩ : BufTy).Contents (Elt F) → (⟨S4x12544x2, .i32⟩ : BufTy).Contents (Elt F) → (⟨S4x100x12544, .f32⟩ : BufTy).Contents (Elt F)),
    unary main_v222 main_v237 (broadcastInDim S4x1x12544 ![0, 2] bcast_S4x12544_S4x1x12544_0_2 : (⟨S4x12544, .f32⟩ : BufTy).Contents (Elt F) → (⟨S4x1x12544, .f32⟩ : BufTy).Contents (Elt F)),
    unary main_v237 main_v238 (broadcastInDim S4x100x12544 ![0, 1, 2] bcast_S4x1x12544_S4x100x12544_0_1_2 : (⟨S4x1x12544, .f32⟩ : BufTy).Contents (Elt F) → (⟨S4x100x12544, .f32⟩ : BufTy).Contents (Elt F)),
    binary main_v236 main_v238 main_v239 (mulf : (⟨S4x100x12544, .f32⟩ : BufTy).Contents (Elt F) → (⟨S4x100x12544, .f32⟩ : BufTy).Contents (Elt F) → (⟨S4x100x12544, .f32⟩ : BufTy).Contents (Elt F)),
    nullary main_cst_74 (constant S_ .f32 0x3F800000#32),
    unary main_cst_74 main_v240 (broadcastInDim S4x12544 ![] bcast_S_S4x12544 : (⟨S_, .f32⟩ : BufTy).Contents (Elt F) → (⟨S4x12544, .f32⟩ : BufTy).Contents (Elt F)),
    binary main_v203 main_v240 main_v241 (addf : (⟨S4x12544, .f32⟩ : BufTy).Contents (Elt F) → (⟨S4x12544, .f32⟩ : BufTy).Contents (Elt F) → (⟨S4x12544, .f32⟩ : BufTy).Contents (Elt F)),
    nullary main_c_75 (constantI S_ 32 0#32),
    nullary main_c_76 (constantI S_ 32 255#32),
    TRef.unary (TRef.of (T := ⟨S_, .i32⟩) main_c_75) (TRef.of (T := ⟨S_, .f32⟩) main_call10_v0) (sitofp .f32),
    TRef.unary (TRef.of (T := ⟨S_, .f32⟩) main_call10_v0) (TRef.of (T := ⟨S4x12544, .f32⟩) main_call10_v1) (broadcastInDim S4x12544 ![] bcast_S_S4x12544),
    TRef.binary (TRef.of (T := ⟨S4x12544, .f32⟩) main_call10_v1) (TRef.of (T := ⟨S4x12544, .f32⟩) main_v241) (TRef.of (T := ⟨S4x12544, .f32⟩) main_call10_v2) maximumf,
    TRef.unary (TRef.of (T := ⟨S_, .i32⟩) main_c_76) (TRef.of (T := ⟨S_, .f32⟩) main_call10_v3) (sitofp .f32),
    TRef.unary (TRef.of (T := ⟨S_, .f32⟩) main_call10_v3) (TRef.of (T := ⟨S4x12544, .f32⟩) main_call10_v4) (broadcastInDim S4x12544 ![] bcast_S_S4x12544),
    TRef.binary (TRef.of (T := ⟨S4x12544, .f32⟩) main_call10_v4) (TRef.of (T := ⟨S4x12544, .f32⟩) main_call10_v2) (TRef.of (T := ⟨S4x12544, .f32⟩) main_v242) minimumf,
    unary main_v242 main_v243 (fptosi 32 : (⟨S4x12544, .f32⟩ : BufTy).Contents (Elt F) → (⟨S4x12544, .i32⟩ : BufTy).Contents (Elt F)),
    nullary main_c_77 (constantI S_ 32 0#32),
    nullary main_c_78 (constantI S_ 32 255#32),
    TRef.unary (TRef.of (T := ⟨S_, .i32⟩) main_c_77) (TRef.of (T := ⟨S_, .f32⟩) main_call11_v0) (sitofp .f32),
    TRef.unary (TRef.of (T := ⟨S_, .f32⟩) main_call11_v0) (TRef.of (T := ⟨S4x12544, .f32⟩) main_call11_v1) (broadcastInDim S4x12544 ![] bcast_S_S4x12544),
    TRef.binary (TRef.of (T := ⟨S4x12544, .f32⟩) main_call11_v1) (TRef.of (T := ⟨S4x12544, .f32⟩) main_v204) (TRef.of (T := ⟨S4x12544, .f32⟩) main_call11_v2) maximumf,
    TRef.unary (TRef.of (T := ⟨S_, .i32⟩) main_c_78) (TRef.of (T := ⟨S_, .f32⟩) main_call11_v3) (sitofp .f32),
    TRef.unary (TRef.of (T := ⟨S_, .f32⟩) main_call11_v3) (TRef.of (T := ⟨S4x12544, .f32⟩) main_call11_v4) (broadcastInDim S4x12544 ![] bcast_S_S4x12544),
    TRef.binary (TRef.of (T := ⟨S4x12544, .f32⟩) main_call11_v4) (TRef.of (T := ⟨S4x12544, .f32⟩) main_call11_v2) (TRef.of (T := ⟨S4x12544, .f32⟩) main_v244) minimumf,
    unary main_v244 main_v245 (fptosi 32 : (⟨S4x12544, .f32⟩ : BufTy).Contents (Elt F) → (⟨S4x12544, .i32⟩ : BufTy).Contents (Elt F)),
    nullary main_cst_79 (constant S_ .f32 0x00000000#32),
    unary main_cst_79 main_v246 (broadcastInDim S4x12544 ![] bcast_S_S4x12544 : (⟨S_, .f32⟩ : BufTy).Contents (Elt F) → (⟨S4x12544, .f32⟩ : BufTy).Contents (Elt F)),
    binary main_v241 main_v246 main_v247 (cmpf .oge : (⟨S4x12544, .f32⟩ : BufTy).Contents (Elt F) → (⟨S4x12544, .f32⟩ : BufTy).Contents (Elt F) → (⟨S4x12544, .i1⟩ : BufTy).Contents (Elt F)),
    nullary main_cst_80 (constant S_ .f32 0x437F0000#32),
    unary main_cst_80 main_v248 (broadcastInDim S4x12544 ![] bcast_S_S4x12544 : (⟨S_, .f32⟩ : BufTy).Contents (Elt F) → (⟨S4x12544, .f32⟩ : BufTy).Contents (Elt F)),
    binary main_v241 main_v248 main_v249 (cmpf .ole : (⟨S4x12544, .f32⟩ : BufTy).Contents (Elt F) → (⟨S4x12544, .f32⟩ : BufTy).Contents (Elt F) → (⟨S4x12544, .i1⟩ : BufTy).Contents (Elt F)),
    binary main_v247 main_v249 main_v250 (andi : (⟨S4x12544, .i1⟩ : BufTy).Contents (Elt F) → (⟨S4x12544, .i1⟩ : BufTy).Contents (Elt F) → (⟨S4x12544, .i1⟩ : BufTy).Contents (Elt F)),
    nullary main_cst_81 (constant S_ .f32 0x00000000#32),
    unary main_cst_81 main_v251 (broadcastInDim S4x12544 ![] bcast_S_S4x12544 : (⟨S_, .f32⟩ : BufTy).Contents (Elt F) → (⟨S4x12544, .f32⟩ : BufTy).Contents (Elt F)),
    binary main_v204 main_v251 main_v252 (cmpf .oge : (⟨S4x12544, .f32⟩ : BufTy).Contents (Elt F) → (⟨S4x12544, .f32⟩ : BufTy).Contents (Elt F) → (⟨S4x12544, .i1⟩ : BufTy).Contents (Elt F)),
    binary main_v250 main_v252 main_v253 (andi : (⟨S4x12544, .i1⟩ : BufTy).Contents (Elt F) → (⟨S4x12544, .i1⟩ : BufTy).Contents (Elt F) → (⟨S4x12544, .i1⟩ : BufTy).Contents (Elt F)),
    nullary main_cst_82 (constant S_ .f32 0x437F0000#32),
    unary main_cst_82 main_v254 (broadcastInDim S4x12544 ![] bcast_S_S4x12544 : (⟨S_, .f32⟩ : BufTy).Contents (Elt F) → (⟨S4x12544, .f32⟩ : BufTy).Contents (Elt F)),
    binary main_v204 main_v254 main_v255 (cmpf .ole : (⟨S4x12544, .f32⟩ : BufTy).Contents (Elt F) → (⟨S4x12544, .f32⟩ : BufTy).Contents (Elt F) → (⟨S4x12544, .i1⟩ : BufTy).Contents (Elt F)),
    binary main_v253 main_v255 main_v256 (andi : (⟨S4x12544, .i1⟩ : BufTy).Contents (Elt F) → (⟨S4x12544, .i1⟩ : BufTy).Contents (Elt F) → (⟨S4x12544, .i1⟩ : BufTy).Contents (Elt F)),
    unary main_v256 main_v257 (uitofp .f32 : (⟨S4x12544, .i1⟩ : BufTy).Contents (Elt F) → (⟨S4x12544, .f32⟩ : BufTy).Contents (Elt F)),
    nullary main_c_83 (constantI S_ 32 0#32),
    unary main_c_83 main_v258 (broadcastInDim S4x12544 ![] bcast_S_S4x12544 : (⟨S_, .i32⟩ : BufTy).Contents (Elt F) → (⟨S4x12544, .i32⟩ : BufTy).Contents (Elt F)),
    binary main_v245 main_v258 main_v259 (cmpi .slt : (⟨S4x12544, .i32⟩ : BufTy).Contents (Elt F) → (⟨S4x12544, .i32⟩ : BufTy).Contents (Elt F) → (⟨S4x12544, .i1⟩ : BufTy).Contents (Elt F)),
    nullary main_c_84 (constantI S_ 32 256#32),
    unary main_c_84 main_v260 (broadcastInDim S4x12544 ![] bcast_S_S4x12544 : (⟨S_, .i32⟩ : BufTy).Contents (Elt F) → (⟨S4x12544, .i32⟩ : BufTy).Contents (Elt F)),
    binary main_v245 main_v260 main_v261 (addi : (⟨S4x12544, .i32⟩ : BufTy).Contents (Elt F) → (⟨S4x12544, .i32⟩ : BufTy).Contents (Elt F) → (⟨S4x12544, .i32⟩ : BufTy).Contents (Elt F)),
    ternary main_v259 main_v261 main_v245 main_v262 (select : (⟨S4x12544, .i1⟩ : BufTy).Contents (Elt F) → (⟨S4x12544, .i32⟩ : BufTy).Contents (Elt F) → (⟨S4x12544, .i32⟩ : BufTy).Contents (Elt F) → (⟨S4x12544, .i32⟩ : BufTy).Contents (Elt F)),
    nullary main_c_85 (constantI S_ 32 0#32),
    unary main_c_85 main_v263 (broadcastInDim S4x12544 ![] bcast_S_S4x12544 : (⟨S_, .i32⟩ : BufTy).Contents (Elt F) → (⟨S4x12544, .i32⟩ : BufTy).Contents (Elt F)),
    binary main_v243 main_v263 main_v264 (cmpi .slt : (⟨S4x12544, .i32⟩ : BufTy).Contents (Elt F) → (⟨S4x12544, .i32⟩ : BufTy).Contents (Elt F) → (⟨S4x12544, .i1⟩ : BufTy).Contents (Elt F)),
    nullary main_c_86 (constantI S_ 32 256#32),
    unary main_c_86 main_v265 (broadcastInDim S4x12544 ![] bcast_S_S4x12544 : (⟨S_, .i32⟩ : BufTy).Contents (Elt F) → (⟨S4x12544, .i32⟩ : BufTy).Contents (Elt F)),
    binary main_v243 main_v265 main_v266 (addi : (⟨S4x12544, .i32⟩ : BufTy).Contents (Elt F) → (⟨S4x12544, .i32⟩ : BufTy).Contents (Elt F) → (⟨S4x12544, .i32⟩ : BufTy).Contents (Elt F)),
    ternary main_v264 main_v266 main_v243 main_v267 (select : (⟨S4x12544, .i1⟩ : BufTy).Contents (Elt F) → (⟨S4x12544, .i32⟩ : BufTy).Contents (Elt F) → (⟨S4x12544, .i32⟩ : BufTy).Contents (Elt F) → (⟨S4x12544, .i32⟩ : BufTy).Contents (Elt F)),
    unary main_v262 main_v268 (broadcastInDim S4x12544x1 ![0, 1] bcast_S4x12544_S4x12544x1_0_1 : (⟨S4x12544, .i32⟩ : BufTy).Contents (Elt F) → (⟨S4x12544x1, .i32⟩ : BufTy).Contents (Elt F)),
    unary main_v267 main_v269 (broadcastInDim S4x12544x1 ![0, 1] bcast_S4x12544_S4x12544x1_0_1 : (⟨S4x12544, .i32⟩ : BufTy).Contents (Elt F) → (⟨S4x12544x1, .i32⟩ : BufTy).Contents (Elt F)),
    binary main_v268 main_v269 main_v270 (cat_5 : (⟨S4x12544x1, .i32⟩ : BufTy).Contents (Elt F) → (⟨S4x12544x1, .i32⟩ : BufTy).Contents (Elt F) → (⟨S4x12544x2, .i32⟩ : BufTy).Contents (Elt F)) ]

set_option maxRecDepth 8192 in
set_option maxHeartbeats 4000000 in
theorem main_part5_eq (c : Dev nD) : main_part5 (F := F) c = seq ops_5 := rfl

set_option maxRecDepth 8192 in
theorem ops_5_sub : (ops_5 : List (HloOp τ sig (Elt F))).Forall fun op => op.bufs ⊆ tcRefs τ sig :=
  ⟨binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub ..⟩

set_option maxRecDepth 8192 in
set_option maxHeartbeats 4000000 in
theorem ops_5_fresh : ∀ op ∈ (ops_5 : List (HloOp τ sig (Elt F))), op.fresh = ∅ := by
  intro _ h; (repeat (cases h with | head => rfl | tail _ h => ?_)); exact nomatch h

set_option maxRecDepth 8192 in
set_option maxHeartbeats 16000000 in
/-- From contents W that hold the stages' values at the buffers live before these operations, the contents after them hold
    the stages' values at the buffers live after them. -/
theorem stage_5 (x0 : (⟨S4x300x80, .f32⟩ : BufTy).Contents (Elt F)) (x1 : (⟨S4x300x256x256, .f32⟩ : BufTy).Contents (Elt F)) (x2 : (⟨S4x100, .i32⟩ : BufTy).Contents (Elt F)) (x3 : (⟨S4x100x256x256, .f32⟩ : BufTy).Contents (Elt F)) (x4 : (⟨S4x12544x2, .f32⟩ : BufTy).Contents (Elt F))
    (W : Valuation τ sig (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_v190 : W (no_index (Proc.devRef .tc main_v190)) = ReadP.val_main_v190 (F := F) x1 x4)
    (h_main_v203 : W (no_index (Proc.devRef .tc main_v203)) = ReadP.val_main_v203 (F := F) x4)
    (h_main_v204 : W (no_index (Proc.devRef .tc main_v204)) = ReadP.val_main_v204 (F := F) x4)
    (h_main_v205 : W (no_index (Proc.devRef .tc main_v205)) = ReadP.val_main_v205 (F := F) x4)
    (h_main_v206 : W (no_index (Proc.devRef .tc main_v206)) = ReadP.val_main_v206 (F := F) x4)
    (h_main_v208 : W (no_index (Proc.devRef .tc main_v208)) = ReadP.val_main_v208 (F := F) x4)
    (h_main_v210 : W (no_index (Proc.devRef .tc main_v210)) = ReadP.val_main_v210 (F := F) x4)
    (h_main_v222 : W (no_index (Proc.devRef .tc main_v222)) = ReadP.val_main_v222 (F := F) x4)
    (h_main_v224 : W (no_index (Proc.devRef .tc main_v224)) = ReadP.val_main_v224 (F := F) x4)
    (h_main_v225 : W (no_index (Proc.devRef .tc main_v225)) = ReadP.val_main_v225 (F := F)) :
    (after ops_5 W (Proc.devRef .tc main_arg0) = x0)
      ∧ (after ops_5 W (Proc.devRef .tc main_arg1) = x1)
      ∧ (after ops_5 W (Proc.devRef .tc main_arg2) = x2)
      ∧ (after ops_5 W (Proc.devRef .tc main_arg3) = x3)
      ∧ (after ops_5 W (Proc.devRef .tc main_arg4) = x4)
      ∧ (after ops_5 W (Proc.devRef .tc main_v190) = ReadP.val_main_v190 (F := F) x1 x4)
      ∧ (after ops_5 W (Proc.devRef .tc main_v203) = ReadP.val_main_v203 (F := F) x4)
      ∧ (after ops_5 W (Proc.devRef .tc main_v204) = ReadP.val_main_v204 (F := F) x4)
      ∧ (after ops_5 W (Proc.devRef .tc main_v205) = ReadP.val_main_v205 (F := F) x4)
      ∧ (after ops_5 W (Proc.devRef .tc main_v206) = ReadP.val_main_v206 (F := F) x4)
      ∧ (after ops_5 W (Proc.devRef .tc main_v239) = ReadP.val_main_v239 (F := F) x3 x4)
      ∧ (after ops_5 W (Proc.devRef .tc main_v257) = ReadP.val_main_v257 (F := F) x4)
      ∧ (after ops_5 W (Proc.devRef .tc main_v270) = ReadP.val_main_v270 (F := F) x4) := by
  simp only [ops_5]
  after_results_simp
  simp only [TRef.ofBuf, TRef.toBuf, cast_eq, h_main_arg0, h_main_arg1, h_main_arg2, h_main_arg3, h_main_arg4, h_main_v190, h_main_v203, h_main_v204, h_main_v205, h_main_v206, h_main_v208, h_main_v210, h_main_v222, h_main_v224, h_main_v225]
  refine ⟨?_, ?_, ?_, ?_, ?_, ?_, ?_, ?_, ?_, ?_, ?_, ?_, ?_⟩ <;> first | trivial | rfl

end Cert.ReferenceIdeal.RefRun

end
-- ==== Proof.RefRunC6.lean ====
import proofs.«146640_j52948356825308_1_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two index columns side by side, as one function of the two (a named function, so that its operands are plain arguments). -/
def cat_6 : (⟨S4x12544x1, .i32⟩ : BufTy).Contents (Elt F) → (⟨S4x12544x1, .i32⟩ : BufTy).Contents (Elt F) → (⟨S4x12544x2, .i32⟩ : BufTy).Contents (Elt F) :=
  fun a b => concatenate S4x12544x2 2 [⟨S4x12544x1, a⟩, ⟨S4x12544x1, b⟩] concatenates_S4x12544x1_S4x12544x1_S4x12544x2_d2

/-- @main's operations 421 … 490 of 720, in order (a called function's operations stand in its call's place). -/
abbrev ops_6 : List (HloOp τ sig (Elt F)) :=
  [ binary main_arg3 main_v270 main_v271 ((fun x i => Host.gather gather_S4x100x256x256_S4x12544x2_S4x100x12544_1_23_0_0_23_2_110011 x i) : (⟨S4x100x256x256, .f32⟩ : BufTy).Contents (Elt F) → (⟨S4x12544x2, .i32⟩ : BufTy).Contents (Elt F) → (⟨S4x100x12544, .f32⟩ : BufTy).Contents (Elt F)),
    unary main_v257 main_v272 (broadcastInDim S4x1x12544 ![0, 2] bcast_S4x12544_S4x1x12544_0_2 : (⟨S4x12544, .f32⟩ : BufTy).Contents (Elt F) → (⟨S4x1x12544, .f32⟩ : BufTy).Contents (Elt F)),
    unary main_v272 main_v273 (broadcastInDim S4x100x12544 ![0, 1, 2] bcast_S4x1x12544_S4x100x12544_0_1_2 : (⟨S4x1x12544, .f32⟩ : BufTy).Contents (Elt F) → (⟨S4x100x12544, .f32⟩ : BufTy).Contents (Elt F)),
    binary main_v271 main_v273 main_v274 (mulf : (⟨S4x100x12544, .f32⟩ : BufTy).Contents (Elt F) → (⟨S4x100x12544, .f32⟩ : BufTy).Contents (Elt F) → (⟨S4x100x12544, .f32⟩ : BufTy).Contents (Elt F)),
    nullary main_cst_87 (constant S_ .f32 0x3F800000#32),
    unary main_cst_87 main_v275 (broadcastInDim S4x12544 ![] bcast_S_S4x12544 : (⟨S_, .f32⟩ : BufTy).Contents (Elt F) → (⟨S4x12544, .f32⟩ : BufTy).Contents (Elt F)),
    binary main_v204 main_v275 main_v276 (addf : (⟨S4x12544, .f32⟩ : BufTy).Contents (Elt F) → (⟨S4x12544, .f32⟩ : BufTy).Contents (Elt F) → (⟨S4x12544, .f32⟩ : BufTy).Contents (Elt F)),
    nullary main_c_88 (constantI S_ 32 0#32),
    nullary main_c_89 (constantI S_ 32 255#32),
    TRef.unary (TRef.of (T := ⟨S_, .i32⟩) main_c_88) (TRef.of (T := ⟨S_, .f32⟩) main_call12_v0) (sitofp .f32),
    TRef.unary (TRef.of (T := ⟨S_, .f32⟩) main_call12_v0) (TRef.of (T := ⟨S4x12544, .f32⟩) main_call12_v1) (broadcastInDim S4x12544 ![] bcast_S_S4x12544),
    TRef.binary (TRef.of (T := ⟨S4x12544, .f32⟩) main_call12_v1) (TRef.of (T := ⟨S4x12544, .f32⟩) main_v203) (TRef.of (T := ⟨S4x12544, .f32⟩) main_call12_v2) maximumf,
    TRef.unary (TRef.of (T := ⟨S_, .i32⟩) main_c_89) (TRef.of (T := ⟨S_, .f32⟩) main_call12_v3) (sitofp .f32),
    TRef.unary (TRef.of (T := ⟨S_, .f32⟩) main_call12_v3) (TRef.of (T := ⟨S4x12544, .f32⟩) main_call12_v4) (broadcastInDim S4x12544 ![] bcast_S_S4x12544),
    TRef.binary (TRef.of (T := ⟨S4x12544, .f32⟩) main_call12_v4) (TRef.of (T := ⟨S4x12544, .f32⟩) main_call12_v2) (TRef.of (T := ⟨S4x12544, .f32⟩) main_v277) minimumf,
    unary main_v277 main_v278 (fptosi 32 : (⟨S4x12544, .f32⟩ : BufTy).Contents (Elt F) → (⟨S4x12544, .i32⟩ : BufTy).Contents (Elt F)),
    nullary main_c_90 (constantI S_ 32 0#32),
    nullary main_c_91 (constantI S_ 32 255#32),
    TRef.unary (TRef.of (T := ⟨S_, .i32⟩) main_c_90) (TRef.of (T := ⟨S_, .f32⟩) main_call13_v0) (sitofp .f32),
    TRef.unary (TRef.of (T := ⟨S_, .f32⟩) main_call13_v0) (TRef.of (T := ⟨S4x12544, .f32⟩) main_call13_v1) (broadcastInDim S4x12544 ![] bcast_S_S4x12544),
    TRef.binary (TRef.of (T := ⟨S4x12544, .f32⟩) main_call13_v1) (TRef.of (T := ⟨S4x12544, .f32⟩) main_v276) (TRef.of (T := ⟨S4x12544, .f32⟩) main_call13_v2) maximumf,
    TRef.unary (TRef.of (T := ⟨S_, .i32⟩) main_c_91) (TRef.of (T := ⟨S_, .f32⟩) main_call13_v3) (sitofp .f32),
    TRef.unary (TRef.of (T := ⟨S_, .f32⟩) main_call13_v3) (TRef.of (T := ⟨S4x12544, .f32⟩) main_call13_v4) (broadcastInDim S4x12544 ![] bcast_S_S4x12544),
    TRef.binary (TRef.of (T := ⟨S4x12544, .f32⟩) main_call13_v4) (TRef.of (T := ⟨S4x12544, .f32⟩) main_call13_v2) (TRef.of (T := ⟨S4x12544, .f32⟩) main_v279) minimumf,
    unary main_v279 main_v280 (fptosi 32 : (⟨S4x12544, .f32⟩ : BufTy).Contents (Elt F) → (⟨S4x12544, .i32⟩ : BufTy).Contents (Elt F)),
    nullary main_cst_92 (constant S_ .f32 0x00000000#32),
    unary main_cst_92 main_v281 (broadcastInDim S4x12544 ![] bcast_S_S4x12544 : (⟨S_, .f32⟩ : BufTy).Contents (Elt F) → (⟨S4x12544, .f32⟩ : BufTy).Contents (Elt F)),
    binary main_v203 main_v281 main_v282 (cmpf .oge : (⟨S4x12544, .f32⟩ : BufTy).Contents (Elt F) → (⟨S4x12544, .f32⟩ : BufTy).Contents (Elt F) → (⟨S4x12544, .i1⟩ : BufTy).Contents (Elt F)),
    nullary main_cst_93 (constant S_ .f32 0x437F0000#32),
    unary main_cst_93 main_v283 (broadcastInDim S4x12544 ![] bcast_S_S4x12544 : (⟨S_, .f32⟩ : BufTy).Contents (Elt F) → (⟨S4x12544, .f32⟩ : BufTy).Contents (Elt F)),
    binary main_v203 main_v283 main_v284 (cmpf .ole : (⟨S4x12544, .f32⟩ : BufTy).Contents (Elt F) → (⟨S4x12544, .f32⟩ : BufTy).Contents (Elt F) → (⟨S4x12544, .i1⟩ : BufTy).Contents (Elt F)),
    binary main_v282 main_v284 main_v285 (andi : (⟨S4x12544, .i1⟩ : BufTy).Contents (Elt F) → (⟨S4x12544, .i1⟩ : BufTy).Contents (Elt F) → (⟨S4x12544, .i1⟩ : BufTy).Contents (Elt F)),
    nullary main_cst_94 (constant S_ .f32 0x00000000#32),
    unary main_cst_94 main_v286 (broadcastInDim S4x12544 ![] bcast_S_S4x12544 : (⟨S_, .f32⟩ : BufTy).Contents (Elt F) → (⟨S4x12544, .f32⟩ : BufTy).Contents (Elt F)),
    binary main_v276 main_v286 main_v287 (cmpf .oge : (⟨S4x12544, .f32⟩ : BufTy).Contents (Elt F) → (⟨S4x12544, .f32⟩ : BufTy).Contents (Elt F) → (⟨S4x12544, .i1⟩ : BufTy).Contents (Elt F)),
    binary main_v285 main_v287 main_v288 (andi : (⟨S4x12544, .i1⟩ : BufTy).Contents (Elt F) → (⟨S4x12544, .i1⟩ : BufTy).Contents (Elt F) → (⟨S4x12544, .i1⟩ : BufTy).Contents (Elt F)),
    nullary main_cst_95 (constant S_ .f32 0x437F0000#32),
    unary main_cst_95 main_v289 (broadcastInDim S4x12544 ![] bcast_S_S4x12544 : (⟨S_, .f32⟩ : BufTy).Contents (Elt F) → (⟨S4x12544, .f32⟩ : BufTy).Contents (Elt F)),
    binary main_v276 main_v289 main_v290 (cmpf .ole : (⟨S4x12544, .f32⟩ : BufTy).Contents (Elt F) → (⟨S4x12544, .f32⟩ : BufTy).Contents (Elt F) → (⟨S4x12544, .i1⟩ : BufTy).Contents (Elt F)),
    binary main_v288 main_v290 main_v291 (andi : (⟨S4x12544, .i1⟩ : BufTy).Contents (Elt F) → (⟨S4x12544, .i1⟩ : BufTy).Contents (Elt F) → (⟨S4x12544, .i1⟩ : BufTy).Contents (Elt F)),
    unary main_v291 main_v292 (uitofp .f32 : (⟨S4x12544, .i1⟩ : BufTy).Contents (Elt F) → (⟨S4x12544, .f32⟩ : BufTy).Contents (Elt F)),
    nullary main_c_96 (constantI S_ 32 0#32),
    unary main_c_96 main_v293 (broadcastInDim S4x12544 ![] bcast_S_S4x12544 : (⟨S_, .i32⟩ : BufTy).Contents (Elt F) → (⟨S4x12544, .i32⟩ : BufTy).Contents (Elt F)),
    binary main_v280 main_v293 main_v294 (cmpi .slt : (⟨S4x12544, .i32⟩ : BufTy).Contents (Elt F) → (⟨S4x12544, .i32⟩ : BufTy).Contents (Elt F) → (⟨S4x12544, .i1⟩ : BufTy).Contents (Elt F)),
    nullary main_c_97 (constantI S_ 32 256#32),
    unary main_c_97 main_v295 (broadcastInDim S4x12544 ![] bcast_S_S4x12544 : (⟨S_, .i32⟩ : BufTy).Contents (Elt F) → (⟨S4x12544, .i32⟩ : BufTy).Contents (Elt F)),
    binary main_v280 main_v295 main_v296 (addi : (⟨S4x12544, .i32⟩ : BufTy).Contents (Elt F) → (⟨S4x12544, .i32⟩ : BufTy).Contents (Elt F) → (⟨S4x12544, .i32⟩ : BufTy).Contents (Elt F)),
    ternary main_v294 main_v296 main_v280 main_v297 (select : (⟨S4x12544, .i1⟩ : BufTy).Contents (Elt F) → (⟨S4x12544, .i32⟩ : BufTy).Contents (Elt F) → (⟨S4x12544, .i32⟩ : BufTy).Contents (Elt F) → (⟨S4x12544, .i32⟩ : BufTy).Contents (Elt F)),
    nullary main_c_98 (constantI S_ 32 0#32),
    unary main_c_98 main_v298 (broadcastInDim S4x12544 ![] bcast_S_S4x12544 : (⟨S_, .i32⟩ : BufTy).Contents (Elt F) → (⟨S4x12544, .i32⟩ : BufTy).Contents (Elt F)),
    binary main_v278 main_v298 main_v299 (cmpi .slt : (⟨S4x12544, .i32⟩ : BufTy).Contents (Elt F) → (⟨S4x12544, .i32⟩ : BufTy).Contents (Elt F) → (⟨S4x12544, .i1⟩ : BufTy).Contents (Elt F)),
    nullary main_c_99 (constantI S_ 32 256#32),
    unary main_c_99 main_v300 (broadcastInDim S4x12544 ![] bcast_S_S4x12544 : (⟨S_, .i32⟩ : BufTy).Contents (Elt F) → (⟨S4x12544, .i32⟩ : BufTy).Contents (Elt F)),
    binary main_v278 main_v300 main_v301 (addi : (⟨S4x12544, .i32⟩ : BufTy).Contents (Elt F) → (⟨S4x12544, .i32⟩ : BufTy).Contents (Elt F) → (⟨S4x12544, .i32⟩ : BufTy).Contents (Elt F)),
    ternary main_v299 main_v301 main_v278 main_v302 (select : (⟨S4x12544, .i1⟩ : BufTy).Contents (Elt F) → (⟨S4x12544, .i32⟩ : BufTy).Contents (Elt F) → (⟨S4x12544, .i32⟩ : BufTy).Contents (Elt F) → (⟨S4x12544, .i32⟩ : BufTy).Contents (Elt F)),
    unary main_v297 main_v303 (broadcastInDim S4x12544x1 ![0, 1] bcast_S4x12544_S4x12544x1_0_1 : (⟨S4x12544, .i32⟩ : BufTy).Contents (Elt F) → (⟨S4x12544x1, .i32⟩ : BufTy).Contents (Elt F)),
    unary main_v302 main_v304 (broadcastInDim S4x12544x1 ![0, 1] bcast_S4x12544_S4x12544x1_0_1 : (⟨S4x12544, .i32⟩ : BufTy).Contents (Elt F) → (⟨S4x12544x1, .i32⟩ : BufTy).Contents (Elt F)),
    binary main_v303 main_v304 main_v305 (cat_6 : (⟨S4x12544x1, .i32⟩ : BufTy).Contents (Elt F) → (⟨S4x12544x1, .i32⟩ : BufTy).Contents (Elt F) → (⟨S4x12544x2, .i32⟩ : BufTy).Contents (Elt F)),
    binary main_arg3 main_v305 main_v306 ((fun x i => Host.gather gather_S4x100x256x256_S4x12544x2_S4x100x12544_1_23_0_0_23_2_110011 x i) : (⟨S4x100x256x256, .f32⟩ : BufTy).Contents (Elt F) → (⟨S4x12544x2, .i32⟩ : BufTy).Contents (Elt F) → (⟨S4x100x12544, .f32⟩ : BufTy).Contents (Elt F)),
    unary main_v292 main_v307 (broadcastInDim S4x1x12544 ![0, 2] bcast_S4x12544_S4x1x12544_0_2 : (⟨S4x12544, .f32⟩ : BufTy).Contents (Elt F) → (⟨S4x1x12544, .f32⟩ : BufTy).Contents (Elt F)),
    unary main_v307 main_v308 (broadcastInDim S4x100x12544 ![0, 1, 2] bcast_S4x1x12544_S4x100x12544_0_1_2 : (⟨S4x1x12544, .f32⟩ : BufTy).Contents (Elt F) → (⟨S4x100x12544, .f32⟩ : BufTy).Contents (Elt F)),
    binary main_v306 main_v308 main_v309 (mulf : (⟨S4x100x12544, .f32⟩ : BufTy).Contents (Elt F) → (⟨S4x100x12544, .f32⟩ : BufTy).Contents (Elt F) → (⟨S4x100x12544, .f32⟩ : BufTy).Contents (Elt F)),
    nullary main_cst_100 (constant S_ .f32 0x3F800000#32),
    unary main_cst_100 main_v310 (broadcastInDim S4x12544 ![] bcast_S_S4x12544 : (⟨S_, .f32⟩ : BufTy).Contents (Elt F) → (⟨S4x12544, .f32⟩ : BufTy).Contents (Elt F)),
    binary main_v203 main_v310 main_v311 (addf : (⟨S4x12544, .f32⟩ : BufTy).Contents (Elt F) → (⟨S4x12544, .f32⟩ : BufTy).Contents (Elt F) → (⟨S4x12544, .f32⟩ : BufTy).Contents (Elt F)),
    nullary main_cst_101 (constant S_ .f32 0x3F800000#32),
    unary main_cst_101 main_v312 (broadcastInDim S4x12544 ![] bcast_S_S4x12544 : (⟨S_, .f32⟩ : BufTy).Contents (Elt F) → (⟨S4x12544, .f32⟩ : BufTy).Contents (Elt F)),
    binary main_v204 main_v312 main_v313 (addf : (⟨S4x12544, .f32⟩ : BufTy).Contents (Elt F) → (⟨S4x12544, .f32⟩ : BufTy).Contents (Elt F) → (⟨S4x12544, .f32⟩ : BufTy).Contents (Elt F)),
    nullary main_c_102 (constantI S_ 32 0#32),
    nullary main_c_103 (constantI S_ 32 255#32) ]

set_option maxRecDepth 8192 in
set_option maxHeartbeats 4000000 in
theorem main_part6_eq (c : Dev nD) : main_part6 (F := F) c = seq ops_6 := rfl

set_option maxRecDepth 8192 in
theorem ops_6_sub : (ops_6 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., nullary_bufs_sub ..⟩

set_option maxRecDepth 8192 in
set_option maxHeartbeats 4000000 in
theorem ops_6_fresh : ∀ op ∈ (ops_6 : List (HloOp τ sig (Elt F))), op.fresh = ∅ := by
  intro _ h; (repeat (cases h with | head => rfl | tail _ h => ?_)); exact nomatch h

set_option maxRecDepth 8192 in
set_option maxHeartbeats 16000000 in
/-- From contents W that hold the stages' values at the buffers live before these operations, the contents after them hold
    the stages' values at the buffers live after them. -/
theorem stage_6 (x0 : (⟨S4x300x80, .f32⟩ : BufTy).Contents (Elt F)) (x1 : (⟨S4x300x256x256, .f32⟩ : BufTy).Contents (Elt F)) (x2 : (⟨S4x100, .i32⟩ : BufTy).Contents (Elt F)) (x3 : (⟨S4x100x256x256, .f32⟩ : BufTy).Contents (Elt F)) (x4 : (⟨S4x12544x2, .f32⟩ : BufTy).Contents (Elt F))
    (W : Valuation τ sig (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_v190 : W (no_index (Proc.devRef .tc main_v190)) = ReadP.val_main_v190 (F := F) x1 x4)
    (h_main_v203 : W (no_index (Proc.devRef .tc main_v203)) = ReadP.val_main_v203 (F := F) x4)
    (h_main_v204 : W (no_index (Proc.devRef .tc main_v204)) = ReadP.val_main_v204 (F := F) x4)
    (h_main_v205 : W (no_index (Proc.devRef .tc main_v205)) = ReadP.val_main_v205 (F := F) x4)
    (h_main_v206 : W (no_index (Proc.devRef .tc main_v206)) = ReadP.val_main_v206 (F := F) x4)
    (h_main_v239 : W (no_index (Proc.devRef .tc main_v239)) = ReadP.val_main_v239 (F := F) x3 x4)
    (h_main_v257 : W (no_index (Proc.devRef .tc main_v257)) = ReadP.val_main_v257 (F := F) x4)
    (h_main_v270 : W (no_index (Proc.devRef .tc main_v270)) = ReadP.val_main_v270 (F := F) x4) :
    (after ops_6 W (Proc.devRef .tc main_arg0) = x0)
      ∧ (after ops_6 W (Proc.devRef .tc main_arg1) = x1)
      ∧ (after ops_6 W (Proc.devRef .tc main_arg2) = x2)
      ∧ (after ops_6 W (Proc.devRef .tc main_arg3) = x3)
      ∧ (after ops_6 W (Proc.devRef .tc main_arg4) = x4)
      ∧ (after ops_6 W (Proc.devRef .tc main_v190) = ReadP.val_main_v190 (F := F) x1 x4)
      ∧ (after ops_6 W (Proc.devRef .tc main_v205) = ReadP.val_main_v205 (F := F) x4)
      ∧ (after ops_6 W (Proc.devRef .tc main_v206) = ReadP.val_main_v206 (F := F) x4)
      ∧ (after ops_6 W (Proc.devRef .tc main_v239) = ReadP.val_main_v239 (F := F) x3 x4)
      ∧ (after ops_6 W (Proc.devRef .tc main_v274) = ReadP.val_main_v274 (F := F) x3 x4)
      ∧ (after ops_6 W (Proc.devRef .tc main_v309) = ReadP.val_main_v309 (F := F) x3 x4)
      ∧ (after ops_6 W (Proc.devRef .tc main_v311) = ReadP.val_main_v311 (F := F) x4)
      ∧ (after ops_6 W (Proc.devRef .tc main_v313) = ReadP.val_main_v313 (F := F) x4)
      ∧ (after ops_6 W (Proc.devRef .tc main_c_102) = ReadP.val_main_c_102 (F := F))
      ∧ (after ops_6 W (Proc.devRef .tc main_c_103) = ReadP.val_main_c_103 (F := F)) := by
  simp only [ops_6]
  after_results_simp
  simp only [TRef.ofBuf, TRef.toBuf, cast_eq, h_main_arg0, h_main_arg1, h_main_arg2, h_main_arg3, h_main_arg4, h_main_v190, h_main_v203, h_main_v204, h_main_v205, h_main_v206, h_main_v239, h_main_v257, h_main_v270]
  refine ⟨?_, ?_, ?_, ?_, ?_, ?_, ?_, ?_, ?_, ?_, ?_, ?_, ?_, ?_, ?_⟩ <;> first | trivial | rfl

end Cert.ReferenceIdeal.RefRun

end
-- ==== Proof.RefRunC7.lean ====
import proofs.«146640_j52948356825308_1_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two index columns side by side, as one function of the two (a named function, so that its operands are plain arguments). -/
def cat_7 : (⟨S4x12544x1, .i32⟩ : BufTy).Contents (Elt F) → (⟨S4x12544x1, .i32⟩ : BufTy).Contents (Elt F) → (⟨S4x12544x2, .i32⟩ : BufTy).Contents (Elt F) :=
  fun a b => concatenate S4x12544x2 2 [⟨S4x12544x1, a⟩, ⟨S4x12544x1, b⟩] concatenates_S4x12544x1_S4x12544x1_S4x12544x2_d2

/-- @main's operations 491 … 560 of 720, in order (a called function's operations stand in its call's place). -/
abbrev ops_7 : List (HloOp τ sig (Elt F)) :=
  [ TRef.unary (TRef.of (T := ⟨S_, .i32⟩) main_c_102) (TRef.of (T := ⟨S_, .f32⟩) main_call14_v0) (sitofp .f32),
    TRef.unary (TRef.of (T := ⟨S_, .f32⟩) main_call14_v0) (TRef.of (T := ⟨S4x12544, .f32⟩) main_call14_v1) (broadcastInDim S4x12544 ![] bcast_S_S4x12544),
    TRef.binary (TRef.of (T := ⟨S4x12544, .f32⟩) main_call14_v1) (TRef.of (T := ⟨S4x12544, .f32⟩) main_v311) (TRef.of (T := ⟨S4x12544, .f32⟩) main_call14_v2) maximumf,
    TRef.unary (TRef.of (T := ⟨S_, .i32⟩) main_c_103) (TRef.of (T := ⟨S_, .f32⟩) main_call14_v3) (sitofp .f32),
    TRef.unary (TRef.of (T := ⟨S_, .f32⟩) main_call14_v3) (TRef.of (T := ⟨S4x12544, .f32⟩) main_call14_v4) (broadcastInDim S4x12544 ![] bcast_S_S4x12544),
    TRef.binary (TRef.of (T := ⟨S4x12544, .f32⟩) main_call14_v4) (TRef.of (T := ⟨S4x12544, .f32⟩) main_call14_v2) (TRef.of (T := ⟨S4x12544, .f32⟩) main_v314) minimumf,
    unary main_v314 main_v315 (fptosi 32 : (⟨S4x12544, .f32⟩ : BufTy).Contents (Elt F) → (⟨S4x12544, .i32⟩ : BufTy).Contents (Elt F)),
    nullary main_c_104 (constantI S_ 32 0#32),
    nullary main_c_105 (constantI S_ 32 255#32),
    TRef.unary (TRef.of (T := ⟨S_, .i32⟩) main_c_104) (TRef.of (T := ⟨S_, .f32⟩) main_call15_v0) (sitofp .f32),
    TRef.unary (TRef.of (T := ⟨S_, .f32⟩) main_call15_v0) (TRef.of (T := ⟨S4x12544, .f32⟩) main_call15_v1) (broadcastInDim S4x12544 ![] bcast_S_S4x12544),
    TRef.binary (TRef.of (T := ⟨S4x12544, .f32⟩) main_call15_v1) (TRef.of (T := ⟨S4x12544, .f32⟩) main_v313) (TRef.of (T := ⟨S4x12544, .f32⟩) main_call15_v2) maximumf,
    TRef.unary (TRef.of (T := ⟨S_, .i32⟩) main_c_105) (TRef.of (T := ⟨S_, .f32⟩) main_call15_v3) (sitofp .f32),
    TRef.unary (TRef.of (T := ⟨S_, .f32⟩) main_call15_v3) (TRef.of (T := ⟨S4x12544, .f32⟩) main_call15_v4) (broadcastInDim S4x12544 ![] bcast_S_S4x12544),
    TRef.binary (TRef.of (T := ⟨S4x12544, .f32⟩) main_call15_v4) (TRef.of (T := ⟨S4x12544, .f32⟩) main_call15_v2) (TRef.of (T := ⟨S4x12544, .f32⟩) main_v316) minimumf,
    unary main_v316 main_v317 (fptosi 32 : (⟨S4x12544, .f32⟩ : BufTy).Contents (Elt F) → (⟨S4x12544, .i32⟩ : BufTy).Contents (Elt F)),
    nullary main_cst_106 (constant S_ .f32 0x00000000#32),
    unary main_cst_106 main_v318 (broadcastInDim S4x12544 ![] bcast_S_S4x12544 : (⟨S_, .f32⟩ : BufTy).Contents (Elt F) → (⟨S4x12544, .f32⟩ : BufTy).Contents (Elt F)),
    binary main_v311 main_v318 main_v319 (cmpf .oge : (⟨S4x12544, .f32⟩ : BufTy).Contents (Elt F) → (⟨S4x12544, .f32⟩ : BufTy).Contents (Elt F) → (⟨S4x12544, .i1⟩ : BufTy).Contents (Elt F)),
    nullary main_cst_107 (constant S_ .f32 0x437F0000#32),
    unary main_cst_107 main_v320 (broadcastInDim S4x12544 ![] bcast_S_S4x12544 : (⟨S_, .f32⟩ : BufTy).Contents (Elt F) → (⟨S4x12544, .f32⟩ : BufTy).Contents (Elt F)),
    binary main_v311 main_v320 main_v321 (cmpf .ole : (⟨S4x12544, .f32⟩ : BufTy).Contents (Elt F) → (⟨S4x12544, .f32⟩ : BufTy).Contents (Elt F) → (⟨S4x12544, .i1⟩ : BufTy).Contents (Elt F)),
    binary main_v319 main_v321 main_v322 (andi : (⟨S4x12544, .i1⟩ : BufTy).Contents (Elt F) → (⟨S4x12544, .i1⟩ : BufTy).Contents (Elt F) → (⟨S4x12544, .i1⟩ : BufTy).Contents (Elt F)),
    nullary main_cst_108 (constant S_ .f32 0x00000000#32),
    unary main_cst_108 main_v323 (broadcastInDim S4x12544 ![] bcast_S_S4x12544 : (⟨S_, .f32⟩ : BufTy).Contents (Elt F) → (⟨S4x12544, .f32⟩ : BufTy).Contents (Elt F)),
    binary main_v313 main_v323 main_v324 (cmpf .oge : (⟨S4x12544, .f32⟩ : BufTy).Contents (Elt F) → (⟨S4x12544, .f32⟩ : BufTy).Contents (Elt F) → (⟨S4x12544, .i1⟩ : BufTy).Contents (Elt F)),
    binary main_v322 main_v324 main_v325 (andi : (⟨S4x12544, .i1⟩ : BufTy).Contents (Elt F) → (⟨S4x12544, .i1⟩ : BufTy).Contents (Elt F) → (⟨S4x12544, .i1⟩ : BufTy).Contents (Elt F)),
    nullary main_cst_109 (constant S_ .f32 0x437F0000#32),
    unary main_cst_109 main_v326 (broadcastInDim S4x12544 ![] bcast_S_S4x12544 : (⟨S_, .f32⟩ : BufTy).Contents (Elt F) → (⟨S4x12544, .f32⟩ : BufTy).Contents (Elt F)),
    binary main_v313 main_v326 main_v327 (cmpf .ole : (⟨S4x12544, .f32⟩ : BufTy).Contents (Elt F) → (⟨S4x12544, .f32⟩ : BufTy).Contents (Elt F) → (⟨S4x12544, .i1⟩ : BufTy).Contents (Elt F)),
    binary main_v325 main_v327 main_v328 (andi : (⟨S4x12544, .i1⟩ : BufTy).Contents (Elt F) → (⟨S4x12544, .i1⟩ : BufTy).Contents (Elt F) → (⟨S4x12544, .i1⟩ : BufTy).Contents (Elt F)),
    unary main_v328 main_v329 (uitofp .f32 : (⟨S4x12544, .i1⟩ : BufTy).Contents (Elt F) → (⟨S4x12544, .f32⟩ : BufTy).Contents (Elt F)),
    nullary main_c_110 (constantI S_ 32 0#32),
    unary main_c_110 main_v330 (broadcastInDim S4x12544 ![] bcast_S_S4x12544 : (⟨S_, .i32⟩ : BufTy).Contents (Elt F) → (⟨S4x12544, .i32⟩ : BufTy).Contents (Elt F)),
    binary main_v317 main_v330 main_v331 (cmpi .slt : (⟨S4x12544, .i32⟩ : BufTy).Contents (Elt F) → (⟨S4x12544, .i32⟩ : BufTy).Contents (Elt F) → (⟨S4x12544, .i1⟩ : BufTy).Contents (Elt F)),
    nullary main_c_111 (constantI S_ 32 256#32),
    unary main_c_111 main_v332 (broadcastInDim S4x12544 ![] bcast_S_S4x12544 : (⟨S_, .i32⟩ : BufTy).Contents (Elt F) → (⟨S4x12544, .i32⟩ : BufTy).Contents (Elt F)),
    binary main_v317 main_v332 main_v333 (addi : (⟨S4x12544, .i32⟩ : BufTy).Contents (Elt F) → (⟨S4x12544, .i32⟩ : BufTy).Contents (Elt F) → (⟨S4x12544, .i32⟩ : BufTy).Contents (Elt F)),
    ternary main_v331 main_v333 main_v317 main_v334 (select : (⟨S4x12544, .i1⟩ : BufTy).Contents (Elt F) → (⟨S4x12544, .i32⟩ : BufTy).Contents (Elt F) → (⟨S4x12544, .i32⟩ : BufTy).Contents (Elt F) → (⟨S4x12544, .i32⟩ : BufTy).Contents (Elt F)),
    nullary main_c_112 (constantI S_ 32 0#32),
    unary main_c_112 main_v335 (broadcastInDim S4x12544 ![] bcast_S_S4x12544 : (⟨S_, .i32⟩ : BufTy).Contents (Elt F) → (⟨S4x12544, .i32⟩ : BufTy).Contents (Elt F)),
    binary main_v315 main_v335 main_v336 (cmpi .slt : (⟨S4x12544, .i32⟩ : BufTy).Contents (Elt F) → (⟨S4x12544, .i32⟩ : BufTy).Contents (Elt F) → (⟨S4x12544, .i1⟩ : BufTy).Contents (Elt F)),
    nullary main_c_113 (constantI S_ 32 256#32),
    unary main_c_113 main_v337 (broadcastInDim S4x12544 ![] bcast_S_S4x12544 : (⟨S_, .i32⟩ : BufTy).Contents (Elt F) → (⟨S4x12544, .i32⟩ : BufTy).Contents (Elt F)),
    binary main_v315 main_v337 main_v338 (addi : (⟨S4x12544, .i32⟩ : BufTy).Contents (Elt F) → (⟨S4x12544, .i32⟩ : BufTy).Contents (Elt F) → (⟨S4x12544, .i32⟩ : BufTy).Contents (Elt F)),
    ternary main_v336 main_v338 main_v315 main_v339 (select : (⟨S4x12544, .i1⟩ : BufTy).Contents (Elt F) → (⟨S4x12544, .i32⟩ : BufTy).Contents (Elt F) → (⟨S4x12544, .i32⟩ : BufTy).Contents (Elt F) → (⟨S4x12544, .i32⟩ : BufTy).Contents (Elt F)),
    unary main_v334 main_v340 (broadcastInDim S4x12544x1 ![0, 1] bcast_S4x12544_S4x12544x1_0_1 : (⟨S4x12544, .i32⟩ : BufTy).Contents (Elt F) → (⟨S4x12544x1, .i32⟩ : BufTy).Contents (Elt F)),
    unary main_v339 main_v341 (broadcastInDim S4x12544x1 ![0, 1] bcast_S4x12544_S4x12544x1_0_1 : (⟨S4x12544, .i32⟩ : BufTy).Contents (Elt F) → (⟨S4x12544x1, .i32⟩ : BufTy).Contents (Elt F)),
    binary main_v340 main_v341 main_v342 (cat_7 : (⟨S4x12544x1, .i32⟩ : BufTy).Contents (Elt F) → (⟨S4x12544x1, .i32⟩ : BufTy).Contents (Elt F) → (⟨S4x12544x2, .i32⟩ : BufTy).Contents (Elt F)),
    binary main_arg3 main_v342 main_v343 ((fun x i => Host.gather gather_S4x100x256x256_S4x12544x2_S4x100x12544_1_23_0_0_23_2_110011 x i) : (⟨S4x100x256x256, .f32⟩ : BufTy).Contents (Elt F) → (⟨S4x12544x2, .i32⟩ : BufTy).Contents (Elt F) → (⟨S4x100x12544, .f32⟩ : BufTy).Contents (Elt F)),
    unary main_v329 main_v344 (broadcastInDim S4x1x12544 ![0, 2] bcast_S4x12544_S4x1x12544_0_2 : (⟨S4x12544, .f32⟩ : BufTy).Contents (Elt F) → (⟨S4x1x12544, .f32⟩ : BufTy).Contents (Elt F)),
    unary main_v344 main_v345 (broadcastInDim S4x100x12544 ![0, 1, 2] bcast_S4x1x12544_S4x100x12544_0_1_2 : (⟨S4x1x12544, .f32⟩ : BufTy).Contents (Elt F) → (⟨S4x100x12544, .f32⟩ : BufTy).Contents (Elt F)),
    binary main_v343 main_v345 main_v346 (mulf : (⟨S4x100x12544, .f32⟩ : BufTy).Contents (Elt F) → (⟨S4x100x12544, .f32⟩ : BufTy).Contents (Elt F) → (⟨S4x100x12544, .f32⟩ : BufTy).Contents (Elt F)),
    nullary main_cst_114 (constant S_ .f32 0x3F800000#32),
    unary main_cst_114 main_v347 (broadcastInDim S4x12544 ![] bcast_S_S4x12544 : (⟨S_, .f32⟩ : BufTy).Contents (Elt F) → (⟨S4x12544, .f32⟩ : BufTy).Contents (Elt F)),
    binary main_v347 main_v205 main_v348 (subf : (⟨S4x12544, .f32⟩ : BufTy).Contents (Elt F) → (⟨S4x12544, .f32⟩ : BufTy).Contents (Elt F) → (⟨S4x12544, .f32⟩ : BufTy).Contents (Elt F)),
    unary main_v348 main_v349 (broadcastInDim S4x1x12544 ![0, 2] bcast_S4x12544_S4x1x12544_0_2 : (⟨S4x12544, .f32⟩ : BufTy).Contents (Elt F) → (⟨S4x1x12544, .f32⟩ : BufTy).Contents (Elt F)),
    unary main_v349 main_v350 (broadcastInDim S4x100x12544 ![0, 1, 2] bcast_S4x1x12544_S4x100x12544_0_1_2 : (⟨S4x1x12544, .f32⟩ : BufTy).Contents (Elt F) → (⟨S4x100x12544, .f32⟩ : BufTy).Contents (Elt F)),
    binary main_v239 main_v350 main_v351 (mulf : (⟨S4x100x12544, .f32⟩ : BufTy).Contents (Elt F) → (⟨S4x100x12544, .f32⟩ : BufTy).Contents (Elt F) → (⟨S4x100x12544, .f32⟩ : BufTy).Contents (Elt F)),
    nullary main_cst_115 (constant S_ .f32 0x3F800000#32),
    unary main_cst_115 main_v352 (broadcastInDim S4x12544 ![] bcast_S_S4x12544 : (⟨S_, .f32⟩ : BufTy).Contents (Elt F) → (⟨S4x12544, .f32⟩ : BufTy).Contents (Elt F)),
    binary main_v352 main_v206 main_v353 (subf : (⟨S4x12544, .f32⟩ : BufTy).Contents (Elt F) → (⟨S4x12544, .f32⟩ : BufTy).Contents (Elt F) → (⟨S4x12544, .f32⟩ : BufTy).Contents (Elt F)),
    unary main_v353 main_v354 (broadcastInDim S4x1x12544 ![0, 2] bcast_S4x12544_S4x1x12544_0_2 : (⟨S4x12544, .f32⟩ : BufTy).Contents (Elt F) → (⟨S4x1x12544, .f32⟩ : BufTy).Contents (Elt F)),
    unary main_v354 main_v355 (broadcastInDim S4x100x12544 ![0, 1, 2] bcast_S4x1x12544_S4x100x12544_0_1_2 : (⟨S4x1x12544, .f32⟩ : BufTy).Contents (Elt F) → (⟨S4x100x12544, .f32⟩ : BufTy).Contents (Elt F)),
    binary main_v351 main_v355 main_v356 (mulf : (⟨S4x100x12544, .f32⟩ : BufTy).Contents (Elt F) → (⟨S4x100x12544, .f32⟩ : BufTy).Contents (Elt F) → (⟨S4x100x12544, .f32⟩ : BufTy).Contents (Elt F)),
    unary main_v205 main_v357 (broadcastInDim S4x1x12544 ![0, 2] bcast_S4x12544_S4x1x12544_0_2 : (⟨S4x12544, .f32⟩ : BufTy).Contents (Elt F) → (⟨S4x1x12544, .f32⟩ : BufTy).Contents (Elt F)),
    unary main_v357 main_v358 (broadcastInDim S4x100x12544 ![0, 1, 2] bcast_S4x1x12544_S4x100x12544_0_1_2 : (⟨S4x1x12544, .f32⟩ : BufTy).Contents (Elt F) → (⟨S4x100x12544, .f32⟩ : BufTy).Contents (Elt F)),
    binary main_v274 main_v358 main_v359 (mulf : (⟨S4x100x12544, .f32⟩ : BufTy).Contents (Elt F) → (⟨S4x100x12544, .f32⟩ : BufTy).Contents (Elt F) → (⟨S4x100x12544, .f32⟩ : BufTy).Contents (Elt F)),
    nullary main_cst_116 (constant S_ .f32 0x3F800000#32),
    unary main_cst_116 main_v360 (broadcastInDim S4x12544 ![] bcast_S_S4x12544 : (⟨S_, .f32⟩ : BufTy).Contents (Elt F) → (⟨S4x12544, .f32⟩ : BufTy).Contents (Elt F)) ]

set_option maxRecDepth 8192 in
set_option maxHeartbeats 4000000 in
theorem main_part7_eq (c : Dev nD) : main_part7 (F := F) c = seq ops_7 := rfl

set_option maxRecDepth 8192 in
theorem ops_7_sub : (ops_7 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub ..⟩

set_option maxRecDepth 8192 in
set_option maxHeartbeats 4000000 in
theorem ops_7_fresh : ∀ op ∈ (ops_7 : List (HloOp τ sig (Elt F))), op.fresh = ∅ := by
  intro _ h; (repeat (cases h with | head => rfl | tail _ h => ?_)); exact nomatch h

set_option maxRecDepth 8192 in
set_option maxHeartbeats 16000000 in
/-- From contents W that hold the stages' values at the buffers live before these operations, the contents after them hold
    the stages' values at the buffers live after them. -/
theorem stage_7 (x0 : (⟨S4x300x80, .f32⟩ : BufTy).Contents (Elt F)) (x1 : (⟨S4x300x256x256, .f32⟩ : BufTy).Contents (Elt F)) (x2 : (⟨S4x100, .i32⟩ : BufTy).Contents (Elt F)) (x3 : (⟨S4x100x256x256, .f32⟩ : BufTy).Contents (Elt F)) (x4 : (⟨S4x12544x2, .f32⟩ : BufTy).Contents (Elt F))
    (W : Valuation τ sig (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_v190 : W (no_index (Proc.devRef .tc main_v190)) = ReadP.val_main_v190 (F := F) x1 x4)
    (h_main_v205 : W (no_index (Proc.devRef .tc main_v205)) = ReadP.val_main_v205 (F := F) x4)
    (h_main_v206 : W (no_index (Proc.devRef .tc main_v206)) = ReadP.val_main_v206 (F := F) x4)
    (h_main_v239 : W (no_index (Proc.devRef .tc main_v239)) = ReadP.val_main_v239 (F := F) x3 x4)
    (h_main_v274 : W (no_index (Proc.devRef .tc main_v274)) = ReadP.val_main_v274 (F := F) x3 x4)
    (h_main_v309 : W (no_index (Proc.devRef .tc main_v309)) = ReadP.val_main_v309 (F := F) x3 x4)
    (h_main_v311 : W (no_index (Proc.devRef .tc main_v311)) = ReadP.val_main_v311 (F := F) x4)
    (h_main_v313 : W (no_index (Proc.devRef .tc main_v313)) = ReadP.val_main_v313 (F := F) x4)
    (h_main_c_102 : W (no_index (Proc.devRef .tc main_c_102)) = ReadP.val_main_c_102 (F := F))
    (h_main_c_103 : W (no_index (Proc.devRef .tc main_c_103)) = ReadP.val_main_c_103 (F := F)) :
    (after ops_7 W (Proc.devRef .tc main_arg0) = x0)
      ∧ (after ops_7 W (Proc.devRef .tc main_arg1) = x1)
      ∧ (after ops_7 W (Proc.devRef .tc main_arg2) = x2)
      ∧ (after ops_7 W (Proc.devRef .tc main_arg3) = x3)
      ∧ (after ops_7 W (Proc.devRef .tc main_arg4) = x4)
      ∧ (after ops_7 W (Proc.devRef .tc main_v190) = ReadP.val_main_v190 (F := F) x1 x4)
      ∧ (after ops_7 W (Proc.devRef .tc main_v205) = ReadP.val_main_v205 (F := F) x4)
      ∧ (after ops_7 W (Proc.devRef .tc main_v206) = ReadP.val_main_v206 (F := F) x4)
      ∧ (after ops_7 W (Proc.devRef .tc main_v309) = ReadP.val_main_v309 (F := F) x3 x4)
      ∧ (after ops_7 W (Proc.devRef .tc main_v346) = ReadP.val_main_v346 (F := F) x3 x4)
      ∧ (after ops_7 W (Proc.devRef .tc main_v356) = ReadP.val_main_v356 (F := F) x3 x4)
      ∧ (after ops_7 W (Proc.devRef .tc main_v359) = ReadP.val_main_v359 (F := F) x3 x4)
      ∧ (after ops_7 W (Proc.devRef .tc main_v360) = ReadP.val_main_v360 (F := F)) := by
  simp only [ops_7]
  after_results_simp
  simp only [TRef.ofBuf, TRef.toBuf, cast_eq, h_main_arg0, h_main_arg1, h_main_arg2, h_main_arg3, h_main_arg4, h_main_v190, h_main_v205, h_main_v206, h_main_v239, h_main_v274, h_main_v309, h_main_v311, h_main_v313, h_main_c_102, h_main_c_103]
  refine ⟨?_, ?_, ?_, ?_, ?_, ?_, ?_, ?_, ?_, ?_, ?_, ?_, ?_⟩ <;> first | trivial | rfl

end Cert.ReferenceIdeal.RefRun

end
-- ==== Proof.RefRunC8.lean ====
import proofs.«146640_j52948356825308_1_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 561 … 620 of 720, in order (a called function's operations stand in its call's place). -/
abbrev ops_8 : List (HloOp τ sig (Elt F)) :=
  [ binary main_v360 main_v206 main_v361 (subf : (⟨S4x12544, .f32⟩ : BufTy).Contents (Elt F) → (⟨S4x12544, .f32⟩ : BufTy).Contents (Elt F) → (⟨S4x12544, .f32⟩ : BufTy).Contents (Elt F)),
    unary main_v361 main_v362 (broadcastInDim S4x1x12544 ![0, 2] bcast_S4x12544_S4x1x12544_0_2 : (⟨S4x12544, .f32⟩ : BufTy).Contents (Elt F) → (⟨S4x1x12544, .f32⟩ : BufTy).Contents (Elt F)),
    unary main_v362 main_v363 (broadcastInDim S4x100x12544 ![0, 1, 2] bcast_S4x1x12544_S4x100x12544_0_1_2 : (⟨S4x1x12544, .f32⟩ : BufTy).Contents (Elt F) → (⟨S4x100x12544, .f32⟩ : BufTy).Contents (Elt F)),
    binary main_v359 main_v363 main_v364 (mulf : (⟨S4x100x12544, .f32⟩ : BufTy).Contents (Elt F) → (⟨S4x100x12544, .f32⟩ : BufTy).Contents (Elt F) → (⟨S4x100x12544, .f32⟩ : BufTy).Contents (Elt F)),
    binary main_v356 main_v364 main_v365 (addf : (⟨S4x100x12544, .f32⟩ : BufTy).Contents (Elt F) → (⟨S4x100x12544, .f32⟩ : BufTy).Contents (Elt F) → (⟨S4x100x12544, .f32⟩ : BufTy).Contents (Elt F)),
    nullary main_cst_117 (constant S_ .f32 0x3F800000#32),
    unary main_cst_117 main_v366 (broadcastInDim S4x12544 ![] bcast_S_S4x12544 : (⟨S_, .f32⟩ : BufTy).Contents (Elt F) → (⟨S4x12544, .f32⟩ : BufTy).Contents (Elt F)),
    binary main_v366 main_v205 main_v367 (subf : (⟨S4x12544, .f32⟩ : BufTy).Contents (Elt F) → (⟨S4x12544, .f32⟩ : BufTy).Contents (Elt F) → (⟨S4x12544, .f32⟩ : BufTy).Contents (Elt F)),
    unary main_v367 main_v368 (broadcastInDim S4x1x12544 ![0, 2] bcast_S4x12544_S4x1x12544_0_2 : (⟨S4x12544, .f32⟩ : BufTy).Contents (Elt F) → (⟨S4x1x12544, .f32⟩ : BufTy).Contents (Elt F)),
    unary main_v368 main_v369 (broadcastInDim S4x100x12544 ![0, 1, 2] bcast_S4x1x12544_S4x100x12544_0_1_2 : (⟨S4x1x12544, .f32⟩ : BufTy).Contents (Elt F) → (⟨S4x100x12544, .f32⟩ : BufTy).Contents (Elt F)),
    binary main_v309 main_v369 main_v370 (mulf : (⟨S4x100x12544, .f32⟩ : BufTy).Contents (Elt F) → (⟨S4x100x12544, .f32⟩ : BufTy).Contents (Elt F) → (⟨S4x100x12544, .f32⟩ : BufTy).Contents (Elt F)),
    unary main_v206 main_v371 (broadcastInDim S4x1x12544 ![0, 2] bcast_S4x12544_S4x1x12544_0_2 : (⟨S4x12544, .f32⟩ : BufTy).Contents (Elt F) → (⟨S4x1x12544, .f32⟩ : BufTy).Contents (Elt F)),
    unary main_v371 main_v372 (broadcastInDim S4x100x12544 ![0, 1, 2] bcast_S4x1x12544_S4x100x12544_0_1_2 : (⟨S4x1x12544, .f32⟩ : BufTy).Contents (Elt F) → (⟨S4x100x12544, .f32⟩ : BufTy).Contents (Elt F)),
    binary main_v370 main_v372 main_v373 (mulf : (⟨S4x100x12544, .f32⟩ : BufTy).Contents (Elt F) → (⟨S4x100x12544, .f32⟩ : BufTy).Contents (Elt F) → (⟨S4x100x12544, .f32⟩ : BufTy).Contents (Elt F)),
    binary main_v365 main_v373 main_v374 (addf : (⟨S4x100x12544, .f32⟩ : BufTy).Contents (Elt F) → (⟨S4x100x12544, .f32⟩ : BufTy).Contents (Elt F) → (⟨S4x100x12544, .f32⟩ : BufTy).Contents (Elt F)),
    unary main_v205 main_v375 (broadcastInDim S4x1x12544 ![0, 2] bcast_S4x12544_S4x1x12544_0_2 : (⟨S4x12544, .f32⟩ : BufTy).Contents (Elt F) → (⟨S4x1x12544, .f32⟩ : BufTy).Contents (Elt F)),
    unary main_v375 main_v376 (broadcastInDim S4x100x12544 ![0, 1, 2] bcast_S4x1x12544_S4x100x12544_0_1_2 : (⟨S4x1x12544, .f32⟩ : BufTy).Contents (Elt F) → (⟨S4x100x12544, .f32⟩ : BufTy).Contents (Elt F)),
    binary main_v346 main_v376 main_v377 (mulf : (⟨S4x100x12544, .f32⟩ : BufTy).Contents (Elt F) → (⟨S4x100x12544, .f32⟩ : BufTy).Contents (Elt F) → (⟨S4x100x12544, .f32⟩ : BufTy).Contents (Elt F)),
    unary main_v206 main_v378 (broadcastInDim S4x1x12544 ![0, 2] bcast_S4x12544_S4x1x12544_0_2 : (⟨S4x12544, .f32⟩ : BufTy).Contents (Elt F) → (⟨S4x1x12544, .f32⟩ : BufTy).Contents (Elt F)),
    unary main_v378 main_v379 (broadcastInDim S4x100x12544 ![0, 1, 2] bcast_S4x1x12544_S4x100x12544_0_1_2 : (⟨S4x1x12544, .f32⟩ : BufTy).Contents (Elt F) → (⟨S4x100x12544, .f32⟩ : BufTy).Contents (Elt F)),
    binary main_v377 main_v379 main_v380 (mulf : (⟨S4x100x12544, .f32⟩ : BufTy).Contents (Elt F) → (⟨S4x100x12544, .f32⟩ : BufTy).Contents (Elt F) → (⟨S4x100x12544, .f32⟩ : BufTy).Contents (Elt F)),
    binary main_v374 main_v380 main_v381 (addf : (⟨S4x100x12544, .f32⟩ : BufTy).Contents (Elt F) → (⟨S4x100x12544, .f32⟩ : BufTy).Contents (Elt F) → (⟨S4x100x12544, .f32⟩ : BufTy).Contents (Elt F)),
    unary main_arg0 main_v382 (Host.negf : (⟨S4x300x80, .f32⟩ : BufTy).Contents (Elt F) → (⟨S4x300x80, .f32⟩ : BufTy).Contents (Elt F)),
    unary main_v382 main_v383 (Host.exp : (⟨S4x300x80, .f32⟩ : BufTy).Contents (Elt F) → (⟨S4x300x80, .f32⟩ : BufTy).Contents (Elt F)),
    nullary main_cst_118 (constant S_ .f32 0x3F800000#32),
    unary main_cst_118 main_v384 (broadcastInDim S4x300x80 ![] bcast_S_S4x300x80 : (⟨S_, .f32⟩ : BufTy).Contents (Elt F) → (⟨S4x300x80, .f32⟩ : BufTy).Contents (Elt F)),
    binary main_v384 main_v383 main_v385 (addf : (⟨S4x300x80, .f32⟩ : BufTy).Contents (Elt F) → (⟨S4x300x80, .f32⟩ : BufTy).Contents (Elt F) → (⟨S4x300x80, .f32⟩ : BufTy).Contents (Elt F)),
    nullary main_cst_119 (constant S_ .f32 0x3F800000#32),
    unary main_cst_119 main_v386 (broadcastInDim S4x300x80 ![] bcast_S_S4x300x80 : (⟨S_, .f32⟩ : BufTy).Contents (Elt F) → (⟨S4x300x80, .f32⟩ : BufTy).Contents (Elt F)),
    binary main_v386 main_v385 main_v387 (Host.divf : (⟨S4x300x80, .f32⟩ : BufTy).Contents (Elt F) → (⟨S4x300x80, .f32⟩ : BufTy).Contents (Elt F) → (⟨S4x300x80, .f32⟩ : BufTy).Contents (Elt F)),
    nullary main_cst_120 (constant S_ .f32 0x40000000#32),
    unary main_cst_120 main_v388 (broadcastInDim S4x300x80 ![] bcast_S_S4x300x80 : (⟨S_, .f32⟩ : BufTy).Contents (Elt F) → (⟨S4x300x80, .f32⟩ : BufTy).Contents (Elt F)),
    binary main_v387 main_v388 main_v389 (Host.powf : (⟨S4x300x80, .f32⟩ : BufTy).Contents (Elt F) → (⟨S4x300x80, .f32⟩ : BufTy).Contents (Elt F) → (⟨S4x300x80, .f32⟩ : BufTy).Contents (Elt F)),
    nullary main_cst_121 (constant S_ .f32 0x3F400000#32),
    unary main_cst_121 main_v390 (broadcastInDim S4x300x80 ![] bcast_S_S4x300x80 : (⟨S_, .f32⟩ : BufTy).Contents (Elt F) → (⟨S4x300x80, .f32⟩ : BufTy).Contents (Elt F)),
    binary main_v390 main_v389 main_v391 (mulf : (⟨S4x300x80, .f32⟩ : BufTy).Contents (Elt F) → (⟨S4x300x80, .f32⟩ : BufTy).Contents (Elt F) → (⟨S4x300x80, .f32⟩ : BufTy).Contents (Elt F)),
    nullary main_cst_122 (constant S_ .f32 0x3F800000#32),
    unary main_cst_122 main_v392 (broadcastInDim S4x300x80 ![] bcast_S_S4x300x80 : (⟨S_, .f32⟩ : BufTy).Contents (Elt F) → (⟨S4x300x80, .f32⟩ : BufTy).Contents (Elt F)),
    binary main_v392 main_v387 main_v393 (subf : (⟨S4x300x80, .f32⟩ : BufTy).Contents (Elt F) → (⟨S4x300x80, .f32⟩ : BufTy).Contents (Elt F) → (⟨S4x300x80, .f32⟩ : BufTy).Contents (Elt F)),
    nullary main_cst_123 (constant S_ .f32 0x322BCC77#32),
    unary main_cst_123 main_v394 (broadcastInDim S4x300x80 ![] bcast_S_S4x300x80 : (⟨S_, .f32⟩ : BufTy).Contents (Elt F) → (⟨S4x300x80, .f32⟩ : BufTy).Contents (Elt F)),
    binary main_v393 main_v394 main_v395 (addf : (⟨S4x300x80, .f32⟩ : BufTy).Contents (Elt F) → (⟨S4x300x80, .f32⟩ : BufTy).Contents (Elt F) → (⟨S4x300x80, .f32⟩ : BufTy).Contents (Elt F)),
    unary main_v395 main_v396 (Host.log : (⟨S4x300x80, .f32⟩ : BufTy).Contents (Elt F) → (⟨S4x300x80, .f32⟩ : BufTy).Contents (Elt F)),
    unary main_v396 main_v397 (Host.negf : (⟨S4x300x80, .f32⟩ : BufTy).Contents (Elt F) → (⟨S4x300x80, .f32⟩ : BufTy).Contents (Elt F)),
    binary main_v391 main_v397 main_v398 (mulf : (⟨S4x300x80, .f32⟩ : BufTy).Contents (Elt F) → (⟨S4x300x80, .f32⟩ : BufTy).Contents (Elt F) → (⟨S4x300x80, .f32⟩ : BufTy).Contents (Elt F)),
    nullary main_cst_124 (constant S_ .f32 0x3F800000#32),
    unary main_cst_124 main_v399 (broadcastInDim S4x300x80 ![] bcast_S_S4x300x80 : (⟨S_, .f32⟩ : BufTy).Contents (Elt F) → (⟨S4x300x80, .f32⟩ : BufTy).Contents (Elt F)),
    binary main_v399 main_v387 main_v400 (subf : (⟨S4x300x80, .f32⟩ : BufTy).Contents (Elt F) → (⟨S4x300x80, .f32⟩ : BufTy).Contents (Elt F) → (⟨S4x300x80, .f32⟩ : BufTy).Contents (Elt F)),
    nullary main_cst_125 (constant S_ .f32 0x40000000#32),
    unary main_cst_125 main_v401 (broadcastInDim S4x300x80 ![] bcast_S_S4x300x80 : (⟨S_, .f32⟩ : BufTy).Contents (Elt F) → (⟨S4x300x80, .f32⟩ : BufTy).Contents (Elt F)),
    binary main_v400 main_v401 main_v402 (Host.powf : (⟨S4x300x80, .f32⟩ : BufTy).Contents (Elt F) → (⟨S4x300x80, .f32⟩ : BufTy).Contents (Elt F) → (⟨S4x300x80, .f32⟩ : BufTy).Contents (Elt F)),
    nullary main_cst_126 (constant S_ .f32 0x3E800000#32),
    unary main_cst_126 main_v403 (broadcastInDim S4x300x80 ![] bcast_S_S4x300x80 : (⟨S_, .f32⟩ : BufTy).Contents (Elt F) → (⟨S4x300x80, .f32⟩ : BufTy).Contents (Elt F)),
    binary main_v403 main_v402 main_v404 (mulf : (⟨S4x300x80, .f32⟩ : BufTy).Contents (Elt F) → (⟨S4x300x80, .f32⟩ : BufTy).Contents (Elt F) → (⟨S4x300x80, .f32⟩ : BufTy).Contents (Elt F)),
    nullary main_cst_127 (constant S_ .f32 0x322BCC77#32),
    unary main_cst_127 main_v405 (broadcastInDim S4x300x80 ![] bcast_S_S4x300x80 : (⟨S_, .f32⟩ : BufTy).Contents (Elt F) → (⟨S4x300x80, .f32⟩ : BufTy).Contents (Elt F)),
    binary main_v387 main_v405 main_v406 (addf : (⟨S4x300x80, .f32⟩ : BufTy).Contents (Elt F) → (⟨S4x300x80, .f32⟩ : BufTy).Contents (Elt F) → (⟨S4x300x80, .f32⟩ : BufTy).Contents (Elt F)),
    unary main_v406 main_v407 (Host.log : (⟨S4x300x80, .f32⟩ : BufTy).Contents (Elt F) → (⟨S4x300x80, .f32⟩ : BufTy).Contents (Elt F)),
    unary main_v407 main_v408 (Host.negf : (⟨S4x300x80, .f32⟩ : BufTy).Contents (Elt F) → (⟨S4x300x80, .f32⟩ : BufTy).Contents (Elt F)),
    binary main_v404 main_v408 main_v409 (mulf : (⟨S4x300x80, .f32⟩ : BufTy).Contents (Elt F) → (⟨S4x300x80, .f32⟩ : BufTy).Contents (Elt F) → (⟨S4x300x80, .f32⟩ : BufTy).Contents (Elt F)) ]

set_option maxRecDepth 8192 in
set_option maxHeartbeats 4000000 in
theorem main_part8_eq (c : Dev nD) : main_part8 (F := F) c = seq ops_8 := rfl

set_option maxRecDepth 8192 in
theorem ops_8_sub : (ops_8 : List (HloOp τ sig (Elt F))).Forall fun op => op.bufs ⊆ tcRefs τ sig :=
  ⟨binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub ..⟩

set_option maxRecDepth 8192 in
set_option maxHeartbeats 4000000 in
theorem ops_8_fresh : ∀ op ∈ (ops_8 : List (HloOp τ sig (Elt F))), op.fresh = ∅ := by
  intro _ h; (repeat (cases h with | head => rfl | tail _ h => ?_)); exact nomatch h

set_option maxRecDepth 8192 in
set_option maxHeartbeats 16000000 in
/-- From contents W that hold the stages' values at the buffers live before these operations, the contents after them hold
    the stages' values at the buffers live after them. -/
theorem stage_8 (x0 : (⟨S4x300x80, .f32⟩ : BufTy).Contents (Elt F)) (x1 : (⟨S4x300x256x256, .f32⟩ : BufTy).Contents (Elt F)) (x2 : (⟨S4x100, .i32⟩ : BufTy).Contents (Elt F)) (x3 : (⟨S4x100x256x256, .f32⟩ : BufTy).Contents (Elt F)) (x4 : (⟨S4x12544x2, .f32⟩ : BufTy).Contents (Elt F))
    (W : Valuation τ sig (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_v190 : W (no_index (Proc.devRef .tc main_v190)) = ReadP.val_main_v190 (F := F) x1 x4)
    (h_main_v205 : W (no_index (Proc.devRef .tc main_v205)) = ReadP.val_main_v205 (F := F) x4)
    (h_main_v206 : W (no_index (Proc.devRef .tc main_v206)) = ReadP.val_main_v206 (F := F) x4)
    (h_main_v309 : W (no_index (Proc.devRef .tc main_v309)) = ReadP.val_main_v309 (F := F) x3 x4)
    (h_main_v346 : W (no_index (Proc.devRef .tc main_v346)) = ReadP.val_main_v346 (F := F) x3 x4)
    (h_main_v356 : W (no_index (Proc.devRef .tc main_v356)) = ReadP.val_main_v356 (F := F) x3 x4)
    (h_main_v359 : W (no_index (Proc.devRef .tc main_v359)) = ReadP.val_main_v359 (F := F) x3 x4)
    (h_main_v360 : W (no_index (Proc.devRef .tc main_v360)) = ReadP.val_main_v360 (F := F)) :
    (after ops_8 W (Proc.devRef .tc main_arg0) = x0)
      ∧ (after ops_8 W (Proc.devRef .tc main_arg1) = x1)
      ∧ (after ops_8 W (Proc.devRef .tc main_arg2) = x2)
      ∧ (after ops_8 W (Proc.devRef .tc main_arg3) = x3)
      ∧ (after ops_8 W (Proc.devRef .tc main_arg4) = x4)
      ∧ (after ops_8 W (Proc.devRef .tc main_v190) = ReadP.val_main_v190 (F := F) x1 x4)
      ∧ (after ops_8 W (Proc.devRef .tc main_v381) = ReadP.val_main_v381 (F := F) x3 x4)
      ∧ (after ops_8 W (Proc.devRef .tc main_v398) = ReadP.val_main_v398 (F := F) x0)
      ∧ (after ops_8 W (Proc.devRef .tc main_v409) = ReadP.val_main_v409 (F := F) x0) := by
  simp only [ops_8]
  after_results_simp
  simp only [h_main_arg0, h_main_arg1, h_main_arg2, h_main_arg3, h_main_arg4, h_main_v190, h_main_v205, h_main_v206, h_main_v309, h_main_v346, h_main_v356, h_main_v359, h_main_v360]
  refine ⟨?_, ?_, ?_, ?_, ?_, ?_, ?_, ?_, ?_⟩ <;> first | trivial | rfl

end Cert.ReferenceIdeal.RefRun

end
-- ==== Proof.RefRunC9.lean ====
import proofs.«146640_j52948356825308_1_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 621 … 706 of 720, in order (a called function's operations stand in its call's place). -/
abbrev ops_9 : List (HloOp τ sig (Elt F)) :=
  [ nullary main_c_128 (constantI S_ 32 0#32),
    unary main_c_128 main_v410 (broadcastInDim S4x100 ![] bcast_S_S4x100 : (⟨S_, .i32⟩ : BufTy).Contents (Elt F) → (⟨S4x100, .i32⟩ : BufTy).Contents (Elt F)),
    binary main_arg2 main_v410 main_v411 (cmpi .slt : (⟨S4x100, .i32⟩ : BufTy).Contents (Elt F) → (⟨S4x100, .i32⟩ : BufTy).Contents (Elt F) → (⟨S4x100, .i1⟩ : BufTy).Contents (Elt F)),
    nullary main_c_129 (constantI S_ 32 80#32),
    unary main_c_129 main_v412 (broadcastInDim S4x100 ![] bcast_S_S4x100 : (⟨S_, .i32⟩ : BufTy).Contents (Elt F) → (⟨S4x100, .i32⟩ : BufTy).Contents (Elt F)),
    binary main_arg2 main_v412 main_v413 (addi : (⟨S4x100, .i32⟩ : BufTy).Contents (Elt F) → (⟨S4x100, .i32⟩ : BufTy).Contents (Elt F) → (⟨S4x100, .i32⟩ : BufTy).Contents (Elt F)),
    ternary main_v411 main_v413 main_arg2 main_v414 (select : (⟨S4x100, .i1⟩ : BufTy).Contents (Elt F) → (⟨S4x100, .i32⟩ : BufTy).Contents (Elt F) → (⟨S4x100, .i32⟩ : BufTy).Contents (Elt F) → (⟨S4x100, .i32⟩ : BufTy).Contents (Elt F)),
    unary main_v414 main_v415 (broadcastInDim S4x100x1 ![0, 1] bcast_S4x100_S4x100x1_0_1 : (⟨S4x100, .i32⟩ : BufTy).Contents (Elt F) → (⟨S4x100x1, .i32⟩ : BufTy).Contents (Elt F)),
    binary main_v409 main_v415 main_v416 ((fun x i => Host.gather gather_S4x300x80_S4x100x1_S4x300x100_1_2_0_0_2_2_13001 x i) : (⟨S4x300x80, .f32⟩ : BufTy).Contents (Elt F) → (⟨S4x100x1, .i32⟩ : BufTy).Contents (Elt F) → (⟨S4x300x100, .f32⟩ : BufTy).Contents (Elt F)),
    nullary main_c_130 (constantI S_ 32 0#32),
    unary main_c_130 main_v417 (broadcastInDim S4x100 ![] bcast_S_S4x100 : (⟨S_, .i32⟩ : BufTy).Contents (Elt F) → (⟨S4x100, .i32⟩ : BufTy).Contents (Elt F)),
    binary main_arg2 main_v417 main_v418 (cmpi .slt : (⟨S4x100, .i32⟩ : BufTy).Contents (Elt F) → (⟨S4x100, .i32⟩ : BufTy).Contents (Elt F) → (⟨S4x100, .i1⟩ : BufTy).Contents (Elt F)),
    nullary main_c_131 (constantI S_ 32 80#32),
    unary main_c_131 main_v419 (broadcastInDim S4x100 ![] bcast_S_S4x100 : (⟨S_, .i32⟩ : BufTy).Contents (Elt F) → (⟨S4x100, .i32⟩ : BufTy).Contents (Elt F)),
    binary main_arg2 main_v419 main_v420 (addi : (⟨S4x100, .i32⟩ : BufTy).Contents (Elt F) → (⟨S4x100, .i32⟩ : BufTy).Contents (Elt F) → (⟨S4x100, .i32⟩ : BufTy).Contents (Elt F)),
    ternary main_v418 main_v420 main_arg2 main_v421 (select : (⟨S4x100, .i1⟩ : BufTy).Contents (Elt F) → (⟨S4x100, .i32⟩ : BufTy).Contents (Elt F) → (⟨S4x100, .i32⟩ : BufTy).Contents (Elt F) → (⟨S4x100, .i32⟩ : BufTy).Contents (Elt F)),
    unary main_v421 main_v422 (broadcastInDim S4x100x1 ![0, 1] bcast_S4x100_S4x100x1_0_1 : (⟨S4x100, .i32⟩ : BufTy).Contents (Elt F) → (⟨S4x100x1, .i32⟩ : BufTy).Contents (Elt F)),
    binary main_v398 main_v422 main_v423 ((fun x i => Host.gather gather_S4x300x80_S4x100x1_S4x300x100_1_2_0_0_2_2_13001 x i) : (⟨S4x300x80, .f32⟩ : BufTy).Contents (Elt F) → (⟨S4x100x1, .i32⟩ : BufTy).Contents (Elt F) → (⟨S4x300x100, .f32⟩ : BufTy).Contents (Elt F)),
    binary main_v416 main_v423 main_v424 (subf : (⟨S4x300x100, .f32⟩ : BufTy).Contents (Elt F) → (⟨S4x300x100, .f32⟩ : BufTy).Contents (Elt F) → (⟨S4x300x100, .f32⟩ : BufTy).Contents (Elt F)),
    unary main_v190 main_v425 (Host.negf : (⟨S4x300x12544, .f32⟩ : BufTy).Contents (Elt F) → (⟨S4x300x12544, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S4x300x12544, .f32⟩) main_call16_v0) (broadcastInDim S4x300x12544 ![] bcast_S_S4x300x12544),
    TRef.binary (TRef.of (T := ⟨S4x300x12544, .f32⟩) main_v425) (TRef.of (T := ⟨S4x300x12544, .f32⟩) main_call16_v0) (TRef.of (T := ⟨S4x300x12544, .f32⟩) main_call16_v1) maximumf,
    TRef.unary (TRef.of (T := ⟨S_, .f32⟩) main_call16_cst) (TRef.of (T := ⟨S4x300x12544, .f32⟩) main_call16_v2) (broadcastInDim S4x300x12544 ![] bcast_S_S4x300x12544),
    TRef.binary (TRef.of (T := ⟨S4x300x12544, .f32⟩) main_v425) (TRef.of (T := ⟨S4x300x12544, .f32⟩) main_call16_v2) (TRef.of (T := ⟨S4x300x12544, .f32⟩) main_call16_v3) subf,
    TRef.binary (TRef.of (T := ⟨S4x300x12544, .f32⟩) main_call16_v3) (TRef.of (T := ⟨S4x300x12544, .f32⟩) main_call16_v3) (TRef.of (T := ⟨S4x300x12544, .i1⟩) main_call16_v4) (cmpf .une),
    TRef.unary (TRef.of (T := ⟨S_, .f32⟩) main_call16_cst) (TRef.of (T := ⟨S4x300x12544, .f32⟩) main_call16_v5) (broadcastInDim S4x300x12544 ![] bcast_S_S4x300x12544),
    TRef.binary (TRef.of (T := ⟨S4x300x12544, .f32⟩) main_v425) (TRef.of (T := ⟨S4x300x12544, .f32⟩) main_call16_v5) (TRef.of (T := ⟨S4x300x12544, .f32⟩) main_call16_v6) addf,
    TRef.unary (TRef.of (T := ⟨S4x300x12544, .f32⟩) main_call16_v3) (TRef.of (T := ⟨S4x300x12544, .f32⟩) main_call16_v7) Host.absf,
    TRef.unary (TRef.of (T := ⟨S4x300x12544, .f32⟩) main_call16_v7) (TRef.of (T := ⟨S4x300x12544, .f32⟩) main_call16_v8) Host.negf,
    TRef.unary (TRef.of (T := ⟨S4x300x12544, .f32⟩) main_call16_v8) (TRef.of (T := ⟨S4x300x12544, .f32⟩) main_call16_v9) Host.exp,
    TRef.unary (TRef.of (T := ⟨S4x300x12544, .f32⟩) main_call16_v9) (TRef.of (T := ⟨S4x300x12544, .f32⟩) main_call16_v10) Host.log1p,
    TRef.binary (TRef.of (T := ⟨S4x300x12544, .f32⟩) main_call16_v1) (TRef.of (T := ⟨S4x300x12544, .f32⟩) main_call16_v10) (TRef.of (T := ⟨S4x300x12544, .f32⟩) main_call16_v11) addf,
    TRef.ternary (TRef.of (T := ⟨S4x300x12544, .i1⟩) main_call16_v4) (TRef.of (T := ⟨S4x300x12544, .f32⟩) main_call16_v6) (TRef.of (T := ⟨S4x300x12544, .f32⟩) main_call16_v11) (TRef.of (T := ⟨S4x300x12544, .f32⟩) main_v426) select,
    TRef.nullary (TRef.of (T := ⟨S_, .f32⟩) main_call17_cst) (constant S_ .f32 0x00000000#32),
    TRef.unary (TRef.of (T := ⟨S_, .f32⟩) main_call17_cst) (TRef.of (T := ⟨S4x300x12544, .f32⟩) main_call17_v0) (broadcastInDim S4x300x12544 ![] bcast_S_S4x300x12544),
    TRef.binary (TRef.of (T := ⟨S4x300x12544, .f32⟩) main_v190) (TRef.of (T := ⟨S4x300x12544, .f32⟩) main_call17_v0) (TRef.of (T := ⟨S4x300x12544, .f32⟩) main_call17_v1) maximumf,
    TRef.unary (TRef.of (T := ⟨S_, .f32⟩) main_call17_cst) (TRef.of (T := ⟨S4x300x12544, .f32⟩) main_call17_v2) (broadcastInDim S4x300x12544 ![] bcast_S_S4x300x12544),
    TRef.binary (TRef.of (T := ⟨S4x300x12544, .f32⟩) main_v190) (TRef.of (T := ⟨S4x300x12544, .f32⟩) main_call17_v2) (TRef.of (T := ⟨S4x300x12544, .f32⟩) main_call17_v3) subf,
    TRef.binary (TRef.of (T := ⟨S4x300x12544, .f32⟩) main_call17_v3) (TRef.of (T := ⟨S4x300x12544, .f32⟩) main_call17_v3) (TRef.of (T := ⟨S4x300x12544, .i1⟩) main_call17_v4) (cmpf .une),
    TRef.unary (TRef.of (T := ⟨S_, .f32⟩) main_call17_cst) (TRef.of (T := ⟨S4x300x12544, .f32⟩) main_call17_v5) (broadcastInDim S4x300x12544 ![] bcast_S_S4x300x12544),
    TRef.binary (TRef.of (T := ⟨S4x300x12544, .f32⟩) main_v190) (TRef.of (T := ⟨S4x300x12544, .f32⟩) main_call17_v5) (TRef.of (T := ⟨S4x300x12544, .f32⟩) main_call17_v6) addf,
    TRef.unary (TRef.of (T := ⟨S4x300x12544, .f32⟩) main_call17_v3) (TRef.of (T := ⟨S4x300x12544, .f32⟩) main_call17_v7) Host.absf,
    TRef.unary (TRef.of (T := ⟨S4x300x12544, .f32⟩) main_call17_v7) (TRef.of (T := ⟨S4x300x12544, .f32⟩) main_call17_v8) Host.negf,
    TRef.unary (TRef.of (T := ⟨S4x300x12544, .f32⟩) main_call17_v8) (TRef.of (T := ⟨S4x300x12544, .f32⟩) main_call17_v9) Host.exp,
    TRef.unary (TRef.of (T := ⟨S4x300x12544, .f32⟩) main_call17_v9) (TRef.of (T := ⟨S4x300x12544, .f32⟩) main_call17_v10) Host.log1p,
    TRef.binary (TRef.of (T := ⟨S4x300x12544, .f32⟩) main_call17_v1) (TRef.of (T := ⟨S4x300x12544, .f32⟩) main_call17_v10) (TRef.of (T := ⟨S4x300x12544, .f32⟩) main_call17_v11) addf,
    TRef.ternary (TRef.of (T := ⟨S4x300x12544, .i1⟩) main_call17_v4) (TRef.of (T := ⟨S4x300x12544, .f32⟩) main_call17_v6) (TRef.of (T := ⟨S4x300x12544, .f32⟩) main_call17_v11) (TRef.of (T := ⟨S4x300x12544, .f32⟩) main_v427) select,
    binary main_v426 main_v381 main_v428 ((fun l r => Host.dotGeneral dot_S4x300x12544_S4x100x12544_S4x300x100_2_2_1_1_0_0 none l r) : (⟨S4x300x12544, .f32⟩ : BufTy).Contents (Elt F) → (⟨S4x100x12544, .f32⟩ : BufTy).Contents (Elt F) → (⟨S4x300x100, .f32⟩ : BufTy).Contents (Elt F)),
    nullary main_cst_132 (constant S_ .f32 0x3F800000#32),
    unary main_cst_132 main_v429 (broadcastInDim S4x100x12544 ![] bcast_S_S4x100x12544 : (⟨S_, .f32⟩ : BufTy).Contents (Elt F) → (⟨S4x100x12544, .f32⟩ : BufTy).Contents (Elt F)),
    binary main_v429 main_v381 main_v430 (subf : (⟨S4x100x12544, .f32⟩ : BufTy).Contents (Elt F) → (⟨S4x100x12544, .f32⟩ : BufTy).Contents (Elt F) → (⟨S4x100x12544, .f32⟩ : BufTy).Contents (Elt F)),
    binary main_v427 main_v430 main_v431 ((fun l r => Host.dotGeneral dot_S4x300x12544_S4x100x12544_S4x300x100_2_2_1_1_0_0 none l r) : (⟨S4x300x12544, .f32⟩ : BufTy).Contents (Elt F) → (⟨S4x100x12544, .f32⟩ : BufTy).Contents (Elt F) → (⟨S4x300x100, .f32⟩ : BufTy).Contents (Elt F)),
    binary main_v428 main_v431 main_v432 (addf : (⟨S4x300x100, .f32⟩ : BufTy).Contents (Elt F) → (⟨S4x300x100, .f32⟩ : BufTy).Contents (Elt F) → (⟨S4x300x100, .f32⟩ : BufTy).Contents (Elt F)),
    nullary main_cst_133 (constant S_ .f32 0x46440000#32),
    unary main_cst_133 main_v433 (broadcastInDim S4x300x100 ![] bcast_S_S4x300x100 : (⟨S_, .f32⟩ : BufTy).Contents (Elt F) → (⟨S4x300x100, .f32⟩ : BufTy).Contents (Elt F)),
    binary main_v432 main_v433 main_v434 (Host.divf : (⟨S4x300x100, .f32⟩ : BufTy).Contents (Elt F) → (⟨S4x300x100, .f32⟩ : BufTy).Contents (Elt F) → (⟨S4x300x100, .f32⟩ : BufTy).Contents (Elt F)),
    unary main_v190 main_v435 (Host.negf : (⟨S4x300x12544, .f32⟩ : BufTy).Contents (Elt F) → (⟨S4x300x12544, .f32⟩ : BufTy).Contents (Elt F)),
    unary main_v435 main_v436 (Host.exp : (⟨S4x300x12544, .f32⟩ : BufTy).Contents (Elt F) → (⟨S4x300x12544, .f32⟩ : BufTy).Contents (Elt F)),
    nullary main_cst_134 (constant S_ .f32 0x3F800000#32),
    unary main_cst_134 main_v437 (broadcastInDim S4x300x12544 ![] bcast_S_S4x300x12544 : (⟨S_, .f32⟩ : BufTy).Contents (Elt F) → (⟨S4x300x12544, .f32⟩ : BufTy).Contents (Elt F)),
    binary main_v437 main_v436 main_v438 (addf : (⟨S4x300x12544, .f32⟩ : BufTy).Contents (Elt F) → (⟨S4x300x12544, .f32⟩ : BufTy).Contents (Elt F) → (⟨S4x300x12544, .f32⟩ : BufTy).Contents (Elt F)),
    nullary main_cst_135 (constant S_ .f32 0x3F800000#32),
    unary main_cst_135 main_v439 (broadcastInDim S4x300x12544 ![] bcast_S_S4x300x12544 : (⟨S_, .f32⟩ : BufTy).Contents (Elt F) → (⟨S4x300x12544, .f32⟩ : BufTy).Contents (Elt F)),
    binary main_v439 main_v438 main_v440 (Host.divf : (⟨S4x300x12544, .f32⟩ : BufTy).Contents (Elt F) → (⟨S4x300x12544, .f32⟩ : BufTy).Contents (Elt F) → (⟨S4x300x12544, .f32⟩ : BufTy).Contents (Elt F)),
    binary main_v440 main_v381 main_v441 ((fun l r => Host.dotGeneral dot_S4x300x12544_S4x100x12544_S4x300x100_2_2_1_1_0_0 none l r) : (⟨S4x300x12544, .f32⟩ : BufTy).Contents (Elt F) → (⟨S4x100x12544, .f32⟩ : BufTy).Contents (Elt F) → (⟨S4x300x100, .f32⟩ : BufTy).Contents (Elt F)),
    nullary main_cst_136 (constant S_ .f32 0x40000000#32),
    unary main_cst_136 main_v442 (broadcastInDim S4x300x100 ![] bcast_S_S4x300x100 : (⟨S_, .f32⟩ : BufTy).Contents (Elt F) → (⟨S4x300x100, .f32⟩ : BufTy).Contents (Elt F)),
    binary main_v442 main_v441 main_v443 (mulf : (⟨S4x300x100, .f32⟩ : BufTy).Contents (Elt F) → (⟨S4x300x100, .f32⟩ : BufTy).Contents (Elt F) → (⟨S4x300x100, .f32⟩ : BufTy).Contents (Elt F)),
    nullary main_cst_137 (constant S_ .f32 0x00000000#32),
    binary main_v440 main_cst_137 main_v444 ((fun x v => Host.reduceAdd x v reducesTo_S4x300x12544_S4x300_d2 h_S_) : (⟨S4x300x12544, .f32⟩ : BufTy).Contents (Elt F) → (⟨S_, .f32⟩ : BufTy).Contents (Elt F) → (⟨S4x300, .f32⟩ : BufTy).Contents (Elt F)),
    unary main_v444 main_v445 (broadcastInDim S4x300x1 ![0, 1] bcast_S4x300_S4x300x1_0_1 : (⟨S4x300, .f32⟩ : BufTy).Contents (Elt F) → (⟨S4x300x1, .f32⟩ : BufTy).Contents (Elt F)),
    nullary main_cst_138 (constant S_ .f32 0x00000000#32),
    binary main_v381 main_cst_138 main_v446 ((fun x v => Host.reduceAdd x v reducesTo_S4x100x12544_S4x100_d2 h_S_) : (⟨S4x100x12544, .f32⟩ : BufTy).Contents (Elt F) → (⟨S_, .f32⟩ : BufTy).Contents (Elt F) → (⟨S4x100, .f32⟩ : BufTy).Contents (Elt F)),
    unary main_v446 main_v447 (broadcastInDim S4x1x100 ![0, 2] bcast_S4x100_S4x1x100_0_2 : (⟨S4x100, .f32⟩ : BufTy).Contents (Elt F) → (⟨S4x1x100, .f32⟩ : BufTy).Contents (Elt F)),
    unary main_v445 main_v448 (broadcastInDim S4x300x100 ![0, 1, 2] bcast_S4x300x1_S4x300x100_0_1_2 : (⟨S4x300x1, .f32⟩ : BufTy).Contents (Elt F) → (⟨S4x300x100, .f32⟩ : BufTy).Contents (Elt F)),
    unary main_v447 main_v449 (broadcastInDim S4x300x100 ![0, 1, 2] bcast_S4x1x100_S4x300x100_0_1_2 : (⟨S4x1x100, .f32⟩ : BufTy).Contents (Elt F) → (⟨S4x300x100, .f32⟩ : BufTy).Contents (Elt F)),
    binary main_v448 main_v449 main_v450 (addf : (⟨S4x300x100, .f32⟩ : BufTy).Contents (Elt F) → (⟨S4x300x100, .f32⟩ : BufTy).Contents (Elt F) → (⟨S4x300x100, .f32⟩ : BufTy).Contents (Elt F)),
    nullary main_cst_139 (constant S_ .f32 0x3F800000#32),
    unary main_cst_139 main_v451 (broadcastInDim S4x300x100 ![] bcast_S_S4x300x100 : (⟨S_, .f32⟩ : BufTy).Contents (Elt F) → (⟨S4x300x100, .f32⟩ : BufTy).Contents (Elt F)),
    binary main_v443 main_v451 main_v452 (addf : (⟨S4x300x100, .f32⟩ : BufTy).Contents (Elt F) → (⟨S4x300x100, .f32⟩ : BufTy).Contents (Elt F) → (⟨S4x300x100, .f32⟩ : BufTy).Contents (Elt F)),
    nullary main_cst_140 (constant S_ .f32 0x3F800000#32),
    unary main_cst_140 main_v453 (broadcastInDim S4x300x100 ![] bcast_S_S4x300x100 : (⟨S_, .f32⟩ : BufTy).Contents (Elt F) → (⟨S4x300x100, .f32⟩ : BufTy).Contents (Elt F)),
    binary main_v450 main_v453 main_v454 (addf : (⟨S4x300x100, .f32⟩ : BufTy).Contents (Elt F) → (⟨S4x300x100, .f32⟩ : BufTy).Contents (Elt F) → (⟨S4x300x100, .f32⟩ : BufTy).Contents (Elt F)),
    binary main_v452 main_v454 main_v455 (Host.divf : (⟨S4x300x100, .f32⟩ : BufTy).Contents (Elt F) → (⟨S4x300x100, .f32⟩ : BufTy).Contents (Elt F) → (⟨S4x300x100, .f32⟩ : BufTy).Contents (Elt F)),
    nullary main_cst_141 (constant S_ .f32 0x3F800000#32) ]

set_option maxRecDepth 8192 in
set_option maxHeartbeats 4000000 in
theorem main_part9_eq (c : Dev nD) : main_part9 (F := F) c = seq ops_9 := rfl

set_option maxRecDepth 8192 in
theorem ops_9_sub : (ops_9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., nullary_bufs_sub .., unary_bufs_sub .., binary_bufs_sub .., binary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub ..⟩

set_option maxRecDepth 8192 in
set_option maxHeartbeats 4000000 in
theorem ops_9_fresh : ∀ op ∈ (ops_9 : List (HloOp τ sig (Elt F))), op.fresh = ∅ := by
  intro _ h; (repeat (cases h with | head => rfl | tail _ h => ?_)); exact nomatch h

set_option maxRecDepth 8192 in
set_option maxHeartbeats 16000000 in
/-- From contents W that hold the stages' values at the buffers live before these operations, the contents after them hold
    the stages' values at the buffers live after them. -/
theorem stage_9 (x0 : (⟨S4x300x80, .f32⟩ : BufTy).Contents (Elt F)) (x1 : (⟨S4x300x256x256, .f32⟩ : BufTy).Contents (Elt F)) (x2 : (⟨S4x100, .i32⟩ : BufTy).Contents (Elt F)) (x3 : (⟨S4x100x256x256, .f32⟩ : BufTy).Contents (Elt F)) (x4 : (⟨S4x12544x2, .f32⟩ : BufTy).Contents (Elt F))
    (W : Valuation τ sig (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_v190 : W (no_index (Proc.devRef .tc main_v190)) = ReadP.val_main_v190 (F := F) x1 x4)
    (h_main_v381 : W (no_index (Proc.devRef .tc main_v381)) = ReadP.val_main_v381 (F := F) x3 x4)
    (h_main_v398 : W (no_index (Proc.devRef .tc main_v398)) = ReadP.val_main_v398 (F := F) x0)
    (h_main_v409 : W (no_index (Proc.devRef .tc main_v409)) = ReadP.val_main_v409 (F := F) x0) :
    (after ops_9 W (Proc.devRef .tc main_arg0) = x0)
      ∧ (after ops_9 W (Proc.devRef .tc main_arg1) = x1)
      ∧ (after ops_9 W (Proc.devRef .tc main_arg2) = x2)
      ∧ (after ops_9 W (Proc.devRef .tc main_arg3) = x3)
      ∧ (after ops_9 W (Proc.devRef .tc main_arg4) = x4)
      ∧ (after ops_9 W (Proc.devRef .tc main_v424) = ReadP.val_main_v424 (F := F) x0 x2)
      ∧ (after ops_9 W (Proc.devRef .tc main_v434) = ReadP.val_main_v434 (F := F) x1 x3 x4)
      ∧ (after ops_9 W (Proc.devRef .tc main_v455) = ReadP.val_main_v455 (F := F) x1 x3 x4)
      ∧ (after ops_9 W (Proc.devRef .tc main_cst_141) = ReadP.val_main_cst_141 (F := F)) := by
  simp only [ops_9]
  after_results_simp
  simp only [TRef.ofBuf, TRef.toBuf, cast_eq, h_main_arg0, h_main_arg1, h_main_arg2, h_main_arg3, h_main_arg4, h_main_v190, h_main_v381, h_main_v398, h_main_v409]
  refine ⟨?_, ?_, ?_, ?_, ?_, ?_, ?_, ?_, ?_⟩ <;> first | trivial | rfl

end Cert.ReferenceIdeal.RefRun

end
-- ==== Proof.RefRunC10.lean ====
import proofs.«146640_j52948356825308_1_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 707 … 720 of 720, in order (a called function's operations stand in its call's place). -/
abbrev ops_10 : List (HloOp τ sig (Elt F)) :=
  [ unary main_cst_141 main_v456 (broadcastInDim S4x300x100 ![] bcast_S_S4x300x100 : (⟨S_, .f32⟩ : BufTy).Contents (Elt F) → (⟨S4x300x100, .f32⟩ : BufTy).Contents (Elt F)),
    binary main_v456 main_v455 main_v457 (subf : (⟨S4x300x100, .f32⟩ : BufTy).Contents (Elt F) → (⟨S4x300x100, .f32⟩ : BufTy).Contents (Elt F) → (⟨S4x300x100, .f32⟩ : BufTy).Contents (Elt F)),
    nullary main_cst_142 (constant S_ .f32 0x40A00000#32),
    unary main_cst_142 main_v458 (broadcastInDim S4x300x100 ![] bcast_S_S4x300x100 : (⟨S_, .f32⟩ : BufTy).Contents (Elt F) → (⟨S4x300x100, .f32⟩ : BufTy).Contents (Elt F)),
    binary main_v458 main_v434 main_v459 (mulf : (⟨S4x300x100, .f32⟩ : BufTy).Contents (Elt F) → (⟨S4x300x100, .f32⟩ : BufTy).Contents (Elt F) → (⟨S4x300x100, .f32⟩ : BufTy).Contents (Elt F)),
    nullary main_cst_143 (constant S_ .f32 0x40000000#32),
    unary main_cst_143 main_v460 (broadcastInDim S4x300x100 ![] bcast_S_S4x300x100 : (⟨S_, .f32⟩ : BufTy).Contents (Elt F) → (⟨S4x300x100, .f32⟩ : BufTy).Contents (Elt F)),
    binary main_v460 main_v424 main_v461 (mulf : (⟨S4x300x100, .f32⟩ : BufTy).Contents (Elt F) → (⟨S4x300x100, .f32⟩ : BufTy).Contents (Elt F) → (⟨S4x300x100, .f32⟩ : BufTy).Contents (Elt F)),
    binary main_v459 main_v461 main_v462 (addf : (⟨S4x300x100, .f32⟩ : BufTy).Contents (Elt F) → (⟨S4x300x100, .f32⟩ : BufTy).Contents (Elt F) → (⟨S4x300x100, .f32⟩ : BufTy).Contents (Elt F)),
    nullary main_cst_144 (constant S_ .f32 0x40A00000#32),
    unary main_cst_144 main_v463 (broadcastInDim S4x300x100 ![] bcast_S_S4x300x100 : (⟨S_, .f32⟩ : BufTy).Contents (Elt F) → (⟨S4x300x100, .f32⟩ : BufTy).Contents (Elt F)),
    binary main_v463 main_v457 main_v464 (mulf : (⟨S4x300x100, .f32⟩ : BufTy).Contents (Elt F) → (⟨S4x300x100, .f32⟩ : BufTy).Contents (Elt F) → (⟨S4x300x100, .f32⟩ : BufTy).Contents (Elt F)),
    binary main_v462 main_v464 main_v465 (addf : (⟨S4x300x100, .f32⟩ : BufTy).Contents (Elt F) → (⟨S4x300x100, .f32⟩ : BufTy).Contents (Elt F) → (⟨S4x300x100, .f32⟩ : BufTy).Contents (Elt F)),
    unary main_v465 main_v466 (Host.negf : (⟨S4x300x100, .f32⟩ : BufTy).Contents (Elt F) → (⟨S4x300x100, .f32⟩ : BufTy).Contents (Elt F)) ]

set_option maxRecDepth 8192 in
set_option maxHeartbeats 4000000 in
theorem main_part10_eq (c : Dev nD) : main_part10 (F := F) c = seq ops_10 := rfl

set_option maxRecDepth 8192 in
theorem ops_10_sub : (ops_10 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub ..⟩

set_option maxRecDepth 8192 in
set_option maxHeartbeats 4000000 in
theorem ops_10_fresh : ∀ op ∈ (ops_10 : List (HloOp τ sig (Elt F))), op.fresh = ∅ := by
  intro _ h; (repeat (cases h with | head => rfl | tail _ h => ?_)); exact nomatch h

set_option maxRecDepth 8192 in
set_option maxHeartbeats 16000000 in
/-- From contents W that hold the stages' values at the buffers live before these operations, the contents after them hold
    the stages' values at the buffers live after them. -/
theorem stage_10 (x0 : (⟨S4x300x80, .f32⟩ : BufTy).Contents (Elt F)) (x1 : (⟨S4x300x256x256, .f32⟩ : BufTy).Contents (Elt F)) (x2 : (⟨S4x100, .i32⟩ : BufTy).Contents (Elt F)) (x3 : (⟨S4x100x256x256, .f32⟩ : BufTy).Contents (Elt F)) (x4 : (⟨S4x12544x2, .f32⟩ : BufTy).Contents (Elt F))
    (W : Valuation τ sig (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_v424 : W (no_index (Proc.devRef .tc main_v424)) = ReadP.val_main_v424 (F := F) x0 x2)
    (h_main_v434 : W (no_index (Proc.devRef .tc main_v434)) = ReadP.val_main_v434 (F := F) x1 x3 x4)
    (h_main_v455 : W (no_index (Proc.devRef .tc main_v455)) = ReadP.val_main_v455 (F := F) x1 x3 x4)
    (h_main_cst_141 : W (no_index (Proc.devRef .tc main_cst_141)) = ReadP.val_main_cst_141 (F := F)) :
    (after ops_10 W (Proc.devRef .tc main_arg0) = x0)
      ∧ (after ops_10 W (Proc.devRef .tc main_arg1) = x1)
      ∧ (after ops_10 W (Proc.devRef .tc main_arg2) = x2)
      ∧ (after ops_10 W (Proc.devRef .tc main_arg3) = x3)
      ∧ (after ops_10 W (Proc.devRef .tc main_arg4) = x4)
      ∧ (after ops_10 W (Proc.devRef .tc main_v466) = ReadP.val_main_v466 (F := F) x0 x1 x2 x3 x4) := by
  simp only [ops_10]
  after_results_simp
  simp only [h_main_arg0, h_main_arg1, h_main_arg2, h_main_arg3, h_main_arg4, h_main_v424, h_main_v434, h_main_v455, h_main_cst_141]
  refine ⟨?_, ?_, ?_, ?_, ?_, ?_⟩ <;> first | trivial | rfl

end Cert.ReferenceIdeal.RefRun

end
-- ==== Proof.RefRun.lean ====
/-
  The run of the plain program, joined from its stretches.

  The program's 720 operations run in 11 consecutive stretches. Each stretch takes contents that hold the stage values at
  its live-in buffers to contents that hold the stage values at its live-out buffers (the arguments are live throughout
  and no operation writes them). Folding the stretches one after the other from the launch contents, the result buffer
  ends at the last stage of the arguments' launch contents and the arguments are unchanged; the program is the sequence
  of the operations, every operation touches TensorCore buffers only and determines its result, so every weakly fair
  execution terminates in such a state.
-/
import proofs.«146640_j52948356825308_1_alg».proof.Proof.RefRunC0
import proofs.«146640_j52948356825308_1_alg».proof.Proof.RefRunC1
import proofs.«146640_j52948356825308_1_alg».proof.Proof.RefRunC2
import proofs.«146640_j52948356825308_1_alg».proof.Proof.RefRunC3
import proofs.«146640_j52948356825308_1_alg».proof.Proof.RefRunC4
import proofs.«146640_j52948356825308_1_alg».proof.Proof.RefRunC5
import proofs.«146640_j52948356825308_1_alg».proof.Proof.RefRunC6
import proofs.«146640_j52948356825308_1_alg».proof.Proof.RefRunC7
import proofs.«146640_j52948356825308_1_alg».proof.Proof.RefRunC8
import proofs.«146640_j52948356825308_1_alg».proof.Proof.RefRunC9
import proofs.«146640_j52948356825308_1_alg».proof.Proof.RefRunC10
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 720 operations, in order: the 11 stretches one after the other. -/
abbrev ops : List (HloOp τ sig (Elt F)) :=
  ops_0 ++ (ops_1 ++ (ops_2 ++ (ops_3 ++ (ops_4 ++ (ops_5 ++ (ops_6 ++ (ops_7 ++ (ops_8 ++ (ops_9 ++ (ops_10))))))))))

set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp ops_0_sub op h, List.forall_iff_forall_mem.mp ops_1_sub op h, List.forall_iff_forall_mem.mp ops_2_sub op h, List.forall_iff_forall_mem.mp ops_3_sub op h, List.forall_iff_forall_mem.mp ops_4_sub op h, List.forall_iff_forall_mem.mp ops_5_sub op h, List.forall_iff_forall_mem.mp ops_6_sub op h, List.forall_iff_forall_mem.mp ops_7_sub op h, List.forall_iff_forall_mem.mp ops_8_sub op h, List.forall_iff_forall_mem.mp ops_9_sub op h, List.forall_iff_forall_mem.mp ops_10_sub op h]
theorem ops_fresh : ∀ op ∈ (ops : List (HloOp τ sig (Elt F))), op.fresh = ∅ := fun op h => by
  simp only [ops, List.mem_append] at h
  rcases h with h | h | h | h | h | h | h | h | h | h | h
  exacts [ops_0_fresh op h, ops_1_fresh op h, ops_2_fresh op h, ops_3_fresh op h, ops_4_fresh op h, ops_5_fresh op h, ops_6_fresh op h, ops_7_fresh op h, ops_8_fresh op h, ops_9_fresh op h, ops_10_fresh op h]

/-- The contents after the first stretch, the first two, … (folded one stretch at a time). -/
def W1 (V0 : Valuation τ sig (Elt F)) : Valuation τ sig (Elt F) := after ops_0 (V0)
def W2 (V0 : Valuation τ sig (Elt F)) : Valuation τ sig (Elt F) := after ops_1 (W1 V0)
def W3 (V0 : Valuation τ sig (Elt F)) : Valuation τ sig (Elt F) := after ops_2 (W2 V0)
def W4 (V0 : Valuation τ sig (Elt F)) : Valuation τ sig (Elt F) := after ops_3 (W3 V0)
def W5 (V0 : Valuation τ sig (Elt F)) : Valuation τ sig (Elt F) := after ops_4 (W4 V0)
def W6 (V0 : Valuation τ sig (Elt F)) : Valuation τ sig (Elt F) := after ops_5 (W5 V0)
def W7 (V0 : Valuation τ sig (Elt F)) : Valuation τ sig (Elt F) := after ops_6 (W6 V0)
def W8 (V0 : Valuation τ sig (Elt F)) : Valuation τ sig (Elt F) := after ops_7 (W7 V0)
def W9 (V0 : Valuation τ sig (Elt F)) : Valuation τ sig (Elt F) := after ops_8 (W8 V0)
def W10 (V0 : Valuation τ sig (Elt F)) : Valuation τ sig (Elt F) := after ops_9 (W9 V0)
def W11 (V0 : Valuation τ sig (Elt F)) : Valuation τ sig (Elt F) := after ops_10 (W10 V0)
theorem after_ops (V0 : Valuation τ sig (Elt F)) : after ops V0 = W11 V0 := by
  simp only [ops, after_append]
  rfl

/-- From launch contents V0 with the arguments x0 … x4, the contents after all of @main hold the last stage at the result
    and the arguments unchanged. -/
theorem after_all (x0 : (⟨S4x300x80, .f32⟩ : BufTy).Contents (Elt F)) (x1 : (⟨S4x300x256x256, .f32⟩ : BufTy).Contents (Elt F)) (x2 : (⟨S4x100, .i32⟩ : BufTy).Contents (Elt F)) (x3 : (⟨S4x100x256x256, .f32⟩ : BufTy).Contents (Elt F)) (x4 : (⟨S4x12544x2, .f32⟩ : BufTy).Contents (Elt F))
    (V0 : Valuation τ sig (Elt F))
    (h_main_arg0 : V0 (no_index (Proc.devRef .tc main_arg0)) = x0)
    (h_main_arg1 : V0 (no_index (Proc.devRef .tc main_arg1)) = x1)
    (h_main_arg2 : V0 (no_index (Proc.devRef .tc main_arg2)) = x2)
    (h_main_arg3 : V0 (no_index (Proc.devRef .tc main_arg3)) = x3)
    (h_main_arg4 : V0 (no_index (Proc.devRef .tc main_arg4)) = x4) :
    (after ops V0 (Proc.devRef .tc main_arg0) = x0)
      ∧ (after ops V0 (Proc.devRef .tc main_arg1) = x1)
      ∧ (after ops V0 (Proc.devRef .tc main_arg2) = x2)
      ∧ (after ops V0 (Proc.devRef .tc main_arg3) = x3)
      ∧ (after ops V0 (Proc.devRef .tc main_arg4) = x4)
      ∧ (after ops V0 (Proc.devRef .tc main_v466) = ReadP.val_main_v466 (F := F) x0 x1 x2 x3 x4) := by
  rw [after_ops]
  obtain ⟨h_main_arg0, h_main_arg1, h_main_arg2, h_main_arg3, h_main_arg4, h_main_v12, h_main_v13, h_main_v14, h_main_v15, h_main_v31, h_main_v42, h_main_v43⟩ := stage_0 x0 x1 x2 x3 x4 (V0) h_main_arg0 h_main_arg1 h_main_arg2 h_main_arg3 h_main_arg4
  obtain ⟨h_main_arg0, h_main_arg1, h_main_arg2, h_main_arg3, h_main_arg4, h_main_v12, h_main_v13, h_main_v14, h_main_v15, h_main_v48, h_main_v83, h_main_v85, h_main_v87⟩ := stage_1 x0 x1 x2 x3 x4 (W1 V0) h_main_arg0 h_main_arg1 h_main_arg2 h_main_arg3 h_main_arg4 h_main_v12 h_main_v13 h_main_v14 h_main_v15 h_main_v31 h_main_v42 h_main_v43
  obtain ⟨h_main_arg0, h_main_arg1, h_main_arg2, h_main_arg3, h_main_arg4, h_main_v14, h_main_v15, h_main_v48, h_main_v83, h_main_v118, h_main_v120, h_main_v122, h_main_v124, h_main_v126, h_main_v128, h_main_v129⟩ := stage_2 x0 x1 x2 x3 x4 (W2 V0) h_main_arg0 h_main_arg1 h_main_arg2 h_main_arg3 h_main_arg4 h_main_v12 h_main_v13 h_main_v14 h_main_v15 h_main_v48 h_main_v83 h_main_v85 h_main_v87
  obtain ⟨h_main_arg0, h_main_arg1, h_main_arg2, h_main_arg3, h_main_arg4, h_main_v14, h_main_v15, h_main_v155, h_main_v174, h_main_v179⟩ := stage_3 x0 x1 x2 x3 x4 (W3 V0) h_main_arg0 h_main_arg1 h_main_arg2 h_main_arg3 h_main_arg4 h_main_v14 h_main_v15 h_main_v48 h_main_v83 h_main_v118 h_main_v120 h_main_v122 h_main_v124 h_main_v126 h_main_v128 h_main_v129
  obtain ⟨h_main_arg0, h_main_arg1, h_main_arg2, h_main_arg3, h_main_arg4, h_main_v190, h_main_v203, h_main_v204, h_main_v205, h_main_v206, h_main_v208, h_main_v210, h_main_v222, h_main_v224, h_main_v225⟩ := stage_4 x0 x1 x2 x3 x4 (W4 V0) h_main_arg0 h_main_arg1 h_main_arg2 h_main_arg3 h_main_arg4 h_main_v14 h_main_v15 h_main_v155 h_main_v174 h_main_v179
  obtain ⟨h_main_arg0, h_main_arg1, h_main_arg2, h_main_arg3, h_main_arg4, h_main_v190, h_main_v203, h_main_v204, h_main_v205, h_main_v206, h_main_v239, h_main_v257, h_main_v270⟩ := stage_5 x0 x1 x2 x3 x4 (W5 V0) h_main_arg0 h_main_arg1 h_main_arg2 h_main_arg3 h_main_arg4 h_main_v190 h_main_v203 h_main_v204 h_main_v205 h_main_v206 h_main_v208 h_main_v210 h_main_v222 h_main_v224 h_main_v225
  obtain ⟨h_main_arg0, h_main_arg1, h_main_arg2, h_main_arg3, h_main_arg4, h_main_v190, h_main_v205, h_main_v206, h_main_v239, h_main_v274, h_main_v309, h_main_v311, h_main_v313, h_main_c_102, h_main_c_103⟩ := stage_6 x0 x1 x2 x3 x4 (W6 V0) h_main_arg0 h_main_arg1 h_main_arg2 h_main_arg3 h_main_arg4 h_main_v190 h_main_v203 h_main_v204 h_main_v205 h_main_v206 h_main_v239 h_main_v257 h_main_v270
  obtain ⟨h_main_arg0, h_main_arg1, h_main_arg2, h_main_arg3, h_main_arg4, h_main_v190, h_main_v205, h_main_v206, h_main_v309, h_main_v346, h_main_v356, h_main_v359, h_main_v360⟩ := stage_7 x0 x1 x2 x3 x4 (W7 V0) h_main_arg0 h_main_arg1 h_main_arg2 h_main_arg3 h_main_arg4 h_main_v190 h_main_v205 h_main_v206 h_main_v239 h_main_v274 h_main_v309 h_main_v311 h_main_v313 h_main_c_102 h_main_c_103
  obtain ⟨h_main_arg0, h_main_arg1, h_main_arg2, h_main_arg3, h_main_arg4, h_main_v190, h_main_v381, h_main_v398, h_main_v409⟩ := stage_8 x0 x1 x2 x3 x4 (W8 V0) h_main_arg0 h_main_arg1 h_main_arg2 h_main_arg3 h_main_arg4 h_main_v190 h_main_v205 h_main_v206 h_main_v309 h_main_v346 h_main_v356 h_main_v359 h_main_v360
  obtain ⟨h_main_arg0, h_main_arg1, h_main_arg2, h_main_arg3, h_main_arg4, h_main_v424, h_main_v434, h_main_v455, h_main_cst_141⟩ := stage_9 x0 x1 x2 x3 x4 (W9 V0) h_main_arg0 h_main_arg1 h_main_arg2 h_main_arg3 h_main_arg4 h_main_v190 h_main_v381 h_main_v398 h_main_v409
  obtain ⟨h_main_arg0, h_main_arg1, h_main_arg2, h_main_arg3, h_main_arg4, h_main_v466⟩ := stage_10 x0 x1 x2 x3 x4 (W10 V0) h_main_arg0 h_main_arg1 h_main_arg2 h_main_arg3 h_main_arg4 h_main_v424 h_main_v434 h_main_v455 h_main_cst_141
  exact ⟨h_main_arg0, h_main_arg1, h_main_arg2, h_main_arg3, h_main_arg4, h_main_v466⟩

/-- On every device, for any float values, from any memory with zero counters: every weakly fair execution of @main
    terminates with the result at the last stage of the arguments' launch contents, and the arguments unchanged. -/
theorem ref_run_gen (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v466) = ReadP.val_main_v466 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
      obtain ⟨a_main_arg0, a_main_arg1, a_main_arg2, a_main_arg3, a_main_arg4, a_main_v466⟩ := after_all (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (launchContents m c) rfl rfl rfl rfl rfl
      exact ⟨(h c main_v466).trans a_main_v466, (h c main_arg0).trans a_main_arg0, (h c main_arg1).trans a_main_arg1, (h c main_arg2).trans a_main_arg2, (h c main_arg3).trans a_main_arg3, (h c main_arg4).trans a_main_arg4⟩)
    (run_seq scopedRefs_eq scopedSems_eq defs main (fun _ => ops) main_eq (fun _ => ops_sub) m ρ (fun _ => ops_fresh))

/-- The same at the extended reals. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v466) = ReadP.val_main_v466 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ref_run_gen (F := Ideal) m ρ

end Cert.ReferenceIdeal.RefRun

end
-- ==== Proof.Spec.lean ====
/-
  The matching cost, cell by cell, as the two programs compute it over the extended reals.

  For one image `b`, one query `q` and one target `t` the inputs of a cell are two rows of sampled values over the
  12544 sample points: `o p` (the query's mask logit at point `p`) and `s p` (the target's mask value at `p`).
  With `sp` the softplus `max x 0 + log (1 + e^{-|x|})` and `sg` the logistic function, the fused computation forms

      A = ∑ sp(-o p) · s p,  N = ∑ sp(o p) · s p,  R = ∑ sp(o p),  S = ∑ sg(o p) · s p,  RS = ∑ sg(o p),  CS = ∑ s p

  and the cell  5 · ((A - N + R) / 12544) + 5 · (1 - (2·S + 1) / ((RS + CS) + 1)),
  while the plain computation forms  B = ∑ sp(o p) · (1 - s p)  and the cell
  (5 · ((A + B) / 12544) + 2 · cc) + 5 · (1 - (2·S + 1) / (((0 + RS) + (0 + CS)) + 1)).
  The two agree, after the classification term `2 · cc` is added to the first, as soon as every `o p` and `s p` is a
  real number:  ∑ x·(1 - y) = ∑ x - ∑ x·y  needs no infinity among the summands.
-/
import Idealize.ShloMosaic.PureOps.Ideal
import Idealize.ShloMosaic.Lib.ValueIdx

noncomputable section

open scoped BigOperators

namespace Cert.MatchCost

open Idealize.ShloMosaic Idealize.ShloMosaic.ValueIdx

/-- Sampled query logits, sampled target values, and the cost matrix: [image, row, point] and [image, query, target]. -/
abbrev SO : Shape := ⟨3, ![4, 300, 12544]⟩
abbrev ST : Shape := ⟨3, ![4, 100, 12544]⟩
abbrev SC : Shape := ⟨3, ![4, 300, 100]⟩

/-- The float words the two programs share, kept as words: 1, 2, 5 and the number of sample points 12544. -/
abbrev w1 : EReal := Ideal.ofBits .f32 0x3F800000#32
abbrev w2 : EReal := Ideal.ofBits .f32 0x40000000#32
abbrev w5 : EReal := Ideal.ofBits .f32 0x40A00000#32
abbrev wP : EReal := Ideal.ofBits .f32 0x46440000#32

/-- Softplus in the stable form both programs use: `max x 0 + log (1 + e^{-|x|})`, with `|x| = max x (-x)`. -/
def sp (x : EReal) : EReal := max x 0 + Ideal.log1p (Ideal.exp (-(max x (-x))))

/-- The logistic function `1 / (1 + e^{-x})`. -/
def sg (x : EReal) : EReal := Ideal.div 1 (1 + Ideal.exp (-x))

/-- The six sums of a cell over the 12544 sample points. -/
def sumA (o s : Fin 12544 → EReal) : EReal := ∑ p : Fin 12544, sp (-(o p)) * s p
def sumN (o s : Fin 12544 → EReal) : EReal := ∑ p : Fin 12544, sp (o p) * s p
def sumS (o s : Fin 12544 → EReal) : EReal := ∑ p : Fin 12544, sg (o p) * s p
def sumR (o : Fin 12544 → EReal) : EReal := ∑ p : Fin 12544, sp (o p)
def sumRS (o : Fin 12544 → EReal) : EReal := ∑ p : Fin 12544, sg (o p)
def sumCS (s : Fin 12544 → EReal) : EReal := ∑ p : Fin 12544, s p
/-- The plain computation's second mask sum: against `1 - s p`. -/
def sumB (o s : Fin 12544 → EReal) : EReal := ∑ p : Fin 12544, sp (o p) * (w1 - s p)

/-- The fused cell: mask cost from `A - N + R`, dice cost from `S`, `RS`, `CS`. -/
def fusedCell (o s : Fin 12544 → EReal) : EReal :=
  w5 * Ideal.div (sumA o s - sumN o s + sumR o) wP
    + w5 * (w1 - Ideal.div (w2 * sumS o s + w1) ((sumRS o + sumCS s) + w1))

/-- The plain cell with its classification term `cc`. -/
def plainCell (o s : Fin 12544 → EReal) (cc : EReal) : EReal :=
  (w5 * Ideal.div (sumA o s + sumB o s) wP + w2 * cc)
    + w5 * (w1 - Ideal.div (w2 * sumS o s + w1) (((0 + sumRS o) + (0 + sumCS s)) + w1))

/-- Sample point `j` of tile `k`: the 12544 points are visited in 7 tiles of 1792 (`1792 * k + j` for `k < 7`). -/
def tilePt (k : ℕ) (j : Fin 1792) : Fin 12544 := ⟨(1792 * k + j.val) % 12544, Nat.mod_lt _ (by norm_num)⟩

/-- Row `(b, r)` of a [4, n, 12544] array as a function of the sample point. -/
def rowO (O : SO.Idx → EReal) (b : Fin 4) (q : Fin 300) : Fin 12544 → EReal := fun p => O (ix3 b q p)
def rowT (T : ST.Idx → EReal) (b : Fin 4) (t : Fin 100) : Fin 12544 → EReal := fun p => T (ix3 b t p)

/-- What the fused region leaves in the cost matrix, as one function of the two sampled arrays. -/
def fusedOut (O : SO.Idx → EReal) (T : ST.Idx → EReal) : SC.Idx → EReal :=
  fun i => fusedCell (rowO O (i 0) (i 1)) (rowT T (i 0) (i 2))

/-- The fused program's result: the region's matrix plus twice the classification cost, negated. -/
def fusedResult (O : SO.Idx → EReal) (T : ST.Idx → EReal) (CC : SC.Idx → EReal) : SC.Idx → EReal :=
  fun i => -(fusedOut O T i + w2 * CC i)

/-- The plain program's result. -/
def plainResult (O : SO.Idx → EReal) (T : ST.Idx → EReal) (CC : SC.Idx → EReal) : SC.Idx → EReal :=
  fun i => -(plainCell (rowO O (i 0) (i 1)) (rowT T (i 0) (i 2)) (CC i))

/-- Every entry of an array is a real number. -/
def AllReal {ι : Type} (v : ι → EReal) : Prop := ∀ i, ∃ r : ℝ, v i = (r : EReal)

end Cert.MatchCost

end
-- ==== Proof.CostAlgebra.lean ====
/-
  The algebra of the matching cost over the extended reals.

  The fused cell carries its mask cost as `A - N + R` and the plain cell as `A + B`, where
  `B = ∑ sp(o p) · (1 - s p)`.  Over the extended reals subtraction does not cancel and multiplication
  does not distribute, so the identity `∑ x · (1 - y) = ∑ x - ∑ x · y` is proved on the real numbers and
  carried back: when every `o p` and `s p` is real, so is every softplus value, every product and every
  finite sum of them.  The dice parts of the two cells differ by `0 + x = x` only, and the classification
  term moves across one addition.  The module also shows that the 7 tiles of 1792 sample points add up
  to the whole sum over the 12544 points.
-/
import proofs.«146640_j52948356825308_1_alg».proof.Proof.Spec
import Mathlib.Algebra.BigOperators.Fin
import Mathlib.Data.EReal.Operations

noncomputable section

open scoped BigOperators

namespace Cert.MatchCost

open Idealize.ShloMosaic Idealize.ShloMosaic.ValueIdx

/-! ## The word for one -/

/-- The pattern `0x3F800000` has sign 0, exponent field 127 and fraction 0: it denotes `2^23 · 2^(127-127-23) = 1`. -/
theorem w1_eq : w1 = 1 := by
  simp [Ideal.ofBits, Ideal.ieee, -EReal.coe_mul]; norm_num

/-! ## Real numbers inside the extended reals -/

/-- The inclusion of the reals is monotone, so it commutes with `max`. -/
theorem coe_max (a b : ℝ) : ((max a b : ℝ) : EReal) = max (a : EReal) (b : EReal) :=
  EReal.coe_strictMono.monotone.map_max

/-- A finite sum of real numbers, taken in the extended reals, is the real sum. -/
theorem coe_sum {ι : Type} (t : Finset ι) (x : ι → ℝ) :
    ∑ p ∈ t, (x p : EReal) = ((∑ p ∈ t, x p : ℝ) : EReal) := by
  classical
  refine Finset.induction_on t (by simp) ?_
  intro a t ha ih
  rw [Finset.sum_insert ha, Finset.sum_insert ha, ih, EReal.coe_add]

/-- Softplus of a real number is a real number: `e^{-|r|} > 0`, so the logarithm of `1 + e^{-|r|}` is finite. -/
theorem sp_real (r : ℝ) : ∃ y : ℝ, sp (r : EReal) = (y : EReal) := by
  have h1 : max (r : EReal) 0 = ((max r 0 : ℝ) : EReal) := by rw [coe_max, EReal.coe_zero]
  have h2 : max (r : EReal) (-(r : EReal)) = ((max r (-r) : ℝ) : EReal) := by rw [coe_max, EReal.coe_neg]
  have hpos : ¬ (1 + Real.exp (-(max r (-r)))) ≤ 0 := not_le.mpr (add_pos one_pos (Real.exp_pos _))
  refine ⟨max r 0 + Real.log (1 + Real.exp (-(max r (-r)))), ?_⟩
  unfold sp Ideal.log1p
  rw [h1, h2, ← EReal.coe_neg, Ideal.exp_coe, ← EReal.coe_one, ← EReal.coe_add, Ideal.log_coe, if_neg hpos,
    ← EReal.coe_add]

/-- The logistic function of a real number is a real number: the denominator `1 + e^{-r}` is positive. -/
theorem sg_real (r : ℝ) : ∃ y : ℝ, sg (r : EReal) = (y : EReal) := by
  have hne : (1 + Real.exp (-r)) ≠ 0 := (add_pos one_pos (Real.exp_pos _)).ne'
  refine ⟨1 / (1 + Real.exp (-r)), ?_⟩
  unfold sg
  rw [← EReal.coe_neg, Ideal.exp_coe, ← EReal.coe_one, ← EReal.coe_add, Ideal.div_coe hne, EReal.coe_one, one_mul]

/-! ## Tiles -/

/-- Over the natural numbers: `n` consecutive blocks of length `m` make up the first `m · n` terms. -/
theorem sum_range_blocks {M : Type} [AddCommMonoid M] (g : ℕ → M) (m n : ℕ) :
    ∑ k ∈ Finset.range n, ∑ j ∈ Finset.range m, g (m * k + j) = ∑ i ∈ Finset.range (m * n), g i := by
  induction n with
  | zero => simp
  | succ n ih => rw [Finset.sum_range_succ, ih, Nat.mul_succ, Finset.sum_range_add]

/-- The 7 tile sums add up to the whole sum: `12544 = 7 · 1792`, and tile `k` holds the points
    `1792 · k, …, 1792 · k + 1791`. -/
theorem sum_tiles (f : Fin 12544 → EReal) :
    (∑ k ∈ Finset.range 7, ∑ j : Fin 1792, f (tilePt k j)) = ∑ p : Fin 12544, f p := by
  let g : ℕ → EReal := fun i => f ⟨i % 12544, Nat.mod_lt _ (by norm_num)⟩
  have hL : ∀ k, (∑ j : Fin 1792, f (tilePt k j)) = ∑ j ∈ Finset.range 1792, g (1792 * k + j) := by
    intro k
    rw [Finset.sum_range (fun j => g (1792 * k + j))]
    rfl
  have hR : (∑ p : Fin 12544, f p) = ∑ i ∈ Finset.range (1792 * 7), g i := by
    rw [show 1792 * 7 = 12544 from rfl, Finset.sum_range g]
    refine Finset.sum_congr rfl fun p _ => ?_
    show f p = f ⟨p.val % 12544, _⟩
    congr 1
    exact Fin.ext (Nat.mod_eq_of_lt p.isLt).symm
  rw [hR, ← sum_range_blocks g 1792 7]
  exact Finset.sum_congr rfl fun k _ => hL k

/-! ## The mask identity -/

/-- With every `o p` and `s p` real, `A - N + R = A + B`: on the reals `∑ x · (1 - y) = ∑ x - ∑ x · y`. -/
theorem mask_eq (o s : Fin 12544 → EReal) (ho : AllReal o) (hs : AllReal s) :
    sumA o s - sumN o s + sumR o = sumA o s + sumB o s := by
  choose ov hov using ho
  choose sv hsv using hs
  have hx : ∀ p, ∃ y : ℝ, sp (o p) = (y : EReal) := fun p => by rw [hov p]; exact sp_real _
  have hz : ∀ p, ∃ y : ℝ, sp (-(o p)) = (y : EReal) := fun p => by
    rw [hov p, ← EReal.coe_neg]; exact sp_real _
  choose x hx using hx
  choose z hz using hz
  have hA : sumA o s = ((∑ p, z p * sv p : ℝ) : EReal) := by
    unfold sumA
    rw [← coe_sum]
    exact Finset.sum_congr rfl fun p _ => by rw [hz p, hsv p, EReal.coe_mul]
  have hN : sumN o s = ((∑ p, x p * sv p : ℝ) : EReal) := by
    unfold sumN
    rw [← coe_sum]
    exact Finset.sum_congr rfl fun p _ => by rw [hx p, hsv p, EReal.coe_mul]
  have hR : sumR o = ((∑ p, x p : ℝ) : EReal) := by
    unfold sumR
    rw [← coe_sum]
    exact Finset.sum_congr rfl fun p _ => hx p
  have hB : sumB o s = ((∑ p, x p * (1 - sv p) : ℝ) : EReal) := by
    unfold sumB
    rw [w1_eq, ← coe_sum]
    exact Finset.sum_congr rfl fun p _ => by
      rw [hx p, hsv p, EReal.coe_mul, EReal.coe_sub, EReal.coe_one]
  rw [hA, hN, hR, hB, ← EReal.coe_sub, ← EReal.coe_add, ← EReal.coe_add]
  congr 1
  simp only [mul_sub, mul_one, Finset.sum_sub_distrib]
  ring

/-! ## The cells and the results -/

/-- The fused cell plus the classification term is the plain cell. -/
theorem cell_eq (o s : Fin 12544 → EReal) (ho : AllReal o) (hs : AllReal s) (cc : EReal) :
    fusedCell o s + w2 * cc = plainCell o s cc := by
  unfold fusedCell plainCell
  rw [mask_eq o s ho hs, zero_add, zero_add, add_right_comm]

/-- The two results agree at every index of the cost matrix. -/
theorem result_eq (O : SO.Idx → EReal) (T : ST.Idx → EReal) (CC : SC.Idx → EReal)
    (hO : AllReal O) (hT : AllReal T) : fusedResult O T CC = plainResult O T CC := by
  funext i
  exact congrArg (fun c => -c)
    (cell_eq (rowO O (i 0) (i 1)) (rowT T (i 0) (i 2)) (fun p => hO (ix3 (i 0) (i 1) p))
      (fun p => hT (ix3 (i 0) (i 2) p)) (CC i))

end Cert.MatchCost

end
-- ==== Proof.KernelPayload.lean ====
/-
  The kernel body's arithmetic, read one element at a time over the extended reals.

  At one grid step the body holds a block `x` of sampled query logits [1, 300, p] and a block `y` of sampled
  target values [1, 100, p], with p = 1792 points, and adds to six carried accumulators:

      A(q, t) += ∑ sp(-x q j) · y t j,   N(q, t) += ∑ sp(x q j) · y t j,   S(q, t) += ∑ sg(x q j) · y t j,
      R(q)    += ∑ sp(x q j),            RS(q)   += ∑ sg(x q j),           CS(t)   += ∑ y t j,

  each sum over the points `j` of the block. The narrowing of a factor to sixteen bits is the identity on extended
  reals, a product into a zero accumulator is the plain sum over the contracted axis, and the column sum is a
  product with a row of ones. At the first step the six accumulators are reset to zero; at the last step they are
  combined, entry by entry, into  5 · ((A - N + R) / 12544) + 5 · (1 - (2·S + 1) / ((RS + CS) + 1)).

  Each statement below reads one payload at one index written by its coordinates.
-/
import proofs.«146640_j52948356825308_1_alg».proof.Proof.Spec
import proofs.«146640_j52948356825308_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Cert.MatchCost Idealize.ShloMosaic Idealize.ShloMosaic.ValueIdx

/-! ## One element -/

/-- The zero word, as the extended real it denotes. -/
private abbrev z : EReal := Ideal.ofBits .f32 0x00000000#32

/-- The kernel's softplus at one element. The guard compares a value with itself for "ordered and not equal",
    which never holds, so the guarded branch is never taken; subtracting zero changes nothing, and zero minus
    a value is its negation. What is left is `max a 0 + log (1 + e^{-|a|})`. -/
theorem softplus_elem (a : EReal) :
    Scalar.select (Ideal.cmp .one (a - z) (a - z)) (a + z)
        (max a z + Ideal.log1p (Ideal.exp (z - max (a - z) (-(a - z))))) = sp a := by
  have hc : Ideal.cmp .one (a - z) (a - z) = 0#1 := by simp [Ideal.cmp]
  rw [hc, select_zero]
  show max a z + Ideal.log1p (Ideal.exp (z - max (a - z) (-(a - z)))) = _
  simp only [z, Ideal.ofBits_zero_f32, sub_zero, zero_sub]
  rfl

/-- The logistic function at one element is `1 / (1 + e^{-a})`. -/
theorem logistic_elem (a : EReal) : Ideal.logistic a = sg a := rfl

/-! ## The two loaded blocks without their unit axis -/

theorem pay9_apply (x : Vec Ideal S1x300x1792 .f32) (q : Fin 300) (j : Fin 1792) :
    k0_pay9 (F := Ideal) x (ix2 q j) = x (ix3 0 q j) := by
  unfold k0_pay9
  exact shapeCast_1ab_ab_apply x _ q j

theorem pay15_apply (y : Vec Ideal S1x100x1792 .f32) (t : Fin 100) (j : Fin 1792) :
    k0_pay15 (F := Ideal) y (ix2 t j) = y (ix3 0 t j) := by
  unfold k0_pay15
  exact shapeCast_1ab_ab_apply y _ t j

/-! ## Softplus and the logistic function of the query block -/

theorem pay10_apply (x : Vec Ideal S1x300x1792 .f32) (q : Fin 300) (j : Fin 1792) :
    k0_pay10 (F := Ideal) x (ix2 q j) = sp (x (ix3 0 q j)) := by
  rw [← pay9_apply x q j]
  exact softplus_elem (k0_pay9 (F := Ideal) x (ix2 q j))

theorem pay12_apply (x : Vec Ideal S1x300x1792 .f32) (q : Fin 300) (j : Fin 1792) :
    k0_pay12 (F := Ideal) x (ix2 q j) = sp (-(x (ix3 0 q j))) := by
  have h : sp (z - k0_pay9 (F := Ideal) x (ix2 q j)) = sp (-(x (ix3 0 q j))) := by
    rw [pay9_apply x q j]; simp only [z, Ideal.ofBits_zero_f32, zero_sub]
  rw [← h]
  exact softplus_elem (z - k0_pay9 (F := Ideal) x (ix2 q j))

theorem pay11_apply (x : Vec Ideal S1x300x1792 .f32) (q : Fin 300) (j : Fin 1792) :
    k0_pay11 (F := Ideal) x (ix2 q j) = sg (x (ix3 0 q j)) := by
  rw [← pay9_apply x q j]
  rfl

theorem pay13_apply (x : Vec Ideal S1x300x1792 .f32) (q : Fin 300) (j : Fin 1792) :
    k0_pay13 (F := Ideal) x (ix2 q j) = sp (x (ix3 0 q j)) := pay10_apply x q j

theorem pay14_apply (x : Vec Ideal S1x300x1792 .f32) (q : Fin 300) (j : Fin 1792) :
    k0_pay14 (F := Ideal) x (ix2 q j) = sg (x (ix3 0 q j)) := pay11_apply x q j

/-! ## The product over the points: a [300, p] block against a [100, p] block -/

/-- The left operand's row is the output's row … -/
theorem dotQT_lhs_0 (i : S300x100.Idx) (k : dot_S300x1792_S100x1792_S300x100_1_1_0_0_n_n.contr.Idx) :
    (dot_S300x1792_S100x1792_S300x100_1_1_0_0_n_n.lhsIdx i k 0).val = (i 0).val := by
  unfold DotDims.lhsIdx
  rw [dif_neg (show ¬(0 : Fin S300x1792.rank) ∈ dot_S300x1792_S100x1792_S300x100_1_1_0_0_n_n.lhsBatch by decide), dif_pos (show (0 : Fin S300x1792.rank) ∈ dot_S300x1792_S100x1792_S300x100_1_1_0_0_n_n.lhsNonContracting by decide)]
  rfl
/-- … and its column the contracted point. -/
theorem dotQT_lhs_1 (i : S300x100.Idx) (k : dot_S300x1792_S100x1792_S300x100_1_1_0_0_n_n.contr.Idx) :
    (dot_S300x1792_S100x1792_S300x100_1_1_0_0_n_n.lhsIdx i k 1).val = (k ⟨0, by decide⟩).val :=
  dot_S300x1792_S100x1792_S300x100_1_1_0_0_n_n.lhsIdx_val_of_single rfl i k
/-- The right operand's row is the output's column … -/
theorem dotQT_rhs_0 (i : S300x100.Idx) (k : dot_S300x1792_S100x1792_S300x100_1_1_0_0_n_n.contr.Idx) :
    (dot_S300x1792_S100x1792_S300x100_1_1_0_0_n_n.rhsIdx i k 0).val = (i 1).val := by
  unfold DotDims.rhsIdx
  rw [dif_neg (show ¬(0 : Fin S100x1792.rank) ∈ dot_S300x1792_S100x1792_S300x100_1_1_0_0_n_n.rhsBatch by decide), dif_pos (show (0 : Fin S100x1792.rank) ∈ dot_S300x1792_S100x1792_S300x100_1_1_0_0_n_n.rhsNonContracting by decide)]
  rfl
/-- … and its column the contracted point. -/
theorem dotQT_rhs_1 (i : S300x100.Idx) (k : dot_S300x1792_S100x1792_S300x100_1_1_0_0_n_n.contr.Idx) :
    (dot_S300x1792_S100x1792_S300x100_1_1_0_0_n_n.rhsIdx i k 1).val = (k ⟨0, by decide⟩).val :=
  dot_S300x1792_S100x1792_S300x100_1_1_0_0_n_n.rhsIdx_val_of_single rfl i k

/-- The product into a zero accumulator, read at `(q, t)`: the sum over the points of row `q` times row `t`. -/
theorem matmulQT_apply (A : FVec Ideal S300x1792 .bf16) (B : FVec Ideal S100x1792 .bf16) (q : Fin 300) (t : Fin 100) :
    matmul dot_S300x1792_S100x1792_S300x100_1_1_0_0_n_n none A B (constant (F := Ideal) S300x100 .f32 0x00000000#32) (ix2 q t)
      = ∑ j : Fin 1792, A (ix2 q j) * B (ix2 t j) := by
  simp only [matmul]
  rw [Ideal.matmul_constant_zero_apply, ← Equiv.sum_comp (contrEquiv1 dot_S300x1792_S100x1792_S300x100_1_1_0_0_n_n 1792 rfl rfl).symm]
  refine Finset.sum_congr rfl fun j _ => ?_
  have hk := contrEquiv1_symm_val dot_S300x1792_S100x1792_S300x100_1_1_0_0_n_n 1792 rfl rfl j
  have el : dot_S300x1792_S100x1792_S300x100_1_1_0_0_n_n.lhsIdx (ix2 q t) ((contrEquiv1 dot_S300x1792_S100x1792_S300x100_1_1_0_0_n_n 1792 rfl rfl).symm j) = ix2 q j := funext fun a => Fin.ext (by
    match a with
    | ⟨0, _⟩ => exact dotQT_lhs_0 _ _
    | ⟨1, _⟩ => exact (dotQT_lhs_1 _ _).trans hk)
  have er : dot_S300x1792_S100x1792_S300x100_1_1_0_0_n_n.rhsIdx (ix2 q t) ((contrEquiv1 dot_S300x1792_S100x1792_S300x100_1_1_0_0_n_n 1792 rfl rfl).symm j) = ix2 t j := funext fun a => Fin.ext (by
    match a with
    | ⟨0, _⟩ => exact dotQT_rhs_0 _ _
    | ⟨1, _⟩ => exact (dotQT_rhs_1 _ _).trans hk)
  rw [el, er]

/-! ## The three [300, 100] accumulators -/

theorem pos_apply (x : Vec Ideal S1x300x1792 .f32) (y : Vec Ideal S1x100x1792 .f32) (prev : Vec Ideal S300x100 .f32)
    (q : Fin 300) (t : Fin 100) :
    k0_pay16 (F := Ideal) (k0_pay12 x) (k0_pay15 y) prev (ix2 q t)
      = prev (ix2 q t) + ∑ j : Fin 1792, sp (-(x (ix3 0 q j))) * y (ix3 0 t j) := by
  unfold k0_pay16
  rw [shapeCast_self, addf_apply, matmulQT_apply]
  exact congrArg (prev (ix2 q t) + ·) (Finset.sum_congr rfl fun j _ => by rw [pay12_apply, pay15_apply])

theorem neg_apply (x : Vec Ideal S1x300x1792 .f32) (y : Vec Ideal S1x100x1792 .f32) (prev : Vec Ideal S300x100 .f32)
    (q : Fin 300) (t : Fin 100) :
    k0_pay17 (F := Ideal) (k0_pay13 x) (k0_pay15 y) prev (ix2 q t)
      = prev (ix2 q t) + ∑ j : Fin 1792, sp (x (ix3 0 q j)) * y (ix3 0 t j) := by
  unfold k0_pay17
  rw [shapeCast_self, addf_apply, matmulQT_apply]
  exact congrArg (prev (ix2 q t) + ·) (Finset.sum_congr rfl fun j _ => by rw [pay13_apply, pay15_apply])

theorem sig_apply (x : Vec Ideal S1x300x1792 .f32) (y : Vec Ideal S1x100x1792 .f32) (prev : Vec Ideal S300x100 .f32)
    (q : Fin 300) (t : Fin 100) :
    k0_pay18 (F := Ideal) (k0_pay14 x) (k0_pay15 y) prev (ix2 q t)
      = prev (ix2 q t) + ∑ j : Fin 1792, sg (x (ix3 0 q j)) * y (ix3 0 t j) := by
  unfold k0_pay18
  rw [shapeCast_self, addf_apply, matmulQT_apply]
  exact congrArg (prev (ix2 q t) + ·) (Finset.sum_congr rfl fun j _ => by rw [pay14_apply, pay15_apply])

/-! ## Layout: a vector kept as a column, and a column spread over many -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two [300, 1] row sums -/

/-- Summing a [300, p] block along its points, read at row `q`: the sum over the points of that row. -/
theorem rowSum_apply (v : FVec Ideal S300x1792 .f32) (h : S300x1792.Reduces [1] S300) (hφ : FKind.Formats .f32)
    (hacc : (0x00000000#32 : BitVec 32) = FKind.add.neutral .f32 hφ) (q : Fin 300) :
    multiReduction .add [1] S300 v 0x00000000#32 h hφ hacc (ix1 q) = ∑ j : Fin 1792, v (ix2 q j) := by
  refine (Ideal.multiReduction_add_single v 0x00000000#32 h hφ hacc (ix1 q)).trans ?_
  refine Finset.sum_congr rfl fun j _ => congrArg v ?_
  funext a
  refine Fin.ext ?_
  match a with
  | ⟨0, _⟩ => rfl
  | ⟨1, _⟩ => rfl

theorem rsneg_apply (x : Vec Ideal S1x300x1792 .f32) (prev : Vec Ideal S300x1 .f32) (q : Fin 300) :
    k0_pay19 (F := Ideal) (k0_pay10 x) prev (ix2 q 0) = prev (ix2 q 0) + ∑ j : Fin 1792, sp (x (ix3 0 q j)) := by
  unfold k0_pay19
  rw [shapeCast_self, addf_apply, shapeCast_a_a1_apply]
  refine congrArg (prev (ix2 q 0) + ·) ((rowSum_apply _ _ _ _ q).trans ?_)
  exact Finset.sum_congr rfl fun j _ => pay10_apply x q j

theorem rssig_apply (x : Vec Ideal S1x300x1792 .f32) (prev : Vec Ideal S300x1 .f32) (q : Fin 300) :
    k0_pay20 (F := Ideal) (k0_pay11 x) prev (ix2 q 0) = prev (ix2 q 0) + ∑ j : Fin 1792, sg (x (ix3 0 q j)) := by
  unfold k0_pay20
  rw [shapeCast_self, addf_apply, shapeCast_a_a1_apply]
  refine congrArg (prev (ix2 q 0) + ·) ((rowSum_apply _ _ _ _ q).trans ?_)
  exact Finset.sum_congr rfl fun j _ => pay11_apply x q j

/-! ## The [1, 100] column sum: a row of ones against the target block -/

theorem dot1T_lhs_0 (i : S1x100.Idx) (k : dot_S1x1792_S100x1792_S1x100_1_1_0_0_n_n.contr.Idx) :
    (dot_S1x1792_S100x1792_S1x100_1_1_0_0_n_n.lhsIdx i k 0).val = (i 0).val := by
  unfold DotDims.lhsIdx
  rw [dif_neg (show ¬(0 : Fin S1x1792.rank) ∈ dot_S1x1792_S100x1792_S1x100_1_1_0_0_n_n.lhsBatch by decide), dif_pos (show (0 : Fin S1x1792.rank) ∈ dot_S1x1792_S100x1792_S1x100_1_1_0_0_n_n.lhsNonContracting by decide)]
  rfl
theorem dot1T_lhs_1 (i : S1x100.Idx) (k : dot_S1x1792_S100x1792_S1x100_1_1_0_0_n_n.contr.Idx) :
    (dot_S1x1792_S100x1792_S1x100_1_1_0_0_n_n.lhsIdx i k 1).val = (k ⟨0, by decide⟩).val :=
  dot_S1x1792_S100x1792_S1x100_1_1_0_0_n_n.lhsIdx_val_of_single rfl i k
theorem dot1T_rhs_0 (i : S1x100.Idx) (k : dot_S1x1792_S100x1792_S1x100_1_1_0_0_n_n.contr.Idx) :
    (dot_S1x1792_S100x1792_S1x100_1_1_0_0_n_n.rhsIdx i k 0).val = (i 1).val := by
  unfold DotDims.rhsIdx
  rw [dif_neg (show ¬(0 : Fin S100x1792.rank) ∈ dot_S1x1792_S100x1792_S1x100_1_1_0_0_n_n.rhsBatch by decide), dif_pos (show (0 : Fin S100x1792.rank) ∈ dot_S1x1792_S100x1792_S1x100_1_1_0_0_n_n.rhsNonContracting by decide)]
  rfl
theorem dot1T_rhs_1 (i : S1x100.Idx) (k : dot_S1x1792_S100x1792_S1x100_1_1_0_0_n_n.contr.Idx) :
    (dot_S1x1792_S100x1792_S1x100_1_1_0_0_n_n.rhsIdx i k 1).val = (k ⟨0, by decide⟩).val :=
  dot_S1x1792_S100x1792_S1x100_1_1_0_0_n_n.rhsIdx_val_of_single rfl i k

/-- The one-row product into a zero accumulator, read at `(u, t)`: the sum over the points of the row times row `t`. -/
theorem matmul1T_apply (A : FVec Ideal S1x1792 .bf16) (B : FVec Ideal S100x1792 .bf16) (u : Fin 1) (t : Fin 100) :
    matmul dot_S1x1792_S100x1792_S1x100_1_1_0_0_n_n none A B (constant (F := Ideal) S1x100 .f32 0x00000000#32) (ix2 u t)
      = ∑ j : Fin 1792, A (ix2 u j) * B (ix2 t j) := by
  simp only [matmul]
  rw [Ideal.matmul_constant_zero_apply, ← Equiv.sum_comp (contrEquiv1 dot_S1x1792_S100x1792_S1x100_1_1_0_0_n_n 1792 rfl rfl).symm]
  refine Finset.sum_congr rfl fun j _ => ?_
  have hk := contrEquiv1_symm_val dot_S1x1792_S100x1792_S1x100_1_1_0_0_n_n 1792 rfl rfl j
  have el : dot_S1x1792_S100x1792_S1x100_1_1_0_0_n_n.lhsIdx (ix2 u t) ((contrEquiv1 dot_S1x1792_S100x1792_S1x100_1_1_0_0_n_n 1792 rfl rfl).symm j) = ix2 u j := funext fun a => Fin.ext (by
    match a with
    | ⟨0, _⟩ => exact dot1T_lhs_0 _ _
    | ⟨1, _⟩ => exact (dot1T_lhs_1 _ _).trans hk)
  have er : dot_S1x1792_S100x1792_S1x100_1_1_0_0_n_n.rhsIdx (ix2 u t) ((contrEquiv1 dot_S1x1792_S100x1792_S1x100_1_1_0_0_n_n 1792 rfl rfl).symm j) = ix2 t j := funext fun a => Fin.ext (by
    match a with
    | ⟨0, _⟩ => exact dot1T_rhs_0 _ _
    | ⟨1, _⟩ => exact (dot1T_rhs_1 _ _).trans hk)
  rw [el, er]

/-- The sixteen-bit word `0x3F80` denotes one. -/
theorem one_bf16 : Ideal.ofBits .bf16 0x3F80#16 = 1 := IdealRules.sign_bit.ideal_onePat .bf16

theorem cs_apply (y : Vec Ideal S1x100x1792 .f32) (prev : Vec Ideal S1x100 .f32) (t : Fin 100) :
    k0_pay1 (F := Ideal) (k0_pay15 y) prev (ix2 0 t) = prev (ix2 0 t) + ∑ j : Fin 1792, y (ix3 0 t j) := by
  unfold k0_pay1
  rw [shapeCast_self, addf_apply, matmul1T_apply]
  refine congrArg (prev (ix2 0 t) + ·) (Finset.sum_congr rfl fun j _ => ?_)
  rw [pay15_apply]
  show Ideal.ofBits .bf16 0x3F80#16 * y (ix3 0 t j) = y (ix3 0 t j)
  rw [one_bf16, one_mul]

/-! ## The accumulators' reset -/

theorem zero3_apply (i : S300x100.Idx) : k0_pay3 (F := Ideal) i = 0 := by
  unfold k0_pay3; rw [shapeCast_self]; exact Ideal.ofBits_zero_f32
theorem zero4_apply (i : S300x100.Idx) : k0_pay4 (F := Ideal) i = 0 := by
  unfold k0_pay4; rw [shapeCast_self]; exact Ideal.ofBits_zero_f32
theorem zero5_apply (i : S300x100.Idx) : k0_pay5 (F := Ideal) i = 0 := by
  unfold k0_pay5; rw [shapeCast_self]; exact Ideal.ofBits_zero_f32
theorem zero6_apply (i : S300x1.Idx) : k0_pay6 (F := Ideal) i = 0 := by
  unfold k0_pay6; rw [shapeCast_self]; exact Ideal.ofBits_zero_f32
theorem zero7_apply (i : S300x1.Idx) : k0_pay7 (F := Ideal) i = 0 := by
  unfold k0_pay7; rw [shapeCast_self]; exact Ideal.ofBits_zero_f32
theorem zero8_apply (i : S1x100.Idx) : k0_pay8 (F := Ideal) i = 0 := by
  unfold k0_pay8; rw [shapeCast_self]; exact Ideal.ofBits_zero_f32

/-! ## The cost block from the six accumulators -/

theorem final_apply (a n : Vec Ideal S300x100 .f32) (r rs : Vec Ideal S300x1 .f32) (cs : Vec Ideal S1x100 .f32)
    (s : Vec Ideal S300x100 .f32) (q : Fin 300) (t : Fin 100) :
    k0_pay2 (F := Ideal) a n r rs cs s (ix3 0 q t)
      = w5 * Ideal.div (a (ix2 q t) - n (ix2 q t) + r (ix2 q 0)) wP
        + w5 * (w1 - Ideal.div (w2 * s (ix2 q t) + w1) ((rs (ix2 q 0) + cs (ix2 0 t)) + w1)) := by
  unfold k0_pay2
  rw [shapeCast_ab_1ab_apply]
  simp only [addf_apply, mulf_apply, subf_apply, divf_apply, broadcast_apply, broadcastTo_a1_ab_apply, broadcastTo_1b_ab_apply]
  rfl

end Cert.KernelIdeal.Payload

end
-- ==== Proof.KernelRegion.lean ====
/-
  What the fused region leaves in the cost matrix.

  The region visits 28 grid points: point `n` is tile `n % 7` (1792 of the 12544 sample points) of image `n / 7`.
  It keeps six accumulators between points: three [300, 100] matrices (the sums of `sp(-o)·s`, `sp(o)·s`, `sg(o)·s`
  over the sample points, one entry per query row and target row), two [300, 1] columns (the sums of `sp(o)` and `sg(o)`
  per query row) and one [1, 100] row (the sum of `s` per target row). At the first tile of an image they are reset to
  zero and take that tile's share; at each later tile they add the tile's share; at the seventh tile the [1, 300, 100]
  output block is computed from them and written back to block `n / 7` of the cost matrix.

  The proof: (1) what each control case leaves in each accumulator, and in the output block at the last tile, is the
  payload of the store that covers it, read off the generated frame's found pieces; (2) entry `(0, r, j)` of a block
  at point `n` is entry `(n / 7, r, 1792 (n % 7) + j)` of its array; (3) by induction on the point, after point `n`
  every accumulator entry is the sum over tiles `0 … n % 7` of that tile's share of its sum (`Inv`); (4) seven tiles
  make the whole sum, so the block written at `n % 7 = 6` is the fused cell, entry by entry; (5) the four write-backs
  cover the cost matrix, one block per image.
-/
import proofs.«146640_j52948356825308_1_alg».proof.Proof.Spec
import proofs.«146640_j52948356825308_1_alg».proof.Proof.PatchedKernelIdeal.Frame
import proofs.«146640_j52948356825308_1_alg».proof.Proof.KernelPayload
import proofs.«146640_j52948356825308_1_alg».proof.Proof.CostAlgebra
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx Idealize.ShloMosaic.Tactic
open Idealize.ShloMosaic.Pipeline (Dat)

namespace Cert.KernelIdeal.Region

open Cert.KernelIdeal Cert.KernelIdeal.Gen Cert.KernelIdeal.GenP

variable {F : FTy → Type} [FloatOps F]

/-! ## What each control case leaves in each accumulator: the covering store's payload

Cases: A — the first tile of an image (reset, then update); B — a middle tile (update); C — the last tile (update, then
the output block from the six updated accumulators). The accumulators are numbered 0 … 5 in the order
`sp(-o)·s`, `sp(o)·s`, `sg(o)·s` (matrices), `sp(o)`, `sg(o)` (columns), `s` (row). -/

theorem hz2 : (![0, 0] : Fin 2 → Nat) = fun _ => 0 := funext fun a => by fin_cases a <;> rfl
theorem hz3 : (![0, 0, 0] : Fin 3 → Nat) = fun _ => 0 := funext fun a => by fin_cases a <;> rfl

/-- Case B, the `sp(-o)·s` matrix: the update of what the point before left. -/
theorem sB0 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : ¬cond0_0 i) (hc1 : ¬cond0_1 i) (x0 : Vec F S1x300x1792 .f32) (x1 : Vec F S1x100x1792 .f32) (xs0 xs1 xs2 : Vec F S300x100 .f32) (xs3 xs4 : Vec F S300x1 .f32) (xs5 : Vec F S1x100 .f32) :
    sout0_B_0 c i arg2 harg2 arg3 harg3 arg4 harg4 arg5 harg5 arg6 harg6 arg7 harg7 arg8 harg8 arg9 harg9 arg10 harg10 hc0 hc1 x0 x1 xs0 xs1 xs2 xs3 xs4 xs5 = k0_pay16 (k0_pay12 x0) (k0_pay15 x1) (xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 xs0 xs1 xs2 xs3 xs4 xs5)]
  unfold kernelRun0_B
  dsimp only
  sl_unfold_words
  rw [View.canon_unit_zero hz2]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3]

/-- Case B, the `sp(o)·s` matrix: the update of what the point before left. -/
theorem sB1 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : ¬cond0_0 i) (hc1 : ¬cond0_1 i) (x0 : Vec F S1x300x1792 .f32) (x1 : Vec F S1x100x1792 .f32) (xs0 xs1 xs2 : Vec F S300x100 .f32) (xs3 xs4 : Vec F S300x1 .f32) (xs5 : Vec F S1x100 .f32) :
    sout0_B_1 c i arg2 harg2 arg3 harg3 arg4 harg4 arg5 harg5 arg6 harg6 arg7 harg7 arg8 harg8 arg9 harg9 arg10 harg10 hc0 hc1 x0 x1 xs0 xs1 xs2 xs3 xs4 xs5 = k0_pay17 (k0_pay13 x0) (k0_pay15 x1) (xs1) := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 xs0 xs1 xs2 xs3 xs4 xs5)]
  unfold kernelRun0_B
  dsimp only
  sl_unfold_words
  rw [View.canon_unit_zero hz2]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3]

/-- Case B, the `sg(o)·s` matrix: the update of what the point before left. -/
theorem sB2 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : ¬cond0_0 i) (hc1 : ¬cond0_1 i) (x0 : Vec F S1x300x1792 .f32) (x1 : Vec F S1x100x1792 .f32) (xs0 xs1 xs2 : Vec F S300x100 .f32) (xs3 xs4 : Vec F S300x1 .f32) (xs5 : Vec F S1x100 .f32) :
    sout0_B_2 c i arg2 harg2 arg3 harg3 arg4 harg4 arg5 harg5 arg6 harg6 arg7 harg7 arg8 harg8 arg9 harg9 arg10 harg10 hc0 hc1 x0 x1 xs0 xs1 xs2 xs3 xs4 xs5 = k0_pay18 (k0_pay14 x0) (k0_pay15 x1) (xs2) := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 xs0 xs1 xs2 xs3 xs4 xs5)]
  unfold kernelRun0_B
  dsimp only
  sl_unfold_words
  rw [View.canon_unit_zero hz2]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3]

/-- Case B, the `sp(o)` column: the update of what the point before left. -/
theorem sB3 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : ¬cond0_0 i) (hc1 : ¬cond0_1 i) (x0 : Vec F S1x300x1792 .f32) (x1 : Vec F S1x100x1792 .f32) (xs0 xs1 xs2 : Vec F S300x100 .f32) (xs3 xs4 : Vec F S300x1 .f32) (xs5 : Vec F S1x100 .f32) :
    sout0_B_3 c i arg2 harg2 arg3 harg3 arg4 harg4 arg5 harg5 arg6 harg6 arg7 harg7 arg8 harg8 arg9 harg9 arg10 harg10 hc0 hc1 x0 x1 xs0 xs1 xs2 xs3 xs4 xs5 = k0_pay19 (k0_pay10 x0) (xs3) := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 xs0 xs1 xs2 xs3 xs4 xs5)]
  unfold kernelRun0_B
  dsimp only
  sl_unfold_words
  rw [View.canon_unit_zero hz2]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3]

/-- Case B, the `sg(o)` column: the update of what the point before left. -/
theorem sB4 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : ¬cond0_0 i) (hc1 : ¬cond0_1 i) (x0 : Vec F S1x300x1792 .f32) (x1 : Vec F S1x100x1792 .f32) (xs0 xs1 xs2 : Vec F S300x100 .f32) (xs3 xs4 : Vec F S300x1 .f32) (xs5 : Vec F S1x100 .f32) :
    sout0_B_4 c i arg2 harg2 arg3 harg3 arg4 harg4 arg5 harg5 arg6 harg6 arg7 harg7 arg8 harg8 arg9 harg9 arg10 harg10 hc0 hc1 x0 x1 xs0 xs1 xs2 xs3 xs4 xs5 = k0_pay20 (k0_pay11 x0) (xs4) := by
  unfold sout0_B_4
  rw [View.read_writes_eq_canon _ _ _ (scover0_B_4 c i arg2 harg2 arg3 harg3 arg4 harg4 arg5 harg5 arg6 harg6 arg7 harg7 arg8 harg8 arg9 harg9 arg10 harg10 hc0 hc1 x0 x1 xs0 xs1 xs2 xs3 xs4 xs5)]
  unfold kernelRun0_B
  dsimp only
  sl_unfold_words
  rw [View.canon_unit_zero hz2]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3]

/-- Case B, the `s` row: the update of what the point before left. -/
theorem sB5 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : ¬cond0_0 i) (hc1 : ¬cond0_1 i) (x0 : Vec F S1x300x1792 .f32) (x1 : Vec F S1x100x1792 .f32) (xs0 xs1 xs2 : Vec F S300x100 .f32) (xs3 xs4 : Vec F S300x1 .f32) (xs5 : Vec F S1x100 .f32) :
    sout0_B_5 c i arg2 harg2 arg3 harg3 arg4 harg4 arg5 harg5 arg6 harg6 arg7 harg7 arg8 harg8 arg9 harg9 arg10 harg10 hc0 hc1 x0 x1 xs0 xs1 xs2 xs3 xs4 xs5 = k0_pay1 (k0_pay15 x1) (xs5) := by
  unfold sout0_B_5
  rw [View.read_writes_eq_canon _ _ _ (scover0_B_5 c i arg2 harg2 arg3 harg3 arg4 harg4 arg5 harg5 arg6 harg6 arg7 harg7 arg8 harg8 arg9 harg9 arg10 harg10 hc0 hc1 x0 x1 xs0 xs1 xs2 xs3 xs4 xs5)]
  unfold kernelRun0_B
  dsimp only
  sl_unfold_words
  rw [View.canon_unit_zero hz2]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3]

/-- Case C, the `sp(-o)·s` matrix: the update of what the point before left. -/
theorem sC0 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : ¬cond0_0 i) (hc1 : cond0_1 i) (x0 : Vec F S1x300x1792 .f32) (x1 : Vec F S1x100x1792 .f32) (xs0 xs1 xs2 : Vec F S300x100 .f32) (xs3 xs4 : Vec F S300x1 .f32) (xs5 : Vec F S1x100 .f32) :
    sout0_C_0 c i arg2 harg2 arg3 harg3 arg4 harg4 arg5 harg5 arg6 harg6 arg7 harg7 arg8 harg8 arg9 harg9 arg10 harg10 hc0 hc1 x0 x1 xs0 xs1 xs2 xs3 xs4 xs5 = k0_pay16 (k0_pay12 x0) (k0_pay15 x1) (xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 xs0 xs1 xs2 xs3 xs4 xs5)]
  unfold kernelRun0_C
  dsimp only
  sl_unfold_words
  rw [View.canon_unit_zero hz2]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3]

/-- Case C, the `sp(o)·s` matrix: the update of what the point before left. -/
theorem sC1 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : ¬cond0_0 i) (hc1 : cond0_1 i) (x0 : Vec F S1x300x1792 .f32) (x1 : Vec F S1x100x1792 .f32) (xs0 xs1 xs2 : Vec F S300x100 .f32) (xs3 xs4 : Vec F S300x1 .f32) (xs5 : Vec F S1x100 .f32) :
    sout0_C_1 c i arg2 harg2 arg3 harg3 arg4 harg4 arg5 harg5 arg6 harg6 arg7 harg7 arg8 harg8 arg9 harg9 arg10 harg10 hc0 hc1 x0 x1 xs0 xs1 xs2 xs3 xs4 xs5 = k0_pay17 (k0_pay13 x0) (k0_pay15 x1) (xs1) := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 xs0 xs1 xs2 xs3 xs4 xs5)]
  unfold kernelRun0_C
  dsimp only
  sl_unfold_words
  rw [View.canon_unit_zero hz2]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3]

/-- Case C, the `sg(o)·s` matrix: the update of what the point before left. -/
theorem sC2 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : ¬cond0_0 i) (hc1 : cond0_1 i) (x0 : Vec F S1x300x1792 .f32) (x1 : Vec F S1x100x1792 .f32) (xs0 xs1 xs2 : Vec F S300x100 .f32) (xs3 xs4 : Vec F S300x1 .f32) (xs5 : Vec F S1x100 .f32) :
    sout0_C_2 c i arg2 harg2 arg3 harg3 arg4 harg4 arg5 harg5 arg6 harg6 arg7 harg7 arg8 harg8 arg9 harg9 arg10 harg10 hc0 hc1 x0 x1 xs0 xs1 xs2 xs3 xs4 xs5 = k0_pay18 (k0_pay14 x0) (k0_pay15 x1) (xs2) := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 xs0 xs1 xs2 xs3 xs4 xs5)]
  unfold kernelRun0_C
  dsimp only
  sl_unfold_words
  rw [View.canon_unit_zero hz2]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3]

/-- Case C, the `sp(o)` column: the update of what the point before left. -/
theorem sC3 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : ¬cond0_0 i) (hc1 : cond0_1 i) (x0 : Vec F S1x300x1792 .f32) (x1 : Vec F S1x100x1792 .f32) (xs0 xs1 xs2 : Vec F S300x100 .f32) (xs3 xs4 : Vec F S300x1 .f32) (xs5 : Vec F S1x100 .f32) :
    sout0_C_3 c i arg2 harg2 arg3 harg3 arg4 harg4 arg5 harg5 arg6 harg6 arg7 harg7 arg8 harg8 arg9 harg9 arg10 harg10 hc0 hc1 x0 x1 xs0 xs1 xs2 xs3 xs4 xs5 = k0_pay19 (k0_pay10 x0) (xs3) := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 xs0 xs1 xs2 xs3 xs4 xs5)]
  unfold kernelRun0_C
  dsimp only
  sl_unfold_words
  rw [View.canon_unit_zero hz2]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3]

/-- Case C, the `sg(o)` column: the update of what the point before left. -/
theorem sC4 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : ¬cond0_0 i) (hc1 : cond0_1 i) (x0 : Vec F S1x300x1792 .f32) (x1 : Vec F S1x100x1792 .f32) (xs0 xs1 xs2 : Vec F S300x100 .f32) (xs3 xs4 : Vec F S300x1 .f32) (xs5 : Vec F S1x100 .f32) :
    sout0_C_4 c i arg2 harg2 arg3 harg3 arg4 harg4 arg5 harg5 arg6 harg6 arg7 harg7 arg8 harg8 arg9 harg9 arg10 harg10 hc0 hc1 x0 x1 xs0 xs1 xs2 xs3 xs4 xs5 = k0_pay20 (k0_pay11 x0) (xs4) := by
  unfold sout0_C_4
  rw [View.read_writes_eq_canon _ _ _ (scover0_C_4 c i arg2 harg2 arg3 harg3 arg4 harg4 arg5 harg5 arg6 harg6 arg7 harg7 arg8 harg8 arg9 harg9 arg10 harg10 hc0 hc1 x0 x1 xs0 xs1 xs2 xs3 xs4 xs5)]
  unfold kernelRun0_C
  dsimp only
  sl_unfold_words
  rw [View.canon_unit_zero hz2]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3]

/-- Case C, the `s` row: the update of what the point before left. -/
theorem sC5 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : ¬cond0_0 i) (hc1 : cond0_1 i) (x0 : Vec F S1x300x1792 .f32) (x1 : Vec F S1x100x1792 .f32) (xs0 xs1 xs2 : Vec F S300x100 .f32) (xs3 xs4 : Vec F S300x1 .f32) (xs5 : Vec F S1x100 .f32) :
    sout0_C_5 c i arg2 harg2 arg3 harg3 arg4 harg4 arg5 harg5 arg6 harg6 arg7 harg7 arg8 harg8 arg9 harg9 arg10 harg10 hc0 hc1 x0 x1 xs0 xs1 xs2 xs3 xs4 xs5 = k0_pay1 (k0_pay15 x1) (xs5) := by
  unfold sout0_C_5
  rw [View.read_writes_eq_canon _ _ _ (scover0_C_5 c i arg2 harg2 arg3 harg3 arg4 harg4 arg5 harg5 arg6 harg6 arg7 harg7 arg8 harg8 arg9 harg9 arg10 harg10 hc0 hc1 x0 x1 xs0 xs1 xs2 xs3 xs4 xs5)]
  unfold kernelRun0_C
  dsimp only
  sl_unfold_words
  rw [View.canon_unit_zero hz2]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3]

/-- Case A, the `sp(-o)·s` matrix: the update of the zero just stored. -/
theorem sA0 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : cond0_0 i) (hc1 : ¬cond0_1 i) (x0 : Vec F S1x300x1792 .f32) (x1 : Vec F S1x100x1792 .f32) :
    sout0_A_0 c i arg2 harg2 arg3 harg3 arg4 harg4 arg5 harg5 arg6 harg6 arg7 harg7 arg8 harg8 arg9 harg9 arg10 harg10 hc0 hc1 x0 x1 = k0_pay16 (k0_pay12 x0) (k0_pay15 x1) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1)]
  unfold kernelRun0_A
  dsimp only
  sl_unfold_words
  rw [View.canon_cons_unit_zero (S := S300x100) hz2, View.readCov_unit_zero (S := S300x100) _ hz2]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3]

/-- Case A, the `sp(o)·s` matrix: the update of the zero just stored. -/
theorem sA1 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : cond0_0 i) (hc1 : ¬cond0_1 i) (x0 : Vec F S1x300x1792 .f32) (x1 : Vec F S1x100x1792 .f32) :
    sout0_A_1 c i arg2 harg2 arg3 harg3 arg4 harg4 arg5 harg5 arg6 harg6 arg7 harg7 arg8 harg8 arg9 harg9 arg10 harg10 hc0 hc1 x0 x1 = k0_pay17 (k0_pay13 x0) (k0_pay15 x1) (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1)]
  unfold kernelRun0_A
  dsimp only
  sl_unfold_words
  rw [View.canon_cons_unit_zero (S := S300x100) hz2, View.readCov_unit_zero (S := S300x100) _ hz2]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3]

/-- Case A, the `sg(o)·s` matrix: the update of the zero just stored. -/
theorem sA2 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : cond0_0 i) (hc1 : ¬cond0_1 i) (x0 : Vec F S1x300x1792 .f32) (x1 : Vec F S1x100x1792 .f32) :
    sout0_A_2 c i arg2 harg2 arg3 harg3 arg4 harg4 arg5 harg5 arg6 harg6 arg7 harg7 arg8 harg8 arg9 harg9 arg10 harg10 hc0 hc1 x0 x1 = k0_pay18 (k0_pay14 x0) (k0_pay15 x1) (k0_pay5 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1)]
  unfold kernelRun0_A
  dsimp only
  sl_unfold_words
  rw [View.canon_cons_unit_zero (S := S300x100) hz2, View.readCov_unit_zero (S := S300x100) _ hz2]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3]

/-- Case A, the `sp(o)` column: the update of the zero just stored. -/
theorem sA3 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : cond0_0 i) (hc1 : ¬cond0_1 i) (x0 : Vec F S1x300x1792 .f32) (x1 : Vec F S1x100x1792 .f32) :
    sout0_A_3 c i arg2 harg2 arg3 harg3 arg4 harg4 arg5 harg5 arg6 harg6 arg7 harg7 arg8 harg8 arg9 harg9 arg10 harg10 hc0 hc1 x0 x1 = k0_pay19 (k0_pay10 x0) (k0_pay6 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1)]
  unfold kernelRun0_A
  dsimp only
  sl_unfold_words
  rw [View.canon_cons_unit_zero (S := S300x1) hz2, View.readCov_unit_zero (S := S300x1) _ hz2]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3]

/-- Case A, the `sg(o)` column: the update of the zero just stored. -/
theorem sA4 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : cond0_0 i) (hc1 : ¬cond0_1 i) (x0 : Vec F S1x300x1792 .f32) (x1 : Vec F S1x100x1792 .f32) :
    sout0_A_4 c i arg2 harg2 arg3 harg3 arg4 harg4 arg5 harg5 arg6 harg6 arg7 harg7 arg8 harg8 arg9 harg9 arg10 harg10 hc0 hc1 x0 x1 = k0_pay20 (k0_pay11 x0) (k0_pay7 (F := F)) := by
  unfold sout0_A_4
  rw [View.read_writes_eq_canon _ _ _ (scover0_A_4 c i arg2 harg2 arg3 harg3 arg4 harg4 arg5 harg5 arg6 harg6 arg7 harg7 arg8 harg8 arg9 harg9 arg10 harg10 hc0 hc1 x0 x1)]
  unfold kernelRun0_A
  dsimp only
  sl_unfold_words
  rw [View.canon_cons_unit_zero (S := S300x1) hz2, View.readCov_unit_zero (S := S300x1) _ hz2]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3]

/-- Case A, the `s` row: the update of the zero just stored. -/
theorem sA5 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : cond0_0 i) (hc1 : ¬cond0_1 i) (x0 : Vec F S1x300x1792 .f32) (x1 : Vec F S1x100x1792 .f32) :
    sout0_A_5 c i arg2 harg2 arg3 harg3 arg4 harg4 arg5 harg5 arg6 harg6 arg7 harg7 arg8 harg8 arg9 harg9 arg10 harg10 hc0 hc1 x0 x1 = k0_pay1 (k0_pay15 x1) (k0_pay8 (F := F)) := by
  unfold sout0_A_5
  rw [View.read_writes_eq_canon _ _ _ (scover0_A_5 c i arg2 harg2 arg3 harg3 arg4 harg4 arg5 harg5 arg6 harg6 arg7 harg7 arg8 harg8 arg9 harg9 arg10 harg10 hc0 hc1 x0 x1)]
  unfold kernelRun0_A
  dsimp only
  sl_unfold_words
  rw [View.canon_cons_unit_zero (S := S1x100) hz2, View.readCov_unit_zero (S := S1x100) _ hz2]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3]

/-- Case C, the output block: computed from the six accumulators as this same point has just updated them. -/
theorem oC2 (c : Dev nD) (i : grid0.Coords) (arg2 : Memref sig .tc .vmem S1x300x1792 .f32) (harg2 : arg2.IsWhole) (arg3 : Memref sig .tc .vmem S1x100x1792 .f32) (harg3 : arg3.IsWhole) (arg4 : Memref sig .tc .vmem S1x300x100 .f32) (harg4 : arg4.IsWhole) (arg5 : Memref sig .tc .vmem S300x100 .f32) (harg5 : arg5.IsWhole) (arg6 : Memref sig .tc .vmem S300x100 .f32) (harg6 : arg6.IsWhole) (arg7 : Memref sig .tc .vmem S300x100 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x100 .f32) (harg10 : arg10.IsWhole) (hc0 : ¬cond0_0 i) (hc1 : cond0_1 i) (x0 : Vec F S1x300x1792 .f32) (x1 : Vec F S1x100x1792 .f32) (xs0 xs1 xs2 : Vec F S300x100 .f32) (xs3 xs4 : Vec F S300x1 .f32) (xs5 : Vec F S1x100 .f32) :
    out0_C_2 c i arg2 harg2 arg3 harg3 arg4 harg4 arg5 harg5 arg6 harg6 arg7 harg7 arg8 harg8 arg9 harg9 arg10 harg10 hc0 hc1 x0 x1 xs0 xs1 xs2 xs3 xs4 xs5 = k0_pay2 (k0_pay16 (k0_pay12 x0) (k0_pay15 x1) (xs0)) (k0_pay17 (k0_pay13 x0) (k0_pay15 x1) (xs1)) (k0_pay19 (k0_pay10 x0) (xs3)) (k0_pay20 (k0_pay11 x0) (xs4)) (k0_pay1 (k0_pay15 x1) (xs5)) (k0_pay18 (k0_pay14 x0) (k0_pay15 x1) (xs2)) := by
  unfold out0_C_2
  rw [View.read_writes_eq_canon _ _ _ (cover0_C_2 c i arg2 harg2 arg3 harg3 arg4 harg4 arg5 harg5 arg6 harg6 arg7 harg7 arg8 harg8 arg9 harg9 arg10 harg10 hc0 hc1 x0 x1 xs0 xs1 xs2 xs3 xs4 xs5)]
  unfold kernelRun0_C
  dsimp only
  sl_unfold_words
  rw [View.canon_unit_zero hz3]
  simp only [View.readAt_eq_ld, harg2.read_unread, harg3.read_unread, harg5.read_unread, harg6.read_unread, harg7.read_unread, harg8.read_unread, harg9.read_unread, harg10.read_unread, View.ld_unit_zero (S := S300x100) hz2, View.ld_unit_zero (S := S300x1) hz2, View.ld_unit_zero (S := S1x100) hz2, View.ld_unit_zero (S := S1x300x1792) hz3, View.ld_unit_zero (S := S1x100x1792) hz3, View.readCov_unit_zero (S := S300x100) _ hz2, View.readCov_unit_zero (S := S300x1) _ hz2, View.readCov_unit_zero (S := S1x100) _ hz2]

/-! ## The blocks the region reads, as rows of the two sampled arrays -/

section Ideal

open Cert.MatchCost

variable (m : (ℓ : Loc nD τ sig) → Buf (Elt Ideal) ℓ)

abbrev xblk (c : Dev nD) (t : Fin cfg0.N) : Vec Ideal S1x300x1792 .f32 := iblk m c 0 t
abbrev yblk (c : Dev nD) (t : Fin cfg0.N) : Vec Ideal S1x100x1792 .f32 := iblk m c 1 t
abbrev Oarr (c : Dev nD) : Vec Ideal S4x300x12544 .f32 := V m c main_v190
abbrev Tarr (c : Dev nD) : Vec Ideal S4x100x12544 .f32 := V m c main_v381

theorem hN : cfg0.N = 28 := N_0

/-- The image a grid point works on: point `n` is tile `n % 7` of image `n / 7`. -/
def imgOf (n : ℕ) (h : n < cfg0.N) : Fin 4 := ⟨n / 7, by have := hN; omega⟩

theorem tilePt_val (k : ℕ) (hk : k < 7) (j : Fin 1792) : (tilePt k j).val = 1792 * k + j.val := by
  show (1792 * k + j.val) % 12544 = 1792 * k + j.val
  exact Nat.mod_eq_of_lt (by have := j.isLt; omega)

theorem idx0 : ∀ t : Fin cfg0.N, win0_0.index t 0 = t.val / 7 ∧ win0_0.index t 1 = 0 ∧ win0_0.index t 2 = t.val % 7 :=
  (by decide +kernel : ∀ t : Fin grid0.N, win0_0.index t 0 = t.val / 7 ∧ win0_0.index t 1 = 0 ∧ win0_0.index t 2 = t.val % 7)
theorem idx1 : ∀ t : Fin cfg0.N, win0_1.index t 0 = t.val / 7 ∧ win0_1.index t 1 = 0 ∧ win0_1.index t 2 = t.val % 7 :=
  (by decide +kernel : ∀ t : Fin grid0.N, win0_1.index t 0 = t.val / 7 ∧ win0_1.index t 1 = 0 ∧ win0_1.index t 2 = t.val % 7)

/-- Entry `(0, q, j)` of the logits block at point `n` is entry `(n / 7, q, 1792 (n % 7) + j)` of the sampled logits. -/
theorem xblk_tile (c : Dev nD) (n : ℕ) (h : n < cfg0.N) (q : Fin 300) (j : Fin 1792) :
    xblk m c ⟨n, h⟩ (ix3 0 q j) = rowO (Oarr m c) (imgOf n h) q (tilePt (n % 7) j) := by
  have hi := idx0 ⟨n, h⟩
  dsimp only at hi
  obtain ⟨h0, h1, h2⟩ := hi
  have hp := tilePt_val (n % 7) (Nat.mod_lt _ (by norm_num)) j
  unfold xblk iblk rowO
  rw [View.read_apply]
  show V m c main_v190 _ = V m c main_v190 _
  congr 1
  funext a
  apply Fin.ext
  match a with
  | ⟨0, _⟩ => show win0_0.index ⟨n, h⟩ 0 * 1 + 1 * 0 = n / 7; rw [h0]; omega
  | ⟨1, _⟩ => show win0_0.index ⟨n, h⟩ 1 * 300 + 1 * q.val = q.val; rw [h1]; omega
  | ⟨2, _⟩ => show win0_0.index ⟨n, h⟩ 2 * 1792 + 1 * j.val = (tilePt (n % 7) j).val; rw [h2, hp]; omega

theorem yblk_tile (c : Dev nD) (n : ℕ) (h : n < cfg0.N) (t : Fin 100) (j : Fin 1792) :
    yblk m c ⟨n, h⟩ (ix3 0 t j) = rowT (Tarr m c) (imgOf n h) t (tilePt (n % 7) j) := by
  have hi := idx1 ⟨n, h⟩
  dsimp only at hi
  obtain ⟨h0, h1, h2⟩ := hi
  have hp := tilePt_val (n % 7) (Nat.mod_lt _ (by norm_num)) j
  unfold yblk iblk rowT
  rw [View.read_apply]
  show V m c main_v381 _ = V m c main_v381 _
  congr 1
  funext a
  apply Fin.ext
  match a with
  | ⟨0, _⟩ => show win0_1.index ⟨n, h⟩ 0 * 1 + 1 * 0 = n / 7; rw [h0]; omega
  | ⟨1, _⟩ => show win0_1.index ⟨n, h⟩ 1 * 100 + 1 * t.val = t.val; rw [h1]; omega
  | ⟨2, _⟩ => show win0_1.index ⟨n, h⟩ 2 * 1792 + 1 * j.val = (tilePt (n % 7) j).val; rw [h2, hp]; omega

/-! ## One tile's share of each of the six sums -/

/-- The share of tile `k` in a sum over the 12544 sample points. -/
def tile (f : Fin 12544 → EReal) (k : ℕ) : EReal := ∑ j : Fin 1792, f (tilePt k j)

def fA (o s : Fin 12544 → EReal) : Fin 12544 → EReal := fun p => sp (-(o p)) * s p
def fN (o s : Fin 12544 → EReal) : Fin 12544 → EReal := fun p => sp (o p) * s p
def fS (o s : Fin 12544 → EReal) : Fin 12544 → EReal := fun p => sg (o p) * s p
def fR (o : Fin 12544 → EReal) : Fin 12544 → EReal := fun p => sp (o p)
def fRS (o : Fin 12544 → EReal) : Fin 12544 → EReal := fun p => sg (o p)

theorem step_pos (c : Dev nD) (n : ℕ) (h : n < cfg0.N) (prev : Vec Ideal S300x100 .f32) (q : Fin 300) (t : Fin 100) (K : ℕ)
    (hK : K = n % 7)
    (hprev : prev (ix2 q t) = ∑ k ∈ Finset.range K, tile (fA (rowO (Oarr m c) (imgOf n h) q) (rowT (Tarr m c) (imgOf n h) t)) k) :
    k0_pay16 (F := Ideal) (k0_pay12 (xblk m c ⟨n, h⟩)) (k0_pay15 (yblk m c ⟨n, h⟩)) prev (ix2 q t)
      = ∑ k ∈ Finset.range (n % 7 + 1), tile (fA (rowO (Oarr m c) (imgOf n h) q) (rowT (Tarr m c) (imgOf n h) t)) k := by
  subst hK
  rw [Payload.pos_apply, hprev, Finset.sum_range_succ]
  refine congrArg (_ + ·) ?_
  show (∑ j : Fin 1792, _) = ∑ j : Fin 1792, _
  exact Finset.sum_congr rfl fun j _ => by rw [xblk_tile m c n h q j, yblk_tile m c n h t j]; rfl

theorem step_neg (c : Dev nD) (n : ℕ) (h : n < cfg0.N) (prev : Vec Ideal S300x100 .f32) (q : Fin 300) (t : Fin 100) (K : ℕ)
    (hK : K = n % 7)
    (hprev : prev (ix2 q t) = ∑ k ∈ Finset.range K, tile (fN (rowO (Oarr m c) (imgOf n h) q) (rowT (Tarr m c) (imgOf n h) t)) k) :
    k0_pay17 (F := Ideal) (k0_pay13 (xblk m c ⟨n, h⟩)) (k0_pay15 (yblk m c ⟨n, h⟩)) prev (ix2 q t)
      = ∑ k ∈ Finset.range (n % 7 + 1), tile (fN (rowO (Oarr m c) (imgOf n h) q) (rowT (Tarr m c) (imgOf n h) t)) k := by
  subst hK
  rw [Payload.neg_apply, hprev, Finset.sum_range_succ]
  refine congrArg (_ + ·) ?_
  show (∑ j : Fin 1792, _) = ∑ j : Fin 1792, _
  exact Finset.sum_congr rfl fun j _ => by rw [xblk_tile m c n h q j, yblk_tile m c n h t j]; rfl

theorem step_sig (c : Dev nD) (n : ℕ) (h : n < cfg0.N) (prev : Vec Ideal S300x100 .f32) (q : Fin 300) (t : Fin 100) (K : ℕ)
    (hK : K = n % 7)
    (hprev : prev (ix2 q t) = ∑ k ∈ Finset.range K, tile (fS (rowO (Oarr m c) (imgOf n h) q) (rowT (Tarr m c) (imgOf n h) t)) k) :
    k0_pay18 (F := Ideal) (k0_pay14 (xblk m c ⟨n, h⟩)) (k0_pay15 (yblk m c ⟨n, h⟩)) prev (ix2 q t)
      = ∑ k ∈ Finset.range (n % 7 + 1), tile (fS (rowO (Oarr m c) (imgOf n h) q) (rowT (Tarr m c) (imgOf n h) t)) k := by
  subst hK
  rw [Payload.sig_apply, hprev, Finset.sum_range_succ]
  refine congrArg (_ + ·) ?_
  show (∑ j : Fin 1792, _) = ∑ j : Fin 1792, _
  exact Finset.sum_congr rfl fun j _ => by rw [xblk_tile m c n h q j, yblk_tile m c n h t j]; rfl

theorem step_rsn (c : Dev nD) (n : ℕ) (h : n < cfg0.N) (prev : Vec Ideal S300x1 .f32) (q : Fin 300) (K : ℕ)
    (hK : K = n % 7)
    (hprev : prev (ix2 q 0) = ∑ k ∈ Finset.range K, tile (fR (rowO (Oarr m c) (imgOf n h) q)) k) :
    k0_pay19 (F := Ideal) (k0_pay10 (xblk m c ⟨n, h⟩)) prev (ix2 q 0)
      = ∑ k ∈ Finset.range (n % 7 + 1), tile (fR (rowO (Oarr m c) (imgOf n h) q)) k := by
  subst hK
  rw [Payload.rsneg_apply, hprev, Finset.sum_range_succ]
  refine congrArg (_ + ·) ?_
  show (∑ j : Fin 1792, _) = ∑ j : Fin 1792, _
  exact Finset.sum_congr rfl fun j _ => by rw [xblk_tile m c n h q j]; rfl

theorem step_rss (c : Dev nD) (n : ℕ) (h : n < cfg0.N) (prev : Vec Ideal S300x1 .f32) (q : Fin 300) (K : ℕ)
    (hK : K = n % 7)
    (hprev : prev (ix2 q 0) = ∑ k ∈ Finset.range K, tile (fRS (rowO (Oarr m c) (imgOf n h) q)) k) :
    k0_pay20 (F := Ideal) (k0_pay11 (xblk m c ⟨n, h⟩)) prev (ix2 q 0)
      = ∑ k ∈ Finset.range (n % 7 + 1), tile (fRS (rowO (Oarr m c) (imgOf n h) q)) k := by
  subst hK
  rw [Payload.rssig_apply, hprev, Finset.sum_range_succ]
  refine congrArg (_ + ·) ?_
  show (∑ j : Fin 1792, _) = ∑ j : Fin 1792, _
  exact Finset.sum_congr rfl fun j _ => by rw [xblk_tile m c n h q j]; rfl

theorem step_cs (c : Dev nD) (n : ℕ) (h : n < cfg0.N) (prev : Vec Ideal S1x100 .f32) (t : Fin 100) (K : ℕ)
    (hK : K = n % 7)
    (hprev : prev (ix2 0 t) = ∑ k ∈ Finset.range K, tile (rowT (Tarr m c) (imgOf n h) t) k) :
    k0_pay1 (F := Ideal) (k0_pay15 (yblk m c ⟨n, h⟩)) prev (ix2 0 t)
      = ∑ k ∈ Finset.range (n % 7 + 1), tile (rowT (Tarr m c) (imgOf n h) t) k := by
  subst hK
  rw [Payload.cs_apply, hprev, Finset.sum_range_succ]
  refine congrArg (_ + ·) ?_
  show (∑ j : Fin 1792, _) = ∑ j : Fin 1792, _
  exact Finset.sum_congr rfl fun j _ => by rw [yblk_tile m c n h t j]

/-! ## The six accumulators after each grid point -/

/-- After point `n` (tile `n % 7` of image `n / 7`) each accumulator holds, entry by entry, the shares of tiles
    `0 … n % 7` of its sum, for the rows of that image. -/
structure Inv (c : Dev nD) (n : ℕ) (h : n < cfg0.N) : Prop where
  pos : ∀ (q : Fin 300) (t : Fin 100), (outsAt0 m c n h).2.1 (ix2 q t) = ∑ k ∈ Finset.range (n % 7 + 1), tile (fA (rowO (Oarr m c) (imgOf n h) q) (rowT (Tarr m c) (imgOf n h) t)) k
  neg : ∀ (q : Fin 300) (t : Fin 100), (outsAt0 m c n h).2.2.1 (ix2 q t) = ∑ k ∈ Finset.range (n % 7 + 1), tile (fN (rowO (Oarr m c) (imgOf n h) q) (rowT (Tarr m c) (imgOf n h) t)) k
  sig : ∀ (q : Fin 300) (t : Fin 100), (outsAt0 m c n h).2.2.2.1 (ix2 q t) = ∑ k ∈ Finset.range (n % 7 + 1), tile (fS (rowO (Oarr m c) (imgOf n h) q) (rowT (Tarr m c) (imgOf n h) t)) k
  rsn : ∀ (q : Fin 300), (outsAt0 m c n h).2.2.2.2.1 (ix2 q 0) = ∑ k ∈ Finset.range (n % 7 + 1), tile (fR (rowO (Oarr m c) (imgOf n h) q)) k
  rss : ∀ (q : Fin 300), (outsAt0 m c n h).2.2.2.2.2.1 (ix2 q 0) = ∑ k ∈ Finset.range (n % 7 + 1), tile (fRS (rowO (Oarr m c) (imgOf n h) q)) k
  cs : ∀ (t : Fin 100), (outsAt0 m c n h).2.2.2.2.2.2 (ix2 0 t) = ∑ k ∈ Finset.range (n % 7 + 1), tile (rowT (Tarr m c) (imgOf n h) t) k

/-- The first tile of an image: the accumulators are reset, then take the tile's share. -/
theorem inv_first (c : Dev nD) (n : ℕ) (h : n < cfg0.N) (h0 : n % 7 = 0) : Inv m c n h := by
  have h1 : ¬n % 7 = 6 := by omega
  constructor
  · intro q t
    rw [outsAt0_A m c ⟨n, h⟩ h0 h1]; dsimp only
    refine (congrFun (sA0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n, h⟩).mpr h0) (fun hh => h1 ((hcond0_1 ⟨n, h⟩).mp hh)) (iblk m c 0 ⟨n, h⟩) (iblk m c 1 ⟨n, h⟩)) (ix2 q t)).trans ?_
    exact step_pos m c n h (k0_pay3 (F := Ideal)) q t 0 h0.symm (by rw [Payload.zero3_apply, Finset.sum_range_zero])
  · intro q t
    rw [outsAt0_A m c ⟨n, h⟩ h0 h1]; dsimp only
    refine (congrFun (sA1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n, h⟩).mpr h0) (fun hh => h1 ((hcond0_1 ⟨n, h⟩).mp hh)) (iblk m c 0 ⟨n, h⟩) (iblk m c 1 ⟨n, h⟩)) (ix2 q t)).trans ?_
    exact step_neg m c n h (k0_pay4 (F := Ideal)) q t 0 h0.symm (by rw [Payload.zero4_apply, Finset.sum_range_zero])
  · intro q t
    rw [outsAt0_A m c ⟨n, h⟩ h0 h1]; dsimp only
    refine (congrFun (sA2 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n, h⟩).mpr h0) (fun hh => h1 ((hcond0_1 ⟨n, h⟩).mp hh)) (iblk m c 0 ⟨n, h⟩) (iblk m c 1 ⟨n, h⟩)) (ix2 q t)).trans ?_
    exact step_sig m c n h (k0_pay5 (F := Ideal)) q t 0 h0.symm (by rw [Payload.zero5_apply, Finset.sum_range_zero])
  · intro q
    rw [outsAt0_A m c ⟨n, h⟩ h0 h1]; dsimp only
    refine (congrFun (sA3 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n, h⟩).mpr h0) (fun hh => h1 ((hcond0_1 ⟨n, h⟩).mp hh)) (iblk m c 0 ⟨n, h⟩) (iblk m c 1 ⟨n, h⟩)) (ix2 q 0)).trans ?_
    exact step_rsn m c n h (k0_pay6 (F := Ideal)) q 0 h0.symm (by rw [Payload.zero6_apply, Finset.sum_range_zero])
  · intro q
    rw [outsAt0_A m c ⟨n, h⟩ h0 h1]; dsimp only
    refine (congrFun (sA4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n, h⟩).mpr h0) (fun hh => h1 ((hcond0_1 ⟨n, h⟩).mp hh)) (iblk m c 0 ⟨n, h⟩) (iblk m c 1 ⟨n, h⟩)) (ix2 q 0)).trans ?_
    exact step_rss m c n h (k0_pay7 (F := Ideal)) q 0 h0.symm (by rw [Payload.zero7_apply, Finset.sum_range_zero])
  · intro t
    rw [outsAt0_A m c ⟨n, h⟩ h0 h1]; dsimp only
    refine (congrFun (sA5 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n, h⟩).mpr h0) (fun hh => h1 ((hcond0_1 ⟨n, h⟩).mp hh)) (iblk m c 0 ⟨n, h⟩) (iblk m c 1 ⟨n, h⟩)) (ix2 0 t)).trans ?_
    exact step_cs m c n h (k0_pay8 (F := Ideal)) t 0 h0.symm (by rw [Payload.zero8_apply, Finset.sum_range_zero])

/-- A later tile: each accumulator adds the tile's share to what the tile before left. -/
theorem inv_next (c : Dev nD) (n : ℕ) (h : n + 1 < cfg0.N) (h0 : ¬(n + 1) % 7 = 0) (ih : Inv m c n (Nat.lt_of_succ_lt h)) :
    Inv m c (n + 1) h := by
  have hb : imgOf n (Nat.lt_of_succ_lt h) = imgOf (n + 1) h := Fin.ext (by show n / 7 = (n + 1) / 7; omega)
  have hK : n % 7 + 1 = (n + 1) % 7 := by omega
  by_cases h1 : (n + 1) % 7 = 6
  · constructor
    · intro q t
      have hp := ih.pos q t
      rw [hb] at hp
      rw [outsAt0_C m c ⟨n + 1, h⟩ h0 h1]; dsimp only
      refine (congrFun (sC0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2) (ix2 q t)).trans ?_
      exact step_pos m c (n + 1) h _ q t (n % 7 + 1) hK hp
    · intro q t
      have hp := ih.neg q t
      rw [hb] at hp
      rw [outsAt0_C m c ⟨n + 1, h⟩ h0 h1]; dsimp only
      refine (congrFun (sC1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2) (ix2 q t)).trans ?_
      exact step_neg m c (n + 1) h _ q t (n % 7 + 1) hK hp
    · intro q t
      have hp := ih.sig q t
      rw [hb] at hp
      rw [outsAt0_C m c ⟨n + 1, h⟩ h0 h1]; dsimp only
      refine (congrFun (sC2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2) (ix2 q t)).trans ?_
      exact step_sig m c (n + 1) h _ q t (n % 7 + 1) hK hp
    · intro q
      have hp := ih.rsn q
      rw [hb] at hp
      rw [outsAt0_C m c ⟨n + 1, h⟩ h0 h1]; dsimp only
      refine (congrFun (sC3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2) (ix2 q 0)).trans ?_
      exact step_rsn m c (n + 1) h _ q (n % 7 + 1) hK hp
    · intro q
      have hp := ih.rss q
      rw [hb] at hp
      rw [outsAt0_C m c ⟨n + 1, h⟩ h0 h1]; dsimp only
      refine (congrFun (sC4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2) (ix2 q 0)).trans ?_
      exact step_rss m c (n + 1) h _ q (n % 7 + 1) hK hp
    · intro t
      have hp := ih.cs t
      rw [hb] at hp
      rw [outsAt0_C m c ⟨n + 1, h⟩ h0 h1]; dsimp only
      refine (congrFun (sC5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2) (ix2 0 t)).trans ?_
      exact step_cs m c (n + 1) h _ t (n % 7 + 1) hK hp
  · constructor
    · intro q t
      have hp := ih.pos q t
      rw [hb] at hp
      rw [outsAt0_B m c ⟨n + 1, h⟩ h0 h1]; dsimp only
      refine (congrFun (sB0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2) (ix2 q t)).trans ?_
      exact step_pos m c (n + 1) h _ q t (n % 7 + 1) hK hp
    · intro q t
      have hp := ih.neg q t
      rw [hb] at hp
      rw [outsAt0_B m c ⟨n + 1, h⟩ h0 h1]; dsimp only
      refine (congrFun (sB1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2) (ix2 q t)).trans ?_
      exact step_neg m c (n + 1) h _ q t (n % 7 + 1) hK hp
    · intro q t
      have hp := ih.sig q t
      rw [hb] at hp
      rw [outsAt0_B m c ⟨n + 1, h⟩ h0 h1]; dsimp only
      refine (congrFun (sB2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2) (ix2 q t)).trans ?_
      exact step_sig m c (n + 1) h _ q t (n % 7 + 1) hK hp
    · intro q
      have hp := ih.rsn q
      rw [hb] at hp
      rw [outsAt0_B m c ⟨n + 1, h⟩ h0 h1]; dsimp only
      refine (congrFun (sB3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2) (ix2 q 0)).trans ?_
      exact step_rsn m c (n + 1) h _ q (n % 7 + 1) hK hp
    · intro q
      have hp := ih.rss q
      rw [hb] at hp
      rw [outsAt0_B m c ⟨n + 1, h⟩ h0 h1]; dsimp only
      refine (congrFun (sB4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2) (ix2 q 0)).trans ?_
      exact step_rss m c (n + 1) h _ q (n % 7 + 1) hK hp
    · intro t
      have hp := ih.cs t
      rw [hb] at hp
      rw [outsAt0_B m c ⟨n + 1, h⟩ h0 h1]; dsimp only
      refine (congrFun (sB5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2) (ix2 0 t)).trans ?_
      exact step_cs m c (n + 1) h _ t (n % 7 + 1) hK hp

theorem inv_all (c : Dev nD) : ∀ (n : ℕ) (h : n < cfg0.N), Inv m c n h
  | 0, h => inv_first m c 0 h rfl
  | n + 1, h =>
    if h0 : (n + 1) % 7 = 0 then inv_first m c (n + 1) h h0
    else inv_next m c n h h0 (inv_all c n (Nat.lt_of_succ_lt h))

/-! ## The last tile of an image: the cost block -/

/-- Seven tiles make the whole sum. -/
theorem tiles_all (f : Fin 12544 → EReal) (K : ℕ) (hK : K = 6) :
    ∑ k ∈ Finset.range (K + 1), tile f k = ∑ p : Fin 12544, f p := by
  subst hK; exact sum_tiles f

/-- At the last tile of an image the output block is computed from the six accumulators as that tile leaves them. -/
theorem out_eq_final (c : Dev nD) (n : ℕ) (h : n < cfg0.N) (h0 : ¬n % 7 = 0) (h1 : n % 7 = 6) :
    (outsAt0 m c n h).1 = k0_pay2 (F := Ideal) (outsAt0 m c n h).2.1 (outsAt0 m c n h).2.2.1 (outsAt0 m c n h).2.2.2.2.1
      (outsAt0 m c n h).2.2.2.2.2.1 (outsAt0 m c n h).2.2.2.2.2.2 (outsAt0 m c n h).2.2.2.1 := by
  rw [outsAt0_C m c ⟨n, h⟩ h0 h1]; dsimp only
  rw [oC2, sC0, sC1, sC2, sC3, sC4, sC5]

/-- So entry `(0, q, t)` of that block is the fused cell of row `q` of the logits and row `t` of the targets. -/
theorem out_last (c : Dev nD) (n : ℕ) (h : n < cfg0.N) (h6 : n % 7 = 6) (q : Fin 300) (t : Fin 100) :
    (outsAt0 m c n h).1 (ix3 0 q t)
      = fusedCell (rowO (Oarr m c) (imgOf n h) q) (rowT (Tarr m c) (imgOf n h) t) := by
  have h0 : ¬n % 7 = 0 := by omega
  have hI := inv_all m c n h
  rw [out_eq_final m c n h h0 h6, Payload.final_apply, hI.pos q t, hI.neg q t, hI.rsn q, hI.rss q, hI.cs t, hI.sig q t,
    tiles_all _ _ h6, tiles_all _ _ h6, tiles_all _ _ h6, tiles_all _ _ h6, tiles_all _ _ h6, tiles_all _ _ h6]
  rfl

/-! ## The cost matrix after the region -/

/-- The cost matrix the region is shown to leave. -/
abbrev Gout (c : Dev nD) : Buf (Elt Ideal) ((c : Thread nD τ).loc main_v382) := fusedOut (Oarr m c) (Tarr m c)

theorem fusedOut_at (O : SO.Idx → EReal) (T : ST.Idx → EReal) (i : SC.Idx) (b : Fin 4) (q : Fin 300) (t : Fin 100)
    (h0 : (i 0).val = b.val) (h1 : (i 1).val = q.val) (h2 : (i 2).val = t.val) :
    fusedOut O T i = fusedCell (rowO O b q) (rowT T b t) := by
  have e0 : i 0 = b := Fin.ext h0
  have e1 : i 1 = q := Fin.ext h1
  have e2 : i 2 = t := Fin.ext h2
  unfold fusedOut
  rw [e0, e1, e2]

theorem idx2 : ∀ t : Fin cfg0.N, win0_2.index t 0 = t.val / 7 ∧ win0_2.index t 1 = 0 ∧ win0_2.index t 2 = 0
    ∧ win0_2.xsize (grid0.coords t) 0 = 1 ∧ win0_2.xsize (grid0.coords t) 1 = 300 ∧ win0_2.xsize (grid0.coords t) 2 = 100 :=
  (by decide +kernel : ∀ t : Fin grid0.N, win0_2.index t 0 = t.val / 7 ∧ win0_2.index t 1 = 0 ∧ win0_2.index t 2 = 0
    ∧ win0_2.xsize (grid0.coords t) 0 = 1 ∧ win0_2.xsize (grid0.coords t) 1 = 300 ∧ win0_2.xsize (grid0.coords t) 2 = 100)

/-- What the last tile of image `b` writes back is block `b` of that matrix. -/
theorem flushed_eq (c : Dev nD) (t : Fin cfg0.N) (hf : (cfg0.win 2).flush t = true) :
    (dats m 0 c).flushed 2 t = ((cfg0.win 2).blk t).view.read (Elt Ideal) (Gout m c) := by
  have h6 : t.val % 7 = 6 := (flush0_2 t).mp hf
  obtain ⟨n, h⟩ := t
  dsimp only at h6
  have hi := idx2 ⟨n, h⟩
  dsimp only at hi
  obtain ⟨i0, i1, i2, -, -, -⟩ := hi
  show (cfg0.win 2).cut (grid0.coords ⟨n, h⟩) ((dats m 0 c).after 2 ⟨n, h⟩) = _
  rw [after0_2]
  refine funext fun (y : S1x300x100.Idx) => ?_
  rw [View.read_apply]
  obtain ⟨a, q, t', rfl⟩ : ∃ a q t', y = ix3 a q t' := ⟨y 0, y 1, y 2, eq_ix3 y⟩
  obtain rfl : a = 0 := Subsingleton.elim _ _
  refine (out_last m c n h h6 q t').trans (fusedOut_at _ _ _ _ _ _ ?_ ?_ ?_).symm
  · show win0_2.index ⟨n, h⟩ 0 * 1 + 1 * 0 = n / 7; rw [i0]; omega
  · show win0_2.index ⟨n, h⟩ 1 * 300 + 1 * q.val = q.val; rw [i1]; omega
  · show win0_2.index ⟨n, h⟩ 2 * 100 + 1 * t'.val = t'.val; rw [i2]; omega

/-- Every entry of the cost matrix lies in the block some image's last tile writes back. -/
theorem cover (i : S4x300x100.Idx) :
    ∃ t : Fin cfg0.N, (cfg0.win 2).flush t = true ∧ i ∈ ((cfg0.win 2).blk t).view.set := by
  have hb : (i 0 : Nat) < 4 := (i 0).isLt
  have hq : (i 1 : Nat) < 300 := (i 1).isLt
  have ht : (i 2 : Nat) < 100 := (i 2).isLt
  have hlt : 7 * (i 0 : Nat) + 6 < cfg0.N := by have := hN; omega
  have hi := idx2 ⟨7 * (i 0 : Nat) + 6, hlt⟩
  dsimp only at hi
  obtain ⟨i0, i1, i2, x0, x1, x2⟩ := hi
  refine ⟨⟨7 * (i 0 : Nat) + 6, hlt⟩, (flush0_2 _).mpr (by dsimp only; omega), ?_⟩
  show i ∈ ((View.whole main_v382).slice (win0_2.rect ⟨7 * (i 0 : Nat) + 6, hlt⟩)).set
  rw [View.set_slice_whole, Rect.mem_set_unit]
  intro a
  match a with
  | ⟨0, _⟩ =>
    show win0_2.index ⟨7 * (i 0 : Nat) + 6, hlt⟩ 0 * win0_2.size 0 ≤ (i 0 : Nat) ∧ (i 0 : Nat) < win0_2.index ⟨7 * (i 0 : Nat) + 6, hlt⟩ 0 * win0_2.size 0 + win0_2.xsize (grid0.coords ⟨7 * (i 0 : Nat) + 6, hlt⟩) 0
    rw [i0, x0, show win0_2.size 0 = 1 from rfl]; omega
  | ⟨1, _⟩ =>
    show win0_2.index ⟨7 * (i 0 : Nat) + 6, hlt⟩ 1 * win0_2.size 1 ≤ (i 1 : Nat) ∧ (i 1 : Nat) < win0_2.index ⟨7 * (i 0 : Nat) + 6, hlt⟩ 1 * win0_2.size 1 + win0_2.xsize (grid0.coords ⟨7 * (i 0 : Nat) + 6, hlt⟩) 1
    rw [i1, x1]; omega
  | ⟨2, _⟩ =>
    show win0_2.index ⟨7 * (i 0 : Nat) + 6, hlt⟩ 2 * win0_2.size 2 ≤ (i 2 : Nat) ∧ (i 2 : Nat) < win0_2.index ⟨7 * (i 0 : Nat) + 6, hlt⟩ 2 * win0_2.size 2 + win0_2.xsize (grid0.coords ⟨7 * (i 0 : Nat) + 6, hlt⟩) 2
    rw [i2, x2]; omega

/-- After all 28 grid points the cost matrix holds, cell by cell, the fused cell of the two sampled arrays' rows. -/
theorem region_array (m : (ℓ : Loc nD τ sig) → Buf (Elt Ideal) ℓ) (c : Dev nD) :
    (GenP.dats (F := Ideal) m 0 c).arrAt 2 cfg0.N
      = Cert.MatchCost.fusedOut (GenP.V m c main_v190) (GenP.V m c main_v381) :=
  (dats m 0 c).arrAt_eq_of_cover 2 (Gout m c) (flushed_eq m c) cover

end Ideal

end Cert.KernelIdeal.Region

end
-- ==== Proof.KernelTail.lean ====
/-
  The end of the fused program: the lines after the region.

  After the region has left the cost matrix `M` (one fused cell per image, query and target), the program computes
  the classification cost `cc` from the logits and the labels alone, by the same chain of operations as the plain
  program, and returns `-(M + 2 · cc)`, entry by entry.

  The proof: (1) the lines after the region, read at the result's buffer, are one function `tailFn` of three arrays —
  the logits, the labels and the cost matrix — whatever the other buffers hold, and the classification chain inside it
  is the plain program's stage `val_main_v424` (the two chains are the same operations over the same literal shapes);
  (2) none of those lines writes an argument, and the region's array is the fused matrix of the two sampled arrays, so
  the three arrays are the launch's logits and labels and `fusedOut`; (3) at the extended reals `tailFn` read at an
  index is `-(M i + 2 · cc i)`, which is `fusedResult`; (4) the frame run's post states every buffer the region
  bypasses at what the lines after it leave there, which gives the run.
-/
import proofs.«146640_j52948356825308_1_alg».proof.Proof.Spec
import proofs.«146640_j52948356825308_1_alg».proof.Proof.PatchedKernelIdeal.Frame
import proofs.«146640_j52948356825308_1_alg».proof.Proof.RefStages
import proofs.«146640_j52948356825308_1_alg».proof.Proof.KernelRegion
import Idealize.ShloMosaic.Lib.Pipeline.Value
import Idealize.ShloMosaic.Lib.StableHlo.Run
import Idealize.ShloMosaic.Lib.ValueIdx

set_option maxRecDepth 16384

noncomputable section

namespace Cert.KernelIdeal.Tail

open Cert.KernelIdeal.Gen
open Idealize.ShloMosaic Idealize.ShloMosaic.TcCoe Idealize.ShloMosaic.Tactic
open Idealize.SL Idealize.SL.Sem
open Idealize.ShloMosaic.StableHlo

/-! ## The lines after the region as one function -/

section Generic

variable {F : FTy → Type} [FloatOps F]

/-- The lines after the region as one function of the logits `x0`, the labels `x2` and the region's matrix `R`:
    `-(R + 2 · cc x0 x2)`, the classification cost `cc` being the plain program's stage of that name. -/
def tailFn (x0 : (⟨S4x300x80, .f32⟩ : BufTy).Contents (Elt F)) (x2 : (⟨S4x100, .i32⟩ : BufTy).Contents (Elt F))
    (R : (⟨S4x300x100, .f32⟩ : BufTy).Contents (Elt F)) : (⟨S4x300x100, .f32⟩ : BufTy).Contents (Elt F) :=
  Host.negf (addf R (mulf (broadcastInDim S4x300x100 ![] bcast_S_S4x300x100 (constant S_ .f32 0x40000000#32))
    (Cert.ReferenceIdeal.ReadP.val_main_v424 (F := F) x0 x2)))

set_option maxHeartbeats 2000000 in
/-- From any buffer contents `W`, the result's buffer after the 62 lines holds `tailFn` of what `W` has at the
    logits, the labels and the region's array: each line's result is its function of its operands' contents, and the
    classification chain so composed is the plain program's, operation for operation. -/
theorem tail_of (W : Valuation τ sig (Elt F)) :
    StableHlo.after hostOps1 W (Proc.devRef .tc main_v429)
      = tailFn (W (Proc.devRef .tc main_arg0)) (W (Proc.devRef .tc main_arg2)) (W (Proc.devRef .tc main_v382)) := by
  after_results_simp
  rfl

/-- The same with the three arrays named. -/
theorem tail_of_eq (W : Valuation τ sig (Elt F)) {x0 : (⟨S4x300x80, .f32⟩ : BufTy).Contents (Elt F)}
    {x2 : (⟨S4x100, .i32⟩ : BufTy).Contents (Elt F)} {R : (⟨S4x300x100, .f32⟩ : BufTy).Contents (Elt F)}
    (h0 : W (Proc.devRef .tc main_arg0) = x0) (h2 : W (Proc.devRef .tc main_arg2) = x2)
    (hR : W (Proc.devRef .tc main_v382) = R) :
    StableHlo.after hostOps1 W (Proc.devRef .tc main_v429) = tailFn x0 x2 R := by
  subst h0 h2 hR
  exact tail_of W

end Generic

/-! ## At the extended reals -/

/-- Over the extended reals `tailFn` of the fused matrix is the fused result: at an index, negation, sum and product
    are the extended reals' own, and the broadcast constant is the word of 2. -/
theorem tailFn_fused (x0 : (⟨S4x300x80, .f32⟩ : BufTy).Contents (Elt Ideal)) (x2 : (⟨S4x100, .i32⟩ : BufTy).Contents (Elt Ideal))
    (O : Cert.MatchCost.SO.Idx → EReal) (T : Cert.MatchCost.ST.Idx → EReal) :
    tailFn (F := Ideal) x0 x2 (Cert.MatchCost.fusedOut O T)
      = Cert.MatchCost.fusedResult O T (Cert.ReferenceIdeal.ReadP.val_main_v424 (F := Ideal) x0 x2) := by
  funext i
  rfl

variable (m : (ℓ : Loc nD τ sig) → Buf (Elt Ideal) ℓ)

/-- What the lines after the region leave in the result's buffer: the fused result of the two sampled arrays as the
    region found them and the classification cost of the launch's logits and labels. The lines read the logits and the
    labels where no window's array is, so as the region's entry had them, which is as launched; and the region's array
    holds the fused matrix. -/
theorem result_eq (c : Dev nD) :
    Pipeline.afterTail₀ cfgs (GenP.dats m) 0 (GenP.V0 m) [hostOps1] c main_v429
      = Cert.MatchCost.fusedResult (GenP.V m c main_v190) (GenP.V m c main_v381)
          (Cert.ReferenceIdeal.ReadP.val_main_v424 (F := Ideal) (m ((c.tc : Thread nD τ).loc main_arg0))
            (m ((c.tc : Thread nD τ).loc main_arg2))) := by
  unfold Pipeline.afterTail₀
  show StableHlo.after hostOps1 _ (Proc.devRef .tc main_v429) = _
  exact (tail_of_eq _
      ((Pipeline.withArrays_of_ne _ c (GenP.V0 m c) _ main_arg0
        (by exact (by decide : ∀ w, Pipeline.arrRef spec0 w ≠ main_arg0))).trans (GenP.V_main_arg0 m c))
      ((Pipeline.withArrays_of_ne _ c (GenP.V0 m c) _ main_arg2
        (by exact (by decide : ∀ w, Pipeline.arrRef spec0 w ≠ main_arg2))).trans (GenP.V_main_arg2 m c))
      ((Pipeline.withArrays_arr spec0 launch0.win.arr_inj c _ _ 2).trans (Cert.KernelIdeal.Region.region_array m c))).trans
    (tailFn_fused _ _ _ _)

/-! ## The run -/

/-- The fused program's run: every weakly fair execution ends with the result's buffer at the fused result and the
    five arguments as launched. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v429)
          = Cert.MatchCost.fusedResult (GenP.V m c main_v190) (GenP.V m c main_v381)
              (Cert.ReferenceIdeal.ReadP.val_main_v424 (F := Ideal) (m ((c.tc : Thread nD τ).loc main_arg0))
                (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v429 (Pipeline.mem_restRefs_of main_v429 (by decide) (by decide))).trans (result_eq m c),
      ((h c).2 main_arg0 (Pipeline.mem_restRefs_of main_arg0 (by decide) (by decide))).trans (GenP.W_main_arg0 m (GenP.dats m) c),
      ((h c).2 main_arg1 (Pipeline.mem_restRefs_of main_arg1 (by decide) (by decide))).trans (GenP.W_main_arg1 m (GenP.dats m) c),
      ((h c).2 main_arg2 (Pipeline.mem_restRefs_of main_arg2 (by decide) (by decide))).trans (GenP.W_main_arg2 m (GenP.dats m) c),
      ((h c).2 main_arg3 (Pipeline.mem_restRefs_of main_arg3 (by decide) (by decide))).trans (GenP.W_main_arg3 m (GenP.dats m) c),
      ((h c).2 main_arg4 (Pipeline.mem_restRefs_of main_arg4 (by decide) (by decide))).trans (GenP.W_main_arg4 m (GenP.dats m) c)⟩)
    (GenP.run_main m ρ)

end Cert.KernelIdeal.Tail

end
-- ==== Proof.KernelChain.lean ====
/-
  The two sampled arrays, as the fused program holds them when its region is entered, are the plain program's.

  Before the region the fused program runs, line for line, the operations by which the plain program samples the
  query masks and the target masks at the 12544 points: the point coordinates scaled to pixel units, their floors
  and fractional parts, the four neighbouring pixels (clamped into the image, with a 0/1 factor that says whether
  the unclamped neighbour lies inside it), the four gathers, and the sum of the four gathered values weighted by
  the products of the fractional parts. Read at the buffer of the last of these operations, the contents after
  the whole stretch are therefore the same composed function of the argument arrays as the plain program's stage
  of that name: both sides unfold to one and the same term, the two programs' shape records and dimension records
  being the same literals under different names. The statements are generic in the float family.
-/
import proofs.«146640_j52948356825308_1_alg».proof.Proof.PatchedKernelIdeal.Runs
import proofs.«146640_j52948356825308_1_alg».proof.Proof.RefStages
import Idealize.ShloMosaic.Lib.StableHlo.Run

noncomputable section

namespace Cert.KernelIdeal.Chain

open Cert.KernelIdeal Cert.KernelIdeal.Gen Idealize.ShloMosaic Idealize.ShloMosaic.TcCoe Idealize.SL.Sem
open Idealize.ShloMosaic.StableHlo

variable {F : FTy → Type} [FloatOps F]

set_option maxHeartbeats 40000000 in
set_option maxRecDepth 65536 in
/-- The bilinear samples of the query masks ([4, 300, 12544]): what the region finds in the buffer of the last
    operation of the sampling stretch is the plain program's stage of the same name, as a function of the query
    masks and the point coordinates. Each operation's result is read at its own buffer and is untouched by the
    later operations; the composed term is then the stage's, definition by definition. -/
theorem sampledO (m : (ℓ : Loc nD τ sig) → Buf (Elt F) ℓ) (c : Dev nD) :
    GenP.V m c main_v190
      = Cert.ReferenceIdeal.ReadP.val_main_v190 (F := F) (m ((c.tc : Thread nD τ).loc main_arg1))
          (m ((c.tc : Thread nD τ).loc main_arg4)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32,
    List.flatten_cons, List.flatten_nil, List.append_nil, List.cons_append, List.nil_append]
  after_results_simp
  rfl

set_option maxHeartbeats 40000000 in
set_option maxRecDepth 65536 in
/-- The bilinear samples of the target masks ([4, 100, 12544]), in the same way: the second sampling stretch
    repeats the first over the target masks, with the same point coordinates. -/
theorem sampledT (m : (ℓ : Loc nD τ sig) → Buf (Elt F) ℓ) (c : Dev nD) :
    GenP.V m c main_v381
      = Cert.ReferenceIdeal.ReadP.val_main_v381 (F := F) (m ((c.tc : Thread nD τ).loc main_arg3))
          (m ((c.tc : Thread nD τ).loc main_arg4)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32,
    List.flatten_cons, List.flatten_nil, List.append_nil, List.cons_append, List.nil_append]
  after_results_simp
  rfl

end Cert.KernelIdeal.Chain

end
-- ==== Proof.PreReal.lean ====
/-
  From the precondition to real entries.

  The precondition is the conjunction, over the four float arguments, of "every entry x has |x| < +∞", each
  conjunct printed as a reduction by `and` over all axes of the entrywise comparison of |x| = max x (-x) with the
  word of +∞. Over the extended reals the comparison holds at x exactly when x is neither +∞ nor -∞, that is, when
  x is a real number. A reduction by `and` into a single result that is 1 met only 1s, and a conjunction of words
  that is 1 has both words 1; so the precondition gives, for the query masks, the target masks and the point
  coordinates, that every entry is a real number.
-/
import proofs.«146640_j52948356825308_1_alg».proof.Pre_finite_inputs
import proofs.«146640_j52948356825308_1_alg».proof.Proof.Spec
import Idealize.ShloMosaic.Lib.ReduceAll

noncomputable section

namespace Cert.PreReal

open Idealize.ShloMosaic Idealize.ShloMosaic.ValueIdx Cert.Pre_finite_inputs

/-- The shape of a scalar has exactly one index. -/
instance : Subsingleton S_.Idx := ⟨fun a b => funext fun d => d.elim0⟩

/-- An extended real whose absolute value `max x (-x)` compares below the word of +∞ is a real number: the word
    is `⊤`, and both `⊤` and `⊥` have absolute value `⊤`. -/
theorem real_of_abs_lt_top (x : EReal)
    (hx : FloatOps.cmpf (F := Ideal) (φ := .f32) .olt (FloatOps.hostAbsf (F := Ideal) (φ := .f32) x)
      (Ideal.ofBits .f32 0x7F800000#32) = 1#1) :
    ∃ r : ℝ, x = (r : EReal) := by
  have htop : Ideal.ofBits .f32 0x7F800000#32 = ⊤ := by simp [Ideal.ofBits, Ideal.ieee]
  rw [htop] at hx
  change BitVec.ofBool (decide (max x (-x) < ⊤)) = 1#1 at hx
  induction x using EReal.rec with
  | bot => simp at hx
  | coe r => exact ⟨r, rfl⟩
  | top => simp at hx

/-- Under the precondition every entry of the query masks, of the target masks and of the point coordinates is a
    real number. The precondition's single word is the `and` of four reductions; each reduction that is 1 gives the
    comparison at every index, and the comparison gives the real number. -/
theorem args_real [hP : Cert.Pre_finite_inputs.Facts]
    (a0 : FVec Ideal S4x300x80 .f32) (a1 : FVec Ideal S4x300x256x256 .f32) (a2 : IVec S4x100 32)
    (a3 : FVec Ideal S4x100x256x256 .f32) (a4 : FVec Ideal S4x12544x2 .f32)
    (h : Cert.Pre_finite_inputs.fn (F := Ideal) a0 a1 a2 a3 a4 = (fun _ => 1#1)) :
    Cert.MatchCost.AllReal a1 ∧ Cert.MatchCost.AllReal a3 ∧ Cert.MatchCost.AllReal a4 := by
  have h0 := congrFun h ValueIdx.ix0
  dsimp only [Cert.Pre_finite_inputs.fn, Cert.Pre_finite_inputs.fn_part1] at h0
  obtain ⟨h013, h4⟩ := IntOp.andi_eq_one.1 h0
  obtain ⟨h01, h3⟩ := IntOp.andi_eq_one.1 h013
  obtain ⟨_, h1⟩ := IntOp.andi_eq_one.1 h01
  exact ⟨fun i => real_of_abs_lt_top (a1 i) (Host.reduce_andi_all _ _ _ _ _ h1 i),
    fun i => real_of_abs_lt_top (a3 i) (Host.reduce_andi_all _ _ _ _ _ h3 i),
    fun i => real_of_abs_lt_top (a4 i) (Host.reduce_andi_all _ _ _ _ _ h4 i)⟩

end Cert.PreReal

end
-- ==== Proof.SampleReal.lean ====
import proofs.«146640_j52948356825308_1_alg».proof.Proof.Spec
import proofs.«146640_j52948356825308_1_alg».proof.Proof.RefStages

/-!
  The bilinear point samples of the query masks and of the target masks are arrays of real numbers as soon as the
  masks and the sample points are.

  Every float stage between the arguments and a sampled array is a product, a sum or a difference of two earlier
  stages, the floor of one, a splat of one of the finite constants 256, 1/2 and 1, the conversion of a 0/1 indicator
  to a float, a rearrangement (slice, reshape, broadcast) of one earlier stage, or a gather from a mask array. Each of
  these keeps "every entry is a real number": the reals are closed under product, sum and difference, the floor of a
  real is an integer, the constants are finite, an unsigned integer is a real number, and every entry of a
  rearrangement or of a gather is an entry of its operand. No infinity can enter on the way.
-/

noncomputable section

namespace Cert.ReferenceIdeal.SampleReal

open Cert.ReferenceIdeal Cert.ReferenceIdeal.Gen Cert.ReferenceIdeal.ReadP Idealize.ShloMosaic Idealize.ShloMosaic.TcCoe Idealize.SL.Sem Idealize.ShloMosaic.StableHlo
open Cert.MatchCost (AllReal)

/-! ## Closure of "every entry is a real number" under the operations of the sampling stages -/

section Closure
variable {s t : Shape} {φ : FTy}

/-- An array each of whose entries is some entry of an all-real array is all-real. -/
theorem allReal_of_forall_exists {ι κ : Type} {f : ι → EReal} {a : κ → EReal}
    (h : ∀ i, ∃ j, f i = a j) (ha : AllReal a) : AllReal f := fun i => by
  obtain ⟨j, hj⟩ := h i
  obtain ⟨r, hr⟩ := ha j
  exact ⟨r, hj.trans hr⟩

/-- A product of reals is real. -/
theorem allReal_mulf (a b : FVec Ideal s φ) (ha : AllReal a) (hb : AllReal b) : AllReal (mulf a b) := fun i => by
  obtain ⟨x, hx⟩ := ha i
  obtain ⟨y, hy⟩ := hb i
  exact ⟨x * y, by rw [ValueIdx.mulf_apply, hx, hy, EReal.coe_mul]⟩

/-- A sum of reals is real. -/
theorem allReal_addf (a b : FVec Ideal s φ) (ha : AllReal a) (hb : AllReal b) : AllReal (addf a b) := fun i => by
  obtain ⟨x, hx⟩ := ha i
  obtain ⟨y, hy⟩ := hb i
  exact ⟨x + y, by rw [ValueIdx.addf_apply, hx, hy, EReal.coe_add]⟩

/-- A difference of reals is real. -/
theorem allReal_subf (a b : FVec Ideal s φ) (ha : AllReal a) (hb : AllReal b) : AllReal (subf a b) := fun i => by
  obtain ⟨x, hx⟩ := ha i
  obtain ⟨y, hy⟩ := hb i
  exact ⟨x - y, by rw [ValueIdx.subf_apply, hx, hy, EReal.coe_sub]⟩

/-- The floor of a real `r` is the real `⌊r⌋`. -/
theorem allReal_floor (a : FVec Ideal s φ) (ha : AllReal a) : AllReal (Host.floor a) := fun i => by
  obtain ⟨x, hx⟩ := ha i
  refine ⟨((⌊x⌋ : ℤ) : ℝ), ?_⟩
  show FloatOps.hostUnary .floor (a i) = _
  rw [Ideal.hostUnary_floor_def, hx]
  rfl

/-- An unsigned integer converted to a float is a real number. -/
theorem allReal_uitofp {w : Nat} (v : IVec s w) : AllReal (uitofp (F := Ideal) φ v) := fun i =>
  ⟨((v i).toNat : ℝ), rfl⟩

/-- A gather reads each of its entries from the operand, whatever the start indices are. -/
theorem allReal_gather {si : Shape} {w : Nat} (d : GatherDims s si t) (x : s.Idx → EReal) (idx : IVec si w)
    (hx : AllReal x) : AllReal (Host.gather d x idx) := fun j => hx _

/-- A single-precision word whose exponent field is not all ones denotes a real number. -/
theorem ieee_f32_real (b : BitVec 32) (h : (b.extractLsb' 23 8).toNat ≠ 2 ^ 8 - 1) :
    ∃ r : ℝ, Ideal.ieee 8 23 b = (r : EReal) := by
  unfold Ideal.ieee
  simp only [if_neg h]
  split_ifs <;> exact ⟨_, rfl⟩

/-- A splat of a finite single-precision constant is all-real. -/
theorem allReal_constant (b : BitVec 32) (h : (b.extractLsb' 23 8).toNat ≠ 2 ^ 8 - 1) :
    AllReal (constant (F := Ideal) s .f32 b) := fun _ => ieee_f32_real b h

end Closure

/-- The query masks, the target masks and the sample points: the arrays the sampling stages are functions of. -/
abbrev X1 : Type := (⟨S4x300x256x256, .f32⟩ : BufTy).Contents (Elt Ideal)
abbrev X3 : Type := (⟨S4x100x256x256, .f32⟩ : BufTy).Contents (Elt Ideal)
abbrev X4 : Type := (⟨S4x12544x2, .f32⟩ : BufTy).Contents (Elt Ideal)

/-! ## The samples of the query masks -/

section SampledO

/-! ### The point coordinates in pixel units, their floors and their fractional parts -/

theorem v0_real (x4 : X4) (h4 : AllReal x4) : AllReal (val_main_v0 (F := Ideal) x4) :=
  allReal_of_forall_exists (fun i => ⟨_, val_main_v0_apply x4 i⟩) h4

theorem v1_real (x4 : X4) (h4 : AllReal x4) : AllReal (val_main_v1 (F := Ideal) x4) :=
  allReal_of_forall_exists (fun i => ⟨_, val_main_v1_apply x4 i⟩) (v0_real x4 h4)

theorem v2_real : AllReal (val_main_v2 (F := Ideal)) :=
  allReal_of_forall_exists (fun i => ⟨_, val_main_v2_apply i⟩) (allReal_constant (s := S_) 0x43800000#32 (by decide))

theorem v3_real (x4 : X4) (h4 : AllReal x4) : AllReal (val_main_v3 (F := Ideal) x4) := by
  unfold val_main_v3; exact allReal_mulf _ _ (v1_real x4 h4) v2_real

theorem v4_real : AllReal (val_main_v4 (F := Ideal)) :=
  allReal_of_forall_exists (fun i => ⟨_, val_main_v4_apply i⟩) (allReal_constant (s := S_) 0x3F000000#32 (by decide))

theorem v5_real (x4 : X4) (h4 : AllReal x4) : AllReal (val_main_v5 (F := Ideal) x4) := by
  unfold val_main_v5; exact allReal_subf _ _ (v3_real x4 h4) v4_real

theorem v6_real (x4 : X4) (h4 : AllReal x4) : AllReal (val_main_v6 (F := Ideal) x4) :=
  allReal_of_forall_exists (fun i => ⟨_, val_main_v6_apply x4 i⟩) h4

theorem v7_real (x4 : X4) (h4 : AllReal x4) : AllReal (val_main_v7 (F := Ideal) x4) :=
  allReal_of_forall_exists (fun i => ⟨_, val_main_v7_apply x4 i⟩) (v6_real x4 h4)

theorem v8_real : AllReal (val_main_v8 (F := Ideal)) :=
  allReal_of_forall_exists (fun i => ⟨_, val_main_v8_apply i⟩) (allReal_constant (s := S_) 0x43800000#32 (by decide))

theorem v9_real (x4 : X4) (h4 : AllReal x4) : AllReal (val_main_v9 (F := Ideal) x4) := by
  unfold val_main_v9; exact allReal_mulf _ _ (v7_real x4 h4) v8_real

theorem v10_real : AllReal (val_main_v10 (F := Ideal)) :=
  allReal_of_forall_exists (fun i => ⟨_, val_main_v10_apply i⟩) (allReal_constant (s := S_) 0x3F000000#32 (by decide))

theorem v11_real (x4 : X4) (h4 : AllReal x4) : AllReal (val_main_v11 (F := Ideal) x4) := by
  unfold val_main_v11; exact allReal_subf _ _ (v9_real x4 h4) v10_real

theorem v12_real (x4 : X4) (h4 : AllReal x4) : AllReal (val_main_v12 (F := Ideal) x4) := by
  unfold val_main_v12; exact allReal_floor _ (v5_real x4 h4)

theorem v13_real (x4 : X4) (h4 : AllReal x4) : AllReal (val_main_v13 (F := Ideal) x4) := by
  unfold val_main_v13; exact allReal_floor _ (v11_real x4 h4)

theorem v14_real (x4 : X4) (h4 : AllReal x4) : AllReal (val_main_v14 (F := Ideal) x4) := by
  unfold val_main_v14; exact allReal_subf _ _ (v5_real x4 h4) (v12_real x4 h4)

theorem v15_real (x4 : X4) (h4 : AllReal x4) : AllReal (val_main_v15 (F := Ideal) x4) := by
  unfold val_main_v15; exact allReal_subf _ _ (v11_real x4 h4) (v13_real x4 h4)

/-! ### The four corner values, each masked by its in-range indicator -/

theorem v31_real (x4 : X4) : AllReal (val_main_v31 (F := Ideal) x4) := by
  unfold val_main_v31; exact allReal_uitofp _

theorem v45_real (x1 : X1) (x4 : X4) (h1 : AllReal x1) : AllReal (val_main_v45 (F := Ideal) x1 x4) := by
  unfold val_main_v45; exact allReal_gather _ _ _ h1

theorem v46_real (x4 : X4) : AllReal (val_main_v46 (F := Ideal) x4) :=
  allReal_of_forall_exists (fun i => ⟨_, val_main_v46_apply x4 i⟩) (v31_real x4)

theorem v47_real (x4 : X4) : AllReal (val_main_v47 (F := Ideal) x4) :=
  allReal_of_forall_exists (fun i => ⟨_, val_main_v47_apply x4 i⟩) (v46_real x4)

theorem v48_real (x1 : X1) (x4 : X4) (h1 : AllReal x1) : AllReal (val_main_v48 (F := Ideal) x1 x4) := by
  unfold val_main_v48; exact allReal_mulf _ _ (v45_real x1 x4 h1) (v47_real x4)

theorem v66_real (x4 : X4) : AllReal (val_main_v66 (F := Ideal) x4) := by
  unfold val_main_v66; exact allReal_uitofp _

theorem v80_real (x1 : X1) (x4 : X4) (h1 : AllReal x1) : AllReal (val_main_v80 (F := Ideal) x1 x4) := by
  unfold val_main_v80; exact allReal_gather _ _ _ h1

theorem v81_real (x4 : X4) : AllReal (val_main_v81 (F := Ideal) x4) :=
  allReal_of_forall_exists (fun i => ⟨_, val_main_v81_apply x4 i⟩) (v66_real x4)

theorem v82_real (x4 : X4) : AllReal (val_main_v82 (F := Ideal) x4) :=
  allReal_of_forall_exists (fun i => ⟨_, val_main_v82_apply x4 i⟩) (v81_real x4)

theorem v83_real (x1 : X1) (x4 : X4) (h1 : AllReal x1) : AllReal (val_main_v83 (F := Ideal) x1 x4) := by
  unfold val_main_v83; exact allReal_mulf _ _ (v80_real x1 x4 h1) (v82_real x4)

theorem v101_real (x4 : X4) : AllReal (val_main_v101 (F := Ideal) x4) := by
  unfold val_main_v101; exact allReal_uitofp _

theorem v115_real (x1 : X1) (x4 : X4) (h1 : AllReal x1) : AllReal (val_main_v115 (F := Ideal) x1 x4) := by
  unfold val_main_v115; exact allReal_gather _ _ _ h1

theorem v116_real (x4 : X4) : AllReal (val_main_v116 (F := Ideal) x4) :=
  allReal_of_forall_exists (fun i => ⟨_, val_main_v116_apply x4 i⟩) (v101_real x4)

theorem v117_real (x4 : X4) : AllReal (val_main_v117 (F := Ideal) x4) :=
  allReal_of_forall_exists (fun i => ⟨_, val_main_v117_apply x4 i⟩) (v116_real x4)

theorem v118_real (x1 : X1) (x4 : X4) (h1 : AllReal x1) : AllReal (val_main_v118 (F := Ideal) x1 x4) := by
  unfold val_main_v118; exact allReal_mulf _ _ (v115_real x1 x4 h1) (v117_real x4)

theorem v138_real (x4 : X4) : AllReal (val_main_v138 (F := Ideal) x4) := by
  unfold val_main_v138; exact allReal_uitofp _

theorem v152_real (x1 : X1) (x4 : X4) (h1 : AllReal x1) : AllReal (val_main_v152 (F := Ideal) x1 x4) := by
  unfold val_main_v152; exact allReal_gather _ _ _ h1

theorem v153_real (x4 : X4) : AllReal (val_main_v153 (F := Ideal) x4) :=
  allReal_of_forall_exists (fun i => ⟨_, val_main_v153_apply x4 i⟩) (v138_real x4)

theorem v154_real (x4 : X4) : AllReal (val_main_v154 (F := Ideal) x4) :=
  allReal_of_forall_exists (fun i => ⟨_, val_main_v154_apply x4 i⟩) (v153_real x4)

theorem v155_real (x1 : X1) (x4 : X4) (h1 : AllReal x1) : AllReal (val_main_v155 (F := Ideal) x1 x4) := by
  unfold val_main_v155; exact allReal_mulf _ _ (v152_real x1 x4 h1) (v154_real x4)

/-! ### The bilinear weights and the weighted sum of the four corners -/

theorem v156_real : AllReal (val_main_v156 (F := Ideal)) :=
  allReal_of_forall_exists (fun i => ⟨_, val_main_v156_apply i⟩) (allReal_constant (s := S_) 0x3F800000#32 (by decide))

theorem v157_real (x4 : X4) (h4 : AllReal x4) : AllReal (val_main_v157 (F := Ideal) x4) := by
  unfold val_main_v157; exact allReal_subf _ _ v156_real (v14_real x4 h4)

theorem v158_real (x4 : X4) (h4 : AllReal x4) : AllReal (val_main_v158 (F := Ideal) x4) :=
  allReal_of_forall_exists (fun i => ⟨_, val_main_v158_apply x4 i⟩) (v157_real x4 h4)

theorem v159_real (x4 : X4) (h4 : AllReal x4) : AllReal (val_main_v159 (F := Ideal) x4) :=
  allReal_of_forall_exists (fun i => ⟨_, val_main_v159_apply x4 i⟩) (v158_real x4 h4)

theorem v160_real (x1 : X1) (x4 : X4) (h1 : AllReal x1) (h4 : AllReal x4) :
    AllReal (val_main_v160 (F := Ideal) x1 x4) := by
  unfold val_main_v160; exact allReal_mulf _ _ (v48_real x1 x4 h1) (v159_real x4 h4)

theorem v161_real : AllReal (val_main_v161 (F := Ideal)) :=
  allReal_of_forall_exists (fun i => ⟨_, val_main_v161_apply i⟩) (allReal_constant (s := S_) 0x3F800000#32 (by decide))

theorem v162_real (x4 : X4) (h4 : AllReal x4) : AllReal (val_main_v162 (F := Ideal) x4) := by
  unfold val_main_v162; exact allReal_subf _ _ v161_real (v15_real x4 h4)

theorem v163_real (x4 : X4) (h4 : AllReal x4) : AllReal (val_main_v163 (F := Ideal) x4) :=
  allReal_of_forall_exists (fun i => ⟨_, val_main_v163_apply x4 i⟩) (v162_real x4 h4)

theorem v164_real (x4 : X4) (h4 : AllReal x4) : AllReal (val_main_v164 (F := Ideal) x4) :=
  allReal_of_forall_exists (fun i => ⟨_, val_main_v164_apply x4 i⟩) (v163_real x4 h4)

theorem v165_real (x1 : X1) (x4 : X4) (h1 : AllReal x1) (h4 : AllReal x4) :
    AllReal (val_main_v165 (F := Ideal) x1 x4) := by
  unfold val_main_v165; exact allReal_mulf _ _ (v160_real x1 x4 h1 h4) (v164_real x4 h4)

theorem v166_real (x4 : X4) (h4 : AllReal x4) : AllReal (val_main_v166 (F := Ideal) x4) :=
  allReal_of_forall_exists (fun i => ⟨_, val_main_v166_apply x4 i⟩) (v14_real x4 h4)

theorem v167_real (x4 : X4) (h4 : AllReal x4) : AllReal (val_main_v167 (F := Ideal) x4) :=
  allReal_of_forall_exists (fun i => ⟨_, val_main_v167_apply x4 i⟩) (v166_real x4 h4)

theorem v168_real (x1 : X1) (x4 : X4) (h1 : AllReal x1) (h4 : AllReal x4) :
    AllReal (val_main_v168 (F := Ideal) x1 x4) := by
  unfold val_main_v168; exact allReal_mulf _ _ (v83_real x1 x4 h1) (v167_real x4 h4)

theorem v169_real : AllReal (val_main_v169 (F := Ideal)) :=
  allReal_of_forall_exists (fun i => ⟨_, val_main_v169_apply i⟩) (allReal_constant (s := S_) 0x3F800000#32 (by decide))

theorem v170_real (x4 : X4) (h4 : AllReal x4) : AllReal (val_main_v170 (F := Ideal) x4) := by
  unfold val_main_v170; exact allReal_subf _ _ v169_real (v15_real x4 h4)

theorem v171_real (x4 : X4) (h4 : AllReal x4) : AllReal (val_main_v171 (F := Ideal) x4) :=
  allReal_of_forall_exists (fun i => ⟨_, val_main_v171_apply x4 i⟩) (v170_real x4 h4)

theorem v172_real (x4 : X4) (h4 : AllReal x4) : AllReal (val_main_v172 (F := Ideal) x4) :=
  allReal_of_forall_exists (fun i => ⟨_, val_main_v172_apply x4 i⟩) (v171_real x4 h4)

theorem v173_real (x1 : X1) (x4 : X4) (h1 : AllReal x1) (h4 : AllReal x4) :
    AllReal (val_main_v173 (F := Ideal) x1 x4) := by
  unfold val_main_v173; exact allReal_mulf _ _ (v168_real x1 x4 h1 h4) (v172_real x4 h4)

theorem v174_real (x1 : X1) (x4 : X4) (h1 : AllReal x1) (h4 : AllReal x4) :
    AllReal (val_main_v174 (F := Ideal) x1 x4) := by
  unfold val_main_v174; exact allReal_addf _ _ (v165_real x1 x4 h1 h4) (v173_real x1 x4 h1 h4)

theorem v175_real : AllReal (val_main_v175 (F := Ideal)) :=
  allReal_of_forall_exists (fun i => ⟨_, val_main_v175_apply i⟩) (allReal_constant (s := S_) 0x3F800000#32 (by decide))

theorem v176_real (x4 : X4) (h4 : AllReal x4) : AllReal (val_main_v176 (F := Ideal) x4) := by
  unfold val_main_v176; exact allReal_subf _ _ v175_real (v14_real x4 h4)

theorem v177_real (x4 : X4) (h4 : AllReal x4) : AllReal (val_main_v177 (F := Ideal) x4) :=
  allReal_of_forall_exists (fun i => ⟨_, val_main_v177_apply x4 i⟩) (v176_real x4 h4)

theorem v178_real (x4 : X4) (h4 : AllReal x4) : AllReal (val_main_v178 (F := Ideal) x4) :=
  allReal_of_forall_exists (fun i => ⟨_, val_main_v178_apply x4 i⟩) (v177_real x4 h4)

theorem v179_real (x1 : X1) (x4 : X4) (h1 : AllReal x1) (h4 : AllReal x4) :
    AllReal (val_main_v179 (F := Ideal) x1 x4) := by
  unfold val_main_v179; exact allReal_mulf _ _ (v118_real x1 x4 h1) (v178_real x4 h4)

theorem v180_real (x4 : X4) (h4 : AllReal x4) : AllReal (val_main_v180 (F := Ideal) x4) :=
  allReal_of_forall_exists (fun i => ⟨_, val_main_v180_apply x4 i⟩) (v15_real x4 h4)

theorem v181_real (x4 : X4) (h4 : AllReal x4) : AllReal (val_main_v181 (F := Ideal) x4) :=
  allReal_of_forall_exists (fun i => ⟨_, val_main_v181_apply x4 i⟩) (v180_real x4 h4)

theorem v182_real (x1 : X1) (x4 : X4) (h1 : AllReal x1) (h4 : AllReal x4) :
    AllReal (val_main_v182 (F := Ideal) x1 x4) := by
  unfold val_main_v182; exact allReal_mulf _ _ (v179_real x1 x4 h1 h4) (v181_real x4 h4)

theorem v183_real (x1 : X1) (x4 : X4) (h1 : AllReal x1) (h4 : AllReal x4) :
    AllReal (val_main_v183 (F := Ideal) x1 x4) := by
  unfold val_main_v183; exact allReal_addf _ _ (v174_real x1 x4 h1 h4) (v182_real x1 x4 h1 h4)

theorem v184_real (x4 : X4) (h4 : AllReal x4) : AllReal (val_main_v184 (F := Ideal) x4) :=
  allReal_of_forall_exists (fun i => ⟨_, val_main_v184_apply x4 i⟩) (v14_real x4 h4)

theorem v185_real (x4 : X4) (h4 : AllReal x4) : AllReal (val_main_v185 (F := Ideal) x4) :=
  allReal_of_forall_exists (fun i => ⟨_, val_main_v185_apply x4 i⟩) (v184_real x4 h4)

theorem v186_real (x1 : X1) (x4 : X4) (h1 : AllReal x1) (h4 : AllReal x4) :
    AllReal (val_main_v186 (F := Ideal) x1 x4) := by
  unfold val_main_v186; exact allReal_mulf _ _ (v155_real x1 x4 h1) (v185_real x4 h4)

theorem v187_real (x4 : X4) (h4 : AllReal x4) : AllReal (val_main_v187 (F := Ideal) x4) :=
  allReal_of_forall_exists (fun i => ⟨_, val_main_v187_apply x4 i⟩) (v15_real x4 h4)

theorem v188_real (x4 : X4) (h4 : AllReal x4) : AllReal (val_main_v188 (F := Ideal) x4) :=
  allReal_of_forall_exists (fun i => ⟨_, val_main_v188_apply x4 i⟩) (v187_real x4 h4)

theorem v189_real (x1 : X1) (x4 : X4) (h1 : AllReal x1) (h4 : AllReal x4) :
    AllReal (val_main_v189 (F := Ideal) x1 x4) := by
  unfold val_main_v189; exact allReal_mulf _ _ (v186_real x1 x4 h1 h4) (v188_real x4 h4)

end SampledO

/-- The point samples of real query masks at real points are real numbers. -/
theorem sampledO_real (x1 : (⟨S4x300x256x256, .f32⟩ : BufTy).Contents (Elt Ideal))
    (x4 : (⟨S4x12544x2, .f32⟩ : BufTy).Contents (Elt Ideal))
    (h1 : Cert.MatchCost.AllReal x1) (h4 : Cert.MatchCost.AllReal x4) :
    Cert.MatchCost.AllReal (ReadP.val_main_v190 (F := Ideal) x1 x4) := by
  unfold val_main_v190; exact allReal_addf _ _ (v183_real x1 x4 h1 h4) (v189_real x1 x4 h1 h4)

/-! ## The samples of the target masks -/

section SampledT

/-! ### The point coordinates in pixel units, their floors and their fractional parts -/

theorem v191_real (x4 : X4) (h4 : AllReal x4) : AllReal (val_main_v191 (F := Ideal) x4) :=
  allReal_of_forall_exists (fun i => ⟨_, val_main_v191_apply x4 i⟩) h4

theorem v192_real (x4 : X4) (h4 : AllReal x4) : AllReal (val_main_v192 (F := Ideal) x4) :=
  allReal_of_forall_exists (fun i => ⟨_, val_main_v192_apply x4 i⟩) (v191_real x4 h4)

theorem v193_real : AllReal (val_main_v193 (F := Ideal)) :=
  allReal_of_forall_exists (fun i => ⟨_, val_main_v193_apply i⟩) (allReal_constant (s := S_) 0x43800000#32 (by decide))

theorem v194_real (x4 : X4) (h4 : AllReal x4) : AllReal (val_main_v194 (F := Ideal) x4) := by
  unfold val_main_v194; exact allReal_mulf _ _ (v192_real x4 h4) v193_real

theorem v195_real : AllReal (val_main_v195 (F := Ideal)) :=
  allReal_of_forall_exists (fun i => ⟨_, val_main_v195_apply i⟩) (allReal_constant (s := S_) 0x3F000000#32 (by decide))

theorem v196_real (x4 : X4) (h4 : AllReal x4) : AllReal (val_main_v196 (F := Ideal) x4) := by
  unfold val_main_v196; exact allReal_subf _ _ (v194_real x4 h4) v195_real

theorem v197_real (x4 : X4) (h4 : AllReal x4) : AllReal (val_main_v197 (F := Ideal) x4) :=
  allReal_of_forall_exists (fun i => ⟨_, val_main_v197_apply x4 i⟩) h4

theorem v198_real (x4 : X4) (h4 : AllReal x4) : AllReal (val_main_v198 (F := Ideal) x4) :=
  allReal_of_forall_exists (fun i => ⟨_, val_main_v198_apply x4 i⟩) (v197_real x4 h4)

theorem v199_real : AllReal (val_main_v199 (F := Ideal)) :=
  allReal_of_forall_exists (fun i => ⟨_, val_main_v199_apply i⟩) (allReal_constant (s := S_) 0x43800000#32 (by decide))

theorem v200_real (x4 : X4) (h4 : AllReal x4) : AllReal (val_main_v200 (F := Ideal) x4) := by
  unfold val_main_v200; exact allReal_mulf _ _ (v198_real x4 h4) v199_real

theorem v201_real : AllReal (val_main_v201 (F := Ideal)) :=
  allReal_of_forall_exists (fun i => ⟨_, val_main_v201_apply i⟩) (allReal_constant (s := S_) 0x3F000000#32 (by decide))

theorem v202_real (x4 : X4) (h4 : AllReal x4) : AllReal (val_main_v202 (F := Ideal) x4) := by
  unfold val_main_v202; exact allReal_subf _ _ (v200_real x4 h4) v201_real

theorem v203_real (x4 : X4) (h4 : AllReal x4) : AllReal (val_main_v203 (F := Ideal) x4) := by
  unfold val_main_v203; exact allReal_floor _ (v196_real x4 h4)

theorem v204_real (x4 : X4) (h4 : AllReal x4) : AllReal (val_main_v204 (F := Ideal) x4) := by
  unfold val_main_v204; exact allReal_floor _ (v202_real x4 h4)

theorem v205_real (x4 : X4) (h4 : AllReal x4) : AllReal (val_main_v205 (F := Ideal) x4) := by
  unfold val_main_v205; exact allReal_subf _ _ (v196_real x4 h4) (v203_real x4 h4)

theorem v206_real (x4 : X4) (h4 : AllReal x4) : AllReal (val_main_v206 (F := Ideal) x4) := by
  unfold val_main_v206; exact allReal_subf _ _ (v202_real x4 h4) (v204_real x4 h4)

/-! ### The four corner values, each masked by its in-range indicator -/

theorem v222_real (x4 : X4) : AllReal (val_main_v222 (F := Ideal) x4) := by
  unfold val_main_v222; exact allReal_uitofp _

theorem v236_real (x3 : X3) (x4 : X4) (h3 : AllReal x3) : AllReal (val_main_v236 (F := Ideal) x3 x4) := by
  unfold val_main_v236; exact allReal_gather _ _ _ h3

theorem v237_real (x4 : X4) : AllReal (val_main_v237 (F := Ideal) x4) :=
  allReal_of_forall_exists (fun i => ⟨_, val_main_v237_apply x4 i⟩) (v222_real x4)

theorem v238_real (x4 : X4) : AllReal (val_main_v238 (F := Ideal) x4) :=
  allReal_of_forall_exists (fun i => ⟨_, val_main_v238_apply x4 i⟩) (v237_real x4)

theorem v239_real (x3 : X3) (x4 : X4) (h3 : AllReal x3) : AllReal (val_main_v239 (F := Ideal) x3 x4) := by
  unfold val_main_v239; exact allReal_mulf _ _ (v236_real x3 x4 h3) (v238_real x4)

theorem v257_real (x4 : X4) : AllReal (val_main_v257 (F := Ideal) x4) := by
  unfold val_main_v257; exact allReal_uitofp _

theorem v271_real (x3 : X3) (x4 : X4) (h3 : AllReal x3) : AllReal (val_main_v271 (F := Ideal) x3 x4) := by
  unfold val_main_v271; exact allReal_gather _ _ _ h3

theorem v272_real (x4 : X4) : AllReal (val_main_v272 (F := Ideal) x4) :=
  allReal_of_forall_exists (fun i => ⟨_, val_main_v272_apply x4 i⟩) (v257_real x4)

theorem v273_real (x4 : X4) : AllReal (val_main_v273 (F := Ideal) x4) :=
  allReal_of_forall_exists (fun i => ⟨_, val_main_v273_apply x4 i⟩) (v272_real x4)

theorem v274_real (x3 : X3) (x4 : X4) (h3 : AllReal x3) : AllReal (val_main_v274 (F := Ideal) x3 x4) := by
  unfold val_main_v274; exact allReal_mulf _ _ (v271_real x3 x4 h3) (v273_real x4)

theorem v292_real (x4 : X4) : AllReal (val_main_v292 (F := Ideal) x4) := by
  unfold val_main_v292; exact allReal_uitofp _

theorem v306_real (x3 : X3) (x4 : X4) (h3 : AllReal x3) : AllReal (val_main_v306 (F := Ideal) x3 x4) := by
  unfold val_main_v306; exact allReal_gather _ _ _ h3

theorem v307_real (x4 : X4) : AllReal (val_main_v307 (F := Ideal) x4) :=
  allReal_of_forall_exists (fun i => ⟨_, val_main_v307_apply x4 i⟩) (v292_real x4)

theorem v308_real (x4 : X4) : AllReal (val_main_v308 (F := Ideal) x4) :=
  allReal_of_forall_exists (fun i => ⟨_, val_main_v308_apply x4 i⟩) (v307_real x4)

theorem v309_real (x3 : X3) (x4 : X4) (h3 : AllReal x3) : AllReal (val_main_v309 (F := Ideal) x3 x4) := by
  unfold val_main_v309; exact allReal_mulf _ _ (v306_real x3 x4 h3) (v308_real x4)

theorem v329_real (x4 : X4) : AllReal (val_main_v329 (F := Ideal) x4) := by
  unfold val_main_v329; exact allReal_uitofp _

theorem v343_real (x3 : X3) (x4 : X4) (h3 : AllReal x3) : AllReal (val_main_v343 (F := Ideal) x3 x4) := by
  unfold val_main_v343; exact allReal_gather _ _ _ h3

theorem v344_real (x4 : X4) : AllReal (val_main_v344 (F := Ideal) x4) :=
  allReal_of_forall_exists (fun i => ⟨_, val_main_v344_apply x4 i⟩) (v329_real x4)

theorem v345_real (x4 : X4) : AllReal (val_main_v345 (F := Ideal) x4) :=
  allReal_of_forall_exists (fun i => ⟨_, val_main_v345_apply x4 i⟩) (v344_real x4)

theorem v346_real (x3 : X3) (x4 : X4) (h3 : AllReal x3) : AllReal (val_main_v346 (F := Ideal) x3 x4) := by
  unfold val_main_v346; exact allReal_mulf _ _ (v343_real x3 x4 h3) (v345_real x4)

/-! ### The bilinear weights and the weighted sum of the four corners -/

theorem v347_real : AllReal (val_main_v347 (F := Ideal)) :=
  allReal_of_forall_exists (fun i => ⟨_, val_main_v347_apply i⟩) (allReal_constant (s := S_) 0x3F800000#32 (by decide))

theorem v348_real (x4 : X4) (h4 : AllReal x4) : AllReal (val_main_v348 (F := Ideal) x4) := by
  unfold val_main_v348; exact allReal_subf _ _ v347_real (v205_real x4 h4)

theorem v349_real (x4 : X4) (h4 : AllReal x4) : AllReal (val_main_v349 (F := Ideal) x4) :=
  allReal_of_forall_exists (fun i => ⟨_, val_main_v349_apply x4 i⟩) (v348_real x4 h4)

theorem v350_real (x4 : X4) (h4 : AllReal x4) : AllReal (val_main_v350 (F := Ideal) x4) :=
  allReal_of_forall_exists (fun i => ⟨_, val_main_v350_apply x4 i⟩) (v349_real x4 h4)

theorem v351_real (x3 : X3) (x4 : X4) (h3 : AllReal x3) (h4 : AllReal x4) :
    AllReal (val_main_v351 (F := Ideal) x3 x4) := by
  unfold val_main_v351; exact allReal_mulf _ _ (v239_real x3 x4 h3) (v350_real x4 h4)

theorem v352_real : AllReal (val_main_v352 (F := Ideal)) :=
  allReal_of_forall_exists (fun i => ⟨_, val_main_v352_apply i⟩) (allReal_constant (s := S_) 0x3F800000#32 (by decide))

theorem v353_real (x4 : X4) (h4 : AllReal x4) : AllReal (val_main_v353 (F := Ideal) x4) := by
  unfold val_main_v353; exact allReal_subf _ _ v352_real (v206_real x4 h4)

theorem v354_real (x4 : X4) (h4 : AllReal x4) : AllReal (val_main_v354 (F := Ideal) x4) :=
  allReal_of_forall_exists (fun i => ⟨_, val_main_v354_apply x4 i⟩) (v353_real x4 h4)

theorem v355_real (x4 : X4) (h4 : AllReal x4) : AllReal (val_main_v355 (F := Ideal) x4) :=
  allReal_of_forall_exists (fun i => ⟨_, val_main_v355_apply x4 i⟩) (v354_real x4 h4)

theorem v356_real (x3 : X3) (x4 : X4) (h3 : AllReal x3) (h4 : AllReal x4) :
    AllReal (val_main_v356 (F := Ideal) x3 x4) := by
  unfold val_main_v356; exact allReal_mulf _ _ (v351_real x3 x4 h3 h4) (v355_real x4 h4)

theorem v357_real (x4 : X4) (h4 : AllReal x4) : AllReal (val_main_v357 (F := Ideal) x4) :=
  allReal_of_forall_exists (fun i => ⟨_, val_main_v357_apply x4 i⟩) (v205_real x4 h4)

theorem v358_real (x4 : X4) (h4 : AllReal x4) : AllReal (val_main_v358 (F := Ideal) x4) :=
  allReal_of_forall_exists (fun i => ⟨_, val_main_v358_apply x4 i⟩) (v357_real x4 h4)

theorem v359_real (x3 : X3) (x4 : X4) (h3 : AllReal x3) (h4 : AllReal x4) :
    AllReal (val_main_v359 (F := Ideal) x3 x4) := by
  unfold val_main_v359; exact allReal_mulf _ _ (v274_real x3 x4 h3) (v358_real x4 h4)

theorem v360_real : AllReal (val_main_v360 (F := Ideal)) :=
  allReal_of_forall_exists (fun i => ⟨_, val_main_v360_apply i⟩) (allReal_constant (s := S_) 0x3F800000#32 (by decide))

theorem v361_real (x4 : X4) (h4 : AllReal x4) : AllReal (val_main_v361 (F := Ideal) x4) := by
  unfold val_main_v361; exact allReal_subf _ _ v360_real (v206_real x4 h4)

theorem v362_real (x4 : X4) (h4 : AllReal x4) : AllReal (val_main_v362 (F := Ideal) x4) :=
  allReal_of_forall_exists (fun i => ⟨_, val_main_v362_apply x4 i⟩) (v361_real x4 h4)

theorem v363_real (x4 : X4) (h4 : AllReal x4) : AllReal (val_main_v363 (F := Ideal) x4) :=
  allReal_of_forall_exists (fun i => ⟨_, val_main_v363_apply x4 i⟩) (v362_real x4 h4)

theorem v364_real (x3 : X3) (x4 : X4) (h3 : AllReal x3) (h4 : AllReal x4) :
    AllReal (val_main_v364 (F := Ideal) x3 x4) := by
  unfold val_main_v364; exact allReal_mulf _ _ (v359_real x3 x4 h3 h4) (v363_real x4 h4)

theorem v365_real (x3 : X3) (x4 : X4) (h3 : AllReal x3) (h4 : AllReal x4) :
    AllReal (val_main_v365 (F := Ideal) x3 x4) := by
  unfold val_main_v365; exact allReal_addf _ _ (v356_real x3 x4 h3 h4) (v364_real x3 x4 h3 h4)

theorem v366_real : AllReal (val_main_v366 (F := Ideal)) :=
  allReal_of_forall_exists (fun i => ⟨_, val_main_v366_apply i⟩) (allReal_constant (s := S_) 0x3F800000#32 (by decide))

theorem v367_real (x4 : X4) (h4 : AllReal x4) : AllReal (val_main_v367 (F := Ideal) x4) := by
  unfold val_main_v367; exact allReal_subf _ _ v366_real (v205_real x4 h4)

theorem v368_real (x4 : X4) (h4 : AllReal x4) : AllReal (val_main_v368 (F := Ideal) x4) :=
  allReal_of_forall_exists (fun i => ⟨_, val_main_v368_apply x4 i⟩) (v367_real x4 h4)

theorem v369_real (x4 : X4) (h4 : AllReal x4) : AllReal (val_main_v369 (F := Ideal) x4) :=
  allReal_of_forall_exists (fun i => ⟨_, val_main_v369_apply x4 i⟩) (v368_real x4 h4)

theorem v370_real (x3 : X3) (x4 : X4) (h3 : AllReal x3) (h4 : AllReal x4) :
    AllReal (val_main_v370 (F := Ideal) x3 x4) := by
  unfold val_main_v370; exact allReal_mulf _ _ (v309_real x3 x4 h3) (v369_real x4 h4)

theorem v371_real (x4 : X4) (h4 : AllReal x4) : AllReal (val_main_v371 (F := Ideal) x4) :=
  allReal_of_forall_exists (fun i => ⟨_, val_main_v371_apply x4 i⟩) (v206_real x4 h4)

theorem v372_real (x4 : X4) (h4 : AllReal x4) : AllReal (val_main_v372 (F := Ideal) x4) :=
  allReal_of_forall_exists (fun i => ⟨_, val_main_v372_apply x4 i⟩) (v371_real x4 h4)

theorem v373_real (x3 : X3) (x4 : X4) (h3 : AllReal x3) (h4 : AllReal x4) :
    AllReal (val_main_v373 (F := Ideal) x3 x4) := by
  unfold val_main_v373; exact allReal_mulf _ _ (v370_real x3 x4 h3 h4) (v372_real x4 h4)

theorem v374_real (x3 : X3) (x4 : X4) (h3 : AllReal x3) (h4 : AllReal x4) :
    AllReal (val_main_v374 (F := Ideal) x3 x4) := by
  unfold val_main_v374; exact allReal_addf _ _ (v365_real x3 x4 h3 h4) (v373_real x3 x4 h3 h4)

theorem v375_real (x4 : X4) (h4 : AllReal x4) : AllReal (val_main_v375 (F := Ideal) x4) :=
  allReal_of_forall_exists (fun i => ⟨_, val_main_v375_apply x4 i⟩) (v205_real x4 h4)

theorem v376_real (x4 : X4) (h4 : AllReal x4) : AllReal (val_main_v376 (F := Ideal) x4) :=
  allReal_of_forall_exists (fun i => ⟨_, val_main_v376_apply x4 i⟩) (v375_real x4 h4)

theorem v377_real (x3 : X3) (x4 : X4) (h3 : AllReal x3) (h4 : AllReal x4) :
    AllReal (val_main_v377 (F := Ideal) x3 x4) := by
  unfold val_main_v377; exact allReal_mulf _ _ (v346_real x3 x4 h3) (v376_real x4 h4)

theorem v378_real (x4 : X4) (h4 : AllReal x4) : AllReal (val_main_v378 (F := Ideal) x4) :=
  allReal_of_forall_exists (fun i => ⟨_, val_main_v378_apply x4 i⟩) (v206_real x4 h4)

theorem v379_real (x4 : X4) (h4 : AllReal x4) : AllReal (val_main_v379 (F := Ideal) x4) :=
  allReal_of_forall_exists (fun i => ⟨_, val_main_v379_apply x4 i⟩) (v378_real x4 h4)

theorem v380_real (x3 : X3) (x4 : X4) (h3 : AllReal x3) (h4 : AllReal x4) :
    AllReal (val_main_v380 (F := Ideal) x3 x4) := by
  unfold val_main_v380; exact allReal_mulf _ _ (v377_real x3 x4 h3 h4) (v379_real x4 h4)

end SampledT

/-- The point samples of real target masks at real points are real numbers. -/
theorem sampledT_real (x3 : (⟨S4x100x256x256, .f32⟩ : BufTy).Contents (Elt Ideal))
    (x4 : (⟨S4x12544x2, .f32⟩ : BufTy).Contents (Elt Ideal))
    (h3 : Cert.MatchCost.AllReal x3) (h4 : Cert.MatchCost.AllReal x4) :
    Cert.MatchCost.AllReal (ReadP.val_main_v381 (F := Ideal) x3 x4) := by
  unfold val_main_v381; exact allReal_addf _ _ (v374_real x3 x4 h3 h4) (v380_real x3 x4 h3 h4)

end Cert.ReferenceIdeal.SampleReal
-- ==== Proof.RefValue.lean ====
/-
  The plain program's result, cell by cell.

  With O the sampled query logits, T the sampled target values and CC the classification cost, the plain program forms,
  for image b, query q and target t, over the rows o = O[b, q, ·] and s = T[b, t, ·] of 12544 sample points:

    the softplus of -o and of o (the stable form max x 0 + log (1 + e^{-|x - 0|}), whose "x ≠ x" guard never fires
    over the extended reals), contracted against s and against 1 - s: the sums A and B, and the mask cost (A + B) / 12544;
    the logistic function 1 / (1 + e^{-o}), contracted against s: the sum S; its row sum 0 + RS and the row sum 0 + CS of s,
    and the dice cost 1 - (2·S + 1) / (((0 + RS) + (0 + CS)) + 1);
    the result -((5 · mask + 2 · CC) + 5 · dice).

  Each stage is read at an index down to O, T and CC, which stay opaque; the contraction and row indices are the
  coordinate triples (b, q, p) and (b, t, p).
-/
import proofs.«146640_j52948356825308_1_alg».proof.Proof.Spec
import proofs.«146640_j52948356825308_1_alg».proof.Proof.RefStages
import Idealize.ShloMosaic.Lib.ValueIdx
import Idealize.ShloMosaic.PureOps.Ideal.Laws
import Idealize.ShloMosaic.Lib.Pipeline.Value
import Idealize.ShloMosaic.Lib.IdealHost

noncomputable section

open scoped BigOperators

namespace Cert.ReferenceIdeal.RefValue

open Cert.ReferenceIdeal Cert.ReferenceIdeal.ReadP Cert.MatchCost Idealize.ShloMosaic Idealize.ShloMosaic.ValueIdx

variable (x0 : (⟨S4x300x80, .f32⟩ : BufTy).Contents (Elt Ideal))
  (x1 : (⟨S4x300x256x256, .f32⟩ : BufTy).Contents (Elt Ideal))
  (x2 : (⟨S4x100, .i32⟩ : BufTy).Contents (Elt Ideal))
  (x3 : (⟨S4x100x256x256, .f32⟩ : BufTy).Contents (Elt Ideal))
  (x4 : (⟨S4x12544x2, .f32⟩ : BufTy).Contents (Elt Ideal))

/-- An extended real is never different from itself: the comparison gives the zero bit. -/
theorem cmp_une_self (v : EReal) : Ideal.cmp .une v v = 0#1 := by
  simp [Ideal.cmp]

/-- The stable softplus with its guard, at one extended real. -/
theorem softplus_elt (v : EReal) :
    Scalar.select (Ideal.cmp .une (v - 0) (v - 0)) (v + 0)
      (max v 0 + Ideal.log1p (Ideal.exp (-(max (v - 0) (-(v - 0)))))) = sp v := by
  rw [cmp_une_self, select_zero, sub_zero]
  rfl

/-- The softplus of -O at an element. -/
theorem v426_elt (j : S4x300x12544.Idx) :
    val_main_v426 (F := Ideal) x1 x4 j = sp (-(val_main_v190 (F := Ideal) x1 x4 j)) := by
  rw [← softplus_elt]
  simp only [val_main_v426_apply, val_main_call16_v4_apply, val_main_call16_v6_apply, val_main_call16_v11_apply,
    val_main_call16_v1_apply, val_main_call16_v10_apply, val_main_call16_v9_apply, val_main_call16_v8_apply,
    val_main_call16_v7_apply, val_main_call16_v3_apply, val_main_call16_v0_apply, val_main_call16_v2_apply,
    val_main_call16_v5_apply, val_main_call16_cst_apply, val_main_v425_apply,
    Ideal.cmpf_def, Ideal.absf_def, Ideal.addf_def, Ideal.subf_def, Ideal.maximumf_def, Ideal.hostNegf_def,
    Ideal.hostAbsf_def, Ideal.negf_def, Ideal.hostUnary_exp_def, Ideal.hostUnary_log1p_def, Ideal.ofBits_def,
    Ideal.ofBits_zero_f32]

/-- The softplus of O at an element. -/
theorem v427_elt (j : S4x300x12544.Idx) :
    val_main_v427 (F := Ideal) x1 x4 j = sp (val_main_v190 (F := Ideal) x1 x4 j) := by
  rw [← softplus_elt]
  simp only [val_main_v427_apply, val_main_call17_v4_apply, val_main_call17_v6_apply, val_main_call17_v11_apply,
    val_main_call17_v1_apply, val_main_call17_v10_apply, val_main_call17_v9_apply, val_main_call17_v8_apply,
    val_main_call17_v7_apply, val_main_call17_v3_apply, val_main_call17_v0_apply, val_main_call17_v2_apply,
    val_main_call17_v5_apply, val_main_call17_cst_apply,
    Ideal.cmpf_def, Ideal.absf_def, Ideal.addf_def, Ideal.subf_def, Ideal.maximumf_def, Ideal.hostNegf_def,
    Ideal.hostAbsf_def, Ideal.negf_def, Ideal.hostUnary_exp_def, Ideal.hostUnary_log1p_def, Ideal.ofBits_def,
    Ideal.ofBits_zero_f32]

/-- One minus T at an element. -/
theorem v430_elt (j : S4x100x12544.Idx) :
    val_main_v430 (F := Ideal) x3 x4 j = w1 - val_main_v381 (F := Ideal) x3 x4 j := by
  simp only [val_main_v430_apply, val_main_v429_apply, val_main_cst_132_apply, Ideal.subf_def, Ideal.ofBits_def]

/-- The logistic function of O at an element. -/
theorem v440_elt (j : S4x300x12544.Idx) :
    val_main_v440 (F := Ideal) x1 x4 j = sg (val_main_v190 (F := Ideal) x1 x4 j) := by
  simp only [val_main_v440_apply, val_main_v439_apply, val_main_cst_135_apply, val_main_v438_apply, val_main_v437_apply,
    val_main_cst_134_apply, val_main_v436_apply, val_main_v435_apply, Ideal.hostDivf_def, Ideal.addf_def,
    Ideal.hostUnary_exp_def, Ideal.hostNegf_def, Ideal.negf_def, Ideal.ofBits_def, Ideal.ofBits_one_f32]
  rfl

/-- Two index triples with the same three coordinates are equal. -/
local macro "idx3" : tactic =>
  `(tactic| exact funext fun a => Fin.ext (by match a with | ⟨0, _⟩ => rfl | ⟨1, _⟩ => rfl | ⟨2, _⟩ => rfl))

/-- A: the softplus of -o against s. -/
theorem v428_elt (b : Fin 4) (q : Fin 300) (t : Fin 100) :
    val_main_v428 (F := Ideal) x1 x3 x4 (ix3 b q t)
      = sumA (rowO (val_main_v190 (F := Ideal) x1 x4) b q) (rowT (val_main_v381 (F := Ideal) x3 x4) b t) := by
  rw [val_main_v428_apply]
  unfold sumA
  refine Finset.sum_congr rfl fun p _ => ?_
  rw [v426_elt, (by idx3 : lidx_main_v428 (ix3 b q t) p = ix3 b q p),
    (by idx3 : ridx_main_v428 (ix3 b q t) p = ix3 b t p)]
  rfl

/-- B: the softplus of o against 1 - s. -/
theorem v431_elt (b : Fin 4) (q : Fin 300) (t : Fin 100) :
    val_main_v431 (F := Ideal) x1 x3 x4 (ix3 b q t)
      = sumB (rowO (val_main_v190 (F := Ideal) x1 x4) b q) (rowT (val_main_v381 (F := Ideal) x3 x4) b t) := by
  rw [val_main_v431_apply]
  unfold sumB
  refine Finset.sum_congr rfl fun p _ => ?_
  rw [v427_elt, v430_elt, (by idx3 : lidx_main_v431 (ix3 b q t) p = ix3 b q p),
    (by idx3 : ridx_main_v431 (ix3 b q t) p = ix3 b t p)]
  rfl

/-- S: the logistic function of o against s. -/
theorem v441_elt (b : Fin 4) (q : Fin 300) (t : Fin 100) :
    val_main_v441 (F := Ideal) x1 x3 x4 (ix3 b q t)
      = sumS (rowO (val_main_v190 (F := Ideal) x1 x4) b q) (rowT (val_main_v381 (F := Ideal) x3 x4) b t) := by
  rw [val_main_v441_apply]
  unfold sumS
  refine Finset.sum_congr rfl fun p _ => ?_
  rw [v440_elt, (by idx3 : lidx_main_v441 (ix3 b q t) p = ix3 b q p),
    (by idx3 : ridx_main_v441 (ix3 b q t) p = ix3 b t p)]
  rfl

/-- 0 + RS: the row sum of the logistic function of o, spread over the targets. -/
theorem v448_elt (b : Fin 4) (q : Fin 300) (t : Fin 100) :
    val_main_v448 (F := Ideal) x1 x4 (ix3 b q t) = 0 + sumRS (rowO (val_main_v190 (F := Ideal) x1 x4) b q) := by
  rw [val_main_v448_apply, val_main_v445_apply, val_main_v444_apply, val_main_cst_137_apply, Ideal.ofBits_def,
    Ideal.ofBits_zero_f32]
  unfold sumRS
  refine congrArg (0 + ·) (Finset.sum_congr rfl fun p _ => ?_)
  rw [v440_elt, (by idx3 : idx_main_v444 (idx_main_v445 (idx_main_v448 (ix3 b q t))) p = ix3 b q p)]
  rfl

/-- 0 + CS: the row sum of s, spread over the queries. -/
theorem v449_elt (b : Fin 4) (q : Fin 300) (t : Fin 100) :
    val_main_v449 (F := Ideal) x3 x4 (ix3 b q t) = 0 + sumCS (rowT (val_main_v381 (F := Ideal) x3 x4) b t) := by
  rw [val_main_v449_apply, val_main_v447_apply, val_main_v446_apply, val_main_cst_138_apply, Ideal.ofBits_def,
    Ideal.ofBits_zero_f32]
  unfold sumCS
  refine congrArg (0 + ·) (Finset.sum_congr rfl fun p _ => ?_)
  rw [(by idx3 : idx_main_v446 (idx_main_v447 (idx_main_v449 (ix3 b q t))) p = ix3 b t p)]
  rfl

/-- The plain program's result is the plain cell of the rows of O and T and the classification cost, negated. -/
theorem ref_value :
    val_main_v466 (F := Ideal) x0 x1 x2 x3 x4
      = plainResult (val_main_v190 (F := Ideal) x1 x4) (val_main_v381 (F := Ideal) x3 x4)
          (val_main_v424 (F := Ideal) x0 x2) := by
  funext i
  obtain ⟨b, q, t, rfl⟩ : ∃ (b : Fin 4) (q : Fin 300) (t : Fin 100), i = ix3 b q t := ⟨i 0, i 1, i 2, eq_ix3 i⟩
  simp only [val_main_v466_apply, val_main_v465_apply, val_main_v462_apply, val_main_v459_apply, val_main_v458_apply,
    val_main_cst_142_apply, val_main_v434_apply, val_main_v432_apply, v428_elt, v431_elt, val_main_v433_apply,
    val_main_cst_133_apply, val_main_v461_apply, val_main_v460_apply, val_main_cst_143_apply, val_main_v464_apply,
    val_main_v463_apply, val_main_cst_144_apply, val_main_v457_apply, val_main_v456_apply, val_main_cst_141_apply,
    val_main_v455_apply, val_main_v452_apply, val_main_v443_apply, val_main_v442_apply, val_main_cst_136_apply, v441_elt,
    val_main_v451_apply, val_main_cst_139_apply, val_main_v454_apply, val_main_v450_apply, v448_elt, v449_elt,
    val_main_v453_apply, val_main_cst_140_apply]
  rfl

end Cert.ReferenceIdeal.RefValue

end
-- ==== Proof.lean ====
/-
  The certificate of the matching-cost kernel against its plain reference, over the extended reals.

  Both programs sample the query masks and the target masks at the same points by the same host operations
  (bilinear interpolation: O[b,q,p] and T[b,t,p]) and compute the same classification cost cc[b,q,t]. The kernel
  then accumulates, tile by tile over the 12544 points, the six sums of a cell and combines them into
  5·((A − N + R)/12544) + 5·(1 − (2S + 1)/((RS + CS) + 1)); the host adds 2·cc and negates. The reference forms
  (A + B)/12544 with B = ∑ softplus(o)·(1 − s). Under the precondition every input is finite, so every sampled value is a
  real number, and ∑ x·(1 − y) = ∑ x − ∑ x·y joins the two sides. The word-level kernel differs from its idealization
  by no rewrite, so `preserves` is trivial; the three frames are the programs' runs with the results dropped.
-/
import proofs.«146640_j52948356825308_1_alg».proof.Defs
import proofs.«146640_j52948356825308_1_alg».proof.Proof.Gen.Kernel
import proofs.«146640_j52948356825308_1_alg».proof.Proof.Gen.KernelIdeal
import proofs.«146640_j52948356825308_1_alg».proof.Proof.Gen.ReferenceIdeal
import proofs.«146640_j52948356825308_1_alg».proof.Proof.Gen.Pre_finite_inputs
import proofs.«146640_j52948356825308_1_alg».proof.Proof.PatchedKernel.Frame
import proofs.«146640_j52948356825308_1_alg».proof.Proof.PatchedKernelIdeal.Frame
import proofs.«146640_j52948356825308_1_alg».proof.Proof.RefRun
import proofs.«146640_j52948356825308_1_alg».proof.Proof.RefStages
import proofs.«146640_j52948356825308_1_alg».proof.Proof.CostAlgebra
import proofs.«146640_j52948356825308_1_alg».proof.Proof.KernelTail
import proofs.«146640_j52948356825308_1_alg».proof.Proof.KernelChain
import proofs.«146640_j52948356825308_1_alg».proof.Proof.PreReal
import proofs.«146640_j52948356825308_1_alg».proof.Proof.SampleReal
import proofs.«146640_j52948356825308_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference's run, with the result dropped. -/
theorem frame_referenceIdeal : Cert.frame_ReferenceIdeal := fun m ρ _ =>
  (θ_run (Cert.ReferenceIdeal.defs (F := Ideal)) _ _).mono (fun _ h c => (h c).2) (Cert.ReferenceIdeal.RefRun.ref_run m ρ)

/-- From memories that agree on the arguments the two idealized programs end with the same cost matrix: the kernel's
    fused cells plus twice the classification cost, negated, are the reference's cells, every sampled value being real. -/
theorem algebraic : Cert.algebraic_KernelIdeal_ReferenceIdeal := by
  intro m ρ m' ρ' hpre hagree
  refine ⟨fun c => Cert.MatchCost.fusedResult (Cert.KernelIdeal.GenP.V m c Cert.KernelIdeal.main_v190)
      (Cert.KernelIdeal.GenP.V m c Cert.KernelIdeal.main_v381)
      (Cert.ReferenceIdeal.ReadP.val_main_v424 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))),
    Cert.KernelIdeal.Tail.kernel_run m ρ, ?_⟩
  refine (θ_run (Cert.ReferenceIdeal.defs (F := Ideal)) _ _).mono (fun _ h c => ⟨(h c).1.trans ?_, (h c).2⟩)
    (Cert.ReferenceIdeal.RefRun.ref_run m' ρ')
  obtain ⟨e0, e1, e2, e3, e4⟩ := hagree c
  obtain ⟨h1, h3, h4⟩ := Cert.PreReal.args_real _ _ _ _ _ (hpre c)
  rw [e0, e1, e2, e3, e4, Cert.ReferenceIdeal.RefValue.ref_value,
    ← Cert.KernelIdeal.Chain.sampledO (F := Ideal) m c, ← Cert.KernelIdeal.Chain.sampledT (F := Ideal) m c]
  refine (Cert.MatchCost.result_eq _ _ _ ?_ ?_).symm
  · rw [Cert.KernelIdeal.Chain.sampledO (F := Ideal) m c]
    exact Cert.ReferenceIdeal.SampleReal.sampledO_real _ _ h1 h4
  · rw [Cert.KernelIdeal.Chain.sampledT (F := Ideal) m c]
    exact Cert.ReferenceIdeal.SampleReal.sampledT_real _ _ h3 h4

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
